-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v225)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262112x64 : Shape := ⟨2, ![262112, 64]⟩
abbrev S163550x74 : Shape := ⟨2, ![163550, 74]⟩
abbrev S74x64 : Shape := ⟨2, ![74, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S262112 : Shape := ⟨1, ![262112]⟩
abbrev S163550 : Shape := ⟨1, ![163550]⟩
abbrev S490650 : Shape := ⟨1, ![490650]⟩
abbrev S_ : Shape := ⟨0, ![]⟩
abbrev S4096x96 : Shape := ⟨2, ![4096, 96]⟩
abbrev S262112x1 : Shape := ⟨2, ![262112, 1]⟩
abbrev S262112x2 : Shape := ⟨2, ![262112, 2]⟩
abbrev S4096x64 : Shape := ⟨2, ![4096, 64]⟩
abbrev S163550x1 : Shape := ⟨2, ![163550, 1]⟩
abbrev S163550x2 : Shape := ⟨2, ![163550, 2]⟩

class Facts : Prop where
  bcast_S_S262112x64 : S_.BroadcastsInDim S262112x64 (![] : Fin 0 → Fin S262112x64.rank)
  reducesTo_S262112x64_S_d0_1 : S262112x64.ReducesTo [0, 1] S_
  h_S_ : 0 < S_.numel
  bcast_S_S163550x74 : S_.BroadcastsInDim S163550x74 (![] : Fin 0 → Fin S163550x74.rank)
  reducesTo_S163550x74_S_d0_1 : S163550x74.ReducesTo [0, 1] S_
  bcast_S_S74x64 : S_.BroadcastsInDim S74x64 (![] : Fin 0 → Fin S74x64.rank)
  reducesTo_S74x64_S_d0_1 : S74x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S262112 : S_.BroadcastsInDim S262112 (![] : Fin 0 → Fin S262112.rank)
  reducesTo_S262112_S_d0 : S262112.ReducesTo [0] S_
  bcast_S_S163550 : S_.BroadcastsInDim S163550 (![] : Fin 0 → Fin S163550.rank)
  reducesTo_S163550_S_d0 : S163550.ReducesTo [0] S_
  bcast_S_S4096x96 : S_.BroadcastsInDim S4096x96 (![] : Fin 0 → Fin S4096x96.rank)
  bcast_S262112_S262112x1_0 : S262112.BroadcastsInDim S262112x1 (![0] : Fin 1 → Fin S262112x1.rank)
  concatenates_S262112x1_S262112x1_S262112x2_d1 : Shape.Concatenates [S262112x1, S262112x1] S262112x2 1
  reducesTo_S4096x96_S_d0_1 : S4096x96.ReducesTo [0, 1] S_
  bcast_S_S4096x64 : S_.BroadcastsInDim S4096x64 (![] : Fin 0 → Fin S4096x64.rank)
  bcast_S163550_S163550x1_0 : S163550.BroadcastsInDim S163550x1 (![0] : Fin 1 → Fin S163550x1.rank)
  concatenates_S163550x1_S163550x1_S163550x2_d1 : Shape.Concatenates [S163550x1, S163550x1] S163550x2 1
  reducesTo_S4096x64_S_d0_1 : S4096x64.ReducesTo [0, 1] S_
  scatter_S4096x96_S262112x2_S262112_n_01_01_1_wf : ScatterDims.WF S4096x96 S262112x2 S262112 [] [0, 1] [0, 1] 1
  scatter_S4096x64_S163550x2_S163550_n_01_01_1_wf : ScatterDims.WF S4096x64 S163550x2 S163550 [] [0, 1] [0, 1] 1

variable [Facts]

def scatter_S4096x96_S262112x2_S262112_n_01_01_1 : ScatterDims S4096x96 S262112x2 S262112 where
  updateWindowDims := []
  insertedWindowDims := [0, 1]
  scatterDimsToOperandDims := [0, 1]
  indexVectorDim := 1
  wf := scatter_S4096x96_S262112x2_S262112_n_01_01_1_wf
def scatter_S4096x64_S163550x2_S163550_n_01_01_1 : ScatterDims S4096x64 S163550x2 S163550 where
  updateWindowDims := []
  insertedWindowDims := [0, 1]
  scatterDimsToOperandDims := [0, 1]
  indexVectorDim := 1
  wf := scatter_S4096x64_S163550x2_S163550_n_01_01_1_wf
def fn_part8 {F : FTy → Type} [FloatOps F] (main_arg19 : IVec S163550 32) (main_v126 : IVec S_ 1) (main_v127 : FVec F S4096x64 .f32) (main_v132 : IVec S163550 32) (main_v134 : IVec S163550 1) (main_c_54 : IVec S_ 32) : IVec S_ 1 :=
  let main_v135 : IVec S163550 32 := broadcastInDim S163550 ![] bcast_S_S163550 main_c_54
  let main_v136 : IVec S163550 32 := addi main_arg19 main_v135
  let main_v137 : IVec S163550 32 := select main_v134 main_v136 main_arg19
  let main_v138 : IVec S163550x1 32 := broadcastInDim S163550x1 ![0] bcast_S163550_S163550x1_0 main_v132
  let main_v139 : IVec S163550x1 32 := broadcastInDim S163550x1 ![0] bcast_S163550_S163550x1_0 main_v137
  let main_v140 : IVec S163550x2 32 := (fun a b => concatenate S163550x2 1 [⟨S163550x1, a⟩, ⟨S163550x1, b⟩] concatenates_S163550x1_S163550x1_S163550x2_d1) main_v138 main_v139
  let main_cst_55 : FVec F S_ .f32 := constant S_ .f32 0x3F800000#32
  let main_v141 : FVec F S163550 .f32 := broadcastInDim S163550 ![] bcast_S_S163550 main_cst_55
  let main_v142 : FVec F S4096x64 .f32 := (fun x i u => Host.scatterAdd scatter_S4096x64_S163550x2_S163550_n_01_01_1 x i u) main_v127 main_v140 main_v141
  let main_cst_56 : FVec F S_ .f32 := constant S_ .f32 0x3F800000#32
  let main_v143 : FVec F S4096x64 .f32 := broadcastInDim S4096x64 ![] bcast_S_S4096x64 main_cst_56
  let main_v144 : IVec S4096x64 1 := cmpf .ole main_v142 main_v143
  let main_c_57 : IVec S_ 1 := constantI S_ 1 1#1
  let main_v145 : IVec S_ 1 := (fun x v => Host.reduce IntOp.andi x v reducesTo_S4096x64_S_d0_1 h_S_) main_v144 main_c_57
  let main_v146 : IVec S_ 1 := andi main_v126 main_v145
  main_v146

def fn_part7 {F : FTy → Type} [FloatOps F] (main_arg18 : IVec S163550 32) (main_arg19 : IVec S163550 32) (main_v106 : IVec S_ 1) (main_v107 : FVec F S4096x96 .f32) (main_v117 : IVec S262112 32) (main_v118 : IVec S262112x1 32) : IVec S_ 1 :=
  let main_v119 : IVec S262112x1 32 := broadcastInDim S262112x1 ![0] bcast_S262112_S262112x1_0 main_v117
  let main_v120 : IVec S262112x2 32 := (fun a b => concatenate S262112x2 1 [⟨S262112x1, a⟩, ⟨S262112x1, b⟩] concatenates_S262112x1_S262112x1_S262112x2_d1) main_v118 main_v119
  let main_cst_47 : FVec F S_ .f32 := constant S_ .f32 0x3F800000#32
  let main_v121 : FVec F S262112 .f32 := broadcastInDim S262112 ![] bcast_S_S262112 main_cst_47
  let main_v122 : FVec F S4096x96 .f32 := (fun x i u => Host.scatterAdd scatter_S4096x96_S262112x2_S262112_n_01_01_1 x i u) main_v107 main_v120 main_v121
  let main_cst_48 : FVec F S_ .f32 := constant S_ .f32 0x3F800000#32
  let main_v123 : FVec F S4096x96 .f32 := broadcastInDim S4096x96 ![] bcast_S_S4096x96 main_cst_48
  let main_v124 : IVec S4096x96 1 := cmpf .ole main_v122 main_v123
  let main_c_49 : IVec S_ 1 := constantI S_ 1 1#1
  let main_v125 : IVec S_ 1 := (fun x v => Host.reduce IntOp.andi x v reducesTo_S4096x96_S_d0_1 h_S_) main_v124 main_c_49
  let main_v126 : IVec S_ 1 := andi main_v106 main_v125
  let main_cst_50 : FVec F S_ .f32 := constant S_ .f32 0x00000000#32
  let main_v127 : FVec F S4096x64 .f32 := broadcastInDim S4096x64 ![] bcast_S_S4096x64 main_cst_50
  let main_c_51 : IVec S_ 32 := constantI S_ 32 0#32
  let main_v128 : IVec S163550 32 := broadcastInDim S163550 ![] bcast_S_S163550 main_c_51
  let main_v129 : IVec S163550 1 := cmpi .slt main_arg18 main_v128
  let main_c_52 : IVec S_ 32 := constantI S_ 32 4096#32
  let main_v130 : IVec S163550 32 := broadcastInDim S163550 ![] bcast_S_S163550 main_c_52
  let main_v131 : IVec S163550 32 := addi main_arg18 main_v130
  let main_v132 : IVec S163550 32 := select main_v129 main_v131 main_arg18
  let main_c_53 : IVec S_ 32 := constantI S_ 32 0#32
  let main_v133 : IVec S163550 32 := broadcastInDim S163550 ![] bcast_S_S163550 main_c_53
  let main_v134 : IVec S163550 1 := cmpi .slt main_arg19 main_v133
  let main_c_54 : IVec S_ 32 := constantI S_ 32 64#32
  fn_part8 (F := F) main_arg19 main_v126 main_v127 main_v132 main_v134 main_c_54

def fn_part6 {F : FTy → Type} [FloatOps F] (main_arg16 : IVec S262112 32) (main_arg17 : IVec S262112 32) (main_arg18 : IVec S163550 32) (main_arg19 : IVec S163550 32) (main_v99 : IVec S_ 1) (main_v101 : IVec S163550 1) : IVec S_ 1 :=
  let main_c_40 : IVec S_ 32 := constantI S_ 32 64#32
  let main_v102 : IVec S163550 32 := broadcastInDim S163550 ![] bcast_S_S163550 main_c_40
  let main_v103 : IVec S163550 1 := cmpi .slt main_arg19 main_v102
  let main_v104 : IVec S163550 1 := andi main_v101 main_v103
  let main_c_41 : IVec S_ 1 := constantI S_ 1 1#1
  let main_v105 : IVec S_ 1 := (fun x v => Host.reduce IntOp.andi x v reducesTo_S163550_S_d0 h_S_) main_v104 main_c_41
  let main_v106 : IVec S_ 1 := andi main_v99 main_v105
  let main_cst_42 : FVec F S_ .f32 := constant S_ .f32 0x00000000#32
  let main_v107 : FVec F S4096x96 .f32 := broadcastInDim S4096x96 ![] bcast_S_S4096x96 main_cst_42
  let main_c_43 : IVec S_ 32 := constantI S_ 32 0#32
  let main_v108 : IVec S262112 32 := broadcastInDim S262112 ![] bcast_S_S262112 main_c_43
  let main_v109 : IVec S262112 1 := cmpi .slt main_arg16 main_v108
  let main_c_44 : IVec S_ 32 := constantI S_ 32 4096#32
  let main_v110 : IVec S262112 32 := broadcastInDim S262112 ![] bcast_S_S262112 main_c_44
  let main_v111 : IVec S262112 32 := addi main_arg16 main_v110
  let main_v112 : IVec S262112 32 := select main_v109 main_v111 main_arg16
  let main_c_45 : IVec S_ 32 := constantI S_ 32 0#32
  let main_v113 : IVec S262112 32 := broadcastInDim S262112 ![] bcast_S_S262112 main_c_45
  let main_v114 : IVec S262112 1 := cmpi .slt main_arg17 main_v113
  let main_c_46 : IVec S_ 32 := constantI S_ 32 96#32
  let main_v115 : IVec S262112 32 := broadcastInDim S262112 ![] bcast_S_S262112 main_c_46
  let main_v116 : IVec S262112 32 := addi main_arg17 main_v115
  let main_v117 : IVec S262112 32 := select main_v114 main_v116 main_arg17
  let main_v118 : IVec S262112x1 32 := broadcastInDim S262112x1 ![0] bcast_S262112_S262112x1_0 main_v112
  fn_part7 (F := F) main_arg18 main_arg19 main_v106 main_v107 main_v117 main_v118

def fn_part5 {F : FTy → Type} [FloatOps F] (main_arg16 : IVec S262112 32) (main_arg17 : IVec S262112 32) (main_arg18 : IVec S163550 32) (main_arg19 : IVec S163550 32) (main_v78 : IVec S_ 1) (main_v84 : IVec S_ 1) : IVec S_ 1 :=
  let main_v85 : IVec S_ 1 := andi main_v78 main_v84
  let main_c_33 : IVec S_ 32 := constantI S_ 32 0#32
  let main_v86 : IVec S262112 32 := broadcastInDim S262112 ![] bcast_S_S262112 main_c_33
  let main_v87 : IVec S262112 1 := cmpi .sge main_arg17 main_v86
  let main_c_34 : IVec S_ 32 := constantI S_ 32 96#32
  let main_v88 : IVec S262112 32 := broadcastInDim S262112 ![] bcast_S_S262112 main_c_34
  let main_v89 : IVec S262112 1 := cmpi .slt main_arg17 main_v88
  let main_v90 : IVec S262112 1 := andi main_v87 main_v89
  let main_c_35 : IVec S_ 1 := constantI S_ 1 1#1
  let main_v91 : IVec S_ 1 := (fun x v => Host.reduce IntOp.andi x v reducesTo_S262112_S_d0 h_S_) main_v90 main_c_35
  let main_v92 : IVec S_ 1 := andi main_v85 main_v91
  let main_c_36 : IVec S_ 32 := constantI S_ 32 0#32
  let main_v93 : IVec S163550 32 := broadcastInDim S163550 ![] bcast_S_S163550 main_c_36
  let main_v94 : IVec S163550 1 := cmpi .sge main_arg18 main_v93
  let main_c_37 : IVec S_ 32 := constantI S_ 32 4096#32
  let main_v95 : IVec S163550 32 := broadcastInDim S163550 ![] bcast_S_S163550 main_c_37
  let main_v96 : IVec S163550 1 := cmpi .slt main_arg18 main_v95
  let main_v97 : IVec S163550 1 := andi main_v94 main_v96
  let main_c_38 : IVec S_ 1 := constantI S_ 1 1#1
  let main_v98 : IVec S_ 1 := (fun x v => Host.reduce IntOp.andi x v reducesTo_S163550_S_d0 h_S_) main_v97 main_c_38
  let main_v99 : IVec S_ 1 := andi main_v92 main_v98
  let main_c_39 : IVec S_ 32 := constantI S_ 32 0#32
  let main_v100 : IVec S163550 32 := broadcastInDim S163550 ![] bcast_S_S163550 main_c_39
  let main_v101 : IVec S163550 1 := cmpi .sge main_arg19 main_v100
  fn_part6 (F := F) main_arg16 main_arg17 main_arg18 main_arg19 main_v99 main_v101

def fn_part4 {F : FTy → Type} [FloatOps F] (main_arg14 : FVec F S256x1 .f32) (main_arg15 : FVec F S1 .f32) (main_arg16 : IVec S262112 32) (main_arg17 : IVec S262112 32) (main_arg18 : IVec S163550 32) (main_arg19 : IVec S163550 32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S262112 32 := broadcastInDim S262112 ![] bcast_S_S262112 main_c_30
  let main_v80 : IVec S262112 1 := cmpi .sge main_arg16 main_v79
  let main_c_31 : IVec S_ 32 := constantI S_ 32 4096#32
  let main_v81 : IVec S262112 32 := broadcastInDim S262112 ![] bcast_S_S262112 main_c_31
  let main_v82 : IVec S262112 1 := cmpi .slt main_arg16 main_v81
  let main_v83 : IVec S262112 1 := andi main_v80 main_v82
  let main_c_32 : IVec S_ 1 := constantI S_ 1 1#1
  let main_v84 : IVec S_ 1 := (fun x v => Host.reduce IntOp.andi x v reducesTo_S262112_S_d0 h_S_) main_v83 main_c_32
  fn_part5 (F := F) main_arg16 main_arg17 main_arg18 main_arg19 main_v78 main_v84

def fn_part3 {F : FTy → Type} [FloatOps F] (main_arg11 : FVec F S64 .f32) (main_arg12 : FVec F S256x256 .f32) (main_arg13 : FVec F S256 .f32) (main_arg14 : FVec F S256x1 .f32) (main_arg15 : FVec F S1 .f32) (main_arg16 : IVec S262112 32) (main_arg17 : IVec S262112 32) (main_arg18 : IVec S163550 32) (main_arg19 : IVec S163550 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S64x64 .f32) (main_arg8 : FVec F S64 .f32) (main_arg9 : FVec F S64 .f32) (main_arg10 : FVec F S64 .f32) (main_arg11 : FVec F S64 .f32) (main_arg12 : FVec F S256x256 .f32) (main_arg13 : FVec F S256 .f32) (main_arg14 : FVec F S256x1 .f32) (main_arg15 : FVec F S1 .f32) (main_arg16 : IVec S262112 32) (main_arg17 : IVec S262112 32) (main_arg18 : IVec S163550 32) (main_arg19 : IVec S163550 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S4x64x64 .f32) (main_arg5 : FVec F S4x64 .f32) (main_arg6 : FVec F S64x64 .f32) (main_arg7 : FVec F S64x64 .f32) (main_arg8 : FVec F S64 .f32) (main_arg9 : FVec F S64 .f32) (main_arg10 : FVec F S64 .f32) (main_arg11 : FVec F S64 .f32) (main_arg12 : FVec F S256x256 .f32) (main_arg13 : FVec F S256 .f32) (main_arg14 : FVec F S256x1 .f32) (main_arg15 : FVec F S1 .f32) (main_arg16 : IVec S262112 32) (main_arg17 : IVec S262112 32) (main_arg18 : IVec S163550 32) (main_arg19 : IVec S163550 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S262112x64 .f32) (main_arg1 : FVec F S163550x74 .f32) (main_arg2 : FVec F S74x64 .f32) (main_arg3 : FVec F S64 .f32) (main_arg4 : FVec F S4x64x64 .f32) (main_arg5 : FVec F S4x64 .f32) (main_arg6 : FVec F S64x64 .f32) (main_arg7 : FVec F S64x64 .f32) (main_arg8 : FVec F S64 .f32) (main_arg9 : FVec F S64 .f32) (main_arg10 : FVec F S64 .f32) (main_arg11 : FVec F S64 .f32) (main_arg12 : FVec F S256x256 .f32) (main_arg13 : FVec F S256 .f32) (main_arg14 : FVec F S256x1 .f32) (main_arg15 : FVec F S1 .f32) (main_arg16 : IVec S262112 32) (main_arg17 : IVec S262112 32) (main_arg18 : IVec S163550 32) (main_arg19 : IVec S163550 32) (main_arg20 : IVec S490650 32) (main_arg21 : IVec S490650 32) : IVec S_ 1 :=
  let main_v0 : FVec F S262112x64 .f32 := Host.absf main_arg0
  let main_cst : FVec F S_ .f32 := constant S_ .f32 0x7F800000#32
  let main_v1 : FVec F S262112x64 .f32 := broadcastInDim S262112x64 ![] bcast_S_S262112x64 main_cst
  let main_v2 : IVec S262112x64 1 := cmpf .olt main_v0 main_v1
  let main_c : IVec S_ 1 := constantI S_ 1 1#1
  let main_v3 : IVec S_ 1 := (fun x v => Host.reduce IntOp.andi x v reducesTo_S262112x64_S_d0_1 h_S_) main_v2 main_c
  let main_v4 : FVec F S163550x74 .f32 := Host.absf main_arg1
  let main_cst_0 : FVec F S_ .f32 := constant S_ .f32 0x7F800000#32
  let main_v5 : FVec F S163550x74 .f32 := broadcastInDim S163550x74 ![] bcast_S_S163550x74 main_cst_0
  let main_v6 : IVec S163550x74 1 := cmpf .olt main_v4 main_v5
  let main_c_1 : IVec S_ 1 := constantI S_ 1 1#1
  let main_v7 : IVec S_ 1 := (fun x v => Host.reduce IntOp.andi x v reducesTo_S163550x74_S_d0_1 h_S_) main_v6 main_c_1
  let main_v8 : IVec S_ 1 := andi main_v3 main_v7
  let main_v9 : FVec F S74x64 .f32 := Host.absf main_arg2
  let main_cst_2 : FVec F S_ .f32 := constant S_ .f32 0x7F800000#32
  let main_v10 : FVec F S74x64 .f32 := broadcastInDim S74x64 ![] bcast_S_S74x64 main_cst_2
  let main_v11 : IVec S74x64 1 := cmpf .olt main_v9 main_v10
  let main_c_3 : IVec S_ 1 := constantI S_ 1 1#1
  let main_v12 : IVec S_ 1 := (fun x v => Host.reduce IntOp.andi x v reducesTo_S74x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S262112x64 : Shape := ⟨2, ![262112, 64]⟩
abbrev S163550x74 : Shape := ⟨2, ![163550, 74]⟩
abbrev S74x64 : Shape := ⟨2, ![74, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S262112 : Shape := ⟨1, ![262112]⟩
abbrev S163550 : Shape := ⟨1, ![163550]⟩
abbrev S490650 : Shape := ⟨1, ![490650]⟩
abbrev S163550x64 : Shape := ⟨2, ![163550, 64]⟩
abbrev S1x64 : Shape := ⟨2, ![1, 64]⟩
abbrev S_ : Shape := ⟨0, ![]⟩
abbrev S490650x1 : Shape := ⟨2, ![490650, 1]⟩
abbrev S490650x64 : Shape := ⟨2, ![490650, 64]⟩
abbrev S1x64x64 : Shape := ⟨3, ![1, 64, 64]⟩
abbrev S4096x96x64 : Shape := ⟨3, ![4096, 96, 64]⟩
abbrev S262112x1 : Shape := ⟨2, ![262112, 1]⟩
abbrev S262112x2 : Shape := ⟨2, ![262112, 2]⟩
abbrev S4096x64x64 : Shape := ⟨3, ![4096, 64, 64]⟩
abbrev S163550x1 : Shape := ⟨2, ![163550, 1]⟩
abbrev S163550x2 : Shape := ⟨2, ![163550, 2]⟩
abbrev S1x256 : Shape := ⟨2, ![1, 256]⟩
abbrev S1x1 : Shape := ⟨2, ![1, 1]⟩
abbrev S4096x1 : Shape := ⟨2, ![4096, 1]⟩
abbrev S128x96x64 : Shape := ⟨3, ![128, 96, 64]⟩
abbrev S128x64x64 : Shape := ⟨3, ![128, 64, 64]⟩
abbrev S128x1 : Shape := ⟨2, ![128, 1]⟩
abbrev S128x64x96 : Shape := ⟨3, ![128, 64, 96]⟩
abbrev S128x64 : Shape := ⟨2, ![128, 64]⟩
abbrev S128x128 : Shape := ⟨2, ![128, 128]⟩
abbrev S128x256 : Shape := ⟨2, ![128, 256]⟩

abbrev nBuf : Space → Nat
  | .hbm => 304
  | .vmem => 14
  | .smem => 0
  | _ => 0

abbrev hbmTy0_0 (i : Nat) : BufTy := match i % 128 with
  | 0 => ⟨S262112x64, .f32⟩
  | 1 => ⟨S163550x74, .f32⟩
  | 2 => ⟨S74x64, .f32⟩
  | 3 => ⟨S64, .f32⟩
  | 4 => ⟨S4x64x64, .f32⟩
  | 5 => ⟨S4x64, .f32⟩
  | 6 => ⟨S64x64, .f32⟩
  | 7 => ⟨S64x64, .f32⟩
  | 8 => ⟨S64, .f32⟩
  | 9 => ⟨S64, .f32⟩
  | 10 => ⟨S64, .f32⟩
  | 11 => ⟨S64, .f32⟩
  | 12 => ⟨S256x256, .f32⟩
  | 13 => ⟨S256, .f32⟩
  | 14 => ⟨S256x1, .f32⟩
  | 15 => ⟨S1, .f32⟩
  | 16 => ⟨S262112, .i32⟩
  | 17 => ⟨S262112, .i32⟩
  | 18 => ⟨S163550, .i32⟩
  | 19 => ⟨S163550, .i32⟩
  | 20 => ⟨S490650, .i32⟩
  | 21 => ⟨S490650, .i32⟩
  | 22 => ⟨S163550x64, .f32⟩
  | 23 => ⟨S1x64, .f32⟩
  | 24 => ⟨S163550x64, .f32⟩
  | 25 => ⟨S163550x64, .f32⟩
  | 26 => ⟨S_, .f32⟩
  | 27 => ⟨S490650, .f32⟩
  | 28 => ⟨S_, .f32⟩
  | 29 => ⟨S163550, .f32⟩
  | 30 => ⟨S490650x1, .i32⟩
  | 31 => ⟨S163550, .f32⟩
  | 32 => ⟨S_, .i32⟩
  | 33 => ⟨S490650, .i32⟩
  | 34 => ⟨S490650, .i1⟩
  | 35 => ⟨S_, .i32⟩
  | 36 => ⟨S490650, .i32⟩
  | 37 => ⟨S490650, .i32⟩
  | 38 => ⟨S490650, .i32⟩
  | 39 => ⟨S490650x1, .i32⟩
  | 40 => ⟨S490650, .f32⟩
  | 41 => ⟨S_, .i32⟩
  | 42 => ⟨S490650, .i32⟩
  | 43 => ⟨S490650, .i1⟩
  | 44 => ⟨S_, .i32⟩
  | 45 => ⟨S490650, .i32⟩
  | 46 => ⟨S490650, .i32⟩
  | 47 => ⟨S490650, .i32⟩
  | 48 => ⟨S490650x1, .i32⟩
  | 49 => ⟨S490650, .f32⟩
  | 50 => ⟨S490650, .f32⟩
  | 51 => ⟨S490650, .f32⟩
  | 52 => ⟨S490650x1, .f32⟩
  | 53 => ⟨S_, .i32⟩
  | 54 => ⟨S490650, .i32⟩
  | 55 => ⟨S490650, .i1⟩
  | 56 => ⟨S_, .i32⟩
  | 57 => ⟨S490650, .i32⟩
  | 58 => ⟨S490650, .i32⟩
  | 59 => ⟨S490650, .i32⟩
  | 60 => ⟨S490650x1, .i32⟩
  | 61 => ⟨S490650x64, .f32⟩
  | 62 => ⟨S490650x64, .f32⟩
  | 63 => ⟨S490650x64, .f32⟩
  | 64 => ⟨S_, .f32⟩
  | 65 => ⟨S163550x64, .f32⟩
  | 66 => ⟨S490650x1, .i32⟩
  | 67 => ⟨S163550x64, .f32⟩
  | 68 => ⟨S1x64x64, .f32⟩
  | 69 => ⟨S64x64, .f32⟩
  | 70 => ⟨S163550x64, .f32⟩
  | 71 => ⟨S1x64, .f32⟩
  | 72 => ⟨S64, .f32⟩
  | 73 => ⟨S1x64, .f32⟩
  | 74 => ⟨S163550x64, .f32⟩
  | 75 => ⟨S163550x64, .f32⟩
  | 76 => ⟨S_, .f32⟩
  | 77 => ⟨S163550x64, .f32⟩
  | 78 => ⟨S163550x64, .f32⟩
  | 79 => ⟨S_, .i32⟩
  | 80 => ⟨S490650, .i32⟩
  | 81 => ⟨S490650, .i1⟩
  | 82 => ⟨S_, .i32⟩
  | 83 => ⟨S490650, .i32⟩
  | 84 => ⟨S490650, .i32⟩
  | 85 => ⟨S490650, .i32⟩
  | 86 => ⟨S490650x1, .i32⟩
  | 87 => ⟨S490650x64, .f32⟩
  | 88 => ⟨S490650x64, .f32⟩
  | 89 => ⟨S490650x64, .f32⟩
  | 90 => ⟨S_, .f32⟩
  | 91 => ⟨S163550x64, .f32⟩
  | 92 => ⟨S490650x1, .i32⟩
  | 93 => ⟨S163550x64, .f32⟩
  | 94 => ⟨S1x64x64, .f32⟩
  | 95 => ⟨S64x64, .f32⟩
  | 96 => ⟨S163550x64, .f32⟩
  | 97 => ⟨S1x64, .f32⟩
  | 98 => ⟨S64, .f32⟩
  | 99 => ⟨S1x64, .f32⟩
  | 100 => ⟨S163550x64, .f32⟩
  | 101 => ⟨S163550x64, .f32⟩
  | 102 => ⟨S_, .f32⟩
  | 103 => ⟨S163550x64, .f32⟩
  | 104 => ⟨S163550x64, .f32⟩
  | 105 => ⟨S_, .i32⟩
  | 106 => ⟨S490650, .i32⟩
  | 107 => ⟨S490650, .i1⟩
  | 108 => ⟨S_, .i32⟩
  | 109 => ⟨S490650, .i32⟩
  | 110 => ⟨S490650, .i32⟩
  | 111 => ⟨S490650, .i32⟩
  | 112 => ⟨S490650x1, .i32⟩
  | 113 => ⟨S490650x64, .f32⟩
  | 114 => ⟨S490650x64, .f32⟩
  | 115 => ⟨S490650x64, .f32⟩
  | 116 => ⟨S_, .f32⟩
  | 117 => ⟨S163550x64, .f32⟩
  | 118 => ⟨S490650x1, .i32⟩
  | 119 => ⟨S163550x64, .f32⟩
  | 120 => ⟨S1x64x64, .f32⟩
  | 121 => ⟨S64x64, .f32⟩
  | 122 => ⟨S163550x64, .f32⟩
  | 123 => ⟨S1x64, .f32⟩
  | 124 => ⟨S64, .f32⟩
  | 125 => ⟨S1x64, .f32⟩
  | 126 => ⟨S163550x64, .f32⟩
  | 127 => ⟨S163550x64, .f32⟩
  | _ => ⟨S262112x64, .f32⟩

abbrev hbmTy0_1 (i : Nat) : BufTy := match i % 128 with
  | 0 => ⟨S_, .f32⟩
  | 1 => ⟨S163550x64, .f32⟩
  | 2 => ⟨S163550x64, .f32⟩
  | 3 => ⟨S_, .i32⟩
  | 4 => ⟨S490650, .i32⟩
  | 5 => ⟨S490650, .i1⟩
  | 6 => ⟨S_, .i32⟩
  | 7 => ⟨S490650, .i32⟩
  | 8 => ⟨S490650, .i32⟩
  | 9 => ⟨S490650, .i32⟩
  | 10 => ⟨S490650x1, .i32⟩
  | 11 => ⟨S490650x64, .f32⟩
  | 12 => ⟨S490650x64, .f32⟩
  | 13 => ⟨S490650x64, .f32⟩
  | 14 => ⟨S_, .f32⟩
  | 15 => ⟨S163550x64, .f32⟩
  | 16 => ⟨S490650x1, .i32⟩
  | 17 => ⟨S163550x64, .f32⟩
  | 18 => ⟨S1x64x64, .f32⟩
  | 19 => ⟨S64x64, .f32⟩
  | 20 => ⟨S163550x64, .f32⟩
  | 21 => ⟨S1x64, .f32⟩
  | 22 => ⟨S64, .f32⟩
  | 23 => ⟨S1x64, .f32⟩
  | 24 => ⟨S163550x64, .f32⟩
  | 25 => ⟨S163550x64, .f32⟩
  | 26 => ⟨S_, .f32⟩
  | 27 => ⟨S163550x64, .f32⟩
  | 28 => ⟨S163550x64, .f32⟩
  | 29 => ⟨S262112x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S262112x64, .f32⟩
  | 37 => ⟨S262112x64, .f32⟩
  | 38 => ⟨S262112x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S262112x64, .f32⟩
  | 46 => ⟨S262112x64, .f32⟩
  | 47 => ⟨S_, .f32⟩
  | 48 => ⟨S64, .f32⟩
  | 49 => ⟨S64, .f32⟩
  | 50 => ⟨S64, .f32⟩
  | 51 => ⟨S1x64, .f32⟩
  | 52 => ⟨S262112x64, .f32⟩
  | 53 => ⟨S262112x64, .f32⟩
  | 54 => ⟨S1x64, .f32⟩
  | 55 => ⟨S262112x64, .f32⟩
  | 56 => ⟨S262112x64, .f32⟩
  | 57 => ⟨S1x64, .f32⟩
  | 58 => ⟨S262112x64, .f32⟩
  | 59 => ⟨S262112x64, .f32⟩
  | 60 => ⟨S163550x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S163550x64, .f32⟩
  | 68 => ⟨S163550x64, .f32⟩
  | 69 => ⟨S163550x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S163550x64, .f32⟩
  | 77 => ⟨S163550x64, .f32⟩
  | 78 => ⟨S_, .f32⟩
  | 79 => ⟨S64, .f32⟩
  | 80 => ⟨S64, .f32⟩
  | 81 => ⟨S64, .f32⟩
  | 82 => ⟨S1x64, .f32⟩
  | 83 => ⟨S163550x64, .f32⟩
  | 84 => ⟨S163550x64, .f32⟩
  | 85 => ⟨S1x64, .f32⟩
  | 86 => ⟨S163550x64, .f32⟩
  | 87 => ⟨S163550x64, .f32⟩
  | 88 => ⟨S1x64, .f32⟩
  | 89 => ⟨S163550x64, .f32⟩
  | 90 => ⟨S163550x64, .f32⟩
  | 91 => ⟨S_, .f32⟩
  | 92 => ⟨S4096x96x64, .f32⟩
  | 93 => ⟨S_, .i32⟩
  | 94 => ⟨S262112, .i32⟩
  | 95 => ⟨S262112, .i1⟩
  | 96 => ⟨S_, .i32⟩
  | 97 => ⟨S262112, .i32⟩
  | 98 => ⟨S262112, .i32⟩
  | 99 => ⟨S262112, .i32⟩
  | 100 => ⟨S_, .i32⟩
  | 101 => ⟨S262112, .i32⟩
  | 102 => ⟨S262112, .i1⟩
  | 103 => ⟨S_, .i32⟩
  | 104 => ⟨S262112, .i32⟩
  | 105 => ⟨S262112, .i32⟩
  | 106 => ⟨S262112, .i32⟩
  | 107 => ⟨S262112x1, .i32⟩
  | 108 => ⟨S262112x1, .i32⟩
  | 109 => ⟨S262112x2, .i32⟩
  | 110 => ⟨S4096x96x64, .f32⟩
  | 111 => ⟨S_, .f32⟩
  | 112 => ⟨S4096x64x64, .f32⟩
  | 113 => ⟨S_, .i32⟩
  | 114 => ⟨S163550, .i32⟩
  | 115 => ⟨S163550, .i1⟩
  | 116 => ⟨S_, .i32⟩
  | 117 => ⟨S163550, .i32⟩
  | 118 => ⟨S163550, .i32⟩
  | 119 => ⟨S163550, .i32⟩
  | 120 => ⟨S_, .i32⟩
  | 121 => ⟨S163550, .i32⟩
  | 122 => ⟨S163550, .i1⟩
  | 123 => ⟨S_, .i32⟩
  | 124 => ⟨S163550, .i32⟩
  | 125 => ⟨S163550, .i32⟩
  | 126 => ⟨S163550, .i32⟩
  | 127 => ⟨S163550x1, .i32⟩
  | _ => ⟨S262112x64, .f32⟩

abbrev hbmTy0_2 (i : Nat) : BufTy := match i % 128 with
  | 0 => ⟨S163550x1, .i32⟩
  | 1 => ⟨S163550x2, .i32⟩
  | 2 => ⟨S4096x64x64, .f32⟩
  | 3 => ⟨S_, .bf16⟩
  | 4 => ⟨S4096x96x64, .bf16⟩
  | 5 => ⟨S262112x64, .bf16⟩
  | 6 => ⟨S_, .i32⟩
  | 7 => ⟨S262112, .i32⟩
  | 8 => ⟨S262112, .i1⟩
  | 9 => ⟨S_, .i32⟩
  | 10 => ⟨S262112, .i32⟩
  | 11 => ⟨S262112, .i32⟩
  | 12 => ⟨S262112, .i32⟩
  | 13 => ⟨S_, .i32⟩
  | 14 => ⟨S262112, .i32⟩
  | 15 => ⟨S262112, .i1⟩
  | 16 => ⟨S_, .i32⟩
  | 17 => ⟨S262112, .i32⟩
  | 18 => ⟨S262112, .i32⟩
  | 19 => ⟨S262112, .i32⟩
  | 20 => ⟨S262112x1, .i32⟩
  | 21 => ⟨S262112x1, .i32⟩
  | 22 => ⟨S262112x2, .i32⟩
  | 23 => ⟨S4096x96x64, .bf16⟩
  | 24 => ⟨S_, .bf16⟩
  | 25 => ⟨S4096x64x64, .bf16⟩
  | 26 => ⟨S163550x64, .bf16⟩
  | 27 => ⟨S_, .i32⟩
  | 28 => ⟨S163550, .i32⟩
  | 29 => ⟨S163550, .i1⟩
  | 30 => ⟨S_, .i32⟩
  | 31 => ⟨S163550, .i32⟩
  | 32 => ⟨S163550, .i32⟩
  | 33 => ⟨S163550, .i32⟩
  | 34 => ⟨S_, .i32⟩
  | 35 => ⟨S163550, .i32⟩
  | 36 => ⟨S163550, .i1⟩
  | 37 => ⟨S_, .i32⟩
  | 38 => ⟨S163550, .i32⟩
  | 39 => ⟨S163550, .i32⟩
  | 40 => ⟨S163550, .i32⟩
  | 41 => ⟨S163550x1, .i32⟩
  | 42 => ⟨S163550x1, .i32⟩
  | 43 => ⟨S163550x2, .i32⟩
  | 44 => ⟨S4096x64x64, .bf16⟩
  | 45 => ⟨S1x256, .f32⟩
  | 46 => ⟨S1x1, .f32⟩
  | 47 => ⟨S4096x1, .f32⟩
  | _ => ⟨S262112x64, .f32⟩

abbrev hbmTy (i : Nat) : BufTy := match i / 128 with
  | 0 => hbmTy0_0 i
  | 1 => hbmTy0_1 i
  | 2 => hbmTy0_2 i
  | _ => ⟨S262112x64, .f32⟩

abbrev bufTy : (tb : Table) → Fin (tcTables nBuf tb) → BufTy
  | .hbm, ⟨i, _⟩ => hbmTy i
  | .local _ .vmem, ⟨0, _⟩ => ⟨S128x96x64, .f32⟩
  | .local _ .vmem, ⟨1, _⟩ => ⟨S128x96x64, .f32⟩
  | .local _ .vmem, ⟨2, _⟩ => ⟨S128x64x64, .f32⟩
  | .local _ .vmem, ⟨3, _⟩ => ⟨S128x64x64, .f32⟩
  | .local _ .vmem, ⟨4, _⟩ => ⟨S128x96x64, .bf16⟩
  | .local _ .vmem, ⟨5, _⟩ => ⟨S128x96x64, .bf16⟩
  | .local _ .vmem, ⟨6, _⟩ => ⟨S128x64x64, .bf16⟩
  | .local _ .vmem, ⟨7, _⟩ => ⟨S128x64x64, .bf16⟩
  | .local _ .vmem, ⟨8, _⟩ => ⟨S256x256, .f32⟩
  | .local _ .vmem, ⟨9, _⟩ => ⟨S1x256, .f32⟩
  | .local _ .vmem, ⟨10, _⟩ => ⟨S256x1, .f32⟩
  | .local _ .vmem, ⟨11, _⟩ => ⟨S1x1, .f32⟩
  | .local _ .vmem, ⟨12, _⟩ => ⟨S128x1, .f32⟩
  | .local _ .vmem, ⟨13, _⟩ => ⟨S128x1, .f32⟩
  | _, _ => ⟨S262112x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call0_cst : Ref sig .tc := ⟨.hbm, 76, rfl⟩
abbrev main_call0_v0 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call1_cst : Ref sig .tc := ⟨.hbm, 102, rfl⟩
abbrev main_call1_v0 : Ref sig .tc := ⟨.hbm, 103, rfl⟩
abbrev main_v66 : Ref sig .tc := ⟨.hbm, 104, rfl⟩
abbrev main_c_10 : Ref sig .tc := ⟨.hbm, 105, rfl⟩
abbrev main_v67 : Ref sig .tc := ⟨.hbm, 106, rfl⟩
abbrev main_v68 : Ref sig .tc := ⟨.hbm, 107, rfl⟩
abbrev main_c_11 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_12 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call2_cst : Ref sig .tc := ⟨.hbm, 128, rfl⟩
abbrev main_call2_v0 : Ref sig .tc := ⟨.hbm, 129, rfl⟩
abbrev main_v87 : Ref sig .tc := ⟨.hbm, 130, rfl⟩
abbrev main_c_13 : Ref sig .tc := ⟨.hbm, 131, rfl⟩
abbrev main_v88 : Ref sig .tc := ⟨.hbm, 132, rfl⟩
abbrev main_v89 : Ref sig .tc := ⟨.hbm, 133, rfl⟩
abbrev main_c_14 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_15 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_call3_cst : Ref sig .tc := ⟨.hbm, 154, rfl⟩
abbrev main_call3_v0 : Ref sig .tc := ⟨.hbm, 155, rfl⟩
abbrev main_v108 : Ref sig .tc := ⟨.hbm, 156, rfl⟩
abbrev main_v109 : Ref sig .tc := ⟨.hbm, 157, rfl⟩
abbrev main_cst_16 : Ref sig .tc := ⟨.hbm, 158, rfl⟩
abbrev main_v110 : Ref sig .tc := ⟨.hbm, 159, rfl⟩
abbrev main_cst_17 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_18 : Ref sig .tc := ⟨.hbm, 167, rfl⟩
abbrev main_v117 : Ref sig .tc := ⟨.hbm, 168, rfl⟩
abbrev main_cst_19 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_20 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_21 : Ref sig .tc := ⟨.hbm, 189, rfl⟩
abbrev main_v136 : Ref sig .tc := ⟨.hbm, 190, rfl⟩
abbrev main_cst_22 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_23 : Ref sig .tc := ⟨.hbm, 198, rfl⟩
abbrev main_v143 : Ref sig .tc := ⟨.hbm, 199, rfl⟩
abbrev main_cst_24 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_25 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_26 : Ref sig .tc := ⟨.hbm, 219, rfl⟩
abbrev main_v161 : Ref sig .tc := ⟨.hbm, 220, rfl⟩
abbrev main_c_27 : Ref sig .tc := ⟨.hbm, 221, rfl⟩
abbrev main_v162 : Ref sig .tc := ⟨.hbm, 222, rfl⟩
abbrev main_v163 : Ref sig .tc := ⟨.hbm, 223, rfl⟩
abbrev main_c_28 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_c_29 : Ref sig .tc := ⟨.hbm, 228, rfl⟩
abbrev main_v167 : Ref sig .tc := ⟨.hbm, 229, rfl⟩
abbrev main_v168 : Ref sig .tc := ⟨.hbm, 230, rfl⟩
abbrev main_c_30 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_31 : Ref sig .tc := ⟨.hbm, 239, rfl⟩
abbrev main_v176 : Ref sig .tc := ⟨.hbm, 240, rfl⟩
abbrev main_c_32 : Ref sig .tc := ⟨.hbm, 241, rfl⟩
abbrev main_v177 : Ref sig .tc := ⟨.hbm, 242, rfl⟩
abbrev main_v178 : Ref sig .tc := ⟨.hbm, 243, rfl⟩
abbrev main_c_33 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_c_34 : Ref sig .tc := ⟨.hbm, 248, rfl⟩
abbrev main_v182 : Ref sig .tc := ⟨.hbm, 249, rfl⟩
abbrev main_v183 : Ref sig .tc := ⟨.hbm, 250, rfl⟩
abbrev main_c_35 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_cst_36 : Ref sig .tc := ⟨.hbm, 259, rfl⟩
abbrev main_v191 : Ref sig .tc := ⟨.hbm, 260, rfl⟩
abbrev main_v192 : Ref sig .tc := ⟨.hbm, 261, rfl⟩
abbrev main_c_37 : Ref sig .tc := ⟨.hbm, 262, rfl⟩
abbrev main_v193 : Ref sig .tc := ⟨.hbm, 263, rfl⟩
abbrev main_v194 : Ref sig .tc := ⟨.hbm, 264, rfl⟩
abbrev main_c_38 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_c_39 : Ref sig .tc := ⟨.hbm, 269, rfl⟩
abbrev main_v198 : Ref sig .tc := ⟨.hbm, 270, rfl⟩
abbrev main_v199 : Ref sig .tc := ⟨.hbm, 271, rfl⟩
abbrev main_c_40 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_41 : Ref sig .tc := ⟨.hbm, 280, rfl⟩
abbrev main_v207 : Ref sig .tc := ⟨.hbm, 281, rfl⟩
abbrev main_v208 : Ref sig .tc := ⟨.hbm, 282, rfl⟩
abbrev main_c_42 : Ref sig .tc := ⟨.hbm, 283, rfl⟩
abbrev main_v209 : Ref sig .tc := ⟨.hbm, 284, rfl⟩
abbrev main_v210 : Ref sig .tc := ⟨.hbm, 285, rfl⟩
abbrev main_c_43 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_c_44 : Ref sig .tc := ⟨.hbm, 290, rfl⟩
abbrev main_v214 : Ref sig .tc := ⟨.hbm, 291, rfl⟩
abbrev main_v215 : Ref sig .tc := ⟨.hbm, 292, rfl⟩
abbrev main_c_45 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x96x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x96x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S64_S1x64_1 : S64.BroadcastsInDim S1x64 (![1] : Fin 1 → Fin S1x64.rank)
  bcast_S1x64_S163550x64_0_1 : S1x64.BroadcastsInDim S163550x64 (![0, 1] : Fin 2 → Fin S163550x64.rank)
  bcast_S_S490650 : S_.BroadcastsInDim S490650 (![] : Fin 0 → Fin S490650.rank)
  bcast_S_S163550 : S_.BroadcastsInDim S163550 (![] : Fin 0 → Fin S163550.rank)
  bcast_S490650_S490650x1_0 : S490650.BroadcastsInDim S490650x1 (![0] : Fin 1 → Fin S490650x1.rank)
  bcast_S490650x1_S490650x64_0_1 : S490650x1.BroadcastsInDim S490650x64 (![0, 1] : Fin 2 → Fin S490650x64.rank)
  bcast_S_S163550x64 : S_.BroadcastsInDim S163550x64 (![] : Fin 0 → Fin S163550x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  reducesTo_S262112x64_S64_d0 : S262112x64.ReducesTo [0] S64
  h_S_ : 0 < S_.numel
  bcast_S_S64 : S_.BroadcastsInDim S64 (![] : Fin 0 → Fin S64.rank)
  bcast_S1x64_S262112x64_0_1 : S1x64.BroadcastsInDim S262112x64 (![0, 1] : Fin 2 → Fin S262112x64.rank)
  reducesTo_S163550x64_S64_d0 : S163550x64.ReducesTo [0] S64
  bcast_S_S4096x96x64 : S_.BroadcastsInDim S4096x96x64 (![] : Fin 0 → Fin S4096x96x64.rank)
  bcast_S_S262112 : S_.BroadcastsInDim S262112 (![] : Fin 0 → Fin S262112.rank)
  bcast_S262112_S262112x1_0 : S262112.BroadcastsInDim S262112x1 (![0] : Fin 1 → Fin S262112x1.rank)
  concatenates_S262112x1_S262112x1_S262112x2_d1 : Shape.Concatenates [S262112x1, S262112x1] S262112x2 1
  bcast_S_S4096x64x64 : S_.BroadcastsInDim S4096x64x64 (![] : Fin 0 → Fin S4096x64x64.rank)
  bcast_S163550_S163550x1_0 : S163550.BroadcastsInDim S163550x1 (![0] : Fin 1 → Fin S163550x1.rank)
  concatenates_S163550x1_S163550x1_S163550x2_d1 : Shape.Concatenates [S163550x1, S163550x1] S163550x2 1
  bitsLt_bf16_f32 : FTy.bits .bf16 < FTy.bits .f32
  shapeCasts_S256_S1x256 : S256.ShapeCasts S1x256
  shapeCasts_S1_S1x1 : S1.ShapeCasts S1x1
  inb_S128x96x64_S128x96x64_0_0_0 : ∀ a, (![0, 0, 0] : Fin 3 → Nat) a + S128x96x64.size a ≤ S128x96x64.size a
  h_S128x96x64 : 0 < S128x96x64.numel
  shapeCasts_S128x96x64_S128x96x64 : S128x96x64.ShapeCasts S128x96x64
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  transposes_S128x96x64_p0_2_1_S128x64x96 : S128x96x64.Transposes [0, 2, 1] S128x64x96
  reduces_S128x96x64_S128x64 : S128x96x64.Reduces [1] S128x64
  concatenates_S128x64_S128x64_S128x128_d1 : Shape.Concatenates [S128x64, S128x64] S128x128 1
  reduces_S128x64x64_S128x64 : S128x64x64.Reduces [1] S128x64
  concatenates_S128x128_S128x128_S128x256_d1 : Shape.Concatenates [S128x128, S128x128] S128x256 1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S163550x74_S74x64_S163550x64_1_0_0_1_n_n_wf : DotDims.WF S163550x74 S74x64 S163550x64 [1] [0] [0] [1] [] []
  scatter_S163550_S490650x1_S490650_n_0_0_1_wf : ScatterDims.WF S163550 S490650x1 S490650 [] [0] [0] 1
  gather_S163550_S490650x1_S490650_n_0_n_n_0_1_1_wf : GatherDims.WF S163550 S490650x1 S490650 [] [0] [] [0] [] 1 ![1]
  gather_S163550x64_S490650x1_S490650x64_1_0_n_n_0_1_164_wf : GatherDims.WF S163550x64 S490650x1 S490650x64 [1] [0] [] [0] [] 1 ![1, 64]
  scatter_S163550x64_S490650x1_S490650x64_1_0_0_1_wf : ScatterDims.WF S163550x64 S490650x1 S490650x64 [1] [0] [0] 1
  dot_S163550x64_S64x64_S163550x64_1_0_0_1_n_n_wf : DotDims.WF S163550x64 S64x64 S163550x64 [1] [0] [0] [1] [] []
  dot_S262112x64_S64x64_S262112x64_1_0_0_1_n_n_wf : DotDims.WF S262112x64 S64x64 S262112x64 [1] [0] [0] [1] [] []
  scatter_S4096x96x64_S262112x2_S262112x64_1_01_01_1_wf : ScatterDims.WF S4096x96x64 S262112x2 S262112x64 [1] [0, 1] [0, 1] 1
  scatter_S4096x64x64_S163550x2_S163550x64_1_01_01_1_wf : ScatterDims.WF S4096x64x64 S163550x2 S163550x64 [1] [0, 1] [0, 1] 1
  dot_S128x96x64_S128x64x64_S128x96x64_2_2_1_1_0_0_wf : DotDims.WF S128x96x64 S128x64x64 S128x96x64 [2] [2] [1] [1] [0] [0]
  dot_S128x96x64_S128x64x64_S128x96x64_2_1_1_2_0_0_wf : DotDims.WF S128x96x64 S128x64x64 S128x96x64 [2] [1] [1] [2] [0] [0]
  dot_S128x64x96_S128x96x64_S128x64x64_2_1_1_2_0_0_wf : DotDims.WF S128x64x96 S128x96x64 S128x64x64 [2] [1] [1] [2] [0] [0]
  dot_S128x256_S256x256_S128x256_1_0_0_1_n_n_wf : DotDims.WF S128x256 S256x256 S128x256 [1] [0] [0] [1] [] []
  dot_S128x256_S256x1_S128x1_1_0_0_1_n_n_wf : DotDims.WF S128x256 S256x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x96x64.size a ≤ S4096x96x64.size a
  hwx0_0 : ∀ i : grid0.Coords, EltTy.bits .f32 = 32 ∨ (Rect.block (s := S4096x96x64) S128x96x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .f32 = 32 ∨ (Rect.block (s := S4096x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x96x64.size a ≤ S4096x96x64.size a
  hwx0_2 : ∀ i : grid0.Coords, EltTy.bits .bf16 = 32 ∨ (Rect.block (s := S4096x96x64) S128x96x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x64.size a ≤ S4096x64x64.size a
  hwx0_3 : ∀ i : grid0.Coords, EltTy.bits .bf16 = 32 ∨ (Rect.block (s := S4096x64x64) S128x64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S4096x1.size a
  hwx0_8 : ∀ i : grid0.Coords, EltTy.bits .f32 = 32 ∨ (Rect.block (s := S4096x1) S128x1.size (cc0_transform_8 i) (hinb0_8 i)).WholeWords (EltTy.packing .f32)

variable [Facts₀]

def dot_S163550x74_S74x64_S163550x64_1_0_0_1_n_n : DotDims S163550x74 S74x64 S163550x64 where
  lhsContracting := [1]
  rhsContracting := [0]
  lhsNonContracting := [0]
  rhsNonContracting := [1]
  lhsBatch := []
  rhsBatch := []
  wf := dot_S163550x74_S74x64_S163550x64_1_0_0_1_n_n_wf
def scatter_S163550_S490650x1_S490650_n_0_0_1 : ScatterDims S163550 S490650x1 S490650 where
  updateWindowDims := []
  insertedWindowDims := [0]
  scatterDimsToOperandDims := [0]
  indexVectorDim := 1
  wf := scatter_S163550_S490650x1_S490650_n_0_0_1_wf
def gather_S163550_S490650x1_S490650_n_0_n_n_0_1_1 : GatherDims S163550 S490650x1 S490650 where
  offsetDims := []
  collapsedSliceDims := [0]
  operandBatchingDims := []
  startIndicesBatchingDims := []
  startIndexMap := [0]
  indexVectorDim := 1
  sliceSizes := ![1]
  wf := gather_S163550_S490650x1_S490650_n_0_n_n_0_1_1_wf
def gather_S163550x64_S490650x1_S490650x64_1_0_n_n_0_1_164 : GatherDims S163550x64 S490650x1 S490650x64 where
  offsetDims := [1]
  collapsedSliceDims := [0]
  operandBatchingDims := []
  startIndicesBatchingDims := []
  startIndexMap := [0]
  indexVectorDim := 1
  sliceSizes := ![1, 64]
  wf := gather_S163550x64_S490650x1_S490650x64_1_0_n_n_0_1_164_wf
def scatter_S163550x64_S490650x1_S490650x64_1_0_0_1 : ScatterDims S163550x64 S490650x1 S490650x64 where
  updateWindowDims := [1]
  insertedWindowDims := [0]
  scatterDimsToOperandDims := [0]
  indexVectorDim := 1
  wf := scatter_S163550x64_S490650x1_S490650x64_1_0_0_1_wf
def dot_S163550x64_S64x64_S163550x64_1_0_0_1_n_n : DotDims S163550x64 S64x64 S163550x64 where
  lhsContracting := [1]
  rhsContracting := [0]
  lhsNonContracting := [0]
  rhsNonContracting := [1]
  lhsBatch := []
  rhsBatch := []
  wf := dot_S163550x64_S64x64_S163550x64_1_0_0_1_n_n_wf
def dot_S262112x64_S64x64_S262112x64_1_0_0_1_n_n : DotDims S262112x64 S64x64 S262112x64 where
  lhsContracting := [1]
  rhsContracting := [0]
  lhsNonContracting := [0]
  rhsNonContracting := [1]
  lhsBatch := []
  rhsBatch := []
  wf := dot_S262112x64_S64x64_S262112x64_1_0_0_1_n_n_wf
def scatter_S4096x96x64_S262112x2_S262112x64_1_01_01_1 : ScatterDims S4096x96x64 S262112x2 S262112x64 where
  updateWindowDims := [1]
  insertedWindowDims := [0, 1]
  scatterDimsToOperandDims := [0, 1]
  indexVectorDim := 1
  wf := scatter_S4096x96x64_S262112x2_S262112x64_1_01_01_1_wf
def scatter_S4096x64x64_S163550x2_S163550x64_1_01_01_1 : ScatterDims S4096x64x64 S163550x2 S163550x64 where
  updateWindowDims := [1]
  insertedWindowDims := [0, 1]
  scatterDimsToOperandDims := [0, 1]
  indexVectorDim := 1
  wf := scatter_S4096x64x64_S163550x2_S163550x64_1_01_01_1_wf
def dot_S128x96x64_S128x64x64_S128x96x64_2_2_1_1_0_0 : DotDims S128x96x64 S128x64x64 S128x96x64 where
  lhsContracting := [2]
  rhsContracting := [2]
  lhsNonContracting := [1]
  rhsNonContracting := [1]
  lhsBatch := [0]
  rhsBatch := [0]
  wf := dot_S128x96x64_S128x64x64_S128x96x64_2_2_1_1_0_0_wf
def dot_S128x96x64_S128x64x64_S128x96x64_2_1_1_2_0_0 : DotDims S128x96x64 S128x64x64 S128x96x64 where
  lhsContracting := [2]
  rhsContracting := [1]
  lhsNonContracting := [1]
  rhsNonContracting := [2]
  lhsBatch := [0]
  rhsBatch := [0]
  wf := dot_S128x96x64_S128x64x64_S128x96x64_2_1_1_2_0_0_wf
def dot_S128x64x96_S128x96x64_S128x64x64_2_1_1_2_0_0 : DotDims S128x64x96 S128x96x64 S128x64x64 where
  lhsContracting := [2]
  rhsContracting := [1]
  lhsNonContracting := [1]
  rhsNonContracting := [2]
  lhsBatch := [0]
  rhsBatch := [0]
  wf := dot_S128x64x96_S128x96x64_S128x64x64_2_1_1_2_0_0_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

abbrev win0_0 : Pipeline.Window sig grid0 :=
  Pipeline.Window.ofSpec (Memref.whole main_v175) S128x96x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v190) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v206) S128x96x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v222) S128x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v223) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v224) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v225) S128x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262112x64 : Shape := ⟨2, ![262112, 64]⟩
abbrev S163550x74 : Shape := ⟨2, ![163550, 74]⟩
abbrev S74x64 : Shape := ⟨2, ![74, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S262112 : Shape := ⟨1, ![262112]⟩
abbrev S163550 : Shape := ⟨1, ![163550]⟩
abbrev S490650 : Shape := ⟨1, ![490650]⟩
abbrev S163550x64 : Shape := ⟨2, ![163550, 64]⟩
abbrev S1x64 : Shape := ⟨2, ![1, 64]⟩
abbrev S_ : Shape := ⟨0, ![]⟩
abbrev S490650x1 : Shape := ⟨2, ![490650, 1]⟩
abbrev S490650x64 : Shape := ⟨2, ![490650, 64]⟩
abbrev S1x64x64 : Shape := ⟨3, ![1, 64, 64]⟩
abbrev S4096x96x64 : Shape := ⟨3, ![4096, 96, 64]⟩
abbrev S262112x1 : Shape := ⟨2, ![262112, 1]⟩
abbrev S262112x2 : Shape := ⟨2, ![262112, 2]⟩
abbrev S4096x64x64 : Shape := ⟨3, ![4096, 64, 64]⟩
abbrev S163550x1 : Shape := ⟨2, ![163550, 1]⟩
abbrev S163550x2 : Shape := ⟨2, ![163550, 2]⟩
abbrev S262112x128 : Shape := ⟨2, ![262112, 128]⟩
abbrev S4096x128 : Shape := ⟨2, ![4096, 128]⟩
abbrev S163550x128 : Shape := ⟨2, ![163550, 128]⟩
abbrev S4096x256 : Shape := ⟨2, ![4096, 256]⟩
abbrev S1x256 : Shape := ⟨2, ![1, 256]⟩
abbrev S4096x1 : Shape := ⟨2, ![4096, 1]⟩
abbrev S1x1 : Shape := ⟨2, ![1, 1]⟩

abbrev nBuf : Space → Nat
  | .hbm => 321
  | .vmem => 0
  | .smem => 0
  | _ => 0

abbrev hbmTy0_0 (i : Nat) : BufTy := match i % 128 with
  | 0 => ⟨S262112x64, .f32⟩
  | 1 => ⟨S163550x74, .f32⟩
  | 2 => ⟨S74x64, .f32⟩
  | 3 => ⟨S64, .f32⟩
  | 4 => ⟨S4x64x64, .f32⟩
  | 5 => ⟨S4x64, .f32⟩
  | 6 => ⟨S64x64, .f32⟩
  | 7 => ⟨S64x64, .f32⟩
  | 8 => ⟨S64, .f32⟩
  | 9 => ⟨S64, .f32⟩
  | 10 => ⟨S64, .f32⟩
  | 11 => ⟨S64, .f32⟩
  | 12 => ⟨S256x256, .f32⟩
  | 13 => ⟨S256, .f32⟩
  | 14 => ⟨S256x1, .f32⟩
  | 15 => ⟨S1, .f32⟩
  | 16 => ⟨S262112, .i32⟩
  | 17 => ⟨S262112, .i32⟩
  | 18 => ⟨S163550, .i32⟩
  | 19 => ⟨S163550, .i32⟩
  | 20 => ⟨S490650, .i32⟩
  | 21 => ⟨S490650, .i32⟩
  | 22 => ⟨S163550x64, .f32⟩
  | 23 => ⟨S1x64, .f32⟩
  | 24 => ⟨S163550x64, .f32⟩
  | 25 => ⟨S163550x64, .f32⟩
  | 26 => ⟨S_, .f32⟩
  | 27 => ⟨S490650, .f32⟩
  | 28 => ⟨S_, .f32⟩
  | 29 => ⟨S163550, .f32⟩
  | 30 => ⟨S490650x1, .i32⟩
  | 31 => ⟨S163550, .f32⟩
  | 32 => ⟨S_, .i32⟩
  | 33 => ⟨S490650, .i32⟩
  | 34 => ⟨S490650, .i1⟩
  | 35 => ⟨S_, .i32⟩
  | 36 => ⟨S490650, .i32⟩
  | 37 => ⟨S490650, .i32⟩
  | 38 => ⟨S490650, .i32⟩
  | 39 => ⟨S490650x1, .i32⟩
  | 40 => ⟨S490650, .f32⟩
  | 41 => ⟨S_, .i32⟩
  | 42 => ⟨S490650, .i32⟩
  | 43 => ⟨S490650, .i1⟩
  | 44 => ⟨S_, .i32⟩
  | 45 => ⟨S490650, .i32⟩
  | 46 => ⟨S490650, .i32⟩
  | 47 => ⟨S490650, .i32⟩
  | 48 => ⟨S490650x1, .i32⟩
  | 49 => ⟨S490650, .f32⟩
  | 50 => ⟨S490650, .f32⟩
  | 51 => ⟨S490650, .f32⟩
  | 52 => ⟨S490650x1, .f32⟩
  | 53 => ⟨S_, .i32⟩
  | 54 => ⟨S490650, .i32⟩
  | 55 => ⟨S490650, .i1⟩
  | 56 => ⟨S_, .i32⟩
  | 57 => ⟨S490650, .i32⟩
  | 58 => ⟨S490650, .i32⟩
  | 59 => ⟨S490650, .i32⟩
  | 60 => ⟨S490650x1, .i32⟩
  | 61 => ⟨S490650x64, .f32⟩
  | 62 => ⟨S490650x64, .f32⟩
  | 63 => ⟨S490650x64, .f32⟩
  | 64 => ⟨S_, .f32⟩
  | 65 => ⟨S163550x64, .f32⟩
  | 66 => ⟨S490650x1, .i32⟩
  | 67 => ⟨S163550x64, .f32⟩
  | 68 => ⟨S1x64x64, .f32⟩
  | 69 => ⟨S64x64, .f32⟩
  | 70 => ⟨S163550x64, .f32⟩
  | 71 => ⟨S1x64, .f32⟩
  | 72 => ⟨S64, .f32⟩
  | 73 => ⟨S1x64, .f32⟩
  | 74 => ⟨S163550x64, .f32⟩
  | 75 => ⟨S163550x64, .f32⟩
  | 76 => ⟨S_, .f32⟩
  | 77 => ⟨S163550x64, .f32⟩
  | 78 => ⟨S163550x64, .f32⟩
  | 79 => ⟨S_, .i32⟩
  | 80 => ⟨S490650, .i32⟩
  | 81 => ⟨S490650, .i1⟩
  | 82 => ⟨S_, .i32⟩
  | 83 => ⟨S490650, .i32⟩
  | 84 => ⟨S490650, .i32⟩
  | 85 => ⟨S490650, .i32⟩
  | 86 => ⟨S490650x1, .i32⟩
  | 87 => ⟨S490650x64, .f32⟩
  | 88 => ⟨S490650x64, .f32⟩
  | 89 => ⟨S490650x64, .f32⟩
  | 90 => ⟨S_, .f32⟩
  | 91 => ⟨S163550x64, .f32⟩
  | 92 => ⟨S490650x1, .i32⟩
  | 93 => ⟨S163550x64, .f32⟩
  | 94 => ⟨S1x64x64, .f32⟩
  | 95 => ⟨S64x64, .f32⟩
  | 96 => ⟨S163550x64, .f32⟩
  | 97 => ⟨S1x64, .f32⟩
  | 98 => ⟨S64, .f32⟩
  | 99 => ⟨S1x64, .f32⟩
  | 100 => ⟨S163550x64, .f32⟩
  | 101 => ⟨S163550x64, .f32⟩
  | 102 => ⟨S_, .f32⟩
  | 103 => ⟨S163550x64, .f32⟩
  | 104 => ⟨S163550x64, .f32⟩
  | 105 => ⟨S_, .i32⟩
  | 106 => ⟨S490650, .i32⟩
  | 107 => ⟨S490650, .i1⟩
  | 108 => ⟨S_, .i32⟩
  | 109 => ⟨S490650, .i32⟩
  | 110 => ⟨S490650, .i32⟩
  | 111 => ⟨S490650, .i32⟩
  | 112 => ⟨S490650x1, .i32⟩
  | 113 => ⟨S490650x64, .f32⟩
  | 114 => ⟨S490650x64, .f32⟩
  | 115 => ⟨S490650x64, .f32⟩
  | 116 => ⟨S_, .f32⟩
  | 117 => ⟨S163550x64, .f32⟩
  | 118 => ⟨S490650x1, .i32⟩
  | 119 => ⟨S163550x64, .f32⟩
  | 120 => ⟨S1x64x64, .f32⟩
  | 121 => ⟨S64x64, .f32⟩
  | 122 => ⟨S163550x64, .f32⟩
  | 123 => ⟨S1x64, .f32⟩
  | 124 => ⟨S64, .f32⟩
  | 125 => ⟨S1x64, .f32⟩
  | 126 => ⟨S163550x64, .f32⟩
  | 127 => ⟨S163550x64, .f32⟩
  | _ => ⟨S262112x64, .f32⟩

abbrev hbmTy0_1 (i : Nat) : BufTy := match i % 128 with
  | 0 => ⟨S_, .f32⟩
  | 1 => ⟨S163550x64, .f32⟩
  | 2 => ⟨S163550x64, .f32⟩
  | 3 => ⟨S_, .i32⟩
  | 4 => ⟨S490650, .i32⟩
  | 5 => ⟨S490650, .i1⟩
  | 6 => ⟨S_, .i32⟩
  | 7 => ⟨S490650, .i32⟩
  | 8 => ⟨S490650, .i32⟩
  | 9 => ⟨S490650, .i32⟩
  | 10 => ⟨S490650x1, .i32⟩
  | 11 => ⟨S490650x64, .f32⟩
  | 12 => ⟨S490650x64, .f32⟩
  | 13 => ⟨S490650x64, .f32⟩
  | 14 => ⟨S_, .f32⟩
  | 15 => ⟨S163550x64, .f32⟩
  | 16 => ⟨S490650x1, .i32⟩
  | 17 => ⟨S163550x64, .f32⟩
  | 18 => ⟨S1x64x64, .f32⟩
  | 19 => ⟨S64x64, .f32⟩
  | 20 => ⟨S163550x64, .f32⟩
  | 21 => ⟨S1x64, .f32⟩
  | 22 => ⟨S64, .f32⟩
  | 23 => ⟨S1x64, .f32⟩
  | 24 => ⟨S163550x64, .f32⟩
  | 25 => ⟨S163550x64, .f32⟩
  | 26 => ⟨S_, .f32⟩
  | 27 => ⟨S163550x64, .f32⟩
  | 28 => ⟨S163550x64, .f32⟩
  | 29 => ⟨S262112x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S262112x64, .f32⟩
  | 37 => ⟨S262112x64, .f32⟩
  | 38 => ⟨S262112x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S262112x64, .f32⟩
  | 46 => ⟨S262112x64, .f32⟩
  | 47 => ⟨S_, .f32⟩
  | 48 => ⟨S64, .f32⟩
  | 49 => ⟨S64, .f32⟩
  | 50 => ⟨S64, .f32⟩
  | 51 => ⟨S1x64, .f32⟩
  | 52 => ⟨S262112x64, .f32⟩
  | 53 => ⟨S262112x64, .f32⟩
  | 54 => ⟨S1x64, .f32⟩
  | 55 => ⟨S262112x64, .f32⟩
  | 56 => ⟨S262112x64, .f32⟩
  | 57 => ⟨S1x64, .f32⟩
  | 58 => ⟨S262112x64, .f32⟩
  | 59 => ⟨S262112x64, .f32⟩
  | 60 => ⟨S163550x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S163550x64, .f32⟩
  | 68 => ⟨S163550x64, .f32⟩
  | 69 => ⟨S163550x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S163550x64, .f32⟩
  | 77 => ⟨S163550x64, .f32⟩
  | 78 => ⟨S_, .f32⟩
  | 79 => ⟨S64, .f32⟩
  | 80 => ⟨S64, .f32⟩
  | 81 => ⟨S64, .f32⟩
  | 82 => ⟨S1x64, .f32⟩
  | 83 => ⟨S163550x64, .f32⟩
  | 84 => ⟨S163550x64, .f32⟩
  | 85 => ⟨S1x64, .f32⟩
  | 86 => ⟨S163550x64, .f32⟩
  | 87 => ⟨S163550x64, .f32⟩
  | 88 => ⟨S1x64, .f32⟩
  | 89 => ⟨S163550x64, .f32⟩
  | 90 => ⟨S163550x64, .f32⟩
  | 91 => ⟨S_, .f32⟩
  | 92 => ⟨S4096x96x64, .f32⟩
  | 93 => ⟨S_, .i32⟩
  | 94 => ⟨S262112, .i32⟩
  | 95 => ⟨S262112, .i1⟩
  | 96 => ⟨S_, .i32⟩
  | 97 => ⟨S262112, .i32⟩
  | 98 => ⟨S262112, .i32⟩
  | 99 => ⟨S262112, .i32⟩
  | 100 => ⟨S_, .i32⟩
  | 101 => ⟨S262112, .i32⟩
  | 102 => ⟨S262112, .i1⟩
  | 103 => ⟨S_, .i32⟩
  | 104 => ⟨S262112, .i32⟩
  | 105 => ⟨S262112, .i32⟩
  | 106 => ⟨S262112, .i32⟩
  | 107 => ⟨S262112x1, .i32⟩
  | 108 => ⟨S262112x1, .i32⟩
  | 109 => ⟨S262112x2, .i32⟩
  | 110 => ⟨S4096x96x64, .f32⟩
  | 111 => ⟨S_, .f32⟩
  | 112 => ⟨S4096x64x64, .f32⟩
  | 113 => ⟨S_, .i32⟩
  | 114 => ⟨S163550, .i32⟩
  | 115 => ⟨S163550, .i1⟩
  | 116 => ⟨S_, .i32⟩
  | 117 => ⟨S163550, .i32⟩
  | 118 => ⟨S163550, .i32⟩
  | 119 => ⟨S163550, .i32⟩
  | 120 => ⟨S_, .i32⟩
  | 121 => ⟨S163550, .i32⟩
  | 122 => ⟨S163550, .i1⟩
  | 123 => ⟨S_, .i32⟩
  | 124 => ⟨S163550, .i32⟩
  | 125 => ⟨S163550, .i32⟩
  | 126 => ⟨S163550, .i32⟩
  | 127 => ⟨S163550x1, .i32⟩
  | _ => ⟨S262112x64, .f32⟩

abbrev hbmTy0_2 (i : Nat) : BufTy := match i % 128 with
  | 0 => ⟨S163550x1, .i32⟩
  | 1 => ⟨S163550x2, .i32⟩
  | 2 => ⟨S4096x64x64, .f32⟩
  | 3 => ⟨S4096x96x64, .f32⟩
  | 4 => ⟨S4096x96x64, .f32⟩
  | 5 => ⟨S4096x96x64, .f32⟩
  | 6 => ⟨S_, .i32⟩
  | 7 => ⟨S262112, .i32⟩
  | 8 => ⟨S262112, .i1⟩
  | 9 => ⟨S_, .i32⟩
  | 10 => ⟨S262112, .i32⟩
  | 11 => ⟨S262112, .i32⟩
  | 12 => ⟨S262112, .i32⟩
  | 13 => ⟨S_, .i32⟩
  | 14 => ⟨S262112, .i32⟩
  | 15 => ⟨S262112, .i1⟩
  | 16 => ⟨S_, .i32⟩
  | 17 => ⟨S262112, .i32⟩
  | 18 => ⟨S262112, .i32⟩
  | 19 => ⟨S262112, .i32⟩
  | 20 => ⟨S262112x1, .i32⟩
  | 21 => ⟨S262112x1, .i32⟩
  | 22 => ⟨S262112x2, .i32⟩
  | 23 => ⟨S262112x64, .f32⟩
  | 24 => ⟨S4096x64x64, .f32⟩
  | 25 => ⟨S_, .i32⟩
  | 26 => ⟨S163550, .i32⟩
  | 27 => ⟨S163550, .i1⟩
  | 28 => ⟨S_, .i32⟩
  | 29 => ⟨S163550, .i32⟩
  | 30 => ⟨S163550, .i32⟩
  | 31 => ⟨S163550, .i32⟩
  | 32 => ⟨S_, .i32⟩
  | 33 => ⟨S163550, .i32⟩
  | 34 => ⟨S163550, .i1⟩
  | 35 => ⟨S_, .i32⟩
  | 36 => ⟨S163550, .i32⟩
  | 37 => ⟨S163550, .i32⟩
  | 38 => ⟨S163550, .i32⟩
  | 39 => ⟨S163550x1, .i32⟩
  | 40 => ⟨S163550x1, .i32⟩
  | 41 => ⟨S163550x2, .i32⟩
  | 42 => ⟨S163550x64, .f32⟩
  | 43 => ⟨S262112x128, .f32⟩
  | 44 => ⟨S_, .f32⟩
  | 45 => ⟨S4096x128, .f32⟩
  | 46 => ⟨S262112x1, .i32⟩
  | 47 => ⟨S4096x128, .f32⟩
  | 48 => ⟨S163550x128, .f32⟩
  | 49 => ⟨S_, .f32⟩
  | 50 => ⟨S4096x128, .f32⟩
  | 51 => ⟨S163550x1, .i32⟩
  | 52 => ⟨S4096x128, .f32⟩
  | 53 => ⟨S4096x256, .f32⟩
  | 54 => ⟨S4096x256, .f32⟩
  | 55 => ⟨S1x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x1, .f32⟩
  | 62 => ⟨S1x1, .f32⟩
  | 63 => ⟨S4096x1, .f32⟩
  | 64 => ⟨S4096x1, .f32⟩
  | _ => ⟨S262112x64, .f32⟩

abbrev hbmTy (i : Nat) : BufTy := match i / 128 with
  | 0 => hbmTy0_0 i
  | 1 => hbmTy0_1 i
  | 2 => hbmTy0_2 i
  | _ => ⟨S262112x64, .f32⟩

abbrev bufTy : (tb : Table) → Fin (tcTables nBuf tb) → BufTy
  | .hbm, ⟨i, _⟩ => hbmTy i
  | _, _ => ⟨S262112x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call0_cst : Ref sig .tc := ⟨.hbm, 76, rfl⟩
abbrev main_call0_v0 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call1_cst : Ref sig .tc := ⟨.hbm, 102, rfl⟩
abbrev main_call1_v0 : Ref sig .tc := ⟨.hbm, 103, rfl⟩
abbrev main_v66 : Ref sig .tc := ⟨.hbm, 104, rfl⟩
abbrev main_c_10 : Ref sig .tc := ⟨.hbm, 105, rfl⟩
abbrev main_v67 : Ref sig .tc := ⟨.hbm, 106, rfl⟩
abbrev main_v68 : Ref sig .tc := ⟨.hbm, 107, rfl⟩
abbrev main_c_11 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_12 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call2_cst : Ref sig .tc := ⟨.hbm, 128, rfl⟩
abbrev main_call2_v0 : Ref sig .tc := ⟨.hbm, 129, rfl⟩
abbrev main_v87 : Ref sig .tc := ⟨.hbm, 130, rfl⟩
abbrev main_c_13 : Ref sig .tc := ⟨.hbm, 131, rfl⟩
abbrev main_v88 : Ref sig .tc := ⟨.hbm, 132, rfl⟩
abbrev main_v89 : Ref sig .tc := ⟨.hbm, 133, rfl⟩
abbrev main_c_14 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_15 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_call3_cst : Ref sig .tc := ⟨.hbm, 154, rfl⟩
abbrev main_call3_v0 : Ref sig .tc := ⟨.hbm, 155, rfl⟩
abbrev main_v108 : Ref sig .tc := ⟨.hbm, 156, rfl⟩
abbrev main_v109 : Ref sig .tc := ⟨.hbm, 157, rfl⟩
abbrev main_cst_16 : Ref sig .tc := ⟨.hbm, 158, rfl⟩
abbrev main_v110 : Ref sig .tc := ⟨.hbm, 159, rfl⟩
abbrev main_cst_17 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_18 : Ref sig .tc := ⟨.hbm, 167, rfl⟩
abbrev main_v117 : Ref sig .tc := ⟨.hbm, 168, rfl⟩
abbrev main_cst_19 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_20 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_21 : Ref sig .tc := ⟨.hbm, 189, rfl⟩
abbrev main_v136 : Ref sig .tc := ⟨.hbm, 190, rfl⟩
abbrev main_cst_22 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_23 : Ref sig .tc := ⟨.hbm, 198, rfl⟩
abbrev main_v143 : Ref sig .tc := ⟨.hbm, 199, rfl⟩
abbrev main_cst_24 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_25 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_26 : Ref sig .tc := ⟨.hbm, 219, rfl⟩
abbrev main_v161 : Ref sig .tc := ⟨.hbm, 220, rfl⟩
abbrev main_c_27 : Ref sig .tc := ⟨.hbm, 221, rfl⟩
abbrev main_v162 : Ref sig .tc := ⟨.hbm, 222, rfl⟩
abbrev main_v163 : Ref sig .tc := ⟨.hbm, 223, rfl⟩
abbrev main_c_28 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_c_29 : Ref sig .tc := ⟨.hbm, 228, rfl⟩
abbrev main_v167 : Ref sig .tc := ⟨.hbm, 229, rfl⟩
abbrev main_v168 : Ref sig .tc := ⟨.hbm, 230, rfl⟩
abbrev main_c_30 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_31 : Ref sig .tc := ⟨.hbm, 239, rfl⟩
abbrev main_v176 : Ref sig .tc := ⟨.hbm, 240, rfl⟩
abbrev main_c_32 : Ref sig .tc := ⟨.hbm, 241, rfl⟩
abbrev main_v177 : Ref sig .tc := ⟨.hbm, 242, rfl⟩
abbrev main_v178 : Ref sig .tc := ⟨.hbm, 243, rfl⟩
abbrev main_c_33 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_c_34 : Ref sig .tc := ⟨.hbm, 248, rfl⟩
abbrev main_v182 : Ref sig .tc := ⟨.hbm, 249, rfl⟩
abbrev main_v183 : Ref sig .tc := ⟨.hbm, 250, rfl⟩
abbrev main_c_35 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_c_36 : Ref sig .tc := ⟨.hbm, 262, rfl⟩
abbrev main_v194 : Ref sig .tc := ⟨.hbm, 263, rfl⟩
abbrev main_v195 : Ref sig .tc := ⟨.hbm, 264, rfl⟩
abbrev main_c_37 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_c_38 : Ref sig .tc := ⟨.hbm, 269, rfl⟩
abbrev main_v199 : Ref sig .tc := ⟨.hbm, 270, rfl⟩
abbrev main_v200 : Ref sig .tc := ⟨.hbm, 271, rfl⟩
abbrev main_c_39 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_c_40 : Ref sig .tc := ⟨.hbm, 281, rfl⟩
abbrev main_v209 : Ref sig .tc := ⟨.hbm, 282, rfl⟩
abbrev main_v210 : Ref sig .tc := ⟨.hbm, 283, rfl⟩
abbrev main_c_41 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_c_42 : Ref sig .tc := ⟨.hbm, 288, rfl⟩
abbrev main_v214 : Ref sig .tc := ⟨.hbm, 289, rfl⟩
abbrev main_v215 : Ref sig .tc := ⟨.hbm, 290, rfl⟩
abbrev main_c_43 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_cst_44 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_cst_45 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_call4_cst : Ref sig .tc := ⟨.hbm, 314, rfl⟩
abbrev main_call4_v0 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S163550x64_0_1 : S1x64.BroadcastsInDim S163550x64 (![0, 1] : Fin 2 → Fin S163550x64.rank)
  bcast_S_S490650 : S_.BroadcastsInDim S490650 (![] : Fin 0 → Fin S490650.rank)
  bcast_S_S163550 : S_.BroadcastsInDim S163550 (![] : Fin 0 → Fin S163550.rank)
  bcast_S490650_S490650x1_0 : S490650.BroadcastsInDim S490650x1 (![0] : Fin 1 → Fin S490650x1.rank)
  bcast_S490650x1_S490650x64_0_1 : S490650x1.BroadcastsInDim S490650x64 (![0, 1] : Fin 2 → Fin S490650x64.rank)
  bcast_S_S163550x64 : S_.BroadcastsInDim S163550x64 (![] : Fin 0 → Fin S163550x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  reducesTo_S262112x64_S64_d0 : S262112x64.ReducesTo [0] S64
  h_S_ : 0 < S_.numel
  bcast_S_S64 : S_.BroadcastsInDim S64 (![] : Fin 0 → Fin S64.rank)
  bcast_S1x64_S262112x64_0_1 : S1x64.BroadcastsInDim S262112x64 (![0, 1] : Fin 2 → Fin S262112x64.rank)
  reducesTo_S163550x64_S64_d0 : S163550x64.ReducesTo [0] S64
  bcast_S_S4096x96x64 : S_.BroadcastsInDim S4096x96x64 (![] : Fin 0 → Fin S4096x96x64.rank)
  bcast_S_S262112 : S_.BroadcastsInDim S262112 (![] : Fin 0 → Fin S262112.rank)
  bcast_S262112_S262112x1_0 : S262112.BroadcastsInDim S262112x1 (![0] : Fin 1 → Fin S262112x1.rank)
  concatenates_S262112x1_S262112x1_S262112x2_d1 : Shape.Concatenates [S262112x1, S262112x1] S262112x2 1
  bcast_S_S4096x64x64 : S_.BroadcastsInDim S4096x64x64 (![] : Fin 0 → Fin S4096x64x64.rank)
  bcast_S163550_S163550x1_0 : S163550.BroadcastsInDim S163550x1 (![0] : Fin 1 → Fin S163550x1.rank)
  concatenates_S163550x1_S163550x1_S163550x2_d1 : Shape.Concatenates [S163550x1, S163550x1] S163550x2 1
  concatenates_S262112x64_S262112x64_S262112x128_d1 : Shape.Concatenates [S262112x64, S262112x64] S262112x128 1
  bcast_S_S4096x128 : S_.BroadcastsInDim S4096x128 (![] : Fin 0 → Fin S4096x128.rank)
  concatenates_S163550x64_S163550x64_S163550x128_d1 : Shape.Concatenates [S163550x64, S163550x64] S163550x128 1
  concatenates_S4096x128_S4096x128_S4096x256_d1 : Shape.Concatenates [S4096x128, S4096x128] S4096x256 1
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S163550x74_S74x64_S163550x64_1_0_0_1_n_n_wf : DotDims.WF S163550x74 S74x64 S163550x64 [1] [0] [0] [1] [] []
  scatter_S163550_S490650x1_S490650_n_0_0_1_wf : ScatterDims.WF S163550 S490650x1 S490650 [] [0] [0] 1
  gather_S163550_S490650x1_S490650_n_0_n_n_0_1_1_wf : GatherDims.WF S163550 S490650x1 S490650 [] [0] [] [0] [] 1 ![1]
  gather_S163550x64_S490650x1_S490650x64_1_0_n_n_0_1_164_wf : GatherDims.WF S163550x64 S490650x1 S490650x64 [1] [0] [] [0] [] 1 ![1, 64]
  scatter_S163550x64_S490650x1_S490650x64_1_0_0_1_wf : ScatterDims.WF S163550x64 S490650x1 S490650x64 [1] [0] [0] 1
  dot_S163550x64_S64x64_S163550x64_1_0_0_1_n_n_wf : DotDims.WF S163550x64 S64x64 S163550x64 [1] [0] [0] [1] [] []
  dot_S262112x64_S64x64_S262112x64_1_0_0_1_n_n_wf : DotDims.WF S262112x64 S64x64 S262112x64 [1] [0] [0] [1] [] []
  scatter_S4096x96x64_S262112x2_S262112x64_1_01_01_1_wf : ScatterDims.WF S4096x96x64 S262112x2 S262112x64 [1] [0, 1] [0, 1] 1
  scatter_S4096x64x64_S163550x2_S163550x64_1_01_01_1_wf : ScatterDims.WF S4096x64x64 S163550x2 S163550x64 [1] [0, 1] [0, 1] 1
  dot_S4096x96x64_S4096x64x64_S4096x96x64_2_2_1_1_0_0_wf : DotDims.WF S4096x96x64 S4096x64x64 S4096x96x64 [2] [2] [1] [1] [0] [0]
  dot_S4096x96x64_S4096x64x64_S4096x96x64_2_1_1_2_0_0_wf : DotDims.WF S4096x96x64 S4096x64x64 S4096x96x64 [2] [1] [1] [2] [0] [0]
  gather_S4096x96x64_S262112x2_S262112x64_1_01_n_n_01_1_1164_wf : GatherDims.WF S4096x96x64 S262112x2 S262112x64 [1] [0, 1] [] [0, 1] [] 1 ![1, 1, 64]
  dot_S4096x96x64_S4096x96x64_S4096x64x64_1_1_2_2_0_0_wf : DotDims.WF S4096x96x64 S4096x96x64 S4096x64x64 [1] [1] [2] [2] [0] [0]
  gather_S4096x64x64_S163550x2_S163550x64_1_01_n_n_01_1_1164_wf : GatherDims.WF S4096x64x64 S163550x2 S163550x64 [1] [0, 1] [] [0, 1] [] 1 ![1, 1, 64]
  scatter_S4096x128_S262112x1_S262112x128_1_0_0_1_wf : ScatterDims.WF S4096x128 S262112x1 S262112x128 [1] [0] [0] 1
  scatter_S4096x128_S163550x1_S163550x128_1_0_0_1_wf : ScatterDims.WF S4096x128 S163550x1 S163550x128 [1] [0] [0] 1
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []

variable [Facts₀]

def dot_S163550x74_S74x64_S163550x64_1_0_0_1_n_n : DotDims S163550x74 S74x64 S163550x64 where
  lhsContracting := [1]
  rhsContracting := [0]
  lhsNonContracting := [0]
  rhsNonContracting := [1]
  lhsBatch := []
  rhsBatch := []
  wf := dot_S163550x74_S74x64_S163550x64_1_0_0_1_n_n_wf
def scatter_S163550_S490650x1_S490650_n_0_0_1 : ScatterDims S163550 S490650x1 S490650 where
  updateWindowDims := []
  insertedWindowDims := [0]
  scatterDimsToOperandDims := [0]
  indexVectorDim := 1
  wf := scatter_S163550_S490650x1_S490650_n_0_0_1_wf
def gather_S163550_S490650x1_S490650_n_0_n_n_0_1_1 : GatherDims S163550 S490650x1 S490650 where
  offsetDims := []
  collapsedSliceDims := [0]
  operandBatchingDims := []
  startIndicesBatchingDims := []
  startIndexMap := [0]
  indexVectorDim := 1
  sliceSizes := ![1]
  wf := gather_S163550_S490650x1_S490650_n_0_n_n_0_1_1_wf
def gather_S163550x64_S490650x1_S490650x64_1_0_n_n_0_1_164 : GatherDims S163550x64 S490650x1 S490650x64 where
  offsetDims := [1]
  collapsedSliceDims := [0]
  operandBatchingDims := []
  startIndicesBatchingDims := []
  startIndexMap := [0]
  indexVectorDim := 1
  sliceSizes := ![1, 64]
  wf := gather_S163550x64_S490650x1_S490650x64_1_0_n_n_0_1_164_wf
def scatter_S163550x64_S490650x1_S490650x64_1_0_0_1 : ScatterDims S163550x64 S490650x1 S490650x64 where
  updateWindowDims := [1]
  insertedWindowDims := [0]
  scatterDimsToOperandDims := [0]
  indexVectorDim := 1
  wf := scatter_S163550x64_S490650x1_S490650x64_1_0_0_1_wf
def dot_S163550x64_S64x64_S163550x64_1_0_0_1_n_n : DotDims S163550x64 S64x64 S163550x64 where
  lhsContracting := [1]
  rhsContracting := [0]
  lhsNonContracting := [0]
  rhsNonContracting := [1]
  lhsBatch := []
  rhsBatch := []
  wf := dot_S163550x64_S64x64_S163550x64_1_0_0_1_n_n_wf
def dot_S262112x64_S64x64_S262112x64_1_0_0_1_n_n : DotDims S262112x64 S64x64 S262112x64 where
  lhsContracting := [1]
  rhsContracting := [0]
  lhsNonContracting := [0]
  rhsNonContracting := [1]
  lhsBatch := []
  rhsBatch := []
  wf := dot_S262112x64_S64x64_S262112x64_1_0_0_1_n_n_wf
def scatter_S4096x96x64_S262112x2_S262112x64_1_01_01_1 : ScatterDims S4096x96x64 S262112x2 S262112x64 where
  updateWindowDims := [1]
  insertedWindowDims := [0, 1]
  scatterDimsToOperandDims := [0, 1]
  indexVectorDim := 1
  wf := scatter_S4096x96x64_S262112x2_S262112x64_1_01_01_1_wf
def scatter_S4096x64x64_S163550x2_S163550x64_1_01_01_1 : ScatterDims S4096x64x64 S163550x2 S163550x64 where
  updateWindowDims := [1]
  insertedWindowDims := [0, 1]
  scatterDimsToOperandDims := [0, 1]
  indexVectorDim := 1
  wf := scatter_S4096x64x64_S163550x2_S163550x64_1_01_01_1_wf
def dot_S4096x96x64_S4096x64x64_S4096x96x64_2_2_1_1_0_0 : DotDims S4096x96x64 S4096x64x64 S4096x96x64 where
  lhsContracting := [2]
  rhsContracting := [2]
  lhsNonContracting := [1]
  rhsNonContracting := [1]
  lhsBatch := [0]
  rhsBatch := [0]
  wf := dot_S4096x96x64_S4096x64x64_S4096x96x64_2_2_1_1_0_0_wf
def dot_S4096x96x64_S4096x64x64_S4096x96x64_2_1_1_2_0_0 : DotDims S4096x96x64 S4096x64x64 S4096x96x64 where
  lhsContracting := [2]
  rhsContracting := [1]
  lhsNonContracting := [1]
  rhsNonContracting := [2]
  lhsBatch := [0]
  rhsBatch := [0]
  wf := dot_S4096x96x64_S4096x64x64_S4096x96x64_2_1_1_2_0_0_wf
def gather_S4096x96x64_S262112x2_S262112x64_1_01_n_n_01_1_1164 : GatherDims S4096x96x64 S262112x2 S262112x64 where
  offsetDims := [1]
  collapsedSliceDims := [0, 1]
  operandBatchingDims := []
  startIndicesBatchingDims := []
  startIndexMap := [0, 1]
  indexVectorDim := 1
  sliceSizes := ![1, 1, 64]
  wf := gather_S4096x96x64_S262112x2_S262112x64_1_01_n_n_01_1_1164_wf
def dot_S4096x96x64_S4096x96x64_S4096x64x64_1_1_2_2_0_0 : DotDims S4096x96x64 S4096x96x64 S4096x64x64 where
  lhsContracting := [1]
  rhsContracting := [1]
  lhsNonContracting := [2]
  rhsNonContracting := [2]
  lhsBatch := [0]
  rhsBatch := [0]
  wf := dot_S4096x96x64_S4096x96x64_S4096x64x64_1_1_2_2_0_0_wf
def gather_S4096x64x64_S163550x2_S163550x64_1_01_n_n_01_1_1164 : GatherDims S4096x64x64 S163550x2 S163550x64 where
  offsetDims := [1]
  collapsedSliceDims := [0, 1]
  operandBatchingDims := []
  startIndicesBatchingDims := []
  startIndexMap := [0, 1]
  indexVectorDim := 1
  sliceSizes := ![1, 1, 64]
  wf := gather_S4096x64x64_S163550x2_S163550x64_1_01_n_n_01_1_1164_wf
def scatter_S4096x128_S262112x1_S262112x128_1_0_0_1 : ScatterDims S4096x128 S262112x1 S262112x128 where
  updateWindowDims := [1]
  insertedWindowDims := [0]
  scatterDimsToOperandDims := [0]
  indexVectorDim := 1
  wf := scatter_S4096x128_S262112x1_S262112x128_1_0_0_1_wf
def scatter_S4096x128_S163550x1_S163550x128_1_0_0_1 : ScatterDims S4096x128 S163550x1 S163550x128 where
  updateWindowDims := [1]
  insertedWindowDims := [0]
  scatterDimsToOperandDims := [0]
  indexVectorDim := 1
  wf := scatter_S4096x128_S163550x1_S163550x128_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.Spec.lean ====
/-
  The common mathematical ground of the two programs, over the extended reals.

  A graph batch is stored two ways.  NODE-WISE: a flat array with one row of 64 features per node, together with
  two integer arrays giving, for node `i`, its graph `seg i` and its position `pos i` inside that graph.
  PADDED: a dense array `[graphs, L, 64]` whose slot `(seg i, pos i)` holds node `i`'s row and whose other
  slots are zero.  Everything the two programs compute after the padding is, per graph `b`, the same
  expression of the graph's padded rows:

    imap b p q  = tanh (Σ_d  H b p d · S b q d)            (cross attention of molecule row p and solvent row q)
    h2p  b p d  = Σ_q  imap b p q · S b q d
    hs2p b q d  = Σ_p  imap b p q · H b p d
    z b         = [ Σ_p Hraw b p · ,  Σ_p h2p b p · ,  Σ_q Sraw b q · ,  Σ_q hs2p b q · ]     (256 numbers)
    out b       = Σ_j  max (Σ_k z b k · W1 k j + b1 j) 0 · W2 j  +  b2

  One program sums the padded arrays over all slots of a graph; the other sums, node-wise, over the nodes whose
  segment is the graph.  `zPad` is the first form, `zNode` the second.
-/
import Idealize.ShloMosaic.PureOps.Ideal
import Idealize.ShloMosaic.Lib.ValueIdx

noncomputable section

namespace Cert.Spec

open Idealize.ShloMosaic Idealize.ShloMosaic.ValueIdx

/-- Arrays of extended reals over literal shapes. -/
abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

section Padded
variable {B : Nat}

/-- The attention weight of molecule slot `p` and solvent slot `q` of graph `b`. -/
def imap (Hb : A3 B 96 64) (Sb : A3 B 64 64) (b : Fin B) (p : Fin 96) (q : Fin 64) : EReal :=
  Ideal.tanh (∑ d : Fin 64, Hb (ix3 b p d) * Sb (ix3 b q d))

/-- The solvent rows mixed into molecule slot `p`. -/
def h2p (Hb : A3 B 96 64) (Sb : A3 B 64 64) (b : Fin B) (p : Fin 96) (d : Fin 64) : EReal :=
  ∑ q : Fin 64, imap Hb Sb b p q * Sb (ix3 b q d)

/-- The molecule rows mixed into solvent slot `q`. -/
def hs2p (Hb : A3 B 96 64) (Sb : A3 B 64 64) (b : Fin B) (q : Fin 64) (d : Fin 64) : EReal :=
  ∑ p : Fin 96, imap Hb Sb b p q * Hb (ix3 b p d)

/-- The pooled feature vector of graph `b`, summing every slot of the padded arrays. -/
def zPad (Hr : A3 B 96 64) (Sr : A3 B 64 64) (Hb : A3 B 96 64) (Sb : A3 B 64 64) (b : Fin B) (k : Fin 256) : EReal :=
  if h1 : k.val < 64 then ∑ p : Fin 96, Hr (ix3 b p ⟨k.val, h1⟩)
  else if h2 : k.val < 128 then ∑ p : Fin 96, h2p Hb Sb b p ⟨k.val - 64, by omega⟩
  else if h3 : k.val < 192 then ∑ q : Fin 64, Sr (ix3 b q ⟨k.val - 128, by omega⟩)
  else ∑ q : Fin 64, hs2p Hb Sb b q ⟨k.val - 192, by have := k.isLt; omega⟩

/-- The two-layer head on a pooled feature vector. -/
def mlp (z : Fin B → Fin 256 → EReal) (W1 : A2 256 256) (b1 : A1 256) (W2 : A2 256 1) (b2 : A1 1) (b : Fin B) : EReal :=
  (∑ j : Fin 256, max ((∑ k : Fin 256, z b k * W1 (ix2 k j)) + b1 (ix1 j)) 0 * W2 (ix2 j 0)) + b2 (ix1 0)

end Padded

section Nodes
variable {B L N : Nat}

/-- The padded form of node rows `x`: slot `(seg i, pos i)` holds row `i`, every slot no node names is zero.
    (Meaningful when no two nodes name one slot.) -/
def pad (seg : Fin N → Fin B) (pos : Fin N → Fin L) (x : A2 N 64) : A3 B L 64 :=
  fun j => if h : ∃ i : Fin N, (seg i).val = (j 0).val ∧ (pos i).val = (j 1).val then x (ix2 h.choose ⟨(j 2).val, (j 2).isLt⟩) else 0

end Nodes

/-- The pooled feature vector of graph `b`, summing node-wise over the nodes of the graph; the mixed rows are read
    back from the padded products at each node's own slot. -/
def zNode {B Nm Ns : Nat} (segM : Fin Nm → Fin B) (posM : Fin Nm → Fin 96) (segS : Fin Ns → Fin B) (posS : Fin Ns → Fin 64)
    (hN : A2 Nm 64) (hsN : A2 Ns 64) (hbN : A2 Nm 64) (sbN : A2 Ns 64) (b : Fin B) (k : Fin 256) : EReal :=
  if h1 : k.val < 64 then ∑ i ∈ Finset.univ.filter (fun i => segM i = b), hN (ix2 i ⟨k.val, h1⟩)
  else if h2 : k.val < 128 then
    ∑ i ∈ Finset.univ.filter (fun i => segM i = b), h2p (pad segM posM hbN) (pad segS posS sbN) (segM i) (posM i) ⟨k.val - 64, by omega⟩
  else if h3 : k.val < 192 then ∑ i ∈ Finset.univ.filter (fun i => segS i = b), hsN (ix2 i ⟨k.val - 128, by omega⟩)
  else ∑ i ∈ Finset.univ.filter (fun i => segS i = b),
    hs2p (pad segM posM hbN) (pad segS posS sbN) (segS i) (posS i) ⟨k.val - 192, by have := k.isLt; omega⟩

end Cert.Spec

end
-- ==== Proof.PadMath.lean ====
/-
  Padding node rows into a dense per-graph array and summing them back: a sum over all slots of a graph
  equals the sum over the graph's nodes, because every slot no node names holds zero.  Only reindexing of
  finite sums, dropping zero terms, and `0 * x = 0` are used.
-/
import proofs.«428288_j26706106647095_1_alg».proof.Proof.Spec
import Mathlib.Algebra.BigOperators.Group.Finset.Basic
import Mathlib.Data.EReal.Basic
import Mathlib.Analysis.Complex.Trigonometric

noncomputable section

namespace Cert.Spec

open Idealize.ShloMosaic Idealize.ShloMosaic.ValueIdx

/-- The slot a node names holds the node's row. -/
theorem pad_slot {B L N : Nat} (seg : Fin N → Fin B) (pos : Fin N → Fin L)
    (hinj : ∀ i j : Fin N, seg i = seg j → pos i = pos j → i = j) (x : A2 N 64) (i : Fin N) (d : Fin 64) :
    pad seg pos x (ix3 (seg i) (pos i) d) = x (ix2 i d) := by
  unfold pad
  have hex : ∃ i' : Fin N, (seg i').val = ((ix3 (seg i) (pos i) d) 0).val ∧
      (pos i').val = ((ix3 (seg i) (pos i) d) 1).val := ⟨i, rfl, rfl⟩
  rw [dif_pos hex]
  have hc := hex.choose_spec
  have hi : hex.choose = i := hinj _ _ (Fin.ext hc.1) (Fin.ext hc.2)
  rw [hi]
  rfl

/-- A slot no node names holds zero. -/
theorem pad_off {B L N : Nat} (seg : Fin N → Fin B) (pos : Fin N → Fin L) (x : A2 N 64)
    (b : Fin B) (l : Fin L) (d : Fin 64) (h : ∀ i, ¬ (seg i = b ∧ pos i = l)) :
    pad seg pos x (ix3 b l d) = 0 := by
  unfold pad
  rw [dif_neg]
  rintro ⟨i, h0, h1⟩
  exact h i ⟨Fin.ext h0, Fin.ext h1⟩

/-- Summing a per-slot quantity that vanishes on unnamed slots over all slots of graph `b` is summing it over the
    nodes of graph `b`, each at its own slot. -/
theorem sum_slots_eq_sum_nodes {B L N : Nat} (seg : Fin N → Fin B) (pos : Fin N → Fin L)
    (hinj : ∀ i j : Fin N, seg i = seg j → pos i = pos j → i = j) (Y : Fin B → Fin L → EReal)
    (hY : ∀ b l, (∀ i, ¬ (seg i = b ∧ pos i = l)) → Y b l = 0) (b : Fin B) :
    ∑ l : Fin L, Y b l = ∑ i ∈ Finset.univ.filter (fun i => seg i = b), Y (seg i) (pos i) := by
  have hcongr : ∑ i ∈ Finset.univ.filter (fun i => seg i = b), Y (seg i) (pos i)
      = ∑ i ∈ Finset.univ.filter (fun i => seg i = b), Y b (pos i) := by
    apply Finset.sum_congr rfl
    intro i hi
    rw [(Finset.mem_filter.1 hi).2]
  have hinjOn : Set.InjOn pos (Finset.univ.filter (fun i => seg i = b) : Finset (Fin N)) := by
    intro i hi j hj hij
    have hi' : seg i = b := (Finset.mem_filter.1 hi).2
    have hj' : seg j = b := (Finset.mem_filter.1 hj).2
    exact hinj i j (hi'.trans hj'.symm) hij
  rw [hcongr, ← Finset.sum_image (f := fun l => Y b l) hinjOn]
  symm
  apply Finset.sum_subset (Finset.subset_univ _)
  intro l _ hl
  apply hY
  rintro i ⟨hs, hp⟩
  exact hl (Finset.mem_image.2 ⟨i, Finset.mem_filter.2 ⟨Finset.mem_univ _, hs⟩, hp⟩)

/-- The hyperbolic tangent of zero is zero. -/
theorem tanh_zero' : Ideal.tanh 0 = 0 := by
  have h : Ideal.tanh ((0 : ℝ) : EReal) = ((Real.tanh 0 : ℝ) : EReal) := rfl
  rw [Real.tanh_zero] at h
  exact h

/-- A molecule slot whose features are all zero has attention weight zero to every solvent slot. -/
theorem imap_zero_left {B : Nat} (Hb : A3 B 96 64) (Sb : A3 B 64 64) (b : Fin B) (p : Fin 96) (q : Fin 64)
    (h : ∀ d, Hb (ix3 b p d) = 0) : imap Hb Sb b p q = 0 := by
  unfold imap
  have : ∑ d : Fin 64, Hb (ix3 b p d) * Sb (ix3 b q d) = 0 := by
    apply Finset.sum_eq_zero
    intro d _
    rw [h d, zero_mul]
  rw [this, tanh_zero']

/-- A solvent slot whose features are all zero has attention weight zero to every molecule slot. -/
theorem imap_zero_right {B : Nat} (Hb : A3 B 96 64) (Sb : A3 B 64 64) (b : Fin B) (p : Fin 96) (q : Fin 64)
    (h : ∀ d, Sb (ix3 b q d) = 0) : imap Hb Sb b p q = 0 := by
  unfold imap
  have : ∑ d : Fin 64, Hb (ix3 b p d) * Sb (ix3 b q d) = 0 := by
    apply Finset.sum_eq_zero
    intro d _
    rw [h d, mul_zero]
  rw [this, tanh_zero']

/-- A molecule slot whose features are all zero receives a zero mixed row. -/
theorem h2p_zero_row {B : Nat} (Hb : A3 B 96 64) (Sb : A3 B 64 64) (b : Fin B) (p : Fin 96) (d : Fin 64)
    (h : ∀ d', Hb (ix3 b p d') = 0) : h2p Hb Sb b p d = 0 := by
  unfold h2p
  apply Finset.sum_eq_zero
  intro q _
  rw [imap_zero_left Hb Sb b p q h, zero_mul]

/-- A solvent slot whose features are all zero receives a zero mixed row. -/
theorem hs2p_zero_row {B : Nat} (Hb : A3 B 96 64) (Sb : A3 B 64 64) (b : Fin B) (q : Fin 64) (d : Fin 64)
    (h : ∀ d', Sb (ix3 b q d') = 0) : hs2p Hb Sb b q d = 0 := by
  unfold hs2p
  apply Finset.sum_eq_zero
  intro p _
  rw [imap_zero_right Hb Sb b p q h, zero_mul]

/-- Pooling the padded arrays over every slot equals pooling node-wise over the nodes of the graph. -/
theorem zPad_pad_eq_zNode {B Nm Ns : Nat} (segM : Fin Nm → Fin B) (posM : Fin Nm → Fin 96)
    (segS : Fin Ns → Fin B) (posS : Fin Ns → Fin 64)
    (hM : ∀ i j : Fin Nm, segM i = segM j → posM i = posM j → i = j)
    (hS : ∀ i j : Fin Ns, segS i = segS j → posS i = posS j → i = j)
    (hN hbN : A2 Nm 64) (hsN sbN : A2 Ns 64) :
    zPad (pad segM posM hN) (pad segS posS hsN) (pad segM posM hbN) (pad segS posS sbN)
      = zNode segM posM segS posS hN hsN hbN sbN := by
  funext b k
  unfold zPad zNode
  by_cases h1 : k.val < 64
  · rw [dif_pos h1, dif_pos h1]
    rw [sum_slots_eq_sum_nodes segM posM hM (fun b l => pad segM posM hN (ix3 b l ⟨k.val, h1⟩))
      (fun b l h => pad_off segM posM hN b l _ h) b]
    apply Finset.sum_congr rfl
    intro i _
    exact pad_slot segM posM hM hN i _
  · rw [dif_neg h1, dif_neg h1]
    by_cases h2 : k.val < 128
    · rw [dif_pos h2, dif_pos h2]
      exact sum_slots_eq_sum_nodes segM posM hM
        (fun b l => h2p (pad segM posM hbN) (pad segS posS sbN) b l ⟨k.val - 64, by omega⟩)
        (fun b l h => h2p_zero_row _ _ b l _ (fun d' => pad_off segM posM hbN b l d' h)) b
    · rw [dif_neg h2, dif_neg h2]
      by_cases h3 : k.val < 192
      · rw [dif_pos h3, dif_pos h3]
        rw [sum_slots_eq_sum_nodes segS posS hS (fun b l => pad segS posS hsN (ix3 b l ⟨k.val - 128, by omega⟩))
          (fun b l h => pad_off segS posS hsN b l _ h) b]
        apply Finset.sum_congr rfl
        intro i _
        exact pad_slot segS posS hS hsN i _
      · rw [dif_neg h3, dif_neg h3]
        exact sum_slots_eq_sum_nodes segS posS hS
          (fun b l => hs2p (pad segM posM hbN) (pad segS posS sbN) b l ⟨k.val - 192, by have := k.isLt; omega⟩)
          (fun b l h => hs2p_zero_row _ _ b l _ (fun d' => pad_off segS posS sbN b l d' h)) b

/-- The attention weight of graph `b` reads only graph `b`'s rows. -/
theorem imap_congr {B B' : Nat} (Hb : A3 B 96 64) (Sb : A3 B 64 64) (Hb' : A3 B' 96 64) (Sb' : A3 B' 64 64)
    (b : Fin B) (b' : Fin B')
    (hHb : ∀ p d, Hb' (ix3 b' p d) = Hb (ix3 b p d)) (hSb : ∀ q d, Sb' (ix3 b' q d) = Sb (ix3 b q d))
    (p : Fin 96) (q : Fin 64) : imap Hb' Sb' b' p q = imap Hb Sb b p q := by
  unfold imap
  congr 1
  apply Finset.sum_congr rfl
  intro d _
  rw [hHb, hSb]

/-- The pooled vector of graph `b` reads only graph `b`'s rows. -/
theorem zPad_congr {B B' : Nat} (Hr : A3 B 96 64) (Sr : A3 B 64 64) (Hb : A3 B 96 64) (Sb : A3 B 64 64)
    (Hr' : A3 B' 96 64) (Sr' : A3 B' 64 64) (Hb' : A3 B' 96 64) (Sb' : A3 B' 64 64)
    (b : Fin B) (b' : Fin B')
    (hHr : ∀ p d, Hr' (ix3 b' p d) = Hr (ix3 b p d)) (hSr : ∀ q d, Sr' (ix3 b' q d) = Sr (ix3 b q d))
    (hHb : ∀ p d, Hb' (ix3 b' p d) = Hb (ix3 b p d)) (hSb : ∀ q d, Sb' (ix3 b' q d) = Sb (ix3 b q d))
    (k : Fin 256) : zPad Hr' Sr' Hb' Sb' b' k = zPad Hr Sr Hb Sb b k := by
  unfold zPad
  by_cases h1 : k.val < 64
  · rw [dif_pos h1, dif_pos h1]
    apply Finset.sum_congr rfl
    intro p _
    rw [hHr]
  · rw [dif_neg h1, dif_neg h1]
    by_cases h2 : k.val < 128
    · rw [dif_pos h2, dif_pos h2]
      apply Finset.sum_congr rfl
      intro p _
      unfold h2p
      apply Finset.sum_congr rfl
      intro q _
      rw [imap_congr Hb Sb Hb' Sb' b b' hHb hSb, hSb]
    · rw [dif_neg h2, dif_neg h2]
      by_cases h3 : k.val < 192
      · rw [dif_pos h3, dif_pos h3]
        apply Finset.sum_congr rfl
        intro q _
        rw [hSr]
      · rw [dif_neg h3, dif_neg h3]
        apply Finset.sum_congr rfl
        intro q _
        unfold hs2p
        apply Finset.sum_congr rfl
        intro p _
        rw [imap_congr Hb Sb Hb' Sb' b b' hHb hSb, hHb]

end Cert.Spec

end
-- ==== Proof.KMatmul.lean ====
/-
  The kernel's five matrix products read at an index: each is the plain sum over its one contracted axis.
-/
import proofs.«428288_j26706106647095_1_alg».proof.Proof.Gen.KernelIdeal.Skeleton
import Idealize.ShloMosaic.PureOps.Ideal.Laws
import Idealize.ShloMosaic.Lib.ValueIdx

noncomputable section

namespace Cert.KernelIdeal.KPay

open Cert.KernelIdeal Cert.KernelIdeal.Gen Idealize.ShloMosaic Idealize.ShloMosaic.ValueIdx Idealize.SL.Sem

/-! ## Scores: molecule rows against solvent rows, contracted over the 64 features -/

theorem lhsA_0 (i : S128x96x64.Idx) (q : dot_S128x96x64_S128x64x64_S128x96x64_2_2_1_1_0_0.contr.Idx) :
    (dot_S128x96x64_S128x64x64_S128x96x64_2_2_1_1_0_0.lhsIdx i q 0).val = (i 0).val := by
  unfold DotDims.lhsIdx
  rw [dif_pos (show (0 : Fin S128x96x64.rank) ∈ dot_S128x96x64_S128x64x64_S128x96x64_2_2_1_1_0_0.lhsBatch by decide)]
  rfl
theorem lhsA_1 (i : S128x96x64.Idx) (q : dot_S128x96x64_S128x64x64_S128x96x64_2_2_1_1_0_0.contr.Idx) :
    (dot_S128x96x64_S128x64x64_S128x96x64_2_2_1_1_0_0.lhsIdx i q 1).val = (i 1).val := by
  unfold DotDims.lhsIdx
  rw [dif_neg (show ¬(1 : Fin S128x96x64.rank) ∈ dot_S128x96x64_S128x64x64_S128x96x64_2_2_1_1_0_0.lhsBatch by decide), dif_pos (show (1 : Fin S128x96x64.rank) ∈ dot_S128x96x64_S128x64x64_S128x96x64_2_2_1_1_0_0.lhsNonContracting by decide)]
  rfl
theorem lhsA_2 (i : S128x96x64.Idx) (q : dot_S128x96x64_S128x64x64_S128x96x64_2_2_1_1_0_0.contr.Idx) :
    (dot_S128x96x64_S128x64x64_S128x96x64_2_2_1_1_0_0.lhsIdx i q 2).val = (q ⟨0, by decide⟩).val :=
  dot_S128x96x64_S128x64x64_S128x96x64_2_2_1_1_0_0.lhsIdx_val_of_single rfl i q
theorem rhsA_0 (i : S128x96x64.Idx) (q : dot_S128x96x64_S128x64x64_S128x96x64_2_2_1_1_0_0.contr.Idx) :
    (dot_S128x96x64_S128x64x64_S128x96x64_2_2_1_1_0_0.rhsIdx i q 0).val = (i 0).val := by
  unfold DotDims.rhsIdx
  rw [dif_pos (show (0 : Fin S128x64x64.rank) ∈ dot_S128x96x64_S128x64x64_S128x96x64_2_2_1_1_0_0.rhsBatch by decide)]
  rfl
theorem rhsA_1 (i : S128x96x64.Idx) (q : dot_S128x96x64_S128x64x64_S128x96x64_2_2_1_1_0_0.contr.Idx) :
    (dot_S128x96x64_S128x64x64_S128x96x64_2_2_1_1_0_0.rhsIdx i q 1).val = (i 2).val := by
  unfold DotDims.rhsIdx
  rw [dif_neg (show ¬(1 : Fin S128x64x64.rank) ∈ dot_S128x96x64_S128x64x64_S128x96x64_2_2_1_1_0_0.rhsBatch by decide), dif_pos (show (1 : Fin S128x64x64.rank) ∈ dot_S128x96x64_S128x64x64_S128x96x64_2_2_1_1_0_0.rhsNonContracting by decide)]
  rfl
theorem rhsA_2 (i : S128x96x64.Idx) (q : dot_S128x96x64_S128x64x64_S128x96x64_2_2_1_1_0_0.contr.Idx) :
    (dot_S128x96x64_S128x64x64_S128x96x64_2_2_1_1_0_0.rhsIdx i q 2).val = (q ⟨0, by decide⟩).val :=
  dot_S128x96x64_S128x64x64_S128x96x64_2_2_1_1_0_0.rhsIdx_val_of_single rfl i q

/-- At graph `b`, molecule slot `p`, solvent slot `q`: the sum over the features of the two rows' products. -/
theorem mmA_apply (l : FVec Ideal S128x96x64 .bf16) (r : FVec Ideal S128x64x64 .bf16) (b : Fin 128) (p : Fin 96) (q : Fin 64) :
    matmul dot_S128x96x64_S128x64x64_S128x96x64_2_2_1_1_0_0 none l r (constant (F := Ideal) S128x96x64 .f32 0x00000000#32) (ix3 b p q)
      = ∑ k : Fin 64, l (ix3 b p k) * r (ix3 b q k) := by
  simp only [matmul]
  rw [Ideal.matmul_constant_zero_apply, ← Equiv.sum_comp (ValueIdx.contrEquiv1 dot_S128x96x64_S128x64x64_S128x96x64_2_2_1_1_0_0 64 rfl rfl).symm]
  refine Finset.sum_congr rfl fun k _ => ?_
  have hk := ValueIdx.contrEquiv1_symm_val dot_S128x96x64_S128x64x64_S128x96x64_2_2_1_1_0_0 64 rfl rfl k
  have el : dot_S128x96x64_S128x64x64_S128x96x64_2_2_1_1_0_0.lhsIdx (ix3 b p q) ((ValueIdx.contrEquiv1 dot_S128x96x64_S128x64x64_S128x96x64_2_2_1_1_0_0 64 rfl rfl).symm k) = ix3 b p k := funext fun a => Fin.ext (by
    match a with
    | ⟨0, _⟩ => exact lhsA_0 _ _
    | ⟨1, _⟩ => exact lhsA_1 _ _
    | ⟨2, _⟩ => exact (lhsA_2 _ _).trans hk)
  have er : dot_S128x96x64_S128x64x64_S128x96x64_2_2_1_1_0_0.rhsIdx (ix3 b p q) ((ValueIdx.contrEquiv1 dot_S128x96x64_S128x64x64_S128x96x64_2_2_1_1_0_0 64 rfl rfl).symm k) = ix3 b q k := funext fun a => Fin.ext (by
    match a with
    | ⟨0, _⟩ => exact rhsA_0 _ _
    | ⟨1, _⟩ => exact rhsA_1 _ _
    | ⟨2, _⟩ => exact (rhsA_2 _ _).trans hk)
  rw [el, er]

/-! ## Weights times solvent rows, contracted over the 64 solvent slots -/

theorem lhsB_0 (i : S128x96x64.Idx) (q : dot_S128x96x64_S128x64x64_S128x96x64_2_1_1_2_0_0.contr.Idx) :
    (dot_S128x96x64_S128x64x64_S128x96x64_2_1_1_2_0_0.lhsIdx i q 0).val = (i 0).val := by
  unfold DotDims.lhsIdx
  rw [dif_pos (show (0 : Fin S128x96x64.rank) ∈ dot_S128x96x64_S128x64x64_S128x96x64_2_1_1_2_0_0.lhsBatch by decide)]
  rfl
theorem lhsB_1 (i : S128x96x64.Idx) (q : dot_S128x96x64_S128x64x64_S128x96x64_2_1_1_2_0_0.contr.Idx) :
    (dot_S128x96x64_S128x64x64_S128x96x64_2_1_1_2_0_0.lhsIdx i q 1).val = (i 1).val := by
  unfold DotDims.lhsIdx
  rw [dif_neg (show ¬(1 : Fin S128x96x64.rank) ∈ dot_S128x96x64_S128x64x64_S128x96x64_2_1_1_2_0_0.lhsBatch by decide), dif_pos (show (1 : Fin S128x96x64.rank) ∈ dot_S128x96x64_S128x64x64_S128x96x64_2_1_1_2_0_0.lhsNonContracting by decide)]
  rfl
theorem lhsB_2 (i : S128x96x64.Idx) (q : dot_S128x96x64_S128x64x64_S128x96x64_2_1_1_2_0_0.contr.Idx) :
    (dot_S128x96x64_S128x64x64_S128x96x64_2_1_1_2_0_0.lhsIdx i q 2).val = (q ⟨0, by decide⟩).val :=
  dot_S128x96x64_S128x64x64_S128x96x64_2_1_1_2_0_0.lhsIdx_val_of_single rfl i q
theorem rhsB_0 (i : S128x96x64.Idx) (q : dot_S128x96x64_S128x64x64_S128x96x64_2_1_1_2_0_0.contr.Idx) :
    (dot_S128x96x64_S128x64x64_S128x96x64_2_1_1_2_0_0.rhsIdx i q 0).val = (i 0).val := by
  unfold DotDims.rhsIdx
  rw [dif_pos (show (0 : Fin S128x64x64.rank) ∈ dot_S128x96x64_S128x64x64_S128x96x64_2_1_1_2_0_0.rhsBatch by decide)]
  rfl
theorem rhsB_2 (i : S128x96x64.Idx) (q : dot_S128x96x64_S128x64x64_S128x96x64_2_1_1_2_0_0.contr.Idx) :
    (dot_S128x96x64_S128x64x64_S128x96x64_2_1_1_2_0_0.rhsIdx i q 2).val = (i 2).val := by
  unfold DotDims.rhsIdx
  rw [dif_neg (show ¬(2 : Fin S128x64x64.rank) ∈ dot_S128x96x64_S128x64x64_S128x96x64_2_1_1_2_0_0.rhsBatch by decide), dif_pos (show (2 : Fin S128x64x64.rank) ∈ dot_S128x96x64_S128x64x64_S128x96x64_2_1_1_2_0_0.rhsNonContracting by decide)]
  rfl
theorem rhsB_1 (i : S128x96x64.Idx) (q : dot_S128x96x64_S128x64x64_S128x96x64_2_1_1_2_0_0.contr.Idx) :
    (dot_S128x96x64_S128x64x64_S128x96x64_2_1_1_2_0_0.rhsIdx i q 1).val = (q ⟨0, by decide⟩).val :=
  dot_S128x96x64_S128x64x64_S128x96x64_2_1_1_2_0_0.rhsIdx_val_of_single rfl i q

/-- At graph `b`, molecule slot `p`, feature `d`: the sum over the solvent slots. -/
theorem mmB_apply (l : FVec Ideal S128x96x64 .bf16) (r : FVec Ideal S128x64x64 .bf16) (b : Fin 128) (p : Fin 96) (d : Fin 64) :
    matmul dot_S128x96x64_S128x64x64_S128x96x64_2_1_1_2_0_0 none l r (constant (F := Ideal) S128x96x64 .f32 0x00000000#32) (ix3 b p d)
      = ∑ k : Fin 64, l (ix3 b p k) * r (ix3 b k d) := by
  simp only [matmul]
  rw [Ideal.matmul_constant_zero_apply, ← Equiv.sum_comp (ValueIdx.contrEquiv1 dot_S128x96x64_S128x64x64_S128x96x64_2_1_1_2_0_0 64 rfl rfl).symm]
  refine Finset.sum_congr rfl fun k _ => ?_
  have hk := ValueIdx.contrEquiv1_symm_val dot_S128x96x64_S128x64x64_S128x96x64_2_1_1_2_0_0 64 rfl rfl k
  have el : dot_S128x96x64_S128x64x64_S128x96x64_2_1_1_2_0_0.lhsIdx (ix3 b p d) ((ValueIdx.contrEquiv1 dot_S128x96x64_S128x64x64_S128x96x64_2_1_1_2_0_0 64 rfl rfl).symm k) = ix3 b p k := funext fun a => Fin.ext (by
    match a with
    | ⟨0, _⟩ => exact lhsB_0 _ _
    | ⟨1, _⟩ => exact lhsB_1 _ _
    | ⟨2, _⟩ => exact (lhsB_2 _ _).trans hk)
  have er : dot_S128x96x64_S128x64x64_S128x96x64_2_1_1_2_0_0.rhsIdx (ix3 b p d) ((ValueIdx.contrEquiv1 dot_S128x96x64_S128x64x64_S128x96x64_2_1_1_2_0_0 64 rfl rfl).symm k) = ix3 b k d := funext fun a => Fin.ext (by
    match a with
    | ⟨0, _⟩ => exact rhsB_0 _ _
    | ⟨1, _⟩ => exact (rhsB_1 _ _).trans hk
    | ⟨2, _⟩ => exact rhsB_2 _ _)
  rw [el, er]

/-! ## Transposed weights times molecule rows, contracted over the 96 molecule slots -/

theorem lhsC_0 (i : S128x64x64.Idx) (q : dot_S128x64x96_S128x96x64_S128x64x64_2_1_1_2_0_0.contr.Idx) :
    (dot_S128x64x96_S128x96x64_S128x64x64_2_1_1_2_0_0.lhsIdx i q 0).val = (i 0).val := by
  unfold DotDims.lhsIdx
  rw [dif_pos (show (0 : Fin S128x64x96.rank) ∈ dot_S128x64x96_S128x96x64_S128x64x64_2_1_1_2_0_0.lhsBatch by decide)]
  rfl
theorem lhsC_1 (i : S128x64x64.Idx) (q : dot_S128x64x96_S128x96x64_S128x64x64_2_1_1_2_0_0.contr.Idx) :
    (dot_S128x64x96_S128x96x64_S128x64x64_2_1_1_2_0_0.lhsIdx i q 1).val = (i 1).val := by
  unfold DotDims.lhsIdx
  rw [dif_neg (show ¬(1 : Fin S128x64x96.rank) ∈ dot_S128x64x96_S128x96x64_S128x64x64_2_1_1_2_0_0.lhsBatch by decide), dif_pos (show (1 : Fin S128x64x96.rank) ∈ dot_S128x64x96_S128x96x64_S128x64x64_2_1_1_2_0_0.lhsNonContracting by decide)]
  rfl
theorem lhsC_2 (i : S128x64x64.Idx) (q : dot_S128x64x96_S128x96x64_S128x64x64_2_1_1_2_0_0.contr.Idx) :
    (dot_S128x64x96_S128x96x64_S128x64x64_2_1_1_2_0_0.lhsIdx i q 2).val = (q ⟨0, by decide⟩).val :=
  dot_S128x64x96_S128x96x64_S128x64x64_2_1_1_2_0_0.lhsIdx_val_of_single rfl i q
theorem rhsC_0 (i : S128x64x64.Idx) (q : dot_S128x64x96_S128x96x64_S128x64x64_2_1_1_2_0_0.contr.Idx) :
    (dot_S128x64x96_S128x96x64_S128x64x64_2_1_1_2_0_0.rhsIdx i q 0).val = (i 0).val := by
  unfold DotDims.rhsIdx
  rw [dif_pos (show (0 : Fin S128x96x64.rank) ∈ dot_S128x64x96_S128x96x64_S128x64x64_2_1_1_2_0_0.rhsBatch by decide)]
  rfl
theorem rhsC_2 (i : S128x64x64.Idx) (q : dot_S128x64x96_S128x96x64_S128x64x64_2_1_1_2_0_0.contr.Idx) :
    (dot_S128x64x96_S128x96x64_S128x64x64_2_1_1_2_0_0.rhsIdx i q 2).val = (i 2).val := by
  unfold DotDims.rhsIdx
  rw [dif_neg (show ¬(2 : Fin S128x96x64.rank) ∈ dot_S128x64x96_S128x96x64_S128x64x64_2_1_1_2_0_0.rhsBatch by decide), dif_pos (show (2 : Fin S128x96x64.rank) ∈ dot_S128x64x96_S128x96x64_S128x64x64_2_1_1_2_0_0.rhsNonContracting by decide)]
  rfl
theorem rhsC_1 (i : S128x64x64.Idx) (q : dot_S128x64x96_S128x96x64_S128x64x64_2_1_1_2_0_0.contr.Idx) :
    (dot_S128x64x96_S128x96x64_S128x64x64_2_1_1_2_0_0.rhsIdx i q 1).val = (q ⟨0, by decide⟩).val :=
  dot_S128x64x96_S128x96x64_S128x64x64_2_1_1_2_0_0.rhsIdx_val_of_single rfl i q

/-- At graph `b`, solvent slot `q`, feature `d`: the sum over the molecule slots. -/
theorem mmC_apply (l : FVec Ideal S128x64x96 .bf16) (r : FVec Ideal S128x96x64 .bf16) (b : Fin 128) (q : Fin 64) (d : Fin 64) :
    matmul dot_S128x64x96_S128x96x64_S128x64x64_2_1_1_2_0_0 none l r (constant (F := Ideal) S128x64x64 .f32 0x00000000#32) (ix3 b q d)
      = ∑ k : Fin 96, l (ix3 b q k) * r (ix3 b k d) := by
  simp only [matmul]
  rw [Ideal.matmul_constant_zero_apply, ← Equiv.sum_comp (ValueIdx.contrEquiv1 dot_S128x64x96_S128x96x64_S128x64x64_2_1_1_2_0_0 96 rfl rfl).symm]
  refine Finset.sum_congr rfl fun k _ => ?_
  have hk := ValueIdx.contrEquiv1_symm_val dot_S128x64x96_S128x96x64_S128x64x64_2_1_1_2_0_0 96 rfl rfl k
  have el : dot_S128x64x96_S128x96x64_S128x64x64_2_1_1_2_0_0.lhsIdx (ix3 b q d) ((ValueIdx.contrEquiv1 dot_S128x64x96_S128x96x64_S128x64x64_2_1_1_2_0_0 96 rfl rfl).symm k) = ix3 b q k := funext fun a => Fin.ext (by
    match a with
    | ⟨0, _⟩ => exact lhsC_0 _ _
    | ⟨1, _⟩ => exact lhsC_1 _ _
    | ⟨2, _⟩ => exact (lhsC_2 _ _).trans hk)
  have er : dot_S128x64x96_S128x96x64_S128x64x64_2_1_1_2_0_0.rhsIdx (ix3 b q d) ((ValueIdx.contrEquiv1 dot_S128x64x96_S128x96x64_S128x64x64_2_1_1_2_0_0 96 rfl rfl).symm k) = ix3 b k d := funext fun a => Fin.ext (by
    match a with
    | ⟨0, _⟩ => exact rhsC_0 _ _
    | ⟨1, _⟩ => exact (rhsC_1 _ _).trans hk
    | ⟨2, _⟩ => exact rhsC_2 _ _)
  rw [el, er]

/-! ## The head's two plain products -/

theorem lhsD_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhsD_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhsD_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhsD_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- Row `g` of the pooled features against column `j` of the first layer's weights. -/
theorem mmD_apply (l : FVec Ideal S128x256 .bf16) (r : FVec Ideal S256x256 .bf16) (g : Fin 128) (j : Fin 256) :
    matmul dot_S128x256_S256x256_S128x256_1_0_0_1_n_n none l r (constant (F := Ideal) S128x256 .f32 0x00000000#32) (ix2 g j)
      = ∑ k : Fin 256, l (ix2 g k) * r (ix2 k j) := by
  simp only [matmul]
  rw [Ideal.matmul_constant_zero_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 g j) ((ValueIdx.contrEquiv1 dot_S128x256_S256x256_S128x256_1_0_0_1_n_n 256 rfl rfl).symm k) = ix2 g k := funext fun a => Fin.ext (by
    match a with
    | ⟨0, _⟩ => exact lhsD_0 _ _
    | ⟨1, _⟩ => exact (lhsD_1 _ _).trans hk)
  have er : dot_S128x256_S256x256_S128x256_1_0_0_1_n_n.rhsIdx (ix2 g j) ((ValueIdx.contrEquiv1 dot_S128x256_S256x256_S128x256_1_0_0_1_n_n 256 rfl rfl).symm k) = ix2 k j := funext fun a => Fin.ext (by
    match a with
    | ⟨0, _⟩ => exact (rhsD_0 _ _).trans hk
    | ⟨1, _⟩ => exact rhsD_1 _ _)
  rw [el, er]

theorem lhsE_0 (i : S128x1.Idx) (q : dot_S128x256_S256x1_S128x1_1_0_0_1_n_n.contr.Idx) :
    (dot_S128x256_S256x1_S128x1_1_0_0_1_n_n.lhsIdx i q 0).val = (i 0).val := by
  unfold DotDims.lhsIdx
  rw [dif_neg (show ¬(0 : Fin S128x256.rank) ∈ dot_S128x256_S256x1_S128x1_1_0_0_1_n_n.lhsBatch by decide), dif_pos (show (0 : Fin S128x256.rank) ∈ dot_S128x256_S256x1_S128x1_1_0_0_1_n_n.lhsNonContracting by decide)]
  rfl
theorem lhsE_1 (i : S128x1.Idx) (q : dot_S128x256_S256x1_S128x1_1_0_0_1_n_n.contr.Idx) :
    (dot_S128x256_S256x1_S128x1_1_0_0_1_n_n.lhsIdx i q 1).val = (q ⟨0, by decide⟩).val :=
  dot_S128x256_S256x1_S128x1_1_0_0_1_n_n.lhsIdx_val_of_single rfl i q
theorem rhsE_0 (i : S128x1.Idx) (q : dot_S128x256_S256x1_S128x1_1_0_0_1_n_n.contr.Idx) :
    (dot_S128x256_S256x1_S128x1_1_0_0_1_n_n.rhsIdx i q 0).val = (q ⟨0, by decide⟩).val :=
  dot_S128x256_S256x1_S128x1_1_0_0_1_n_n.rhsIdx_val_of_single rfl i q
theorem rhsE_1 (i : S128x1.Idx) (q : dot_S128x256_S256x1_S128x1_1_0_0_1_n_n.contr.Idx) :
    (dot_S128x256_S256x1_S128x1_1_0_0_1_n_n.rhsIdx i q 1).val = (i 1).val := by
  unfold DotDims.rhsIdx
  rw [dif_neg (show ¬(1 : Fin S256x1.rank) ∈ dot_S128x256_S256x1_S128x1_1_0_0_1_n_n.rhsBatch by decide), dif_pos (show (1 : Fin S256x1.rank) ∈ dot_S128x256_S256x1_S128x1_1_0_0_1_n_n.rhsNonContracting by decide)]
  rfl

/-- Row `g` of the hidden activations against the second layer's one column. -/
theorem mmE_apply (l : FVec Ideal S128x256 .bf16) (r : FVec Ideal S256x1 .bf16) (g : Fin 128) :
    matmul dot_S128x256_S256x1_S128x1_1_0_0_1_n_n none l r (constant (F := Ideal) S128x1 .f32 0x00000000#32) (ix2 g (0 : Fin 1))
      = ∑ k : Fin 256, l (ix2 g k) * r (ix2 k (0 : Fin 1)) := by
  simp only [matmul]
  rw [Ideal.matmul_constant_zero_apply, ← Equiv.sum_comp (ValueIdx.contrEquiv1 dot_S128x256_S256x1_S128x1_1_0_0_1_n_n 256 rfl rfl).symm]
  refine Finset.sum_congr rfl fun k _ => ?_
  have hk := ValueIdx.contrEquiv1_symm_val dot_S128x256_S256x1_S128x1_1_0_0_1_n_n 256 rfl rfl k
  have el : dot_S128x256_S256x1_S128x1_1_0_0_1_n_n.lhsIdx (ix2 g (0 : Fin 1)) ((ValueIdx.contrEquiv1 dot_S128x256_S256x1_S128x1_1_0_0_1_n_n 256 rfl rfl).symm k) = ix2 g k := funext fun a => Fin.ext (by
    match a with
    | ⟨0, _⟩ => exact lhsE_0 _ _
    | ⟨1, _⟩ => exact (lhsE_1 _ _).trans hk)
  have er : dot_S128x256_S256x1_S128x1_1_0_0_1_n_n.rhsIdx (ix2 g (0 : Fin 1)) ((ValueIdx.contrEquiv1 dot_S128x256_S256x1_S128x1_1_0_0_1_n_n 256 rfl rfl).symm k) = ix2 k (0 : Fin 1) := funext fun a => Fin.ext (by
    match a with
    | ⟨0, _⟩ => exact (rhsE_0 _ _).trans hk
    | ⟨1, _⟩ => exact rhsE_1 _ _)
  rw [el, er]

end Cert.KernelIdeal.KPay

end
-- ==== Proof.KLayout.lean ====
/-
  The kernel's layout steps read at an index: the slot sums of a padded block, the transposed weights, and the
  four pooled pieces laid side by side in the 256 columns of the feature vector.
-/
import proofs.«428288_j26706106647095_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Cert.KernelIdeal Cert.KernelIdeal.Gen Idealize.ShloMosaic Idealize.ShloMosaic.ValueIdx Idealize.SL.Sem

/-! ## Slot sums -/

/-- The sum over the 96 molecule slots of a block, at graph `g` and feature `d`. -/
theorem sum96_apply (v : FVec Ideal S128x96x64 .f32) (hφ : FKind.Formats .f32) (hacc : (0x00000000#32 : BitVec 32) = 0x00000000#32)
    (g : Fin 128) (d : Fin 64) :
    multiReduction (F := Ideal) .add [1] S128x64 v 0x00000000#32 reduces_S128x96x64_S128x64 hφ hacc (ix2 g d)
      = ∑ p : Fin 96, v (ix3 g p d) := by
  refine (Ideal.multiReduction_add_single v 0x00000000#32 reduces_S128x96x64_S128x64 hφ hacc (ix2 g d)).trans ?_
  refine Finset.sum_congr rfl fun p _ => congrArg v ?_
  funext a
  match a with
  | ⟨0, _⟩ => rfl
  | ⟨1, _⟩ => rfl
  | ⟨2, _⟩ => rfl

/-- The sum over the 64 solvent slots of a block, at graph `g` and feature `d`. -/
theorem sum64_apply (v : FVec Ideal S128x64x64 .f32) (hφ : FKind.Formats .f32) (hacc : (0x00000000#32 : BitVec 32) = 0x00000000#32)
    (g : Fin 128) (d : Fin 64) :
    multiReduction (F := Ideal) .add [1] S128x64 v 0x00000000#32 reduces_S128x64x64_S128x64 hφ hacc (ix2 g d)
      = ∑ q : Fin 64, v (ix3 g q d) := by
  refine (Ideal.multiReduction_add_single v 0x00000000#32 reduces_S128x64x64_S128x64 hφ hacc (ix2 g d)).trans ?_
  refine Finset.sum_congr rfl fun q _ => congrArg v ?_
  funext a
  match a with
  | ⟨0, _⟩ => rfl
  | ⟨1, _⟩ => rfl
  | ⟨2, _⟩ => rfl

/-! ## The transposed weights -/

/-- The weights with their two slot axes exchanged read, at `(g, q, p)`, the weights at `(g, p, q)`. -/
theorem wT_apply (w : FVec Ideal S128x96x64 .bf16) (g : Fin 128) (q : Fin 64) (p : Fin 96) :
    transpose S128x64x96 [0, 2, 1] w transposes_S128x96x64_p0_2_1_S128x64x96 (ix3 g q p) = w (ix3 g p q) :=
  transpose_ix3_021_apply w transposes_S128x96x64_p0_2_1_S128x64x96 g q p

/-! ## Two pieces side by side -/

/-- Two `[128, 64]` pieces side by side, at a column of the first. -/
theorem cat64_left (a b : FVec Ideal S128x64 .f32) (g : Fin 128) (k : Fin 128) (hk : k.val < 64) :
    concatenate S128x128 1 [⟨S128x64, a⟩, ⟨S128x64, b⟩] concatenates_S128x64_S128x64_S128x128_d1 (ix2 g k) = a (ix2 g ⟨k.val, hk⟩) :=
  concatenate_pair_apply_left 1 a b concatenates_S128x64_S128x64_S128x128_d1 (ix2 g k) rfl (ix2 g ⟨k.val, hk⟩)
    (fun c => match c with | ⟨0, _⟩ => rfl | ⟨1, _⟩ => rfl)

/-- Two `[128, 64]` pieces side by side, at a column of the second. -/
theorem cat64_right (a b : FVec Ideal S128x64 .f32) (g : Fin 128) (k : Fin 128) (hk : 64 ≤ k.val) :
    concatenate S128x128 1 [⟨S128x64, a⟩, ⟨S128x64, b⟩] concatenates_S128x64_S128x64_S128x128_d1 (ix2 g k)
      = b (ix2 g ⟨k.val - 64, by have := k.isLt; omega⟩) :=
  concatenate_pair_apply_right 1 a b concatenates_S128x64_S128x64_S128x128_d1 (ix2 g k) rfl rfl (ix2 g ⟨k.val - 64, by have := k.isLt; omega⟩)
    (fun c hc => match c, hc with | ⟨0, _⟩, _ => rfl | ⟨1, _⟩, hc => absurd rfl hc)
    (by show k.val - 64 + 64 = k.val; omega)

/-- Two `[128, 128]` pieces side by side, at a column of the first. -/
theorem cat128_left (a b : FVec Ideal S128x128 .f32) (g : Fin 128) (k : Fin 256) (hk : k.val < 128) :
    concatenate S128x256 1 [⟨S128x128, a⟩, ⟨S128x128, b⟩] concatenates_S128x128_S128x128_S128x256_d1 (ix2 g k) = a (ix2 g ⟨k.val, hk⟩) :=
  concatenate_pair_apply_left 1 a b concatenates_S128x128_S128x128_S128x256_d1 (ix2 g k) rfl (ix2 g ⟨k.val, hk⟩)
    (fun c => match c with | ⟨0, _⟩ => rfl | ⟨1, _⟩ => rfl)

/-- Two `[128, 128]` pieces side by side, at a column of the second. -/
theorem cat128_right (a b : FVec Ideal S128x128 .f32) (g : Fin 128) (k : Fin 256) (hk : 128 ≤ k.val) :
    concatenate S128x256 1 [⟨S128x128, a⟩, ⟨S128x128, b⟩] concatenates_S128x128_S128x128_S128x256_d1 (ix2 g k)
      = b (ix2 g ⟨k.val - 128, by have := k.isLt; omega⟩) :=
  concatenate_pair_apply_right 1 a b concatenates_S128x128_S128x128_S128x256_d1 (ix2 g k) rfl rfl (ix2 g ⟨k.val - 128, by have := k.isLt; omega⟩)
    (fun c hc => match c, hc with | ⟨0, _⟩, _ => rfl | ⟨1, _⟩, hc => absurd rfl hc)
    (by show k.val - 128 + 128 = k.val; omega)

end Cert.KernelIdeal.KPay

end
-- ==== Proof.KPayload.lean ====
/-
  PER POINT: the block the kernel's body stores, row by row, is the specification's two-layer head on the pooled
  features of the point's four graph blocks.  The pooled block is read column range by column range (raw molecule sums,
  mixed molecule sums, raw solvent sums, mixed solvent sums); the head is the two plain products with their biases.
-/
import proofs.«428288_j26706106647095_1_alg».proof.Proof.Gen.KernelIdeal.Skeleton
import proofs.«428288_j26706106647095_1_alg».proof.Proof.KMatmul
import proofs.«428288_j26706106647095_1_alg».proof.Proof.KLayout
import proofs.«428288_j26706106647095_1_alg».proof.Proof.Spec
import Idealize.ShloMosaic.PureOps.Ideal.Laws
import Idealize.ShloMosaic.Lib.ValueIdx
import Idealize.ShloMosaic.Lib.Pipeline.Value

noncomputable section

namespace Cert.KernelIdeal.KValue

open Cert.KernelIdeal Cert.KernelIdeal.Gen Cert.KernelIdeal.KPay Idealize.ShloMosaic Idealize.ShloMosaic.ValueIdx Idealize.SL.Sem

/-! ## The attention weights -/

/-- The attention weights as the kernel holds them: the hyperbolic tangent of the scores. -/
def wts (x2 : FVec Ideal S128x96x64 .bf16) (x3 : FVec Ideal S128x64x64 .bf16) : FVec Ideal S128x96x64 .bf16 :=
  truncf .bf16 (tanh (matmul dot_S128x96x64_S128x64x64_S128x96x64_2_2_1_1_0_0 none x2 x3 (constant (F := Ideal) S128x96x64 .f32 0x00000000#32))) bitsLt_bf16_f32

/-- At graph `g`, molecule slot `p`, solvent slot `q` they are the specification's attention weight. -/
theorem wts_apply (x2 : FVec Ideal S128x96x64 .bf16) (x3 : FVec Ideal S128x64x64 .bf16) (g : Fin 128) (p : Fin 96) (q : Fin 64) :
    wts x2 x3 (ix3 g p q) = Cert.Spec.imap x2 x3 g p q := by
  show Ideal.tanh (matmul dot_S128x96x64_S128x64x64_S128x96x64_2_2_1_1_0_0 none x2 x3 (constant (F := Ideal) S128x96x64 .f32 0x00000000#32) (ix3 g p q)) = _
  rw [mmA_apply]
  rfl

/-! ## The pooled feature vector -/

/-- The `[128, 256]` block of pooled features: the raw molecule sums, the mixed molecule sums, the raw solvent sums and
    the mixed solvent sums, side by side. -/
def zK (x0 : FVec Ideal S128x96x64 .f32) (x1 : FVec Ideal S128x64x64 .f32) (x2 : FVec Ideal S128x96x64 .bf16)
    (x3 : FVec Ideal S128x64x64 .bf16) : FVec Ideal S128x256 .f32 :=
  concatenate S128x256 1
    [⟨S128x128, concatenate S128x128 1
        [⟨S128x64, multiReduction (F := Ideal) .add [1] S128x64 x0 0x00000000#32 reduces_S128x96x64_S128x64 (.inl rfl) rfl⟩,
         ⟨S128x64, multiReduction (F := Ideal) .add [1] S128x64
            (matmul dot_S128x96x64_S128x64x64_S128x96x64_2_1_1_2_0_0 none (wts x2 x3) x3 (constant (F := Ideal) S128x96x64 .f32 0x00000000#32))
            0x00000000#32 reduces_S128x96x64_S128x64 (.inl rfl) rfl⟩]
        concatenates_S128x64_S128x64_S128x128_d1⟩,
     ⟨S128x128, concatenate S128x128 1
        [⟨S128x64, multiReduction (F := Ideal) .add [1] S128x64 x1 0x00000000#32 reduces_S128x64x64_S128x64 (.inl rfl) rfl⟩,
         ⟨S128x64, multiReduction (F := Ideal) .add [1] S128x64
            (matmul dot_S128x64x96_S128x96x64_S128x64x64_2_1_1_2_0_0 none
              (transpose S128x64x96 [0, 2, 1] (wts x2 x3) transposes_S128x96x64_p0_2_1_S128x64x96) x2
              (constant (F := Ideal) S128x64x64 .f32 0x00000000#32))
            0x00000000#32 reduces_S128x64x64_S128x64 (.inl rfl) rfl⟩]
        concatenates_S128x64_S128x64_S128x128_d1⟩]
    concatenates_S128x128_S128x128_S128x256_d1

/-- Row `g`, column `k` of the pooled block is the specification's pooled feature `k` of graph `g`. -/
theorem zK_apply (x0 : FVec Ideal S128x96x64 .f32) (x1 : FVec Ideal S128x64x64 .f32) (x2 : FVec Ideal S128x96x64 .bf16)
    (x3 : FVec Ideal S128x64x64 .bf16) (g : Fin 128) (k : Fin 256) :
    zK x0 x1 x2 x3 (ix2 g k) = Cert.Spec.zPad x0 x1 x2 x3 g k := by
  have hk := k.isLt
  unfold zK Cert.Spec.zPad
  by_cases h1 : k.val < 64
  · rw [dif_pos h1, cat128_left _ _ g k (by omega), cat64_left _ _ g ⟨k.val, by omega⟩ h1, sum96_apply]
  · rw [dif_neg h1]
    by_cases h2 : k.val < 128
    · rw [dif_pos h2, cat128_left _ _ g k h2, cat64_right _ _ g ⟨k.val, h2⟩ (Nat.le_of_not_lt h1), sum96_apply]
      refine Finset.sum_congr rfl fun p _ => ?_
      rw [mmB_apply]
      unfold Cert.Spec.h2p
      refine Finset.sum_congr rfl fun q _ => ?_
      rw [wts_apply]
    · rw [dif_neg h2]
      by_cases h3 : k.val < 192
      · rw [dif_pos h3, cat128_right _ _ g k (Nat.le_of_not_lt h2), cat64_left _ _ g ⟨k.val - 128, by omega⟩ (by show k.val - 128 < 64; omega), sum64_apply]
      · rw [dif_neg h3, cat128_right _ _ g k (Nat.le_of_not_lt h2), cat64_right _ _ g ⟨k.val - 128, by omega⟩ (by show 64 ≤ k.val - 128; omega), sum64_apply]
        refine Finset.sum_congr rfl fun q _ => ?_
        rw [mmC_apply]
        unfold Cert.Spec.hs2p
        have e : (⟨k.val - 128 - 64, by omega⟩ : Fin 64) = ⟨k.val - 192, by omega⟩ := Fin.ext (by show k.val - 128 - 64 = k.val - 192; omega)
        refine Finset.sum_congr rfl fun p _ => ?_
        rw [wT_apply, wts_apply]
        exact congrArg (fun d => Cert.Spec.imap x2 x3 g p q * x2 (ix3 g p d)) e

/-! ## The hidden layer -/

/-- The hidden activations of a pooled block: the first layer, its bias row, and the rectifier. -/
def hid (z : FVec Ideal S128x256 .f32) (x4 : FVec Ideal S256x256 .f32) (x5 : FVec Ideal S1x256 .f32) : FVec Ideal S128x256 .bf16 :=
  truncf .bf16
    (maximumf
      (addf
        (matmul dot_S128x256_S256x256_S128x256_1_0_0_1_n_n none (truncf .bf16 z bitsLt_bf16_f32) (truncf .bf16 x4 bitsLt_bf16_f32)
          (constant (F := Ideal) S128x256 .f32 0x00000000#32))
        (broadcastTo S128x256 x5 broadcasts_S1x256_S128x256))
      (broadcast S128x256 (Scalar.ofBits (F := Ideal) .f32 0x00000000#32)))
    bitsLt_bf16_f32

/-- Row `g`, unit `j` of the hidden activations. -/
theorem hid_apply (z : FVec Ideal S128x256 .f32) (x4 : FVec Ideal S256x256 .f32) (x5 : FVec Ideal S1x256 .f32) (g : Fin 128) (j : Fin 256) :
    hid z x4 x5 (ix2 g j) = max ((∑ k : Fin 256, z (ix2 g k) * x4 (ix2 k j)) + x5 (ix2 0 j)) 0 := by
  show max (matmul dot_S128x256_S256x256_S128x256_1_0_0_1_n_n none (truncf .bf16 z bitsLt_bf16_f32) (truncf .bf16 x4 bitsLt_bf16_f32)
          (constant (F := Ideal) S128x256 .f32 0x00000000#32) (ix2 g j)
        + broadcastTo S128x256 x5 broadcasts_S1x256_S128x256 (ix2 g j)) (Ideal.ofBits .f32 0x00000000#32) = _
  rw [mmD_apply, Ideal.ofBits_zero_f32,
    broadcastTo_apply x5 broadcasts_S1x256_S128x256 (ix2 g j) (ix2 0 j) (fun a => match a with | ⟨0, _⟩ => rfl | ⟨1, _⟩ => rfl)]
  rfl

/-- The body's first payload is the hidden layer of the pooled block of its four graph blocks. -/
theorem pay2_split (x0 : Vec Ideal S128x96x64 .f32) (x1 : Vec Ideal S128x64x64 .f32) (x2 : Vec Ideal S128x96x64 .bf16)
    (x3 : Vec Ideal S128x64x64 .bf16) (x4 : Vec Ideal S256x256 .f32) (x5 : Vec Ideal S1x256 .f32) :
    k0_pay2 (F := Ideal) x0 x1 x2 x3 x4 x5
      = hid (zK (shapeCast S128x96x64 x0 shapeCasts_S128x96x64_S128x96x64) (shapeCast S128x64x64 x1 shapeCasts_S128x64x64_S128x64x64)
              (shapeCast S128x96x64 x2 shapeCasts_S128x96x64_S128x96x64) (shapeCast S128x64x64 x3 shapeCasts_S128x64x64_S128x64x64))
          x4 (shapeCast S1x256 x5 shapeCasts_S1x256_S1x256) := rfl

/-! ## The output layer -/

/-- Row `g` of the stored block: the second layer on the hidden activations, plus its bias. -/
theorem pay1_apply (h : FVec Ideal S128x256 .bf16) (x6 : Vec Ideal S256x1 .f32) (x7 : Vec Ideal S1x1 .f32) (g : Fin 128) :
    k0_pay1 (F := Ideal) h x6 x7 (ix2 g 0) = (∑ j : Fin 256, h (ix2 g j) * x6 (ix2 j 0)) + x7 (ix2 0 0) := by
  unfold k0_pay1
  show matmul dot_S128x256_S256x1_S128x1_1_0_0_1_n_n none h (truncf .bf16 x6 bitsLt_bf16_f32) (constant (F := Ideal) S128x1 .f32 0x00000000#32) (ix2 g 0)
      + broadcastTo S128x1 (shapeCast S1x1 x7 shapeCasts_S1x1_S1x1) broadcasts_S1x1_S128x1 (ix2 g 0) = _
  rw [mmE_apply, shapeCast_self,
    broadcastTo_apply x7 broadcasts_S1x1_S128x1 (ix2 g 0) (ix2 0 0) (fun a => match a with | ⟨0, _⟩ => rfl | ⟨1, _⟩ => rfl)]
  rfl

/-! ## The stored block -/

/-- PER POINT: row `r` of the block the body stores is the specification's head on the pooled features of graph `r` of
    the point's four graph blocks. -/
theorem payload_eq (x0 : Vec Ideal S128x96x64 .f32) (x1 : Vec Ideal S128x64x64 .f32) (x2 : Vec Ideal S128x96x64 .bf16)
    (x3 : Vec Ideal S128x64x64 .bf16) (x4 : Vec Ideal S256x256 .f32) (x5 : Vec Ideal S1x256 .f32) (x6 : Vec Ideal S256x1 .f32)
    (x7 : Vec Ideal S1x1 .f32) (r : Fin 128) :
    Gen.k0_pay1 (Gen.k0_pay2 x0 x1 x2 x3 x4 x5) x6 x7 (ix2 r 0)
      = Cert.Spec.mlp (Cert.Spec.zPad x0 x1 x2 x3) x4 (fun j => x5 (ix2 0 (j 0))) x6 (fun _ => x7 (ix2 0 0)) r := by
  rw [pay1_apply, pay2_split]
  simp only [shapeCast_self]
  unfold Cert.Spec.mlp
  refine congrArg (· + x7 (ix2 0 0)) (Finset.sum_congr rfl fun j _ => ?_)
  rw [hid_apply]
  refine congrArg (fun y => max (y + x5 (ix2 0 j)) 0 * x6 (ix2 j 0)) (Finset.sum_congr rfl fun k _ => ?_)
  rw [zK_apply]

end Cert.KernelIdeal.KValue

end
-- ==== Proof.KBlocks.lean ====
/-
  From blocks to the array, for the kernel: grid point `t` stages graphs `128 t … 128 t + 127` of the four graph-major
  arrays and the four parameter arrays whole, and writes rows `128 t … 128 t + 127` of the result. What it writes is,
  row by row, the two-layer head on the pooled vector of that graph's padded rows; the 32 blocks tile the result, so the
  result array after the run is that function of the arrays at every graph.
-/
import proofs.«428288_j26706106647095_1_alg».proof.Proof.Gen.KernelIdeal.Value
import proofs.«428288_j26706106647095_1_alg».proof.Proof.Spec
import proofs.«428288_j26706106647095_1_alg».proof.Proof.PadMath
import proofs.«428288_j26706106647095_1_alg».proof.Proof.KPayload

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a rank-2 rectangle, as the constant function. -/
theorem hz2 : (![0, 0] : Fin 2 → Nat) = fun _ => 0 := funext fun a => by fin_cases a <;> rfl
/-- The zero offsets of a rank-3 rectangle, as the constant function. -/
theorem hz3 : (![0, 0, 0] : Fin 3 → Nat) = fun _ => 0 := funext fun a => by fin_cases a <;> rfl

/-- The printed index maps, decided over the grid: point `t` takes block `t` of the four graph-major arrays and of the
    result along the graph axis, and the four parameter arrays whole. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- The grid has 32 points. -/
theorem t_lt (t : Fin cfg0.N) : t.val < 32 := by have := t.isLt; have h : cfg0.N = 32 := N_0; omega

/-- Point `t`'s block of a `[4096, 96, 64]` array under window 0 is its graphs `128 t … 128 t + 127`. -/
theorem read0_apply (t : Fin cfg0.N) (f : ((cfg0.win 0).blk t).view.ty.Contents (Elt Ideal))
    (r : Fin 128) (p : Fin 96) (d : Fin 64) (g : Fin 4096) (hg : g.val = 128 * t.val + r.val) :
    (((cfg0.win 0).blk t).view.read (Elt Ideal) f : Vec Ideal S128x96x64 .f32) (ix3 r p d) = (f : S4096x96x64.Idx → EReal) (ix3 g p d) := by
  obtain ⟨⟨e0, e1, e2⟩, -, -, -, -, -, -, -, -⟩ := idx_facts t
  rw [View.read_apply]
  show (f : S4096x96x64.Idx → EReal) _ = (f : S4096x96x64.Idx → EReal) _
  congr 1
  funext a
  apply Fin.ext
  match a with
  | ⟨0, _⟩ => show win0_0.index t (0 : Fin 3) * 128 + 1 * r.val = g.val; omega
  | ⟨1, _⟩ => show win0_0.index t (1 : Fin 3) * 96 + 1 * p.val = p.val; omega
  | ⟨2, _⟩ => show win0_0.index t (2 : Fin 3) * 64 + 1 * d.val = d.val; omega

/-- Point `t`'s block of a `[4096, 64, 64]` array under window 1 is its graphs `128 t … 128 t + 127`. -/
theorem read1_apply (t : Fin cfg0.N) (f : ((cfg0.win 1).blk t).view.ty.Contents (Elt Ideal))
    (r : Fin 128) (p : Fin 64) (d : Fin 64) (g : Fin 4096) (hg : g.val = 128 * t.val + r.val) :
    (((cfg0.win 1).blk t).view.read (Elt Ideal) f : Vec Ideal S128x64x64 .f32) (ix3 r p d) = (f : S4096x64x64.Idx → EReal) (ix3 g p d) := by
  obtain ⟨-, ⟨e0, e1, e2⟩, -, -, -, -, -, -, -⟩ := idx_facts t
  rw [View.read_apply]
  show (f : S4096x64x64.Idx → EReal) _ = (f : S4096x64x64.Idx → EReal) _
  congr 1
  funext a
  apply Fin.ext
  match a with
  | ⟨0, _⟩ => show win0_1.index t (0 : Fin 3) * 128 + 1 * r.val = g.val; omega
  | ⟨1, _⟩ => show win0_1.index t (1 : Fin 3) * 64 + 1 * p.val = p.val; omega
  | ⟨2, _⟩ => show win0_1.index t (2 : Fin 3) * 64 + 1 * d.val = d.val; omega

/-- Point `t`'s block of a `[4096, 96, 64]` array under window 2 is its graphs `128 t … 128 t + 127`. -/
theorem read2_apply (t : Fin cfg0.N) (f : ((cfg0.win 2).blk t).view.ty.Contents (Elt Ideal))
    (r : Fin 128) (p : Fin 96) (d : Fin 64) (g : Fin 4096) (hg : g.val = 128 * t.val + r.val) :
    (((cfg0.win 2).blk t).view.read (Elt Ideal) f : Vec Ideal S128x96x64 .bf16) (ix3 r p d) = (f : S4096x96x64.Idx → EReal) (ix3 g p d) := by
  obtain ⟨-, -, ⟨e0, e1, e2⟩, -, -, -, -, -, -⟩ := idx_facts t
  rw [View.read_apply]
  show (f : S4096x96x64.Idx → EReal) _ = (f : S4096x96x64.Idx → EReal) _
  congr 1
  funext a
  apply Fin.ext
  match a with
  | ⟨0, _⟩ => show win0_2.index t (0 : Fin 3) * 128 + 1 * r.val = g.val; omega
  | ⟨1, _⟩ => show win0_2.index t (1 : Fin 3) * 96 + 1 * p.val = p.val; omega
  | ⟨2, _⟩ => show win0_2.index t (2 : Fin 3) * 64 + 1 * d.val = d.val; omega

/-- Point `t`'s block of a `[4096, 64, 64]` array under window 3 is its graphs `128 t … 128 t + 127`. -/
theorem read3_apply (t : Fin cfg0.N) (f : ((cfg0.win 3).blk t).view.ty.Contents (Elt Ideal))
    (r : Fin 128) (p : Fin 64) (d : Fin 64) (g : Fin 4096) (hg : g.val = 128 * t.val + r.val) :
    (((cfg0.win 3).blk t).view.read (Elt Ideal) f : Vec Ideal S128x64x64 .bf16) (ix3 r p d) = (f : S4096x64x64.Idx → EReal) (ix3 g p d) := by
  obtain ⟨-, -, -, ⟨e0, e1, e2⟩, -, -, -, -, -⟩ := idx_facts t
  rw [View.read_apply]
  show (f : S4096x64x64.Idx → EReal) _ = (f : S4096x64x64.Idx → EReal) _
  congr 1
  funext a
  apply Fin.ext
  match a with
  | ⟨0, _⟩ => show win0_3.index t (0 : Fin 3) * 128 + 1 * r.val = g.val; omega
  | ⟨1, _⟩ => show win0_3.index t (1 : Fin 3) * 64 + 1 * p.val = p.val; omega
  | ⟨2, _⟩ => show win0_3.index t (2 : Fin 3) * 64 + 1 * d.val = d.val; omega

/-- Window 4's block at any point is its whole `[256, 256]` array. -/
theorem read4_eq (t : Fin cfg0.N) (f : ((cfg0.win 4).blk t).view.ty.Contents (Elt Ideal)) :
    (((cfg0.win 4).blk t).view.read (Elt Ideal) f : Vec Ideal S256x256 .f32) = (f : S256x256.Idx → EReal) := by
  obtain ⟨-, -, -, -, ⟨e0, e1⟩, -, -, -, -⟩ := idx_facts t
  funext y
  rw [View.read_apply]
  show (f : S256x256.Idx → EReal) _ = (f : S256x256.Idx → EReal) y
  congr 1
  funext a
  apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- Window 5's block at any point is its whole `[1, 256]` array. -/
theorem read5_eq (t : Fin cfg0.N) (f : ((cfg0.win 5).blk t).view.ty.Contents (Elt Ideal)) :
    (((cfg0.win 5).blk t).view.read (Elt Ideal) f : Vec Ideal S1x256 .f32) = (f : S1x256.Idx → EReal) := by
  obtain ⟨-, -, -, -, -, ⟨e0, e1⟩, -, -, -⟩ := idx_facts t
  funext y
  rw [View.read_apply]
  show (f : S1x256.Idx → EReal) _ = (f : S1x256.Idx → EReal) y
  congr 1
  funext a
  apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6's block at any point is its whole `[256, 1]` array. -/
theorem read6_eq (t : Fin cfg0.N) (f : ((cfg0.win 6).blk t).view.ty.Contents (Elt Ideal)) :
    (((cfg0.win 6).blk t).view.read (Elt Ideal) f : Vec Ideal S256x1 .f32) = (f : S256x1.Idx → EReal) := by
  obtain ⟨-, -, -, -, -, -, ⟨e0, e1⟩, -, -⟩ := idx_facts t
  funext y
  rw [View.read_apply]
  show (f : S256x1.Idx → EReal) _ = (f : S256x1.Idx → EReal) y
  congr 1
  funext a
  apply Fin.ext
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 7's block at any point is its whole `[1, 1]` array. -/
theorem read7_eq (t : Fin cfg0.N) (f : ((cfg0.win 7).blk t).view.ty.Contents (Elt Ideal)) :
    (((cfg0.win 7).blk t).view.read (Elt Ideal) f : Vec Ideal S1x1 .f32) = (f : S1x1.Idx → EReal) := by
  obtain ⟨-, -, -, -, -, -, -, ⟨e0, e1⟩, -⟩ := idx_facts t
  funext y
  rw [View.read_apply]
  show (f : S1x1.Idx → EReal) _ = (f : S1x1.Idx → EReal) y
  congr 1
  funext a
  apply Fin.ext
  match a with
  | ⟨0, _⟩ => show win0_7.index t (0 : Fin 2) * 1 + 1 * (y 0).val = (y 0).val; omega
  | ⟨1, _⟩ => show win0_7.index t (1 : Fin 2) * 1 + 1 * (y 1).val = (y 1).val; omega

/-- Window 0's block at point `t` of an array `f`. -/
abbrev rd0 (t : Fin cfg0.N) (f : ((cfg0.win 0).blk t).view.ty.Contents (Elt Ideal)) : Vec Ideal S128x96x64 .f32 := ((cfg0.win 0).blk t).view.read (Elt Ideal) f

/-- Window 1's block at point `t` of an array `f`. -/
abbrev rd1 (t : Fin cfg0.N) (f : ((cfg0.win 1).blk t).view.ty.Contents (Elt Ideal)) : Vec Ideal S128x64x64 .f32 := ((cfg0.win 1).blk t).view.read (Elt Ideal) f

/-- Window 2's block at point `t` of an array `f`. -/
abbrev rd2 (t : Fin cfg0.N) (f : ((cfg0.win 2).blk t).view.ty.Contents (Elt Ideal)) : Vec Ideal S128x96x64 .bf16 := ((cfg0.win 2).blk t).view.read (Elt Ideal) f

/-- Window 3's block at point `t` of an array `f`. -/
abbrev rd3 (t : Fin cfg0.N) (f : ((cfg0.win 3).blk t).view.ty.Contents (Elt Ideal)) : Vec Ideal S128x64x64 .bf16 := ((cfg0.win 3).blk t).view.read (Elt Ideal) f

/-- Window 4's block at point `t` of an array `f`. -/
abbrev rd4 (t : Fin cfg0.N) (f : ((cfg0.win 4).blk t).view.ty.Contents (Elt Ideal)) : Vec Ideal S256x256 .f32 := ((cfg0.win 4).blk t).view.read (Elt Ideal) f

/-- Window 5's block at point `t` of an array `f`. -/
abbrev rd5 (t : Fin cfg0.N) (f : ((cfg0.win 5).blk t).view.ty.Contents (Elt Ideal)) : Vec Ideal S1x256 .f32 := ((cfg0.win 5).blk t).view.read (Elt Ideal) f

/-- Window 6's block at point `t` of an array `f`. -/
abbrev rd6 (t : Fin cfg0.N) (f : ((cfg0.win 6).blk t).view.ty.Contents (Elt Ideal)) : Vec Ideal S256x1 .f32 := ((cfg0.win 6).blk t).view.read (Elt Ideal) f

/-- Window 7's block at point `t` of an array `f`. -/
abbrev rd7 (t : Fin cfg0.N) (f : ((cfg0.win 7).blk t).view.ty.Contents (Elt Ideal)) : Vec Ideal S1x1 .f32 := ((cfg0.win 7).blk t).view.read (Elt Ideal) f

/-- The two-layer head reads the pooled vector of its own graph only, and its parameters as they are. -/
theorem mlp_congr {B B' : Nat} (z : Fin B → Fin 256 → EReal) (z' : Fin B' → Fin 256 → EReal)
    (W1 W1' : Cert.Spec.A2 256 256) (b1 b1' : Cert.Spec.A1 256) (W2 W2' : Cert.Spec.A2 256 1) (b2 b2' : Cert.Spec.A1 1)
    (b : Fin B) (b' : Fin B') (hz : ∀ k, z' b' k = z b k) (hW1 : W1' = W1) (hb1 : b1' = b1) (hW2 : W2' = W2) (hb2 : b2' = b2) :
    Cert.Spec.mlp z' W1' b1' W2' b2' b' = Cert.Spec.mlp z W1 b1 W2 b2 b := by
  subst hW1 hb1 hW2 hb2
  unfold Cert.Spec.mlp
  simp only [hz]

/-- The result array as a function of the eight arrays the windows stage: per graph, the two-layer head on the pooled
    vector of the graph's padded rows. -/
abbrev Gf (a0 : Cert.Spec.A3 4096 96 64) (a1 : Cert.Spec.A3 4096 64 64) (a2 : Cert.Spec.A3 4096 96 64) (a3 : Cert.Spec.A3 4096 64 64)
    (a4 : Cert.Spec.A2 256 256) (a5 : Cert.Spec.A2 1 256) (a6 : Cert.Spec.A2 256 1) (a7 : Cert.Spec.A2 1 1) : S4096x1.Idx → EReal := fun i =>
  Cert.Spec.mlp (Cert.Spec.zPad a0 a1 a2 a3) a4 (fun j => a5 (ix2 0 (j 0))) a6 (fun _ => a7 (ix2 0 0)) (i 0)

/-- What the body computes from point `t`'s blocks, at row `r` of its block, is the result array's entry of graph `128 t + r`. -/
theorem point_gen (t : Fin cfg0.N)
    (f0 : ((cfg0.win 0).blk t).view.ty.Contents (Elt Ideal))
    (f1 : ((cfg0.win 1).blk t).view.ty.Contents (Elt Ideal))
    (f2 : ((cfg0.win 2).blk t).view.ty.Contents (Elt Ideal))
    (f3 : ((cfg0.win 3).blk t).view.ty.Contents (Elt Ideal))
    (f4 : ((cfg0.win 4).blk t).view.ty.Contents (Elt Ideal))
    (f5 : ((cfg0.win 5).blk t).view.ty.Contents (Elt Ideal))
    (f6 : ((cfg0.win 6).blk t).view.ty.Contents (Elt Ideal))
    (f7 : ((cfg0.win 7).blk t).view.ty.Contents (Elt Ideal))
    (j : S128x1.Idx) :
    k0_pay1 (k0_pay2 (rd0 t f0) (rd1 t f1) (rd2 t f2) (rd3 t f3) (rd4 t f4) (rd5 t f5)) (rd6 t f6) (rd7 t f7) j
      = Gf f0 f1 f2 f3 f4 f5 f6 f7 (((cfg0.win 8).blk t).view.emb j) := by
  obtain ⟨r, q, rfl⟩ : ∃ (r : Fin 128) (q : Fin 1), j = ix2 r q := ⟨j 0, j 1, eq_ix2 j⟩
  obtain rfl : q = 0 := Subsingleton.elim _ _
  have ht := t_lt t
  obtain ⟨-, -, -, -, -, -, -, -, ⟨e0, e1⟩⟩ := idx_facts t
  have hemb : ((cfg0.win 8).blk t).view.emb (ix2 r 0) = (ix2 (⟨128 * t.val + r.val, by omega⟩ : Fin 4096) (0 : Fin 1) : S4096x1.Idx) := by
    funext a
    apply Fin.ext
    match a with
    | ⟨0, _⟩ => show win0_8.index t (0 : Fin 2) * 128 + 1 * r.val = 128 * t.val + r.val; omega
    | ⟨1, _⟩ => show win0_8.index t (1 : Fin 2) * 1 + 1 * 0 = 0; omega
  rw [hemb]
  refine (payload_eq (rd0 t f0) (rd1 t f1) (rd2 t f2) (rd3 t f3) (rd4 t f4) (rd5 t f5) (rd6 t f6) (rd7 t f7) r).trans ?_
  exact mlp_congr (B := 4096) (B' := 128) (Cert.Spec.zPad f0 f1 f2 f3) (Cert.Spec.zPad (rd0 t f0) (rd1 t f1) (rd2 t f2) (rd3 t f3))
    f4 (rd4 t f4) (fun j => (f5 : Cert.Spec.A2 1 256) (ix2 0 (j 0))) (fun j => rd5 t f5 (ix2 0 (j 0))) f6 (rd6 t f6)
    (fun _ => (f7 : Cert.Spec.A2 1 1) (ix2 0 0)) (fun _ => rd7 t f7 (ix2 0 0)) ⟨128 * t.val + r.val, by omega⟩ r
    (fun k => Cert.Spec.zPad_congr f0 f1 f2 f3 (rd0 t f0) (rd1 t f1) (rd2 t f2) (rd3 t f3) ⟨128 * t.val + r.val, by omega⟩ r
      (fun p d => read0_apply t f0 r p d _ rfl) (fun p d => read1_apply t f1 r p d _ rfl)
      (fun p d => read2_apply t f2 r p d _ rfl) (fun p d => read3_apply t f3 r p d _ rfl) k)
    (read4_eq t f4) (by rw [show rd5 t f5 = (f5 : Cert.Spec.A2 1 256) from read5_eq t f5]) (read6_eq t f6)
    (by rw [show rd7 t f7 = (f7 : Cert.Spec.A2 1 1) from read7_eq t f7])

/-- The body's one store covers the result block, so what it leaves there is its payload of the loaded blocks. -/
theorem out_eq (x0 : Vec Ideal S128x96x64 .f32) (x1 : Vec Ideal S128x64x64 .f32) (x2 : Vec Ideal S128x96x64 .bf16) (x3 : Vec Ideal S128x64x64 .bf16) (x4 : Vec Ideal S256x256 .f32) (x5 : Vec Ideal S1x256 .f32) (x6 : Vec Ideal S256x1 .f32) (x7 : Vec Ideal S1x1 .f32) :
    out0_8 x0 x1 x2 x3 x4 x5 x6 x7 = k0_pay1 (k0_pay2 x0 x1 x2 x3 x4 x5) x6 x7 := by
  unfold out0_8
  rw [View.canon_unit_zero hz2]
  simp only [View.ld_unit_zero (S := S128x96x64) hz3, View.ld_unit_zero (S := S128x64x64) hz3, View.ld_unit_zero (S := S256x256) hz2,
    View.ld_unit_zero (S := S1x256) hz2, View.ld_unit_zero (S := S256x1) hz2, View.ld_unit_zero (S := S1x1) hz2]

/-- A result block that agrees entry by entry with an array read through point `t`'s rectangle is that array's block. -/
theorem cut_read (t : Fin cfg0.N) (X : Vec Ideal S128x1 .f32) (A : S4096x1.Idx → EReal)
    (h : ∀ j : S128x1.Idx, X j = A (((cfg0.win 8).blk t).view.emb j)) :
    (cfg0.win 8).cut (grid0.coords t) X = ((cfg0.win 8).blk t).view.read (Elt Ideal) A := by
  funext j
  exact h j

/-- The result array in terms of the arrays the eight input windows stage, as the region finds them. -/
abbrev Gw (c : Dev nD) : S4096x1.Idx → EReal :=
  Gf (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))

/-- What point `t` writes back is block `t` of the result array. -/
theorem flushed_eq (c : Dev nD) (t : Fin cfg0.N) :
    (dats m 0 c).flushed 8 t = ((cfg0.win 8).blk t).view.read (Elt Ideal) (Gw m c) := by
  rw [Value.flushed8, out_eq]
  unfold iblk
  exact cut_read t _ (Gw m c) (point_gen t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)))
/-- An index of the result array is in point `t`'s block iff each coordinate is in the block's range on its axis. -/
theorem mem_blk (t : Fin cfg0.N) (i : S4096x1.Idx) :
    i ∈ ((cfg0.win 8).blk t).view.set ↔ ∀ a : Fin 2, win0_8.index t a * S128x1.size a ≤ (i a).val ∧ (i a).val < win0_8.index t a * S128x1.size a + S128x1.size a := by
  show i ∈ ((View.whole main_v225).slice (win0_8.rect t)).set ↔ _
  rw [View.set_slice_whole, Rect.mem_set_unit]
  exact Iff.rfl

/-- Every row of the result is in some point's block: row `i` in the block of point `i / 128`. -/
theorem cover (i : S4096x1.Idx) : ∃ t : Fin cfg0.N, (cfg0.win 8).flush t = true ∧ i ∈ ((cfg0.win 8).blk t).view.set := by
  have hi0 : (i 0).val < 4096 := (i 0).isLt
  have hi1 : (i 1).val < 1 := (i 1).isLt
  have hN : cfg0.N = 32 := N_0
  refine ⟨⟨(i 0).val / 128, by rw [hN]; omega⟩, flush0_8 _, ?_⟩
  obtain ⟨-, -, -, -, -, -, -, -, e0, e1⟩ := idx_facts ⟨(i 0).val / 128, by rw [hN]; omega⟩
  rw [mem_blk]
  intro a
  match a with
  | ⟨0, _⟩ =>
    show win0_8.index ⟨(i 0).val / 128, _⟩ (0 : Fin 2) * 128 ≤ (i 0).val ∧ (i 0).val < win0_8.index ⟨(i 0).val / 128, _⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, _⟩ (1 : Fin 2) * 1 ≤ (i 1).val ∧ (i 1).val < win0_8.index ⟨(i 0).val / 128, _⟩ (1 : Fin 2) * 1 + 1
    rw [e1]; omega

/-- The result array after the run, in terms of the windows' arrays. -/
theorem final (c : Dev nD) : (dats m 0 c).arrAt 8 cfg0.N = Gw m c :=
  (dats m 0 c).arrAt_eq_of_cover 8 (Gw m c) (fun t _ => flushed_eq m c t) cover

/-- The windows' arrays are the program's buffers of those names. -/
theorem Gw_eq (c : Dev nD) : Gw m c = (fun i => Cert.Spec.mlp (Cert.Spec.zPad (V m c main_v175) (V m c main_v190) (V m c main_v206) (V m c main_v222)) (V m c main_arg12)
        (fun j => V m c main_v223 (ix2 0 (j 0))) (V m c main_arg14) (fun _ => V m c main_v224 (ix2 0 0)) (i 0)) := rfl

/-- The kernel's run, read: the result array holds, at every graph, the two-layer head on the pooled vector of the graph's
    padded rows, and every argument array is as launched. -/
theorem run : θ_run defs (onTc (τ := τ) (main (F := Ideal))) ⟨m, fun _ => 0, ρ⟩ fun r => ∀ c : Dev nD,
      r.2.mem ((c : Thread nD τ).loc main_v225) = (fun i => Cert.Spec.mlp (Cert.Spec.zPad (V m c main_v175) (V m c main_v190) (V m c main_v206) (V m c main_v222)) (V m c main_arg12)
        (fun j => V m c main_v223 (ix2 0 (j 0))) (V m c main_arg14) (fun _ => V m c main_v224 (ix2 0 0)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans ((final m c).trans (Gw_eq m c)), (h c).2⟩) (Value.run_blocks m ρ)

end Cert.KernelIdeal.KValue

end
-- ==== Proof.IdxFin.lean ====
/-
  Integer index arrays read as functions into a finite range.

  An index array `a : [N]` of 32-bit words all of whose entries, read as signed integers, lie in `[0, M)`
  is a function `Fin N → Fin M`; two entries name the same element of `Fin M` exactly when the words are equal.
-/
import Idealize.ShloMosaic.PureOps
import Idealize.ShloMosaic.Lib.ValueIdx

namespace Cert.IdxSem

open Idealize.ShloMosaic Idealize.ShloMosaic.ValueIdx

/-- Every entry of `a`, read signed, lies in `[0, M)`. -/
def InRange {N : Nat} (a : IVec ⟨1, ![N]⟩ 32) (M : Nat) : Prop :=
  ∀ n : Fin N, 0 ≤ (a (ix1 n)).toInt ∧ (a (ix1 n)).toInt < (M : Int)

/-- The entry `n` of an in-range index array, as an element of `Fin M`. -/
def toFin {N : Nat} (a : IVec ⟨1, ![N]⟩ 32) (M : Nat) (h : InRange a M) (n : Fin N) : Fin M :=
  ⟨(a (ix1 n)).toInt.toNat, by have := h n; omega⟩

theorem toFin_val {N : Nat} (a : IVec ⟨1, ![N]⟩ 32) (M : Nat) (h : InRange a M) (n : Fin N) :
    (a (ix1 n)).toInt = ((toFin a M h n).val : Int) := by
  have := h n
  simp only [toFin]
  omega

theorem toFin_eq_iff {N : Nat} (a : IVec ⟨1, ![N]⟩ 32) (M : Nat) (h : InRange a M) (i j : Fin N) :
    toFin a M h i = toFin a M h j ↔ a (ix1 i) = a (ix1 j) := by
  constructor
  · intro e
    have e' : ((toFin a M h i).val : Int) = ((toFin a M h j).val : Int) := by rw [e]
    rw [← toFin_val, ← toFin_val] at e'
    exact BitVec.eq_of_toInt_eq e'
  · intro e
    apply Fin.ext
    simp only [toFin, e]

end Cert.IdxSem
-- ==== Proof.ScatterSet.lean ====
import proofs.«428288_j26706106647095_1_alg».proof.Proof.Spec
import Idealize.ShloMosaic.PureOps.ShapeOps
import Idealize.ShloMosaic.PureOps.Dims
import Idealize.ShloMosaic.Lib.ValueIdx

namespace Cert.IdxSem

open Idealize.ShloMosaic Idealize.ShloMosaic.ValueIdx

/-! ## Writing a family of values at pairwise distinct places, one after another -/

section Fold
variable {ι κ α : Type} [DecidableEq κ]

/-- A place none of the writes names keeps the value it had. -/
theorem foldl_set_not_mem (tgt : ι → κ) (val : ι → α) (l : List ι) (r : κ → α) (i : κ) (h : ∀ n ∈ l, tgt n ≠ i) :
    l.foldl (fun r n => fun i' => if i' = tgt n then val n else r i') r i = r i := by
  induction l generalizing r with
  | nil => rfl
  | cons a l ih =>
    rw [List.foldl_cons, ih _ (fun n hn => h n (List.mem_cons_of_mem _ hn))]
    exact if_neg (fun hh => h a (List.mem_cons_self ..) hh.symm)

/-- When the places are pairwise distinct and no write is listed twice, the place of a listed write ends with its value. -/
theorem foldl_set_mem (tgt : ι → κ) (val : ι → α) (htgt : Function.Injective tgt) (l : List ι) (hl : l.Nodup)
    (r : κ → α) (n : ι) (hn : n ∈ l) :
    l.foldl (fun r n => fun i' => if i' = tgt n then val n else r i') r (tgt n) = val n := by
  induction l generalizing r with
  | nil => cases hn
  | cons a l ih =>
    rw [List.foldl_cons]
    rw [List.nodup_cons] at hl
    rcases List.mem_cons.1 hn with rfl | hn'
    · rw [foldl_set_not_mem tgt val l _ _ (fun m hm hh => hl.1 (by have e := htgt hh; subst e; exact hm))]
      exact if_pos rfl
    · exact ih hl.2 _ hn'

end Fold

section Generic
variable {s si u : Shape} {α : Type} {w : Nat}

/-- A scatter whose body returns the update, at result indices that are all inside the operand and pairwise distinct:
    the result holds update `j` at its result index, and the operand's element wherever no update lands. -/
theorem scatter_set_apply (d : ScatterDims s si u) (x : s.Idx → α) (idx : IVec si w) (upd : u.Idx → α) (σ : u.Idx → s.Idx)
    (hσ : ∀ j, d.resultIdx? j idx = some (σ j)) (hinj : Function.Injective σ) :
    (∀ j, Host.scatter d (fun _ b => b) x idx upd (σ j) = upd j) ∧
    (∀ i, (∀ j, σ j ≠ i) → Host.scatter d (fun _ b => b) x idx upd i = x i) := by
  have hinj' : Function.Injective (fun n : Fin u.numel => σ (u.rowMajor.symm n)) := hinj.comp u.rowMajor.symm.injective
  constructor
  · intro j
    have h := foldl_set_mem (fun n : Fin u.numel => σ (u.rowMajor.symm n)) (fun n => upd (u.rowMajor.symm n)) hinj'
      (List.finRange u.numel) (List.nodup_finRange _) x (u.rowMajor j) (List.mem_finRange _)
    simp only [Equiv.symm_apply_apply] at h
    unfold Host.scatter
    simp only [hσ]
    exact h
  · intro i hi
    have h := foldl_set_not_mem (fun n : Fin u.numel => σ (u.rowMajor.symm n)) (fun n => upd (u.rowMajor.symm n))
      (List.finRange u.numel) x i (fun n _ => hi _)
    unfold Host.scatter
    simp only [hσ]
    exact h

end Generic

/-! ## The dimension numbers of `x.at[seg, pos].set(u)` on a `[B, L, D]` operand -/

/-- The dimension numbers: the update's axis 1 is the window (the feature row), the operand's axes 0 and 1 are inserted and
    are the ones the two components of an index vector name, the index vector lies along axis 1 of the indices. -/
abbrev setDims (B L D N : Nat) (wf : ScatterDims.WF ⟨3, ![B, L, D]⟩ ⟨2, ![N, 2]⟩ ⟨2, ![N, D]⟩ [1] [0, 1] [0, 1] 1) :
    ScatterDims ⟨3, ![B, L, D]⟩ ⟨2, ![N, 2]⟩ ⟨2, ![N, D]⟩ :=
  { updateWindowDims := [1], insertedWindowDims := [0, 1], scatterDimsToOperandDims := [0, 1], indexVectorDim := 1, wf := wf }

/-- Update element `(n, e)` reads component `c` of its start index at `[n, c]`. -/
theorem setDims_siIdx {B L D N : Nat} (wf : ScatterDims.WF ⟨3, ![B, L, D]⟩ ⟨2, ![N, 2]⟩ ⟨2, ![N, D]⟩ [1] [0, 1] [0, 1] 1)
    (n : Fin N) (e : Fin D) (c : Fin (setDims B L D N wf).scatterDimsToOperandDims.length) :
    (setDims B L D N wf).siIdx (ix2 n e) c = ix2 n ⟨c.val, c.isLt⟩ := by
  funext b; refine Fin.ext ?_
  match b with
  | ⟨0, _⟩ => rfl
  | ⟨1, _⟩ => rfl

/-- When row `n` of the indices holds `(seg n, pos n)`, both inside the operand, update element `(n, e)` lands at
    `(seg n, pos n, e)`. -/
theorem setDims_resultIdx {B L D N : Nat} (wf : ScatterDims.WF ⟨3, ![B, L, D]⟩ ⟨2, ![N, 2]⟩ ⟨2, ![N, D]⟩ [1] [0, 1] [0, 1] 1)
    (idx : IVec ⟨2, ![N, 2]⟩ 32) (seg : Fin N → Fin B) (pos : Fin N → Fin L)
    (hseg : ∀ n, (idx (ix2 n 0)).toInt = ((seg n).val : Int)) (hpos : ∀ n, (idx (ix2 n 1)).toInt = ((pos n).val : Int))
    (n : Fin N) (e : Fin D) :
    (setDims B L D N wf).resultIdx? (ix2 n e) idx = some (ix3 (seg n) (pos n) e) := by
  have hs0 : (setDims B L D N wf).start (ix2 n e) idx (0 : Fin 3) = ((seg n).val : Int) := by
    unfold ScatterDims.start
    rw [dif_pos (show (0 : Fin 3) ∈ (setDims B L D N wf).scatterDimsToOperandDims from List.mem_cons_self ..)]
    rw [setDims_siIdx]
    exact hseg n
  have hs1 : (setDims B L D N wf).start (ix2 n e) idx (1 : Fin 3) = ((pos n).val : Int) := by
    unfold ScatterDims.start
    rw [dif_pos (show (1 : Fin 3) ∈ (setDims B L D N wf).scatterDimsToOperandDims from List.mem_cons_of_mem _ (List.mem_cons_self ..))]
    rw [setDims_siIdx]
    exact hpos n
  have hs2 : (setDims B L D N wf).start (ix2 n e) idx (2 : Fin 3) = 0 := rfl
  have hw0 : (setDims B L D N wf).window (ix2 n e) (0 : Fin 3) = 0 := rfl
  have hw1 : (setDims B L D N wf).window (ix2 n e) (1 : Fin 3) = 0 := rfl
  have hw2 : (setDims B L D N wf).window (ix2 n e) (2 : Fin 3) = e.val := rfl
  have hlt : ∀ a : Fin 3, 0 ≤ (setDims B L D N wf).start (ix2 n e) idx a + (setDims B L D N wf).window (ix2 n e) a ∧
      (setDims B L D N wf).start (ix2 n e) idx a + (setDims B L D N wf).window (ix2 n e) a < (⟨3, ![B, L, D]⟩ : Shape).size a := by
    intro a
    match a with
    | ⟨0, _⟩ =>
      have h0 := hs0; have h1 := hw0; have := (seg n).isLt
      show 0 ≤ (setDims B L D N wf).start (ix2 n e) idx (0 : Fin 3) + ((setDims B L D N wf).window (ix2 n e) (0 : Fin 3) : Int) ∧
        (setDims B L D N wf).start (ix2 n e) idx (0 : Fin 3) + ((setDims B L D N wf).window (ix2 n e) (0 : Fin 3) : Int) < (B : Int)
      rw [h0, h1]; omega
    | ⟨1, _⟩ =>
      have h0 := hs1; have h1 := hw1; have := (pos n).isLt
      show 0 ≤ (setDims B L D N wf).start (ix2 n e) idx (1 : Fin 3) + ((setDims B L D N wf).window (ix2 n e) (1 : Fin 3) : Int) ∧ (setDims B L D N wf).start (ix2 n e) idx (1 : Fin 3) + ((setDims B L D N wf).window (ix2 n e) (1 : Fin 3) : Int) < (L : Int)
      rw [h0, h1]; omega
    | ⟨2, _⟩ =>
      have h0 := hs2; have h1 := hw2; have := e.isLt
      show 0 ≤ (setDims B L D N wf).start (ix2 n e) idx (2 : Fin 3) + ((setDims B L D N wf).window (ix2 n e) (2 : Fin 3) : Int) ∧ (setDims B L D N wf).start (ix2 n e) idx (2 : Fin 3) + ((setDims B L D N wf).window (ix2 n e) (2 : Fin 3) : Int) < (D : Int)
      rw [h0, h1]; omega
  unfold ScatterDims.resultIdx?
  rw [dif_pos hlt]
  congr 1
  funext a; refine Fin.ext ?_
  match a with
  | ⟨0, _⟩ =>
    show ((setDims B L D N wf).start (ix2 n e) idx (0 : Fin 3) + ((setDims B L D N wf).window (ix2 n e) (0 : Fin 3) : Int)).toNat = (seg n).val
    rw [hs0, hw0]; omega
  | ⟨1, _⟩ =>
    show ((setDims B L D N wf).start (ix2 n e) idx (1 : Fin 3) + ((setDims B L D N wf).window (ix2 n e) (1 : Fin 3) : Int)).toNat = (pos n).val
    rw [hs1, hw1]; omega
  | ⟨2, _⟩ =>
    show ((setDims B L D N wf).start (ix2 n e) idx (2 : Fin 3) + ((setDims B L D N wf).window (ix2 n e) (2 : Fin 3) : Int)).toNat = e.val
    rw [hs2, hw2]; omega

/-! ## The padded array, as the scatter of the node rows into zeros -/

/-- The slot update element `(n, e)` is written to: graph `seg n`, position `pos n`, feature `e`. -/
abbrev slot {B L D N : Nat} (seg : Fin N → Fin B) (pos : Fin N → Fin L) (j : (⟨2, ![N, D]⟩ : Shape).Idx) :
    (⟨3, ![B, L, D]⟩ : Shape).Idx := ix3 (seg (j 0)) (pos (j 0)) (j 1)

/-- Distinct update elements go to distinct slots when no two nodes name one `(graph, position)` pair. -/
theorem slot_injective {B L D N : Nat} (seg : Fin N → Fin B) (pos : Fin N → Fin L)
    (hinj : ∀ i j : Fin N, seg i = seg j → pos i = pos j → i = j) :
    Function.Injective (slot (D := D) seg pos) := by
  intro j j' h
  have h0 : seg (j 0) = seg (j' 0) := congrFun h 0
  have h1 : pos (j 0) = pos (j' 0) := congrFun h 1
  have h2 : j 1 = j' 1 := congrFun h 2
  funext a
  match a with
  | ⟨0, _⟩ => exact hinj _ _ h0 h1
  | ⟨1, _⟩ => exact h2

/-- Scattering the node rows into a zero array at the slots `(seg n, pos n)`, no slot named twice, gives the padded array. -/
theorem scatter_set_eq_pad {B L N : Nat} (wf : ScatterDims.WF ⟨3, ![B, L, 64]⟩ ⟨2, ![N, 2]⟩ ⟨2, ![N, 64]⟩ [1] [0, 1] [0, 1] 1)
    (idx : IVec ⟨2, ![N, 2]⟩ 32) (seg : Fin N → Fin B) (pos : Fin N → Fin L)
    (hseg : ∀ n, (idx (ix2 n 0)).toInt = ((seg n).val : Int)) (hpos : ∀ n, (idx (ix2 n 1)).toInt = ((pos n).val : Int))
    (hinj : ∀ i j : Fin N, seg i = seg j → pos i = pos j → i = j)
    (upd : (⟨2, ![N, 64]⟩ : Shape).Idx → EReal) :
    Host.scatter (setDims B L 64 N wf) (fun _ b => b) (fun _ => (0 : EReal)) idx upd = Cert.Spec.pad seg pos upd := by
  have hσ : ∀ j, (setDims B L 64 N wf).resultIdx? j idx = some (slot seg pos j) := by
    intro j
    obtain ⟨a, b, rfl⟩ : ∃ a b, j = ix2 a b := ⟨j 0, j 1, eq_ix2 j⟩
    exact setDims_resultIdx wf idx seg pos hseg hpos a b
  have hS := scatter_set_apply (setDims B L 64 N wf) (fun _ => (0 : EReal)) idx upd (slot seg pos) hσ (slot_injective seg pos hinj)
  funext i
  obtain ⟨b, l, e, rfl⟩ : ∃ b l e, i = ix3 b l e := ⟨i 0, i 1, i 2, eq_ix3 i⟩
  unfold Cert.Spec.pad
  by_cases hex : ∃ n : Fin N, (seg n).val = ((ix3 b l e : (⟨3, ![B, L, 64]⟩ : Shape).Idx) 0).val ∧
      (pos n).val = ((ix3 b l e : (⟨3, ![B, L, 64]⟩ : Shape).Idx) 1).val
  · rw [dif_pos hex]
    have key := hS.1 (ix2 hex.choose e)
    have hn := hex.choose_spec
    have hi : slot seg pos (ix2 hex.choose e) = (ix3 b l e : (⟨3, ![B, L, 64]⟩ : Shape).Idx) := by
      funext a
      match a with
      | ⟨0, _⟩ => exact Fin.ext hn.1
      | ⟨1, _⟩ => exact Fin.ext hn.2
      | ⟨2, _⟩ => rfl
    rw [hi] at key
    exact key
  · rw [dif_neg hex]
    refine hS.2 _ (fun j hj => hex ⟨j 0, ?_, ?_⟩)
    · exact congrArg (fun i : (⟨3, ![B, L, 64]⟩ : Shape).Idx => (i 0).val) hj
    · exact congrArg (fun i : (⟨3, ![B, L, 64]⟩ : Shape).Idx => (i 1).val) hj

end Cert.IdxSem
-- ==== Proof.GatherSeg.lean ====
/-
  The host's two-index gather `X[seg, pos]` and the host's float segment sum, read index by index at the ideal instance.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx

noncomputable section

open scoped BigOperators

namespace Cert.IdxSem

open Idealize.ShloMosaic Idealize.ShloMosaic.ValueIdx

/-! ## The gather `X[seg, pos]` of an operand `[B, L, D]` at `N` pairs of start indices -/

section PairGather
variable {α : Type}

/-- The dimension numbers of `X[seg, pos]`: operand `[B, L, D]`, start indices `[N, 2]` (the pair on the last axis),
    result `[N, D]`; the first two operand axes are collapsed and indexed, the third is copied whole. -/
abbrev pairGatherDims (B L D N : Nat)
    (wf : GatherDims.WF ⟨3, ![B, L, D]⟩ ⟨2, ![N, 2]⟩ ⟨2, ![N, D]⟩ [1] [0, 1] [] [0, 1] [] 1 ![1, 1, D]) :
    GatherDims ⟨3, ![B, L, D]⟩ ⟨2, ![N, 2]⟩ ⟨2, ![N, D]⟩ where
  offsetDims := [1]
  collapsedSliceDims := [0, 1]
  operandBatchingDims := []
  startIndicesBatchingDims := []
  startIndexMap := [0, 1]
  indexVectorDim := 1
  sliceSizes := ![1, 1, D]
  wf := wf

/-- Which of the three operand axes the literal lists `[0, 1]` hold. -/
theorem zero_mem_01 : (0 : Fin 3) ∈ ([0, 1] : List (Fin 3)) := by decide
theorem one_mem_01 : (1 : Fin 3) ∈ ([0, 1] : List (Fin 3)) := by decide
theorem two_not_mem_01 : (2 : Fin 3) ∉ ([0, 1] : List (Fin 3)) := by decide

/-- A natural below `m` is its own clamp into `[0, m - 1]`. -/
theorem min_pred_of_lt {v m : Nat} (h : v < m) : min v (m - 1) = v := by omega

/-- THE GATHER READ AT `(n, e)`: when the start indices hold in-range coordinates `seg n < B` and `pos n < L`, the
    result is the operand at `(seg n, pos n, e)` (the clamp does nothing on an in-range start). -/
theorem pairGather_apply {B L D N : Nat}
    (wf : GatherDims.WF ⟨3, ![B, L, D]⟩ ⟨2, ![N, 2]⟩ ⟨2, ![N, D]⟩ [1] [0, 1] [] [0, 1] [] 1 ![1, 1, D])
    (x : (⟨3, ![B, L, D]⟩ : Shape).Idx → α) (idx : IVec ⟨2, ![N, 2]⟩ 32)
    (seg : Fin N → Fin B) (pos : Fin N → Fin L)
    (hseg : ∀ n, (idx (ix2 n 0)).toInt = ((seg n).val : Int))
    (hpos : ∀ n, (idx (ix2 n 1)).toInt = ((pos n).val : Int))
    (n : Fin N) (e : Fin D) :
    Host.gather (pairGatherDims B L D N wf) x idx (ix2 n e) = x (ix3 (seg n) (pos n) e) := by
  unfold Host.gather
  congr 1
  funext a
  refine Fin.ext ?_
  show (pairGatherDims B L D N wf).start (ix2 n e) idx a + (pairGatherDims B L D N wf).batchCoord (ix2 n e) a
    + (pairGatherDims B L D N wf).offCoord (ix2 n e) a = _
  rw [GatherDims.batchCoord_eq_zero _ _ _ List.not_mem_nil]
  simp only [Nat.add_zero]
  match a with
  | ⟨0, h0⟩ =>
    have hm : (⟨0, h0⟩ : Fin 3) ∈ (pairGatherDims B L D N wf).startIndexMap := zero_mem_01
    rw [GatherDims.offCoord_eq_zero _ _ _ (fun h => ((GatherDims.mem_sKept _ _).mp h).1 zero_mem_01)]
    simp only [Nat.add_zero]
    unfold GatherDims.start
    rw [dif_pos hm]
    have hsi : (pairGatherDims B L D N wf).siIdx (ix2 n e)
        ⟨List.idxOf (⟨0, h0⟩ : Fin 3) (pairGatherDims B L D N wf).startIndexMap, List.idxOf_lt_length_iff.2 hm⟩
        = ix2 n 0 := by
      funext b; refine Fin.ext ?_
      match b with
      | ⟨0, _⟩ => rfl
      | ⟨1, _⟩ => rfl
    rw [hsi, hseg n]
    show min ((seg n).val : Int).toNat (B - 1) = (seg n).val
    rw [Int.toNat_natCast]
    exact min_pred_of_lt (seg n).isLt
  | ⟨1, h1⟩ =>
    have hm : (⟨1, h1⟩ : Fin 3) ∈ (pairGatherDims B L D N wf).startIndexMap := one_mem_01
    rw [GatherDims.offCoord_eq_zero _ _ _ (fun h => ((GatherDims.mem_sKept _ _).mp h).1 one_mem_01)]
    simp only [Nat.add_zero]
    unfold GatherDims.start
    rw [dif_pos hm]
    have hsi : (pairGatherDims B L D N wf).siIdx (ix2 n e)
        ⟨List.idxOf (⟨1, h1⟩ : Fin 3) (pairGatherDims B L D N wf).startIndexMap, List.idxOf_lt_length_iff.2 hm⟩
        = ix2 n 1 := by
      funext b; refine Fin.ext ?_
      match b with
      | ⟨0, _⟩ => rfl
      | ⟨1, _⟩ => rfl
    rw [hsi, hpos n]
    show min ((pos n).val : Int).toNat (L - 1) = (pos n).val
    rw [Int.toNat_natCast]
    exact min_pred_of_lt (pos n).isLt
  | ⟨2, h2⟩ =>
    have hm : (⟨2, h2⟩ : Fin 3) ∉ (pairGatherDims B L D N wf).startIndexMap := two_not_mem_01
    unfold GatherDims.start
    rw [dif_neg hm, Nat.zero_add]
    have hk : (⟨2, h2⟩ : Fin 3) ∈ (pairGatherDims B L D N wf).sKept :=
      (GatherDims.mem_sKept _ _).mpr ⟨two_not_mem_01, List.not_mem_nil⟩
    unfold GatherDims.offCoord
    rw [dif_pos hk]
    rfl

end PairGather

/-! ## The float segment sum: a scatter-add of `N` rows `[N, K]` into `B` rows `[B, K]` at `N` row indices -/

section SegAdd

/-- The dimension numbers of the segment sum: operand `[B, K]`, scatter indices `[N, 1]`, updates `[N, K]`; each update
    row `n` is a window over the operand's second axis, inserted at the row its one index names. -/
abbrev segAddDims (B K N : Nat) (wf : ScatterDims.WF ⟨2, ![B, K]⟩ ⟨2, ![N, 1]⟩ ⟨2, ![N, K]⟩ [1] [0] [0] 1) :
    ScatterDims ⟨2, ![B, K]⟩ ⟨2, ![N, 1]⟩ ⟨2, ![N, K]⟩ where
  updateWindowDims := [1]
  insertedWindowDims := [0]
  scatterDimsToOperandDims := [0]
  indexVectorDim := 1
  wf := wf

/-- An axis is kept exactly when it is not among the removed ones. -/
theorem mem_kept_iff {s : Shape} (axes : List (Fin s.rank)) (a : Fin s.rank) : a ∈ s.kept axes ↔ a ∉ axes := by
  simp [Shape.kept, List.mem_filter, List.mem_finRange]

theorem zero_mem_0 : (0 : Fin 2) ∈ ([0] : List (Fin 2)) := by decide
theorem one_not_mem_0 : (1 : Fin 2) ∉ ([0] : List (Fin 2)) := by decide

/-- Two rank-2 indices agree exactly when their coordinates do. -/
theorem ix2_inj {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Per operand axis, start plus window coordinate of update index `(n, k)`: the row `seg n` on axis 0, the column
    `k` on axis 1. -/
theorem segAdd_coord {B K N : Nat} (wf : ScatterDims.WF ⟨2, ![B, K]⟩ ⟨2, ![N, 1]⟩ ⟨2, ![N, K]⟩ [1] [0] [0] 1)
    (idx : IVec ⟨2, ![N, 1]⟩ 32) (seg : Fin N → Fin B)
    (hseg : ∀ n, (idx (ix2 n 0)).toInt = ((seg n).val : Int)) (n : Fin N) (k : Fin K) (a : Fin 2) :
    (segAddDims B K N wf).start (ix2 n k) idx a + ((segAddDims B K N wf).window (ix2 n k) a : Int)
      = (((ix2 (seg n) k a).val : Nat) : Int) := by
  match a with
  | ⟨0, h0⟩ =>
    have hm : (⟨0, h0⟩ : Fin 2) ∈ (segAddDims B K N wf).scatterDimsToOperandDims := zero_mem_0
    have hk : (⟨0, h0⟩ : Fin 2) ∉ (segAddDims B K N wf).sKept := fun h => (mem_kept_iff _ _).mp h zero_mem_0
    unfold ScatterDims.start ScatterDims.window
    rw [dif_pos hm, dif_neg hk]
    have hsi : (segAddDims B K N wf).siIdx (ix2 n k)
        ⟨List.idxOf (⟨0, h0⟩ : Fin 2) (segAddDims B K N wf).scatterDimsToOperandDims, List.idxOf_lt_length_iff.2 hm⟩
        = ix2 n 0 := by
      funext b; refine Fin.ext ?_
      match b with
      | ⟨0, _⟩ => rfl
      | ⟨1, _⟩ => rfl
    rw [hsi, hseg n]
    show ((seg n).val : Int) + ((0 : Nat) : Int) = ((seg n).val : Int)
    simp
  | ⟨1, h1⟩ =>
    have hm : (⟨1, h1⟩ : Fin 2) ∉ (segAddDims B K N wf).scatterDimsToOperandDims := one_not_mem_0
    have hk : (⟨1, h1⟩ : Fin 2) ∈ (segAddDims B K N wf).sKept := (mem_kept_iff _ _).mpr one_not_mem_0
    unfold ScatterDims.start ScatterDims.window
    rw [dif_neg hm, dif_pos hk]
    show (0 : Int) + ((k.val : Nat) : Int) = ((k.val : Nat) : Int)
    simp

/-- THE RESULT INDEX of update index `(n, k)`: row `seg n`, column `k` — inside the operand, so never dropped. -/
theorem segAdd_resultIdx {B K N : Nat} (wf : ScatterDims.WF ⟨2, ![B, K]⟩ ⟨2, ![N, 1]⟩ ⟨2, ![N, K]⟩ [1] [0] [0] 1)
    (idx : IVec ⟨2, ![N, 1]⟩ 32) (seg : Fin N → Fin B)
    (hseg : ∀ n, (idx (ix2 n 0)).toInt = ((seg n).val : Int)) (n : Fin N) (k : Fin K) :
    (segAddDims B K N wf).resultIdx? (ix2 n k) idx = some (ix2 (seg n) k) := by
  unfold ScatterDims.resultIdx?
  have h : ∀ a, 0 ≤ (segAddDims B K N wf).start (ix2 n k) idx a + ((segAddDims B K N wf).window (ix2 n k) a : Int) ∧
      (segAddDims B K N wf).start (ix2 n k) idx a + ((segAddDims B K N wf).window (ix2 n k) a : Int)
        < ((⟨2, ![B, K]⟩ : Shape).size a : Int) := fun a => by
    rw [segAdd_coord wf idx seg hseg n k a]
    exact ⟨Int.natCast_nonneg _, Int.ofNat_lt.mpr (ix2 (seg n) k a).isLt⟩
  rw [dif_pos h]
  congr 1
  funext a
  refine Fin.ext ?_
  show ((segAddDims B K N wf).start (ix2 n k) idx a + ((segAddDims B K N wf).window (ix2 n k) a : Int)).toNat = _
  rw [segAdd_coord wf idx seg hseg n k a]
  exact Int.toNat_natCast _

/-- THE SEGMENT SUM READ AT `(b, k)`, at the ideal instance, from a zero operand: the exact sum of column `k` of the
    update rows whose segment is `b`. -/
theorem segAdd_ideal_apply {B K N : Nat} (wf : ScatterDims.WF ⟨2, ![B, K]⟩ ⟨2, ![N, 1]⟩ ⟨2, ![N, K]⟩ [1] [0] [0] 1)
    (idx : IVec ⟨2, ![N, 1]⟩ 32) (seg : Fin N → Fin B)
    (hseg : ∀ n, (idx (ix2 n 0)).toInt = ((seg n).val : Int))
    (upd : (⟨2, ![N, K]⟩ : Shape).Idx → EReal) (b : Fin B) (k : Fin K) :
    Ideal.hostScatterAdd (segAddDims B K N wf) (fun _ => (0 : EReal)) idx upd (ix2 b k)
      = ∑ n ∈ Finset.univ.filter (fun n => seg n = b), upd (ix2 n k) := by
  unfold Ideal.hostScatterAdd
  rw [zero_add, Finset.sum_filter, sum_idx2, Finset.sum_filter]
  refine Finset.sum_congr rfl (fun n _ => ?_)
  simp only [segAdd_resultIdx wf idx seg hseg, Option.some.injEq, ix2_inj]
  by_cases hb : seg n = b
  · simp only [hb, true_and, if_true]
    rw [Finset.sum_ite_eq' Finset.univ k (fun k' => upd (ix2 n k')), if_pos (Finset.mem_univ k)]
  · simp only [hb, false_and, if_false]
    exact Finset.sum_const_zero

/-- The same for the host's accumulating scatter as a program states it. -/
theorem segAdd_apply {B K N : Nat} (wf : ScatterDims.WF ⟨2, ![B, K]⟩ ⟨2, ![N, 1]⟩ ⟨2, ![N, K]⟩ [1] [0] [0] 1)
    (idx : IVec ⟨2, ![N, 1]⟩ 32) (seg : Fin N → Fin B)
    (hseg : ∀ n, (idx (ix2 n 0)).toInt = ((seg n).val : Int))
    (upd : (⟨2, ![N, K]⟩ : Shape).Idx → EReal) (b : Fin B) (k : Fin K) :
    Host.scatterAdd (F := Ideal) (φ := .f32) (segAddDims B K N wf) (fun _ => (0 : EReal)) idx upd (ix2 b k)
      = ∑ n ∈ Finset.univ.filter (fun n => seg n = b), upd (ix2 n k) :=
  segAdd_ideal_apply wf idx seg hseg upd b k

end SegAdd

end Cert.IdxSem

end
-- ==== Proof.CountInj.lean ====
/-
  Two facts about integer index arrays: a scatter-add of ones into a zero array counts how many index pairs name each
  slot, so counts at most one make the pairs pairwise distinct; and the wrapped-then-stacked pair of index arrays reads
  back the two index arrays where they are nonnegative.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.StableHlo.Predicate
import Idealize.ShloMosaic.Lib.Pipeline.Value

noncomputable section

open scoped BigOperators

namespace Cert.IdxSem

open Idealize.ShloMosaic Idealize.ShloMosaic.ValueIdx

/-! ## Counting the index pairs that name each slot -/

section Counts
variable {B L N : Nat}

/-- The dimension numbers of a scatter of `N` scalars into an operand `[B, L]` at `N` pairs of indices `[N, 2]` (the
    pair on the last axis): both operand axes are indexed, no window axis. -/
abbrev cntDims (B L N : Nat) (wf : ScatterDims.WF ⟨2, ![B, L]⟩ ⟨2, ![N, 2]⟩ ⟨1, ![N]⟩ [] [0, 1] [0, 1] 1) :
    ScatterDims ⟨2, ![B, L]⟩ ⟨2, ![N, 2]⟩ ⟨1, ![N]⟩ where
  updateWindowDims := []
  insertedWindowDims := [0, 1]
  scatterDimsToOperandDims := [0, 1]
  indexVectorDim := 1
  wf := wf

/-- Update `n` reads component `c` of its pair at `[n, c]`. -/
theorem cntDims_siIdx (wf : ScatterDims.WF ⟨2, ![B, L]⟩ ⟨2, ![N, 2]⟩ ⟨1, ![N]⟩ [] [0, 1] [0, 1] 1) (n : Fin N)
    (c : Fin 2) : (cntDims B L N wf).siIdx (ix1 n) c = ix2 n c := by
  funext b; refine Fin.ext ?_
  match b with
  | ⟨0, _⟩ => rfl
  | ⟨1, _⟩ => rfl

/-- The start on the first operand axis is the first component of the pair, read signed. -/
theorem cntDims_start0 (wf : ScatterDims.WF ⟨2, ![B, L]⟩ ⟨2, ![N, 2]⟩ ⟨1, ![N]⟩ [] [0, 1] [0, 1] 1)
    (idx : IVec ⟨2, ![N, 2]⟩ 32) (n : Fin N) :
    (cntDims B L N wf).start (ix1 n) idx 0 = (idx (ix2 n 0)).toInt := by
  unfold ScatterDims.start
  rw [dif_pos (show (0 : Fin 2) ∈ (cntDims B L N wf).scatterDimsToOperandDims from List.mem_cons_self ..)]
  exact congrArg (fun k => (idx k).toInt) (cntDims_siIdx wf n 0)

/-- The start on the second operand axis is the second component of the pair, read signed. -/
theorem cntDims_start1 (wf : ScatterDims.WF ⟨2, ![B, L]⟩ ⟨2, ![N, 2]⟩ ⟨1, ![N]⟩ [] [0, 1] [0, 1] 1)
    (idx : IVec ⟨2, ![N, 2]⟩ 32) (n : Fin N) :
    (cntDims B L N wf).start (ix1 n) idx 1 = (idx (ix2 n 1)).toInt := by
  unfold ScatterDims.start
  rw [dif_pos (show (1 : Fin 2) ∈ (cntDims B L N wf).scatterDimsToOperandDims from
    List.mem_cons_of_mem _ (List.mem_cons_self ..))]
  exact congrArg (fun k => (idx k).toInt) (cntDims_siIdx wf n 1)

/-- No operand axis carries a window coordinate. -/
theorem cntDims_window (wf : ScatterDims.WF ⟨2, ![B, L]⟩ ⟨2, ![N, 2]⟩ ⟨1, ![N]⟩ [] [0, 1] [0, 1] 1) (n : Fin N)
    (a : Fin 2) : (cntDims B L N wf).window (ix1 n) a = 0 := by
  match a with
  | ⟨0, _⟩ => rfl
  | ⟨1, _⟩ => rfl

/-- UPDATE `n` LANDS AT `(seg n, pos n)`: when the pair at `n` reads, signed, as an in-range row and column. -/
theorem cntDims_resultIdx (wf : ScatterDims.WF ⟨2, ![B, L]⟩ ⟨2, ![N, 2]⟩ ⟨1, ![N]⟩ [] [0, 1] [0, 1] 1)
    (idx : IVec ⟨2, ![N, 2]⟩ 32) (seg : Fin N → Fin B) (pos : Fin N → Fin L)
    (hseg : ∀ n, (idx (ix2 n 0)).toInt = ((seg n).val : Int))
    (hpos : ∀ n, (idx (ix2 n 1)).toInt = ((pos n).val : Int)) (n : Fin N) :
    (cntDims B L N wf).resultIdx? (ix1 n) idx = some (ix2 (seg n) (pos n)) := by
  have h0 : (cntDims B L N wf).start (ix1 n) idx 0 + (cntDims B L N wf).window (ix1 n) 0 = ((seg n).val : Int) := by
    rw [cntDims_start0, cntDims_window, hseg]; simp
  have h1 : (cntDims B L N wf).start (ix1 n) idx 1 + (cntDims B L N wf).window (ix1 n) 1 = ((pos n).val : Int) := by
    rw [cntDims_start1, cntDims_window, hpos]; simp
  have h : ∀ a : Fin 2, 0 ≤ (cntDims B L N wf).start (ix1 n) idx a + (cntDims B L N wf).window (ix1 n) a ∧
      (cntDims B L N wf).start (ix1 n) idx a + (cntDims B L N wf).window (ix1 n) a <
        (((⟨2, ![B, L]⟩ : Shape).size a : Nat) : Int) := by
    intro a
    match a with
    | ⟨0, _⟩ =>
      have hlt : (seg n).val < B := (seg n).isLt
      refine ⟨by rw [show (⟨0, by omega⟩ : Fin 2) = 0 from rfl, h0]; omega, ?_⟩
      rw [show (⟨0, by omega⟩ : Fin 2) = 0 from rfl, h0]
      show ((seg n).val : Int) < (B : Int)
      omega
    | ⟨1, _⟩ =>
      have hlt : (pos n).val < L := (pos n).isLt
      refine ⟨by rw [show (⟨1, by omega⟩ : Fin 2) = 1 from rfl, h1]; omega, ?_⟩
      rw [show (⟨1, by omega⟩ : Fin 2) = 1 from rfl, h1]
      show ((pos n).val : Int) < (L : Int)
      omega
  unfold ScatterDims.resultIdx?
  rw [dif_pos h]
  congr 1
  funext a; refine Fin.ext ?_
  match a with
  | ⟨0, _⟩ =>
    show ((cntDims B L N wf).start (ix1 n) idx 0 + (cntDims B L N wf).window (ix1 n) 0).toNat = (seg n).val
    rw [h0]; simp
  | ⟨1, _⟩ =>
    show ((cntDims B L N wf).start (ix1 n) idx 1 + (cntDims B L N wf).window (ix1 n) 1).toNat = (pos n).val
    rw [h1]; simp

/-- Two distinct members of a finite set make the number of its members, counted in the extended reals, at least two. -/
theorem two_le_sum_one {ι : Type} [DecidableEq ι] (S : Finset ι) (a b : ι) (ha : a ∈ S) (hb : b ∈ S) (hab : a ≠ b) :
    (2 : EReal) ≤ ∑ _k ∈ S, (1 : EReal) := by
  have hsub : ({a, b} : Finset ι) ⊆ S := by
    intro k hk
    rcases Finset.mem_insert.1 hk with rfl | hk
    · exact ha
    · rw [Finset.mem_singleton.1 hk]; exact hb
  calc (2 : EReal) = ∑ _k ∈ ({a, b} : Finset ι), (1 : EReal) := by
        rw [Finset.sum_pair hab]; exact one_add_one_eq_two.symm
    _ ≤ ∑ _k ∈ S, (1 : EReal) := Finset.sum_le_sum_of_subset_of_nonneg hsub (fun _ _ _ => zero_le_one)

/-- COUNTS AT MOST ONE MAKE THE PAIRS DISTINCT: the scatter-add of ones into zeros counts, at each slot, the index
    pairs naming it; two different `n` with the same pair would make that slot's count at least two. -/
theorem inj_of_count_le_one (wf : ScatterDims.WF ⟨2, ![B, L]⟩ ⟨2, ![N, 2]⟩ ⟨1, ![N]⟩ [] [0, 1] [0, 1] 1)
    (idx : IVec ⟨2, ![N, 2]⟩ 32) (seg : Fin N → Fin B) (pos : Fin N → Fin L)
    (hseg : ∀ n, (idx (ix2 n 0)).toInt = ((seg n).val : Int))
    (hpos : ∀ n, (idx (ix2 n 1)).toInt = ((pos n).val : Int))
    (hcnt : ∀ s, Ideal.hostScatterAdd (cntDims B L N wf) (fun _ => (0 : EReal)) idx (fun _ => (1 : EReal)) s ≤ 1) :
    ∀ i j : Fin N, seg i = seg j → pos i = pos j → i = j := by
  intro i j hs hp
  by_contra hne
  have hc := hcnt (ix2 (seg i) (pos i))
  unfold Ideal.hostScatterAdd at hc
  rw [zero_add] at hc
  have hne' : (ix1 i : (⟨1, ![N]⟩ : Shape).Idx) ≠ ix1 j := fun h => hne (congrFun h 0)
  beta_reduce at hc
  have h21 : (2 : EReal) ≤ 1 := by
    refine le_trans ?_ hc
    refine two_le_sum_one _ (ix1 i) (ix1 j) ?_ ?_ hne'
    · exact Finset.mem_filter.2 ⟨Finset.mem_univ _, cntDims_resultIdx wf idx seg pos hseg hpos i⟩
    · refine Finset.mem_filter.2 ⟨Finset.mem_univ _, ?_⟩
      rw [cntDims_resultIdx wf idx seg pos hseg hpos j, hs, hp]
  have : ((2 : ℝ) : EReal) ≤ ((1 : ℝ) : EReal) := by exact_mod_cast h21
  rw [EReal.coe_le_coe_iff] at this
  norm_num at this

end Counts

/-! ## The wrapped-then-stacked pair of index arrays -/

section NormCat
variable {N : Nat}

/-- A vector copied into the one column of an `[N, 1]` array reads, at row `n`, its entry `n`. -/
theorem broadcastInDim_col_apply {α : Type} (h1 : (⟨1, ![N]⟩ : Shape).BroadcastsInDim ⟨2, ![N, 1]⟩ ![0])
    (x : (⟨1, ![N]⟩ : Shape).Idx → α) (n : Fin N) (k : Fin 1) :
    broadcastInDim ⟨2, ![N, 1]⟩ ![0] h1 x (ix2 n k) = x (ix1 n) := by
  unfold broadcastInDim
  congr 1
  funext a'
  match a' with
  | ⟨0, _⟩ =>
    refine Fin.ext ?_
    split
    · next h =>
      have hN : N = 1 := h
      have := n.isLt
      show 0 = n.val
      omega
    · rfl

/-- One index array, its negative entries wrapped by adding `M`, as the one column of an `[N, 1]` array. -/
abbrev normCol (a : IVec ⟨1, ![N]⟩ 32) (M : Nat)
    (h0 h0' : (⟨0, ![]⟩ : Shape).BroadcastsInDim ⟨1, ![N]⟩ ![])
    (h1 : (⟨1, ![N]⟩ : Shape).BroadcastsInDim ⟨2, ![N, 1]⟩ ![0]) : IVec ⟨2, ![N, 1]⟩ 32 :=
  broadcastInDim ⟨2, ![N, 1]⟩ ![0] h1
    (select (cmpi .slt a (broadcastInDim ⟨1, ![N]⟩ ![] h0 (constantI ⟨0, ![]⟩ 32 0#32)))
      (addi a (broadcastInDim ⟨1, ![N]⟩ ![] h0' (constantI ⟨0, ![]⟩ 32 (BitVec.ofNat 32 M)))) a)

/-- Where the entry is nonnegative the wrapped column reads the entry itself. -/
theorem normCol_apply (a : IVec ⟨1, ![N]⟩ 32) (M : Nat)
    (h0 h0' : (⟨0, ![]⟩ : Shape).BroadcastsInDim ⟨1, ![N]⟩ ![])
    (h1 : (⟨1, ![N]⟩ : Shape).BroadcastsInDim ⟨2, ![N, 1]⟩ ![0]) (n : Fin N) (k : Fin 1)
    (hn : 0 ≤ (a (ix1 n)).toInt) : normCol a M h0 h0' h1 (ix2 n k) = a (ix1 n) := by
  unfold normCol
  rw [broadcastInDim_col_apply, select_apply]
  have hlt : cmpi .slt a (broadcastInDim ⟨1, ![N]⟩ ![] h0 (constantI ⟨0, ![]⟩ 32 0#32)) (ix1 n) = 0#1 := by
    show BitVec.ofBool ((a (ix1 n)).slt 0#32) = 0#1
    have hf : (a (ix1 n)).slt 0#32 = false := by
      rw [BitVec.slt]
      simp only [BitVec.toInt_zero, decide_eq_false_iff_not, not_lt]
      exact hn
    rw [hf]; rfl
  rw [hlt, select_zero]

/-- The two wrapped index arrays stacked along a new last axis: `[N, 2]`, the pair of row `n` on the last axis. -/
abbrev normCat (a b : IVec ⟨1, ![N]⟩ 32) (M M' : Nat)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1) : IVec ⟨2, ![N, 2]⟩ 32 :=
  concatenate ⟨2, ![N, 2]⟩ 1
    [⟨⟨2, ![N, 1]⟩, normCol a M ha0 ha0' ha1⟩, ⟨⟨2, ![N, 1]⟩, normCol b M' hb0 hb0' hb1⟩] hc

/-- THE FIRST COMPONENT OF THE PAIR AT ROW `n` is the first index array's entry, where that is nonnegative. -/
theorem normCat_left (a b : IVec ⟨1, ![N]⟩ 32) (M M' : Nat)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N)
    (hn : 0 ≤ (a (ix1 n)).toInt) :
    normCat a b M M' ha0 ha0' hb0 hb0' ha1 hb1 hc (ix2 n 0) = a (ix1 n) := by
  show concatenate ⟨2, ![N, 2]⟩ 1 [⟨⟨2, ![N, 1]⟩, normCol a M ha0 ha0' ha1⟩, ⟨⟨2, ![N, 1]⟩, normCol b M' hb0 hb0' hb1⟩]
    hc (ix2 n 0) = _
  rw [concatenate_pair_apply_left (t := ⟨2, ![N, 2]⟩) (1 : Fin 2) _ _ hc (ix2 n 0) rfl (ix2 n (0 : Fin 1))
    (fun b' => match b' with | ⟨0, _⟩ => rfl | ⟨1, _⟩ => rfl)]
  exact normCol_apply a M ha0 ha0' ha1 n 0 hn

/-- THE SECOND COMPONENT OF THE PAIR AT ROW `n` is the second index array's entry, where that is nonnegative. -/
theorem normCat_right (a b : IVec ⟨1, ![N]⟩ 32) (M M' : Nat)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N)
    (hn : 0 ≤ (b (ix1 n)).toInt) :
    normCat a b M M' ha0 ha0' hb0 hb0' ha1 hb1 hc (ix2 n 1) = b (ix1 n) := by
  show concatenate ⟨2, ![N, 2]⟩ 1 [⟨⟨2, ![N, 1]⟩, normCol a M ha0 ha0' ha1⟩, ⟨⟨2, ![N, 1]⟩, normCol b M' hb0 hb0' hb1⟩]
    hc (ix2 n 1) = _
  rw [concatenate_pair_apply_right (t := ⟨2, ![N, 2]⟩) (1 : Fin 2) _ _ hc (ix2 n 1) rfl rfl (ix2 n (0 : Fin 1))
    (fun b' => match b' with | ⟨0, _⟩ => fun _ => rfl | ⟨1, _⟩ => fun h => absurd rfl h) rfl]
  exact normCol_apply b M' hb0 hb0' hb1 n 0 hn

end NormCat

end Cert.IdxSem
-- ==== Proof.IdxDress.lean ====
/-
  The index lemmas in the form the two programs state them: the pair of index arrays wrapped and stacked, the zero
  operand as a broadcast splat, the segment ids as a one-column array.
-/
import proofs.«428288_j26706106647095_1_alg».proof.Proof.Spec
import proofs.«428288_j26706106647095_1_alg».proof.Proof.IdxFin
import proofs.«428288_j26706106647095_1_alg».proof.Proof.ScatterSet
import proofs.«428288_j26706106647095_1_alg».proof.Proof.GatherSeg
import proofs.«428288_j26706106647095_1_alg».proof.Proof.CountInj
import Idealize.ShloMosaic.PureOps.Ideal.Laws

noncomputable section

open scoped BigOperators

namespace Cert.IdxSem

open Idealize.ShloMosaic Idealize.ShloMosaic.ValueIdx

/-! ## Zero arrays -/

/-- The all-zero word of the 16-bit brain format reads zero. -/
theorem ofBits_zero_bf16 : Ideal.ofBits .bf16 0x0000#16 = 0 := by simp [Ideal.ofBits, Ideal.ieee]

/-- A scalar splat copied over a whole array is the constant array of the value its word reads. -/
theorem broadcast_constant_eq {t : Shape} {φ : FTy} (w : BitVec φ.bits) (hz : (⟨0, ![]⟩ : Shape).BroadcastsInDim t ![]) :
    broadcastInDim t ![] hz (constant (F := Ideal) ⟨0, ![]⟩ φ w) = fun _ => Ideal.ofBits φ w := rfl

/-! ## The wrapped, stacked pair of in-range index arrays names `(toFin a, toFin b)` -/

section Pair
variable {N : Nat}

theorem normCat_seg (a b : IVec ⟨1, ![N]⟩ 32) (B L : Nat) (ha : InRange a B)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N) :
    (normCat a b B L ha0 ha0' hb0 hb0' ha1 hb1 hc (ix2 n 0)).toInt = ((toFin a B ha n).val : Int) := by
  rw [normCat_left a b B L ha0 ha0' hb0 hb0' ha1 hb1 hc n (ha n).1]
  exact toFin_val a B ha n

theorem normCat_pos (a b : IVec ⟨1, ![N]⟩ 32) (B L : Nat) (hb : InRange b L)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N) :
    (normCat a b B L ha0 ha0' hb0 hb0' ha1 hb1 hc (ix2 n 1)).toInt = ((toFin b L hb n).val : Int) := by
  rw [normCat_right a b B L ha0 ha0' hb0 hb0' ha1 hb1 hc n (hb n).1]
  exact toFin_val b L hb n

/-- THE PADDING SCATTER, for any float format whose splat word reads zero: the node rows scattered into the zero array at
    the wrapped, stacked index pair give the padded array. -/
theorem scatter_norm_eq_pad_of {B L : Nat} {φ : FTy} (w : BitVec φ.bits) (hw : Ideal.ofBits φ w = 0)
    (wf : ScatterDims.WF ⟨3, ![B, L, 64]⟩ ⟨2, ![N, 2]⟩ ⟨2, ![N, 64]⟩ [1] [0, 1] [0, 1] 1)
    (a b : IVec ⟨1, ![N]⟩ 32) (ha : InRange a B) (hb : InRange b L)
    (hinj : ∀ i j : Fin N, toFin a B ha i = toFin a B ha j → toFin b L hb i = toFin b L hb j → i = j)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1)
    (hz : (⟨0, ![]⟩ : Shape).BroadcastsInDim ⟨3, ![B, L, 64]⟩ ![])
    (upd : (⟨2, ![N, 64]⟩ : Shape).Idx → EReal) :
    Host.scatter (setDims B L 64 N wf) (fun _ b => b)
        (broadcastInDim ⟨3, ![B, L, 64]⟩ ![] hz (constant (F := Ideal) ⟨0, ![]⟩ φ w))
        (normCat a b B L ha0 ha0' hb0 hb0' ha1 hb1 hc) upd
      = Cert.Spec.pad (toFin a B ha) (toFin b L hb) upd := by
  rw [broadcast_constant_eq, hw]
  exact scatter_set_eq_pad wf _ (toFin a B ha) (toFin b L hb)
    (normCat_seg a b B L ha ha0 ha0' hb0 hb0' ha1 hb1 hc) (normCat_pos a b B L hb ha0 ha0' hb0 hb0' ha1 hb1 hc) hinj upd

/-- … in single precision … -/
theorem scatter_norm_eq_pad {B L : Nat}
    (wf : ScatterDims.WF ⟨3, ![B, L, 64]⟩ ⟨2, ![N, 2]⟩ ⟨2, ![N, 64]⟩ [1] [0, 1] [0, 1] 1)
    (a b : IVec ⟨1, ![N]⟩ 32) (ha : InRange a B) (hb : InRange b L)
    (hinj : ∀ i j : Fin N, toFin a B ha i = toFin a B ha j → toFin b L hb i = toFin b L hb j → i = j)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1)
    (hz : (⟨0, ![]⟩ : Shape).BroadcastsInDim ⟨3, ![B, L, 64]⟩ ![])
    (upd : (⟨2, ![N, 64]⟩ : Shape).Idx → EReal) :
    Host.scatter (setDims B L 64 N wf) (fun _ b => b)
        (broadcastInDim ⟨3, ![B, L, 64]⟩ ![] hz (constant (F := Ideal) ⟨0, ![]⟩ .f32 0x00000000#32))
        (normCat a b B L ha0 ha0' hb0 hb0' ha1 hb1 hc) upd
      = Cert.Spec.pad (toFin a B ha) (toFin b L hb) upd :=
  scatter_norm_eq_pad_of (φ := .f32) 0x00000000#32 Ideal.ofBits_zero_f32 wf a b ha hb hinj ha0 ha0' hb0 hb0' ha1 hb1 hc hz upd

/-- … and in the 16-bit brain format. -/
theorem scatter_norm_eq_pad_bf16 {B L : Nat}
    (wf : ScatterDims.WF ⟨3, ![B, L, 64]⟩ ⟨2, ![N, 2]⟩ ⟨2, ![N, 64]⟩ [1] [0, 1] [0, 1] 1)
    (a b : IVec ⟨1, ![N]⟩ 32) (ha : InRange a B) (hb : InRange b L)
    (hinj : ∀ i j : Fin N, toFin a B ha i = toFin a B ha j → toFin b L hb i = toFin b L hb j → i = j)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1)
    (hz : (⟨0, ![]⟩ : Shape).BroadcastsInDim ⟨3, ![B, L, 64]⟩ ![])
    (upd : (⟨2, ![N, 64]⟩ : Shape).Idx → EReal) :
    Host.scatter (setDims B L 64 N wf) (fun _ b => b)
        (broadcastInDim ⟨3, ![B, L, 64]⟩ ![] hz (constant (F := Ideal) ⟨0, ![]⟩ .bf16 0x0000#16))
        (normCat a b B L ha0 ha0' hb0 hb0' ha1 hb1 hc) upd
      = Cert.Spec.pad (toFin a B ha) (toFin b L hb) upd :=
  scatter_norm_eq_pad_of (φ := .bf16) 0x0000#16 ofBits_zero_bf16 wf a b ha hb hinj ha0 ha0' hb0 hb0' ha1 hb1 hc hz upd

/-- THE GATHER `X[seg, pos]` at the wrapped, stacked index pair reads the operand at `(toFin a n, toFin b n, e)`. -/
theorem gather_norm_apply {α : Type} {B L D : Nat}
    (wf : GatherDims.WF ⟨3, ![B, L, D]⟩ ⟨2, ![N, 2]⟩ ⟨2, ![N, D]⟩ [1] [0, 1] [] [0, 1] [] 1 ![1, 1, D])
    (x : (⟨3, ![B, L, D]⟩ : Shape).Idx → α)
    (a b : IVec ⟨1, ![N]⟩ 32) (ha : InRange a B) (hb : InRange b L)
    (ha0 ha0' hb0 hb0' : (⟨0, ![]⟩ : Shape).BroadcastsInDim ⟨1, ![N]⟩ ![])
    (ha1 hb1 : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N) (e : Fin D) :
    Host.gather (pairGatherDims B L D N wf) x (normCat a b B L ha0 ha0' hb0 hb0' ha1 hb1 hc) (ix2 n e)
      = x (ix3 (toFin a B ha n) (toFin b L hb n) e) :=
  pairGather_apply wf x _ (toFin a B ha) (toFin b L hb)
    (normCat_seg a b B L ha ha0 ha0' hb0 hb0' ha1 hb1 hc) (normCat_pos a b B L hb ha0 ha0' hb0 hb0' ha1 hb1 hc) n e

end Pair

/-! ## The segment sum at a one-column array of segment ids -/

/-- THE SEGMENT SUM READ AT `(b, k)`: from the zero array, with the ids as they are in the one column of an `[N, 1]`
    array, the exact sum of column `k` of the update rows whose id is `b`. -/
theorem segAdd_col_apply {B K N : Nat} (wf : ScatterDims.WF ⟨2, ![B, K]⟩ ⟨2, ![N, 1]⟩ ⟨2, ![N, K]⟩ [1] [0] [0] 1)
    (a : IVec ⟨1, ![N]⟩ 32) (ha : InRange a B)
    (h1 : (⟨1, ![N]⟩ : Shape).BroadcastsInDim ⟨2, ![N, 1]⟩ ![0])
    (hz : (⟨0, ![]⟩ : Shape).BroadcastsInDim ⟨2, ![B, K]⟩ ![])
    (upd : (⟨2, ![N, K]⟩ : Shape).Idx → EReal) (b : Fin B) (k : Fin K) :
    Host.scatterAdd (F := Ideal) (φ := .f32) (segAddDims B K N wf)
        (broadcastInDim ⟨2, ![B, K]⟩ ![] hz (constant (F := Ideal) ⟨0, ![]⟩ .f32 0x00000000#32))
        (broadcastInDim ⟨2, ![N, 1]⟩ ![0] h1 a) upd (ix2 b k)
      = ∑ n ∈ Finset.univ.filter (fun n => toFin a B ha n = b), upd (ix2 n k) := by
  rw [broadcast_constant_eq, Ideal.ofBits_zero_f32]
  exact segAdd_apply wf _ (toFin a B ha)
    (fun n => by rw [broadcastInDim_col_apply h1 a n 0]; exact toFin_val a B ha n) upd b k

end Cert.IdxSem

end
-- ==== Proof.KernelPad.lean ====
/-
  The kernel's four padded operands are the padded node rows, so the pooled features of the padded arrays are the
  node-wise pooled features; and the two bias operands, reshaped to rows, read back the bias vectors.
-/
import proofs.«428288_j26706106647095_1_alg».proof.Proof.Gen.KernelIdeal.Frame
import proofs.«428288_j26706106647095_1_alg».proof.Proof.ReadP
import proofs.«428288_j26706106647095_1_alg».proof.Proof.Spec
import proofs.«428288_j26706106647095_1_alg».proof.Proof.IdxFin
import proofs.«428288_j26706106647095_1_alg».proof.Proof.IdxDress
import proofs.«428288_j26706106647095_1_alg».proof.Proof.PadMath
import Idealize.ShloMosaic.Lib.ValueIdx
import Idealize.ShloMosaic.Lib.ValueLayout
import Idealize.ShloMosaic.Lib.Pipeline.Value

noncomputable section

namespace Cert.KPad

open Cert.KernelIdeal Cert.KernelIdeal.Gen Cert.IdxSem Idealize.ShloMosaic Idealize.ShloMosaic.TcCoe Idealize.ShloMosaic.ValueIdx Idealize.SL.Sem

variable (m : (ℓ : Loc nD τ sig) → Buf (Elt Ideal) ℓ) (c : Dev nD)

/-! ## The arguments as launched -/

/-- Argument 0 as launched. -/
abbrev a0 : (⟨S262112x64, .f32⟩ : BufTy).Contents (Elt Ideal) := m ((c : Thread nD τ).loc main_arg0)
/-- Argument 1 as launched. -/
abbrev a1 : (⟨S163550x74, .f32⟩ : BufTy).Contents (Elt Ideal) := m ((c : Thread nD τ).loc main_arg1)
/-- Argument 2 as launched. -/
abbrev a2 : (⟨S74x64, .f32⟩ : BufTy).Contents (Elt Ideal) := m ((c : Thread nD τ).loc main_arg2)
/-- Argument 3 as launched. -/
abbrev a3 : (⟨S64, .f32⟩ : BufTy).Contents (Elt Ideal) := m ((c : Thread nD τ).loc main_arg3)
/-- Argument 4 as launched. -/
abbrev a4 : (⟨S4x64x64, .f32⟩ : BufTy).Contents (Elt Ideal) := m ((c : Thread nD τ).loc main_arg4)
/-- Argument 5 as launched. -/
abbrev a5 : (⟨S4x64, .f32⟩ : BufTy).Contents (Elt Ideal) := m ((c : Thread nD τ).loc main_arg5)
/-- Argument 6 as launched. -/
abbrev a6 : (⟨S64x64, .f32⟩ : BufTy).Contents (Elt Ideal) := m ((c : Thread nD τ).loc main_arg6)
/-- Argument 7 as launched. -/
abbrev a7 : (⟨S64x64, .f32⟩ : BufTy).Contents (Elt Ideal) := m ((c : Thread nD τ).loc main_arg7)
/-- Argument 8 as launched. -/
abbrev a8 : (⟨S64, .f32⟩ : BufTy).Contents (Elt Ideal) := m ((c : Thread nD τ).loc main_arg8)
/-- Argument 9 as launched. -/
abbrev a9 : (⟨S64, .f32⟩ : BufTy).Contents (Elt Ideal) := m ((c : Thread nD τ).loc main_arg9)
/-- Argument 10 as launched. -/
abbrev a10 : (⟨S64, .f32⟩ : BufTy).Contents (Elt Ideal) := m ((c : Thread nD τ).loc main_arg10)
/-- Argument 11 as launched. -/
abbrev a11 : (⟨S64, .f32⟩ : BufTy).Contents (Elt Ideal) := m ((c : Thread nD τ).loc main_arg11)
/-- Argument 12 as launched. -/
abbrev a12 : (⟨S256x256, .f32⟩ : BufTy).Contents (Elt Ideal) := m ((c : Thread nD τ).loc main_arg12)
/-- Argument 13 as launched. -/
abbrev a13 : (⟨S256, .f32⟩ : BufTy).Contents (Elt Ideal) := m ((c : Thread nD τ).loc main_arg13)
/-- Argument 14 as launched. -/
abbrev a14 : (⟨S256x1, .f32⟩ : BufTy).Contents (Elt Ideal) := m ((c : Thread nD τ).loc main_arg14)
/-- Argument 15 as launched. -/
abbrev a15 : (⟨S1, .f32⟩ : BufTy).Contents (Elt Ideal) := m ((c : Thread nD τ).loc main_arg15)
/-- Argument 16 as launched. -/
abbrev a16 : (⟨S262112, .i32⟩ : BufTy).Contents (Elt Ideal) := m ((c : Thread nD τ).loc main_arg16)
/-- Argument 17 as launched. -/
abbrev a17 : (⟨S262112, .i32⟩ : BufTy).Contents (Elt Ideal) := m ((c : Thread nD τ).loc main_arg17)
/-- Argument 18 as launched. -/
abbrev a18 : (⟨S163550, .i32⟩ : BufTy).Contents (Elt Ideal) := m ((c : Thread nD τ).loc main_arg18)
/-- Argument 19 as launched. -/
abbrev a19 : (⟨S163550, .i32⟩ : BufTy).Contents (Elt Ideal) := m ((c : Thread nD τ).loc main_arg19)
/-- Argument 20 as launched. -/
abbrev a20 : (⟨S490650, .i32⟩ : BufTy).Contents (Elt Ideal) := m ((c : Thread nD τ).loc main_arg20)
/-- Argument 21 as launched. -/
abbrev a21 : (⟨S490650, .i32⟩ : BufTy).Contents (Elt Ideal) := m ((c : Thread nD τ).loc main_arg21)

/-- The raw solvent node rows, as the reference computes them. -/
abbrev sRaw : (⟨2, ![163550, 64]⟩ : Shape).Idx → EReal :=
  Cert.ReferenceIdeal.Read.val_main_v108 (F := Ideal) (a1 m c) (a2 m c) (a3 m c) (a4 m c) (a5 m c) (a20 m c) (a21 m c)
/-- The projected molecule node rows. -/
abbrev mProj : (⟨2, ![262112, 64]⟩ : Shape).Idx → EReal :=
  Cert.ReferenceIdeal.Read.val_main_v134 (F := Ideal) (a0 m c) (a6 m c) (a8 m c) (a9 m c)
/-- The projected solvent node rows. -/
abbrev sProj : (⟨2, ![163550, 64]⟩ : Shape).Idx → EReal :=
  Cert.ReferenceIdeal.Read.val_main_v160 (F := Ideal) (a1 m c) (a2 m c) (a3 m c) (a4 m c) (a5 m c) (a7 m c) (a10 m c) (a11 m c) (a20 m c) (a21 m c)

/-- The molecule index pair, wrapped and stacked. -/
abbrev idxM : IVec S262112x2 32 :=
  normCat (a16 m c) (a17 m c) 4096 96 bcast_S_S262112 bcast_S_S262112 bcast_S_S262112 bcast_S_S262112
    bcast_S262112_S262112x1_0 bcast_S262112_S262112x1_0 concatenates_S262112x1_S262112x1_S262112x2_d1
/-- The solvent index pair, wrapped and stacked. -/
abbrev idxS : IVec S163550x2 32 :=
  normCat (a18 m c) (a19 m c) 4096 64 bcast_S_S163550 bcast_S_S163550 bcast_S_S163550 bcast_S_S163550
    bcast_S163550_S163550x1_0 bcast_S163550_S163550x1_0 concatenates_S163550x1_S163550x1_S163550x2_d1

/-! ## The padded operands -/

/-- Given what the host wrote into the four padded operands (each the padding scatter of node rows into a zero array),
    pooling the padded operands over every slot is pooling node-wise. -/
theorem kernel_z_of
    (h16 : InRange (a16 m c) 4096) (h17 : InRange (a17 m c) 96) (h18 : InRange (a18 m c) 4096) (h19 : InRange (a19 m c) 64)
    (hM : ∀ i j, toFin (a16 m c) 4096 h16 i = toFin (a16 m c) 4096 h16 j → toFin (a17 m c) 96 h17 i = toFin (a17 m c) 96 h17 j → i = j)
    (hS : ∀ i j, toFin (a18 m c) 4096 h18 i = toFin (a18 m c) 4096 h18 j → toFin (a19 m c) 64 h19 i = toFin (a19 m c) 64 h19 j → i = j)
    (E175 : (V m c main_v175 : S4096x96x64.Idx → EReal) = Host.scatter scatter_S4096x96x64_S262112x2_S262112x64_1_01_01_1 (fun _ b => b)
      (broadcastInDim S4096x96x64 ![] bcast_S_S4096x96x64 (constant (F := Ideal) S_ .f32 0x00000000#32)) (idxM m c) (a0 m c))
    (E190 : (V m c main_v190 : S4096x64x64.Idx → EReal) = Host.scatter scatter_S4096x64x64_S163550x2_S163550x64_1_01_01_1 (fun _ b => b)
      (broadcastInDim S4096x64x64 ![] bcast_S_S4096x64x64 (constant (F := Ideal) S_ .f32 0x00000000#32)) (idxS m c) (sRaw m c))
    (E206 : (V m c main_v206 : S4096x96x64.Idx → EReal) = Host.scatter scatter_S4096x96x64_S262112x2_S262112x64_1_01_01_1 (fun _ b => b)
      (broadcastInDim S4096x96x64 ![] bcast_S_S4096x96x64 (constant (F := Ideal) S_ .bf16 0x0000#16)) (idxM m c)
      (truncf (F := Ideal) .bf16 (mProj m c) bitsLt_bf16_f32))
    (E222 : (V m c main_v222 : S4096x64x64.Idx → EReal) = Host.scatter scatter_S4096x64x64_S163550x2_S163550x64_1_01_01_1 (fun _ b => b)
      (broadcastInDim S4096x64x64 ![] bcast_S_S4096x64x64 (constant (F := Ideal) S_ .bf16 0x0000#16)) (idxS m c)
      (truncf (F := Ideal) .bf16 (sProj m c) bitsLt_bf16_f32)) :
    Cert.Spec.zPad (V m c main_v175) (V m c main_v190) (V m c main_v206) (V m c main_v222)
      = Cert.Spec.zNode (toFin (a16 m c) 4096 h16) (toFin (a17 m c) 96 h17) (toFin (a18 m c) 4096 h18) (toFin (a19 m c) 64 h19)
          (a0 m c) (sRaw m c) (mProj m c) (sProj m c) := by
  have P175 : (V m c main_v175 : S4096x96x64.Idx → EReal) = Cert.Spec.pad (toFin (a16 m c) 4096 h16) (toFin (a17 m c) 96 h17) (a0 m c) :=
    E175.trans (scatter_norm_eq_pad scatter_S4096x96x64_S262112x2_S262112x64_1_01_01_1_wf (a16 m c) (a17 m c) h16 h17 hM
      bcast_S_S262112 bcast_S_S262112 bcast_S_S262112 bcast_S_S262112 bcast_S262112_S262112x1_0 bcast_S262112_S262112x1_0
      concatenates_S262112x1_S262112x1_S262112x2_d1 bcast_S_S4096x96x64 (a0 m c))
  have P190 : (V m c main_v190 : S4096x64x64.Idx → EReal) = Cert.Spec.pad (toFin (a18 m c) 4096 h18) (toFin (a19 m c) 64 h19) (sRaw m c) :=
    E190.trans (scatter_norm_eq_pad scatter_S4096x64x64_S163550x2_S163550x64_1_01_01_1_wf (a18 m c) (a19 m c) h18 h19 hS
      bcast_S_S163550 bcast_S_S163550 bcast_S_S163550 bcast_S_S163550 bcast_S163550_S163550x1_0 bcast_S163550_S163550x1_0
      concatenates_S163550x1_S163550x1_S163550x2_d1 bcast_S_S4096x64x64 (sRaw m c))
  have P206 : (V m c main_v206 : S4096x96x64.Idx → EReal) = Cert.Spec.pad (toFin (a16 m c) 4096 h16) (toFin (a17 m c) 96 h17) (mProj m c) :=
    E206.trans (scatter_norm_eq_pad_bf16 scatter_S4096x96x64_S262112x2_S262112x64_1_01_01_1_wf (a16 m c) (a17 m c) h16 h17 hM
      bcast_S_S262112 bcast_S_S262112 bcast_S_S262112 bcast_S_S262112 bcast_S262112_S262112x1_0 bcast_S262112_S262112x1_0
      concatenates_S262112x1_S262112x1_S262112x2_d1 bcast_S_S4096x96x64 (mProj m c))
  have P222 : (V m c main_v222 : S4096x64x64.Idx → EReal) = Cert.Spec.pad (toFin (a18 m c) 4096 h18) (toFin (a19 m c) 64 h19) (sProj m c) :=
    E222.trans (scatter_norm_eq_pad_bf16 scatter_S4096x64x64_S163550x2_S163550x64_1_01_01_1_wf (a18 m c) (a19 m c) h18 h19 hS
      bcast_S_S163550 bcast_S_S163550 bcast_S_S163550 bcast_S_S163550 bcast_S163550_S163550x1_0 bcast_S163550_S163550x1_0
      concatenates_S163550x1_S163550x1_S163550x2_d1 bcast_S_S4096x64x64 (sProj m c))
  refine (congr (congr (congr (congrArg Cert.Spec.zPad P175) P190) P206) P222).trans ?_
  exact Cert.Spec.zPad_pad_eq_zNode _ _ _ _ hM hS (a0 m c) (mProj m c) (sRaw m c) (sProj m c)

/-! ## The two bias operands -/

/-- Given that the first bias operand is the first layer's bias vector reshaped to a row, its row read by columns is
    that vector. -/
theorem kernel_b1_of (E223 : (V m c main_v223 : S1x256.Idx → EReal) = shapeCast S1x256 (a13 m c) shapeCasts_S256_S1x256) :
    ((fun j => V m c main_v223 (ix2 0 (j 0))) : Cert.Spec.A1 256) = a13 m c := by
  funext j
  obtain ⟨k, rfl⟩ : ∃ k : Fin 256, j = ix1 k := ⟨j 0, eq_ix1 j⟩
  show (V m c main_v223 : S1x256.Idx → EReal) (ix2 (0 : Fin 1) k) = a13 m c (ix1 k)
  rw [E223]
  exact shapeCast_a_1a_apply (a13 m c) shapeCasts_S256_S1x256 0 k

/-- Given that the second bias operand is the second layer's one bias reshaped to `[1, 1]`, its one entry is that bias. -/
theorem kernel_b2_of (E224 : (V m c main_v224 : S1x1.Idx → EReal) = shapeCast S1x1 (a15 m c) shapeCasts_S1_S1x1) :
    ((fun _ => V m c main_v224 (ix2 0 0)) : Cert.Spec.A1 1) = a15 m c := by
  funext j
  obtain ⟨k, rfl⟩ : ∃ k : Fin 1, j = ix1 k := ⟨j 0, eq_ix1 j⟩
  have hk : k = 0 := Subsingleton.elim k 0
  subst hk
  show (V m c main_v224 : S1x1.Idx → EReal) (ix2 (0 : Fin 1) (0 : Fin 1)) = a15 m c (ix1 0)
  rw [E224]
  exact shapeCast_a_1a_apply (a15 m c) shapeCasts_S1_S1x1 0 0

end Cert.KPad

end
-- ==== Proof.KernelHost.lean ====
/-
  The host operations of the kernel program before its custom call compute the same arrays as the first operations
  of the reference program. The operations come in nine stretches (the embedding with the edge weights and the first
  graph convolution; a rectifier; three more convolutions, each followed by a rectifier; and a last stretch with the
  two normalisations, the four paddings and the two reshapes). For each stretch, and an arbitrary state of the buffers
  before it, the arrays that later stretches read are written as the reference's stages of the arrays the stretch
  reads; a stretch leaves alone every reference it does not write. Chaining the stretches from the launch contents
  gives what the region finds: the solvent rows after the four convolutions, the two normalised arrays, the four
  padded arrays (each a scatter of rows into a zero array at the stacked, negative-wrapped index pairs) and the two
  reshaped parameter vectors. Everything is stated for an arbitrary float model.
-/
import proofs.«428288_j26706106647095_1_alg».proof.Proof.Gen.KernelIdeal.Frame
import proofs.«428288_j26706106647095_1_alg».proof.Proof.ReadP

set_option maxRecDepth 16384

noncomputable section

namespace Cert.KHost

open Cert.KernelIdeal Cert.KernelIdeal.Gen Idealize.ShloMosaic Idealize.ShloMosaic.TcCoe Idealize.SL.Sem Idealize.ShloMosaic.StableHlo

variable {F : FTy → Type} [FloatOps F]

/-! ## Stretch 0: the embedding, the edge weights and the first graph convolution -/

theorem s0_v24 (X : Valuation τ sig (Elt F)) :
    (after hostOps0 X (Proc.devRef .tc main_v24) : S490650x1.Idx → Elt F .f32) =
      Cert.ReferenceIdeal.Read.val_main_v24 (X (Proc.devRef .tc main_arg20)) (X (Proc.devRef .tc main_arg21)) := by
  after_results_simp
  rfl

theorem s0_v44 (X : Valuation τ sig (Elt F)) :
    (after hostOps0 X (Proc.devRef .tc main_v44) : S163550x64.Idx → Elt F .f32) =
      Cert.ReferenceIdeal.Read.val_main_v44 (X (Proc.devRef .tc main_arg1)) (X (Proc.devRef .tc main_arg2)) (X (Proc.devRef .tc main_arg3)) (X (Proc.devRef .tc main_arg4)) (X (Proc.devRef .tc main_arg5)) (X (Proc.devRef .tc main_arg20)) (X (Proc.devRef .tc main_arg21)) := by
  after_results_simp
  rfl

/-! ## The rectifier stretches -/

theorem s1_v45 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v44) : S163550x64.Idx → Elt F .f32) = Cert.ReferenceIdeal.Read.val_main_v44 a1 a2 a3 a4 a5 a20 a21) :
    (after hostOps0_1 X (Proc.devRef .tc main_v45) : S163550x64.Idx → Elt F .f32) = Cert.ReferenceIdeal.Read.val_main_v45 a1 a2 a3 a4 a5 a20 a21 := by
  after_results_simp
  rw [h]
  rfl

theorem s3_v66 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v65) : S163550x64.Idx → Elt F .f32) = Cert.ReferenceIdeal.Read.val_main_v65 a1 a2 a3 a4 a5 a20 a21) :
    (after hostOps0_3 X (Proc.devRef .tc main_v66) : S163550x64.Idx → Elt F .f32) = Cert.ReferenceIdeal.Read.val_main_v66 a1 a2 a3 a4 a5 a20 a21 := by
  after_results_simp
  rw [h]
  rfl

theorem s5_v87 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v86) : S163550x64.Idx → Elt F .f32) = Cert.ReferenceIdeal.Read.val_main_v86 a1 a2 a3 a4 a5 a20 a21) :
    (after hostOps0_5 X (Proc.devRef .tc main_v87) : S163550x64.Idx → Elt F .f32) = Cert.ReferenceIdeal.Read.val_main_v87 a1 a2 a3 a4 a5 a20 a21 := by
  after_results_simp
  rw [h]
  rfl

theorem s7_v108 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v107) : S163550x64.Idx → Elt F .f32) = Cert.ReferenceIdeal.Read.val_main_v107 a1 a2 a3 a4 a5 a20 a21) :
    (after hostOps0_7 X (Proc.devRef .tc main_v108) : S163550x64.Idx → Elt F .f32) = Cert.ReferenceIdeal.Read.val_main_v108 a1 a2 a3 a4 a5 a20 a21 := by
  after_results_simp
  rw [h]
  rfl

/-! ## The graph-convolution stretches -/

theorem s2_v65 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v45) : S163550x64.Idx → Elt F .f32) = Cert.ReferenceIdeal.Read.val_main_v45 a1 a2 a3 a4 a5 a20 a21)
    (h24 : (X (Proc.devRef .tc main_v24) : S490650x1.Idx → Elt F .f32) = Cert.ReferenceIdeal.Read.val_main_v24 a20 a21)
    (e4 : X (Proc.devRef .tc main_arg4) = a4) (e5 : X (Proc.devRef .tc main_arg5) = a5) (e20 : X (Proc.devRef .tc main_arg20) = a20) (e21 : X (Proc.devRef .tc main_arg21) = a21) :
    (after hostOps0_2 X (Proc.devRef .tc main_v65) : S163550x64.Idx → Elt F .f32) = Cert.ReferenceIdeal.Read.val_main_v65 a1 a2 a3 a4 a5 a20 a21 := by
  after_results_simp
  simp only [h, h24, e4, e5, e20, e21]
  rfl

theorem s4_v86 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v66) : S163550x64.Idx → Elt F .f32) = Cert.ReferenceIdeal.Read.val_main_v66 a1 a2 a3 a4 a5 a20 a21)
    (h24 : (X (Proc.devRef .tc main_v24) : S490650x1.Idx → Elt F .f32) = Cert.ReferenceIdeal.Read.val_main_v24 a20 a21)
    (e4 : X (Proc.devRef .tc main_arg4) = a4) (e5 : X (Proc.devRef .tc main_arg5) = a5) (e20 : X (Proc.devRef .tc main_arg20) = a20) (e21 : X (Proc.devRef .tc main_arg21) = a21) :
    (after hostOps0_4 X (Proc.devRef .tc main_v86) : S163550x64.Idx → Elt F .f32) = Cert.ReferenceIdeal.Read.val_main_v86 a1 a2 a3 a4 a5 a20 a21 := by
  after_results_simp
  simp only [h, h24, e4, e5, e20, e21]
  rfl

theorem s6_v107 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a20 : (⟨S490650, .i32⟩ : BufTy).Contents (Elt F)) (a21 : (⟨S490650, .i32⟩ : BufTy).Contents (Elt F))
    (h : (X (Proc.devRef .tc main_v87) : S163550x64.Idx → Elt F .f32) = Cert.ReferenceIdeal.Read.val_main_v87 a1 a2 a3 a4 a5 a20 a21)
    (h24 : (X (Proc.devRef .tc main_v24) : S490650x1.Idx → Elt F .f32) = Cert.ReferenceIdeal.Read.val_main_v24 a20 a21)
    (e4 : X (Proc.devRef .tc main_arg4) = a4) (e5 : X (Proc.devRef .tc main_arg5) = a5) (e20 : X (Proc.devRef .tc main_arg20) = a20) (e21 : X (Proc.devRef .tc main_arg21) = a21) :
    (after hostOps0_6 X (Proc.devRef .tc main_v107) : S163550x64.Idx → Elt F .f32) = Cert.ReferenceIdeal.Read.val_main_v107 a1 a2 a3 a4 a5 a20 a21 := by
  after_results_simp
  simp only [h, h24, e4, e5, e20, e21]
  rfl

/-! ## The last stretch: the two normalisations, the four paddings and the two reshapes -/

/-- An index array with its negative entries wrapped by `n`, as a column; the two columns side by side. -/
def pairsM (a16 a17 : (⟨S262112, .i32⟩ : BufTy).Contents (Elt F)) : (⟨S262112x2, .i32⟩ : BufTy).Contents (Elt F) :=
  concatenate S262112x2 1
    [⟨S262112x1, broadcastInDim S262112x1 ![0] bcast_S262112_S262112x1_0
        (select (cmpi .slt a16 (broadcastInDim S262112 ![] bcast_S_S262112 (constantI S_ 32 0#32)))
          (addi a16 (broadcastInDim S262112 ![] bcast_S_S262112 (constantI S_ 32 4096#32))) a16)⟩,
     ⟨S262112x1, broadcastInDim S262112x1 ![0] bcast_S262112_S262112x1_0
        (select (cmpi .slt a17 (broadcastInDim S262112 ![] bcast_S_S262112 (constantI S_ 32 0#32)))
          (addi a17 (broadcastInDim S262112 ![] bcast_S_S262112 (constantI S_ 32 96#32))) a17)⟩]
    concatenates_S262112x1_S262112x1_S262112x2_d1

def pairsS (a18 a19 : (⟨S163550, .i32⟩ : BufTy).Contents (Elt F)) : (⟨S163550x2, .i32⟩ : BufTy).Contents (Elt F) :=
  concatenate S163550x2 1
    [⟨S163550x1, broadcastInDim S163550x1 ![0] bcast_S163550_S163550x1_0
        (select (cmpi .slt a18 (broadcastInDim S163550 ![] bcast_S_S163550 (constantI S_ 32 0#32)))
          (addi a18 (broadcastInDim S163550 ![] bcast_S_S163550 (constantI S_ 32 4096#32))) a18)⟩,
     ⟨S163550x1, broadcastInDim S163550x1 ![0] bcast_S163550_S163550x1_0
        (select (cmpi .slt a19 (broadcastInDim S163550 ![] bcast_S_S163550 (constantI S_ 32 0#32)))
          (addi a19 (broadcastInDim S163550 ![] bcast_S_S163550 (constantI S_ 32 64#32))) a19)⟩]
    concatenates_S163550x1_S163550x1_S163550x2_d1

/-- The zero arrays the paddings write into. -/
def zeroM32 : (⟨S4096x96x64, .f32⟩ : BufTy).Contents (Elt F) :=
  broadcastInDim S4096x96x64 ![] bcast_S_S4096x96x64 (constant S_ .f32 0x00000000#32)
def zeroS32 : (⟨S4096x64x64, .f32⟩ : BufTy).Contents (Elt F) :=
  broadcastInDim S4096x64x64 ![] bcast_S_S4096x64x64 (constant S_ .f32 0x00000000#32)
def zeroM16 : (⟨S4096x96x64, .bf16⟩ : BufTy).Contents (Elt F) :=
  broadcastInDim S4096x96x64 ![] bcast_S_S4096x96x64 (constant S_ .bf16 0x0000#16)
def zeroS16 : (⟨S4096x64x64, .bf16⟩ : BufTy).Contents (Elt F) :=
  broadcastInDim S4096x64x64 ![] bcast_S_S4096x64x64 (constant S_ .bf16 0x0000#16)

theorem s8_v134 (X : Valuation τ sig (Elt F)) :
    (after hostOps0_8 X (Proc.devRef .tc main_v134) : S262112x64.Idx → Elt F .f32) =
      Cert.ReferenceIdeal.Read.val_main_v134 (X (Proc.devRef .tc main_arg0)) (X (Proc.devRef .tc main_arg6)) (X (Proc.devRef .tc main_arg8)) (X (Proc.devRef .tc main_arg9)) := by
  after_results_simp
  rfl

theorem s8_v160 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a7 : (⟨S64x64, .f32⟩ : BufTy).Contents (Elt F)) (a10 : (⟨S64, .f32⟩ : BufTy).Contents (Elt F)) (a11 : (⟨S64, .f32⟩ : BufTy).Contents (Elt F)) (a20 : (⟨S490650, .i32⟩ : BufTy).Contents (Elt F)) (a21 : (⟨S490650, .i32⟩ : BufTy).Contents (Elt F))
    (h : (X (Proc.devRef .tc main_v108) : S163550x64.Idx → Elt F .f32) = Cert.ReferenceIdeal.Read.val_main_v108 a1 a2 a3 a4 a5 a20 a21)
    (e7 : X (Proc.devRef .tc main_arg7) = a7) (e10 : X (Proc.devRef .tc main_arg10) = a10) (e11 : X (Proc.devRef .tc main_arg11) = a11) :
    (after hostOps0_8 X (Proc.devRef .tc main_v160) : S163550x64.Idx → Elt F .f32) = Cert.ReferenceIdeal.Read.val_main_v160 a1 a2 a3 a4 a5 a7 a10 a11 a20 a21 := by
  after_results_simp
  simp only [h, e7, e10, e11]
  rfl

theorem s8_v175 (X : Valuation τ sig (Elt F)) :
    (after hostOps0_8 X (Proc.devRef .tc main_v175) : S4096x96x64.Idx → Elt F .f32) =
      Host.scatter scatter_S4096x96x64_S262112x2_S262112x64_1_01_01_1 (fun _ b => b) zeroM32
        (pairsM (X (Proc.devRef .tc main_arg16)) (X (Proc.devRef .tc main_arg17))) (X (Proc.devRef .tc main_arg0)) := by
  after_results_simp
  rfl

theorem s8_v190 (X : Valuation τ sig (Elt F)) :
    (after hostOps0_8 X (Proc.devRef .tc main_v190) : S4096x64x64.Idx → Elt F .f32) =
      Host.scatter scatter_S4096x64x64_S163550x2_S163550x64_1_01_01_1 (fun _ b => b) zeroS32
        (pairsS (X (Proc.devRef .tc main_arg18)) (X (Proc.devRef .tc main_arg19))) (X (Proc.devRef .tc main_v108)) := by
  after_results_simp
  rfl

theorem s8_v191 (X : Valuation τ sig (Elt F)) : (after hostOps0_8 X (Proc.devRef .tc main_v191) : S4096x96x64.Idx → Elt F .bf16) = zeroM16 := by
  after_results_simp
  rfl
theorem s8_v205 (X : Valuation τ sig (Elt F)) :
    (after hostOps0_8 X (Proc.devRef .tc main_v205) : S262112x2.Idx → Elt F .i32) = pairsM (X (Proc.devRef .tc main_arg16)) (X (Proc.devRef .tc main_arg17)) := by
  after_results_simp
  rfl
theorem s8_v192 (X : Valuation τ sig (Elt F)) :
    (after hostOps0_8 X (Proc.devRef .tc main_v192) : S262112x64.Idx → Elt F .bf16) = truncf .bf16 (after hostOps0_8 X (Proc.devRef .tc main_v134) : S262112x64.Idx → Elt F .f32) bitsLt_bf16_f32 := by
  after_results_simp
theorem s8_v206_raw (X : Valuation τ sig (Elt F)) : (after hostOps0_8 X (Proc.devRef .tc main_v206) : S4096x96x64.Idx → Elt F .bf16) =
    Host.scatter scatter_S4096x96x64_S262112x2_S262112x64_1_01_01_1 (fun _ b => b) (after hostOps0_8 X (Proc.devRef .tc main_v191) : S4096x96x64.Idx → Elt F .bf16)
      (after hostOps0_8 X (Proc.devRef .tc main_v205) : S262112x2.Idx → Elt F .i32) (after hostOps0_8 X (Proc.devRef .tc main_v192) : S262112x64.Idx → Elt F .bf16) := by
  after_results_simp
  rfl

theorem s8_v206 (X : Valuation τ sig (Elt F)) :
    (after hostOps0_8 X (Proc.devRef .tc main_v206) : S4096x96x64.Idx → Elt F .bf16) =
      Host.scatter scatter_S4096x96x64_S262112x2_S262112x64_1_01_01_1 (fun _ b => b) zeroM16
        (pairsM (X (Proc.devRef .tc main_arg16)) (X (Proc.devRef .tc main_arg17)))
        (truncf .bf16 (Cert.ReferenceIdeal.Read.val_main_v134 (X (Proc.devRef .tc main_arg0)) (X (Proc.devRef .tc main_arg6)) (X (Proc.devRef .tc main_arg8)) (X (Proc.devRef .tc main_arg9))) bitsLt_bf16_f32) := by
  rw [s8_v206_raw, s8_v191, s8_v205, s8_v192, s8_v134]
  rfl

theorem s8_v207 (X : Valuation τ sig (Elt F)) : (after hostOps0_8 X (Proc.devRef .tc main_v207) : S4096x64x64.Idx → Elt F .bf16) = zeroS16 := by
  after_results_simp
  rfl
theorem s8_v221 (X : Valuation τ sig (Elt F)) :
    (after hostOps0_8 X (Proc.devRef .tc main_v221) : S163550x2.Idx → Elt F .i32) = pairsS (X (Proc.devRef .tc main_arg18)) (X (Proc.devRef .tc main_arg19)) := by
  after_results_simp
  rfl
theorem s8_v208 (X : Valuation τ sig (Elt F)) :
    (after hostOps0_8 X (Proc.devRef .tc main_v208) : S163550x64.Idx → Elt F .bf16) = truncf .bf16 (after hostOps0_8 X (Proc.devRef .tc main_v160) : S163550x64.Idx → Elt F .f32) bitsLt_bf16_f32 := by
  after_results_simp
theorem s8_v222_raw (X : Valuation τ sig (Elt F)) : (after hostOps0_8 X (Proc.devRef .tc main_v222) : S4096x64x64.Idx → Elt F .bf16) =
    Host.scatter scatter_S4096x64x64_S163550x2_S163550x64_1_01_01_1 (fun _ b => b) (after hostOps0_8 X (Proc.devRef .tc main_v207) : S4096x64x64.Idx → Elt F .bf16)
      (after hostOps0_8 X (Proc.devRef .tc main_v221) : S163550x2.Idx → Elt F .i32) (after hostOps0_8 X (Proc.devRef .tc main_v208) : S163550x64.Idx → Elt F .bf16) := by
  after_results_simp
  rfl

theorem s8_v222 (X : Valuation τ sig (Elt F)) (a1 : (⟨S163550x74, .f32⟩ : BufTy).Contents (Elt F)) (a2 : (⟨S74x64, .f32⟩ : BufTy).Contents (Elt F)) (a3 : (⟨S64, .f32⟩ : BufTy).Contents (Elt F)) (a4 : (⟨S4x64x64, .f32⟩ : BufTy).Contents (Elt F)) (a5 : (⟨S4x64, .f32⟩ : BufTy).Contents (Elt F)) (a7 : (⟨S64x64, .f32⟩ : BufTy).Contents (Elt F)) (a10 : (⟨S64, .f32⟩ : BufTy).Contents (Elt F)) (a11 : (⟨S64, .f32⟩ : BufTy).Contents (Elt F)) (a20 : (⟨S490650, .i32⟩ : BufTy).Contents (Elt F)) (a21 : (⟨S490650, .i32⟩ : BufTy).Contents (Elt F))
    (h : (X (Proc.devRef .tc main_v108) : S163550x64.Idx → Elt F .f32) = Cert.ReferenceIdeal.Read.val_main_v108 a1 a2 a3 a4 a5 a20 a21)
    (e7 : X (Proc.devRef .tc main_arg7) = a7) (e10 : X (Proc.devRef .tc main_arg10) = a10) (e11 : X (Proc.devRef .tc main_arg11) = a11) :
    (after hostOps0_8 X (Proc.devRef .tc main_v222) : S4096x64x64.Idx → Elt F .bf16) =
      Host.scatter scatter_S4096x64x64_S163550x2_S163550x64_1_01_01_1 (fun _ b => b) zeroS16
        (pairsS (X (Proc.devRef .tc main_arg18)) (X (Proc.devRef .tc main_arg19)))
        (truncf .bf16 (Cert.ReferenceIdeal.Read.val_main_v160 a1 a2 a3 a4 a5 a7 a10 a11 a20 a21) bitsLt_bf16_f32) := by
  rw [s8_v222_raw, s8_v207, s8_v221, s8_v208, s8_v160 X a1 a2 a3 a4 a5 a7 a10 a11 a20 a21 h e7 e10 e11]
  rfl

theorem s8_v223 (X : Valuation τ sig (Elt F)) :
    (after hostOps0_8 X (Proc.devRef .tc main_v223) : S1x256.Idx → Elt F .f32) =
      shapeCast S1x256 (X (Proc.devRef .tc main_arg13)) shapeCasts_S256_S1x256 := by
  after_results_simp
  rfl

theorem s8_v224 (X : Valuation τ sig (Elt F)) :
    (after hostOps0_8 X (Proc.devRef .tc main_v224) : S1x1.Idx → Elt F .f32) =
      shapeCast S1x1 (X (Proc.devRef .tc main_arg15)) shapeCasts_S1_S1x1 := by
  after_results_simp
  rfl

/-! ## The references each stretch of host operations writes, and what a stretch leaves alone -/

/-- The references the operations of stretch 0 write. -/
abbrev s0_W : List (Ref sig .tc) := [main_v0, main_v1, main_v2, main_v3, main_cst, main_v4, main_cst_0, main_v5, main_v6, main_v7, main_c, main_v8, main_v9, main_c_1, main_v10, main_v11, main_v12, main_v13, main_v14, main_c_2, main_v15, main_v16, main_c_3, main_v17, main_v18, main_v19, main_v20, main_v21, main_v22, main_v23, main_v24, main_c_4, main_v25, main_v26, main_c_5, main_v27, main_v28, main_v29, main_v30, main_v31, main_v32, main_v33, main_cst_6, main_v34, main_v35, main_v36, main_v37, main_v38, main_v39, main_v40, main_v41, main_v42, main_v43, main_v44]
theorem s0_writes : (hostOps0 : List (HloOp τ sig (Elt F))).Forall fun op => op.writes ⊆ (s0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 0 does not write keeps its contents over it. -/
theorem s0_keep (X : Valuation τ sig (Elt F)) {r : Ref sig .tc} (h : r ∉ s0_W) :
    after hostOps0 X (Proc.devRef .tc r) = X (Proc.devRef .tc r) :=
  after_of_writes_sub hostOps0 X s0_writes h

/-- The references the operations of stretch 1 write. -/
abbrev s1_W : List (Ref sig .tc) := [main_call0_cst, main_call0_v0, main_v45]
theorem s1_writes : (hostOps0_1 : List (HloOp τ sig (Elt F))).Forall fun op => op.writes ⊆ (s1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 1 does not write keeps its contents over it. -/
theorem s1_keep (X : Valuation τ sig (Elt F)) {r : Ref sig .tc} (h : r ∉ s1_W) :
    after hostOps0_1 X (Proc.devRef .tc r) = X (Proc.devRef .tc r) :=
  after_of_writes_sub hostOps0_1 X s1_writes h

/-- The references the operations of stretch 2 write. -/
abbrev s2_W : List (Ref sig .tc) := [main_c_7, main_v46, main_v47, main_c_8, main_v48, main_v49, main_v50, main_v51, main_v52, main_v53, main_v54, main_cst_9, main_v55, main_v56, main_v57, main_v58, main_v59, main_v60, main_v61, main_v62, main_v63, main_v64, main_v65]
theorem s2_writes : (hostOps0_2 : List (HloOp τ sig (Elt F))).Forall fun op => op.writes ⊆ (s2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 2 does not write keeps its contents over it. -/
theorem s2_keep (X : Valuation τ sig (Elt F)) {r : Ref sig .tc} (h : r ∉ s2_W) :
    after hostOps0_2 X (Proc.devRef .tc r) = X (Proc.devRef .tc r) :=
  after_of_writes_sub hostOps0_2 X s2_writes h

/-- The references the operations of stretch 3 write. -/
abbrev s3_W : List (Ref sig .tc) := [main_call1_cst, main_call1_v0, main_v66]
theorem s3_writes : (hostOps0_3 : List (HloOp τ sig (Elt F))).Forall fun op => op.writes ⊆ (s3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 3 does not write keeps its contents over it. -/
theorem s3_keep (X : Valuation τ sig (Elt F)) {r : Ref sig .tc} (h : r ∉ s3_W) :
    after hostOps0_3 X (Proc.devRef .tc r) = X (Proc.devRef .tc r) :=
  after_of_writes_sub hostOps0_3 X s3_writes h

/-- The references the operations of stretch 4 write. -/
abbrev s4_W : List (Ref sig .tc) := [main_c_10, main_v67, main_v68, main_c_11, main_v69, main_v70, main_v71, main_v72, main_v73, main_v74, main_v75, main_cst_12, main_v76, main_v77, main_v78, main_v79, main_v80, main_v81, main_v82, main_v83, main_v84, main_v85, main_v86]
theorem s4_writes : (hostOps0_4 : List (HloOp τ sig (Elt F))).Forall fun op => op.writes ⊆ (s4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 4 does not write keeps its contents over it. -/
theorem s4_keep (X : Valuation τ sig (Elt F)) {r : Ref sig .tc} (h : r ∉ s4_W) :
    after hostOps0_4 X (Proc.devRef .tc r) = X (Proc.devRef .tc r) :=
  after_of_writes_sub hostOps0_4 X s4_writes h

/-- The references the operations of stretch 5 write. -/
abbrev s5_W : List (Ref sig .tc) := [main_call2_cst, main_call2_v0, main_v87]
theorem s5_writes : (hostOps0_5 : List (HloOp τ sig (Elt F))).Forall fun op => op.writes ⊆ (s5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 5 does not write keeps its contents over it. -/
theorem s5_keep (X : Valuation τ sig (Elt F)) {r : Ref sig .tc} (h : r ∉ s5_W) :
    after hostOps0_5 X (Proc.devRef .tc r) = X (Proc.devRef .tc r) :=
  after_of_writes_sub hostOps0_5 X s5_writes h

/-- The references the operations of stretch 6 write. -/
abbrev s6_W : List (Ref sig .tc) := [main_c_13, main_v88, main_v89, main_c_14, main_v90, main_v91, main_v92, main_v93, main_v94, main_v95, main_v96, main_cst_15, main_v97, main_v98, main_v99, main_v100, main_v101, main_v102, main_v103, main_v104, main_v105, main_v106, main_v107]
theorem s6_writes : (hostOps0_6 : List (HloOp τ sig (Elt F))).Forall fun op => op.writes ⊆ (s6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 6 does not write keeps its contents over it. -/
theorem s6_keep (X : Valuation τ sig (Elt F)) {r : Ref sig .tc} (h : r ∉ s6_W) :
    after hostOps0_6 X (Proc.devRef .tc r) = X (Proc.devRef .tc r) :=
  after_of_writes_sub hostOps0_6 X s6_writes h

/-- The references the operations of stretch 7 write. -/
abbrev s7_W : List (Ref sig .tc) := [main_call3_cst, main_call3_v0, main_v108]
theorem s7_writes : (hostOps0_7 : List (HloOp τ sig (Elt F))).Forall fun op => op.writes ⊆ (s7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 7 does not write keeps its contents over it. -/
theorem s7_keep (X : Valuation τ sig (Elt F)) {r : Ref sig .tc} (h : r ∉ s7_W) :
    after hostOps0_7 X (Proc.devRef .tc r) = X (Proc.devRef .tc r) :=
  after_of_writes_sub hostOps0_7 X s7_writes h

/-- The references the operations of stretch 8 write. -/
abbrev s8_W : List (Ref sig .tc) := [main_v109, main_cst_16, main_v110, main_cst_17, main_v111, main_v112, main_v113, main_v114, main_v115, main_v116, main_cst_18, main_v117, main_cst_19, main_v118, main_v119, main_v120, main_v121, main_v122, main_cst_20, main_v123, main_v124, main_v125, main_v126, main_v127, main_v128, main_v129, main_v130, main_v131, main_v132, main_v133, main_v134, main_v135, main_cst_21, main_v136, main_cst_22, main_v137, main_v138, main_v139, main_v140, main_v141, main_v142, main_cst_23, main_v143, main_cst_24, main_v144, main_v145, main_v146, main_v147, main_v148, main_cst_25, main_v149, main_v150, main_v151, main_v152, main_v153, main_v154, main_v155, main_v156, main_v157, main_v158, main_v159, main_v160, main_cst_26, main_v161, main_c_27, main_v162, main_v163, main_c_28, main_v164, main_v165, main_v166, main_c_29, main_v167, main_v168, main_c_30, main_v169, main_v170, main_v171, main_v172, main_v173, main_v174, main_v175, main_cst_31, main_v176, main_c_32, main_v177, main_v178, main_c_33, main_v179, main_v180, main_v181, main_c_34, main_v182, main_v183, main_c_35, main_v184, main_v185, main_v186, main_v187, main_v188, main_v189, main_v190, main_cst_36, main_v191, main_v192, main_c_37, main_v193, main_v194, main_c_38, main_v195, main_v196, main_v197, main_c_39, main_v198, main_v199, main_c_40, main_v200, main_v201, main_v202, main_v203, main_v204, main_v205, main_v206, main_cst_41, main_v207, main_v208, main_c_42, main_v209, main_v210, main_c_43, main_v211, main_v212, main_v213, main_c_44, main_v214, main_v215, main_c_45, main_v216, main_v217, main_v218, main_v219, main_v220, main_v221, main_v222, main_v223, main_v224]
theorem s8_writes : (hostOps0_8 : List (HloOp τ sig (Elt F))).Forall fun op => op.writes ⊆ (s8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 8 does not write keeps its contents over it. -/
theorem s8_keep (X : Valuation τ sig (Elt F)) {r : Ref sig .tc} (h : r ∉ s8_W) :
    after hostOps0_8 X (Proc.devRef .tc r) = X (Proc.devRef .tc r) :=
  after_of_writes_sub hostOps0_8 X s8_writes h

/-- A reference no stretch writes (an argument of the program). -/
abbrev NotW (r : Ref sig .tc) : Prop := r ∉ s0_W ∧ r ∉ s1_W ∧ r ∉ s2_W ∧ r ∉ s3_W ∧ r ∉ s4_W ∧ r ∉ s5_W ∧ r ∉ s6_W ∧ r ∉ s7_W ∧ r ∉ s8_W

variable (m : (ℓ : Loc nD τ sig) → Buf (Elt F) ℓ) (c : Dev nD)

/-! ## The contents after each stretch -/

/-- The contents at launch. -/
abbrev X0 : Valuation τ sig (Elt F) := fun b => m (c, b)
/-- The contents after stretches 0 to 0. -/
def X1 : Valuation τ sig (Elt F) := after hostOps0 (X0 m c)
/-- The contents after stretches 0 to 1. -/
def X2 : Valuation τ sig (Elt F) := after hostOps0_1 (X1 m c)
/-- The contents after stretches 0 to 2. -/
def X3 : Valuation τ sig (Elt F) := after hostOps0_2 (X2 m c)
/-- The contents after stretches 0 to 3. -/
def X4 : Valuation τ sig (Elt F) := after hostOps0_3 (X3 m c)
/-- The contents after stretches 0 to 4. -/
def X5 : Valuation τ sig (Elt F) := after hostOps0_4 (X4 m c)
/-- The contents after stretches 0 to 5. -/
def X6 : Valuation τ sig (Elt F) := after hostOps0_5 (X5 m c)
/-- The contents after stretches 0 to 6. -/
def X7 : Valuation τ sig (Elt F) := after hostOps0_6 (X6 m c)
/-- The contents after stretches 0 to 7. -/
def X8 : Valuation τ sig (Elt F) := after hostOps0_7 (X7 m c)
/-- The contents after stretches 0 to 8. -/
def X9 : Valuation τ sig (Elt F) := after hostOps0_8 (X8 m c)

theorem V_eq (b : Ref sig .tc) : V m c b = X9 m c (Proc.devRef .tc b) := by
  dsimp only [Gen.V]
  simp only [X9, X8, X7, X6, X5, X4, X3, X2, X1, X0, List.flatten_cons, List.flatten_nil, List.append_nil, StableHlo.after_append]

theorem K1 {r : Ref sig .tc} (h : NotW r) : X1 m c (Proc.devRef .tc r) = m (c, Proc.devRef .tc r) :=
  (s0_keep (X0 m c) h.1).trans rfl
theorem K2 {r : Ref sig .tc} (h : NotW r) : X2 m c (Proc.devRef .tc r) = m (c, Proc.devRef .tc r) :=
  (s1_keep (X1 m c) h.2.1).trans (K1 m c h)
theorem K3 {r : Ref sig .tc} (h : NotW r) : X3 m c (Proc.devRef .tc r) = m (c, Proc.devRef .tc r) :=
  (s2_keep (X2 m c) h.2.2.1).trans (K2 m c h)
theorem K4 {r : Ref sig .tc} (h : NotW r) : X4 m c (Proc.devRef .tc r) = m (c, Proc.devRef .tc r) :=
  (s3_keep (X3 m c) h.2.2.2.1).trans (K3 m c h)
theorem K5 {r : Ref sig .tc} (h : NotW r) : X5 m c (Proc.devRef .tc r) = m (c, Proc.devRef .tc r) :=
  (s4_keep (X4 m c) h.2.2.2.2.1).trans (K4 m c h)
theorem K6 {r : Ref sig .tc} (h : NotW r) : X6 m c (Proc.devRef .tc r) = m (c, Proc.devRef .tc r) :=
  (s5_keep (X5 m c) h.2.2.2.2.2.1).trans (K5 m c h)
theorem K7 {r : Ref sig .tc} (h : NotW r) : X7 m c (Proc.devRef .tc r) = m (c, Proc.devRef .tc r) :=
  (s6_keep (X6 m c) h.2.2.2.2.2.2.1).trans (K6 m c h)
theorem K8 {r : Ref sig .tc} (h : NotW r) : X8 m c (Proc.devRef .tc r) = m (c, Proc.devRef .tc r) :=
  (s7_keep (X7 m c) h.2.2.2.2.2.2.2.1).trans (K7 m c h)
theorem K9 {r : Ref sig .tc} (h : NotW r) : X9 m c (Proc.devRef .tc r) = m (c, Proc.devRef .tc r) :=
  (s8_keep (X8 m c) h.2.2.2.2.2.2.2.2).trans (K8 m c h)

/-! ## No stretch writes an argument -/

theorem nw0 : NotW main_arg0 := by decide
theorem nw4 : NotW main_arg4 := by decide
theorem nw5 : NotW main_arg5 := by decide
theorem nw6 : NotW main_arg6 := by decide
theorem nw7 : NotW main_arg7 := by decide
theorem nw8 : NotW main_arg8 := by decide
theorem nw9 : NotW main_arg9 := by decide
theorem nw10 : NotW main_arg10 := by decide
theorem nw11 : NotW main_arg11 := by decide
theorem nw13 : NotW main_arg13 := by decide
theorem nw15 : NotW main_arg15 := by decide
theorem nw16 : NotW main_arg16 := by decide
theorem nw17 : NotW main_arg17 := by decide
theorem nw18 : NotW main_arg18 := by decide
theorem nw19 : NotW main_arg19 := by decide
theorem nw20 : NotW main_arg20 := by decide
theorem nw21 : NotW main_arg21 := by decide

/-! ## The stages that cross a stretch boundary, level by level -/

theorem L1_v24 : (X1 m c (Proc.devRef .tc main_v24) : S490650x1.Idx → Elt F .f32) = Cert.ReferenceIdeal.Read.val_main_v24 (m ((c : Thread nD τ).loc main_arg20)) (m ((c : Thread nD τ).loc main_arg21)) :=
  s0_v24 (X0 m c)
theorem L1_v44 : (X1 m c (Proc.devRef .tc main_v44) : S163550x64.Idx → Elt F .f32) = Cert.ReferenceIdeal.Read.val_main_v44 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s0_v44 (X0 m c)
theorem L2_v45 : (X2 m c (Proc.devRef .tc main_v45) : S163550x64.Idx → Elt F .f32) = Cert.ReferenceIdeal.Read.val_main_v45 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s1_v45 (X1 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L1_v44 m c)
theorem L2_v24 : (X2 m c (Proc.devRef .tc main_v24) : S490650x1.Idx → Elt F .f32) = Cert.ReferenceIdeal.Read.val_main_v24 (m ((c : Thread nD τ).loc main_arg20)) (m ((c : Thread nD τ).loc main_arg21)) :=
  (s1_keep (X1 m c) (by decide)).trans (L1_v24 m c)
theorem L3_v65 : (X3 m c (Proc.devRef .tc main_v65) : S163550x64.Idx → Elt F .f32) = Cert.ReferenceIdeal.Read.val_main_v65 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s2_v65 (X2 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L2_v45 m c) (L2_v24 m c)
    (K2 m c nw4) (K2 m c nw5) (K2 m c nw20) (K2 m c nw21)
theorem L3_v24 : (X3 m c (Proc.devRef .tc main_v24) : S490650x1.Idx → Elt F .f32) = Cert.ReferenceIdeal.Read.val_main_v24 (m ((c : Thread nD τ).loc main_arg20)) (m ((c : Thread nD τ).loc main_arg21)) :=
  (s2_keep (X2 m c) (by decide)).trans (L2_v24 m c)
theorem L4_v66 : (X4 m c (Proc.devRef .tc main_v66) : S163550x64.Idx → Elt F .f32) = Cert.ReferenceIdeal.Read.val_main_v66 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s3_v66 (X3 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L3_v65 m c)
theorem L4_v24 : (X4 m c (Proc.devRef .tc main_v24) : S490650x1.Idx → Elt F .f32) = Cert.ReferenceIdeal.Read.val_main_v24 (m ((c : Thread nD τ).loc main_arg20)) (m ((c : Thread nD τ).loc main_arg21)) :=
  (s3_keep (X3 m c) (by decide)).trans (L3_v24 m c)
theorem L5_v86 : (X5 m c (Proc.devRef .tc main_v86) : S163550x64.Idx → Elt F .f32) = Cert.ReferenceIdeal.Read.val_main_v86 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s4_v86 (X4 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L4_v66 m c) (L4_v24 m c)
    (K4 m c nw4) (K4 m c nw5) (K4 m c nw20) (K4 m c nw21)
theorem L5_v24 : (X5 m c (Proc.devRef .tc main_v24) : S490650x1.Idx → Elt F .f32) = Cert.ReferenceIdeal.Read.val_main_v24 (m ((c : Thread nD τ).loc main_arg20)) (m ((c : Thread nD τ).loc main_arg21)) :=
  (s4_keep (X4 m c) (by decide)).trans (L4_v24 m c)
theorem L6_v87 : (X6 m c (Proc.devRef .tc main_v87) : S163550x64.Idx → Elt F .f32) = Cert.ReferenceIdeal.Read.val_main_v87 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s5_v87 (X5 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L5_v86 m c)
theorem L6_v24 : (X6 m c (Proc.devRef .tc main_v24) : S490650x1.Idx → Elt F .f32) = Cert.ReferenceIdeal.Read.val_main_v24 (m ((c : Thread nD τ).loc main_arg20)) (m ((c : Thread nD τ).loc main_arg21)) :=
  (s5_keep (X5 m c) (by decide)).trans (L5_v24 m c)
theorem L7_v107 : (X7 m c (Proc.devRef .tc main_v107) : S163550x64.Idx → Elt F .f32) = Cert.ReferenceIdeal.Read.val_main_v107 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s6_v107 (X6 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L6_v87 m c) (L6_v24 m c)
    (K6 m c nw4) (K6 m c nw5) (K6 m c nw20) (K6 m c nw21)
theorem L8_v108 : (X8 m c (Proc.devRef .tc main_v108) : S163550x64.Idx → Elt F .f32) = Cert.ReferenceIdeal.Read.val_main_v108 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  s7_v108 (X7 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) (L7_v107 m c)

/-! ## What the region finds in the buffers the host operations wrote -/

/-- The solvent rows after the four graph convolutions. -/
theorem V_v108 : (V m c main_v108 : S163550x64.Idx → Elt F .f32) = Cert.ReferenceIdeal.Read.val_main_v108 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21)) :=
  (V_eq m c main_v108).trans ((s8_keep (X8 m c) (by decide)).trans (L8_v108 m c))

/-- The normalised molecule rows. -/
theorem V_v134 : (V m c main_v134 : S262112x64.Idx → Elt F .f32) = Cert.ReferenceIdeal.Read.val_main_v134 (m ((c : Thread nD τ).loc main_arg0)) (m ((c : Thread nD τ).loc main_arg6)) (m ((c : Thread nD τ).loc main_arg8)) (m ((c : Thread nD τ).loc main_arg9)) := by
  rw [V_eq, X9, s8_v134, K8 m c nw0, K8 m c nw6, K8 m c nw8, K8 m c nw9]

/-- The normalised solvent rows. -/
theorem V_v160 : (V m c main_v160 : S163550x64.Idx → Elt F .f32) = Cert.ReferenceIdeal.Read.val_main_v160 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg10)) (m ((c : Thread nD τ).loc main_arg11)) (m ((c : Thread nD τ).loc main_arg20)) (m ((c : Thread nD τ).loc main_arg21)) :=
  (V_eq m c main_v160).trans (s8_v160 (X8 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg10)) (m ((c : Thread nD τ).loc main_arg11)) (m ((c : Thread nD τ).loc main_arg20)) (m ((c : Thread nD τ).loc main_arg21)) (L8_v108 m c) (K8 m c nw7) (K8 m c nw10) (K8 m c nw11))

/-- The raw molecule rows, padded. -/
theorem V_v175 : (V m c main_v175 : S4096x96x64.Idx → Elt F .f32) =
    Host.scatter scatter_S4096x96x64_S262112x2_S262112x64_1_01_01_1 (fun _ b => b) zeroM32
      (pairsM (m ((c : Thread nD τ).loc main_arg16)) (m ((c : Thread nD τ).loc main_arg17))) (m ((c : Thread nD τ).loc main_arg0)) := by
  rw [V_eq, X9, s8_v175, K8 m c nw16, K8 m c nw17, K8 m c nw0]

/-- The solvent rows after the graph convolutions, padded. -/
theorem V_v190 : (V m c main_v190 : S4096x64x64.Idx → Elt F .f32) =
    Host.scatter scatter_S4096x64x64_S163550x2_S163550x64_1_01_01_1 (fun _ b => b) zeroS32
      (pairsS (m ((c : Thread nD τ).loc main_arg18)) (m ((c : Thread nD τ).loc main_arg19))) (Cert.ReferenceIdeal.Read.val_main_v108 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg20)) (m ((c : Thread nD τ).loc main_arg21))) := by
  rw [V_eq, X9, s8_v190, K8 m c nw18, K8 m c nw19, L8_v108]

/-- The normalised molecule rows in bf16, padded. -/
theorem V_v206 : (V m c main_v206 : S4096x96x64.Idx → Elt F .bf16) =
    Host.scatter scatter_S4096x96x64_S262112x2_S262112x64_1_01_01_1 (fun _ b => b) zeroM16
      (pairsM (m ((c : Thread nD τ).loc main_arg16)) (m ((c : Thread nD τ).loc main_arg17)))
      (truncf .bf16 (Cert.ReferenceIdeal.Read.val_main_v134 (m ((c : Thread nD τ).loc main_arg0)) (m ((c : Thread nD τ).loc main_arg6)) (m ((c : Thread nD τ).loc main_arg8)) (m ((c : Thread nD τ).loc main_arg9))) bitsLt_bf16_f32) := by
  rw [V_eq, X9, s8_v206, K8 m c nw16, K8 m c nw17, K8 m c nw0, K8 m c nw6, K8 m c nw8, K8 m c nw9]

/-- The normalised solvent rows in bf16, padded. -/
theorem V_v222 : (V m c main_v222 : S4096x64x64.Idx → Elt F .bf16) =
    Host.scatter scatter_S4096x64x64_S163550x2_S163550x64_1_01_01_1 (fun _ b => b) zeroS16
      (pairsS (m ((c : Thread nD τ).loc main_arg18)) (m ((c : Thread nD τ).loc main_arg19)))
      (truncf .bf16 (Cert.ReferenceIdeal.Read.val_main_v160 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg10)) (m ((c : Thread nD τ).loc main_arg11)) (m ((c : Thread nD τ).loc main_arg20)) (m ((c : Thread nD τ).loc main_arg21))) bitsLt_bf16_f32) := by
  rw [V_eq, X9, s8_v222 (X8 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg10)) (m ((c : Thread nD τ).loc main_arg11)) (m ((c : Thread nD τ).loc main_arg20)) (m ((c : Thread nD τ).loc main_arg21)) (L8_v108 m c) (K8 m c nw7) (K8 m c nw10) (K8 m c nw11), K8 m c nw18, K8 m c nw19]

/-- The two reshaped parameter vectors. -/
theorem V_v223 : (V m c main_v223 : S1x256.Idx → Elt F .f32) = shapeCast S1x256 (m ((c : Thread nD τ).loc main_arg13)) shapeCasts_S256_S1x256 := by
  rw [V_eq, X9, s8_v223, K8 m c nw13]
theorem V_v224 : (V m c main_v224 : S1x1.Idx → Elt F .f32) = shapeCast S1x1 (m ((c : Thread nD τ).loc main_arg15)) shapeCasts_S1_S1x1 := by
  rw [V_eq, X9, s8_v224, K8 m c nw15]

theorem V_v223_apply (j : Fin 256) :
    (V m c main_v223 : S1x256.Idx → Elt F .f32) (ValueIdx.ix2 (0 : Fin 1) j) = ((m ((c : Thread nD τ).loc main_arg13)) : S256.Idx → Elt F .f32) (ValueIdx.ix1 j) := by
  rw [V_v223]
  exact shapeCast_apply _ shapeCasts_S256_S1x256 _ _ (by
    rw [Shape.rowMajor_val_two, Shape.rowMajor_val_one]; show j.val = 0 * 256 + j.val; omega)
theorem V_v224_apply :
    (V m c main_v224 : S1x1.Idx → Elt F .f32) (ValueIdx.ix2 (0 : Fin 1) (0 : Fin 1)) = ((m ((c : Thread nD τ).loc main_arg15)) : S1.Idx → Elt F .f32) (ValueIdx.ix1 (0 : Fin 1)) := by
  rw [V_v224]
  exact shapeCast_apply _ shapeCasts_S1_S1x1 _ _ (by
    rw [Shape.rowMajor_val_two, Shape.rowMajor_val_one]; rfl)

end Cert.KHost
-- ==== Proof.KernelPad2.lean ====
/-
  The hypothesis-free forms: with what the host wrote into the kernel's operands before the region, the pooled features
  of the four padded operands are the node-wise pooled features, and the two reshaped bias operands read back the biases.
-/
import proofs.«428288_j26706106647095_1_alg».proof.Proof.KernelPad
import proofs.«428288_j26706106647095_1_alg».proof.Proof.KernelHost

noncomputable section

namespace Cert.KPad

open Cert.KernelIdeal Cert.KernelIdeal.Gen Cert.IdxSem Idealize.ShloMosaic Idealize.ShloMosaic.TcCoe Idealize.ShloMosaic.ValueIdx Idealize.SL.Sem

variable (m : (ℓ : Loc nD τ sig) → Buf (Elt Ideal) ℓ) (c : Dev nD)

/-- The raw molecule operand is the padding scatter of the raw molecule rows. -/
theorem host_v175 : (V m c main_v175 : S4096x96x64.Idx → EReal) = Host.scatter scatter_S4096x96x64_S262112x2_S262112x64_1_01_01_1 (fun _ b => b)
    (broadcastInDim S4096x96x64 ![] bcast_S_S4096x96x64 (constant (F := Ideal) S_ .f32 0x00000000#32)) (idxM m c) (a0 m c) := by
  have e := Cert.KHost.V_v175 (F := Ideal) m c
  unfold Cert.KHost.pairsM Cert.KHost.zeroM32 at e
  exact e

/-- The raw solvent operand is the padding scatter of the raw solvent rows. -/
theorem host_v190 : (V m c main_v190 : S4096x64x64.Idx → EReal) = Host.scatter scatter_S4096x64x64_S163550x2_S163550x64_1_01_01_1 (fun _ b => b)
    (broadcastInDim S4096x64x64 ![] bcast_S_S4096x64x64 (constant (F := Ideal) S_ .f32 0x00000000#32)) (idxS m c) (sRaw m c) := by
  have e := Cert.KHost.V_v190 (F := Ideal) m c
  unfold Cert.KHost.pairsS Cert.KHost.zeroS32 at e
  exact e

/-- The projected molecule operand is the padding scatter of the projected molecule rows. -/
theorem host_v206 : (V m c main_v206 : S4096x96x64.Idx → EReal) = Host.scatter scatter_S4096x96x64_S262112x2_S262112x64_1_01_01_1 (fun _ b => b)
    (broadcastInDim S4096x96x64 ![] bcast_S_S4096x96x64 (constant (F := Ideal) S_ .bf16 0x0000#16)) (idxM m c)
    (truncf (F := Ideal) .bf16 (mProj m c) bitsLt_bf16_f32) := by
  have e := Cert.KHost.V_v206 (F := Ideal) m c
  unfold Cert.KHost.pairsM Cert.KHost.zeroM16 at e
  exact e

/-- The projected solvent operand is the padding scatter of the projected solvent rows. -/
theorem host_v222 : (V m c main_v222 : S4096x64x64.Idx → EReal) = Host.scatter scatter_S4096x64x64_S163550x2_S163550x64_1_01_01_1 (fun _ b => b)
    (broadcastInDim S4096x64x64 ![] bcast_S_S4096x64x64 (constant (F := Ideal) S_ .bf16 0x0000#16)) (idxS m c)
    (truncf (F := Ideal) .bf16 (sProj m c) bitsLt_bf16_f32) := by
  have e := Cert.KHost.V_v222 (F := Ideal) m c
  unfold Cert.KHost.pairsS Cert.KHost.zeroS16 at e
  exact e

/-- Pooling the kernel's four padded operands over every slot is pooling node-wise, when the index arrays are in range
    and no two nodes name one slot. -/
theorem kernel_z
    (h16 : InRange (a16 m c) 4096) (h17 : InRange (a17 m c) 96) (h18 : InRange (a18 m c) 4096) (h19 : InRange (a19 m c) 64)
    (hM : ∀ i j, toFin (a16 m c) 4096 h16 i = toFin (a16 m c) 4096 h16 j → toFin (a17 m c) 96 h17 i = toFin (a17 m c) 96 h17 j → i = j)
    (hS : ∀ i j, toFin (a18 m c) 4096 h18 i = toFin (a18 m c) 4096 h18 j → toFin (a19 m c) 64 h19 i = toFin (a19 m c) 64 h19 j → i = j) :
    Cert.Spec.zPad (V m c main_v175) (V m c main_v190) (V m c main_v206) (V m c main_v222)
      = Cert.Spec.zNode (toFin (a16 m c) 4096 h16) (toFin (a17 m c) 96 h17) (toFin (a18 m c) 4096 h18) (toFin (a19 m c) 64 h19)
          (a0 m c) (sRaw m c) (mProj m c) (sProj m c) :=
  kernel_z_of m c h16 h17 h18 h19 hM hS (host_v175 m c) (host_v190 m c) (host_v206 m c) (host_v222 m c)

/-- The first bias operand's row, read by columns, is the first layer's bias vector. -/
theorem kernel_b1 : ((fun j => V m c main_v223 (ix2 0 (j 0))) : Cert.Spec.A1 256) = a13 m c :=
  kernel_b1_of m c (Cert.KHost.V_v223 (F := Ideal) m c)

/-- The second bias operand's one entry is the second layer's bias. -/
theorem kernel_b2 : ((fun _ => V m c main_v224 (ix2 0 0)) : Cert.Spec.A1 1) = a15 m c :=
  kernel_b2_of m c (Cert.KHost.V_v224 (F := Ideal) m c)

end Cert.KPad

end
-- ==== Proof.PreRead.lean ====
/-
  The precondition read back.

  The printed precondition is a conjunction of twenty-two tests, each an "all" over an array, joined by the one-bit
  "and". The last six say: every entry of the four index arrays lies in its range, read signed, and no cell of the
  two occupancy counts exceeds one. The occupancy count of a pair of index arrays is the scatter-add, into a zero
  table, of the constant one at the cell each position names. Here the claim that the conjunction is one everywhere is
  split back into those six statements at the extended-real values.
-/
import proofs.«428288_j26706106647095_1_alg».proof.Pre_finite_inputs
import proofs.«428288_j26706106647095_1_alg».proof.Proof.Gen.Pre_finite_inputs
import proofs.«428288_j26706106647095_1_alg».proof.Proof.IdxFin
import Idealize.ShloMosaic.Lib.ReduceAll
import Idealize.ShloMosaic.Lib.StableHlo.Predicate
import Idealize.ShloMosaic.PureOps.Ideal
import Idealize.ShloMosaic.Lib.ValueIdx

noncomputable section

namespace Cert.PreRead

open Idealize.ShloMosaic Idealize.ShloMosaic.ValueIdx
open Cert.Pre_finite_inputs Cert.Pre_finite_inputs.Facts

variable [Cert.Pre_finite_inputs.Facts]

/-- The rank-0 shape has one index. -/
instance : Subsingleton S_.Idx := ⟨fun a b => funext fun d => d.elim0⟩

/-- The occupancy count of the first pair of index arrays: one added, into a zero [4096, 96] table, at the cell
    (a16[n], a17[n]) for every position n (a negative entry first shifted up by the axis size). -/
def cntM (a16 a17 : IVec S262112 32) : FVec Ideal S4096x96 .f32 :=
  Host.scatterAdd scatter_S4096x96_S262112x2_S262112_n_01_01_1
    (broadcastInDim S4096x96 ![] bcast_S_S4096x96 (constant S_ .f32 0x00000000#32))
    (concatenate S262112x2 1
      [⟨S262112x1, broadcastInDim S262112x1 ![0] bcast_S262112_S262112x1_0
          (select (cmpi .slt a16 (broadcastInDim S262112 ![] bcast_S_S262112 (constantI S_ 32 0#32)))
            (addi a16 (broadcastInDim S262112 ![] bcast_S_S262112 (constantI S_ 32 4096#32))) a16)⟩,
       ⟨S262112x1, broadcastInDim S262112x1 ![0] bcast_S262112_S262112x1_0
          (select (cmpi .slt a17 (broadcastInDim S262112 ![] bcast_S_S262112 (constantI S_ 32 0#32)))
            (addi a17 (broadcastInDim S262112 ![] bcast_S_S262112 (constantI S_ 32 96#32))) a17)⟩]
      concatenates_S262112x1_S262112x1_S262112x2_d1)
    (broadcastInDim S262112 ![] bcast_S_S262112 (constant S_ .f32 0x3F800000#32))

/-- The occupancy count of the second pair of index arrays, over the [4096, 64] table. -/
def cntS (a18 a19 : IVec S163550 32) : FVec Ideal S4096x64 .f32 :=
  Host.scatterAdd scatter_S4096x64_S163550x2_S163550_n_01_01_1
    (broadcastInDim S4096x64 ![] bcast_S_S4096x64 (constant S_ .f32 0x00000000#32))
    (concatenate S163550x2 1
      [⟨S163550x1, broadcastInDim S163550x1 ![0] bcast_S163550_S163550x1_0
          (select (cmpi .slt a18 (broadcastInDim S163550 ![] bcast_S_S163550 (constantI S_ 32 0#32)))
            (addi a18 (broadcastInDim S163550 ![] bcast_S_S163550 (constantI S_ 32 4096#32))) a18)⟩,
       ⟨S163550x1, broadcastInDim S163550x1 ![0] bcast_S163550_S163550x1_0
          (select (cmpi .slt a19 (broadcastInDim S163550 ![] bcast_S_S163550 (constantI S_ 32 0#32)))
            (addi a19 (broadcastInDim S163550 ![] bcast_S_S163550 (constantI S_ 32 64#32))) a19)⟩]
      concatenates_S163550x1_S163550x1_S163550x2_d1)
    (broadcastInDim S163550 ![] bcast_S_S163550 (constant S_ .f32 0x3F800000#32))

/-- A one-bit "and" of two rank-0 arrays that is one has both operands one. -/
theorem andi_one {a b : IVec S_ 1} {j : S_.Idx} (h : andi a b j = 1#1) : a j = 1#1 ∧ b j = 1#1 :=
  IntOp.andi_eq_one.1 h

/-- An "all" that came out one had a one at every index. -/
theorem all_one {s : Shape} {axes : List (Fin s.rank)} {x : IVec s 1} {hr : s.ReducesTo axes S_} {j : S_.Idx}
    (h : Host.reduce IntOp.andi x (constantI S_ 1 1#1) hr h_S_ j = 1#1) (i : s.Idx) : x i = 1#1 :=
  Host.reduce_andi_all x _ hr h_S_ j h i

/-- The pattern 0x3F800000 is the real number one. -/
theorem ofBits_one_f32 : Ideal.ofBits .f32 0x3F800000#32 = 1 := by
  simp [Ideal.ofBits, Ideal.ieee]
  rw [← EReal.coe_mul]
  norm_num

/-- An ordered "at most" test against the constant one, at the extended reals, that came out one says the inequality. -/
theorem ole_one {s : Shape} {x : FVec Ideal s .f32} {hb : S_.BroadcastsInDim s (![] : Fin 0 → Fin s.rank)} {i : s.Idx}
    (h : cmpf .ole x (broadcastInDim s ![] hb (constant S_ .f32 0x3F800000#32)) i = 1#1) : x i ≤ 1 := by
  have h' : Ideal.cmp .ole (x i) (Ideal.ofBits .f32 0x3F800000#32) = 1#1 := h
  rw [ofBits_one_f32] at h'
  unfold Ideal.cmp at h'
  rw [StableHlo.Predicate.ofBool_eq_one_iff] at h'
  exact of_decide_eq_true h'

/-- Entries at least zero and below M, both read signed, at every position: the array is in range. -/
theorem range_of {N : Nat} {hb : S_.BroadcastsInDim ⟨1, ![N]⟩ (![] : Fin 0 → Fin 1)} {a : IVec ⟨1, ![N]⟩ 32} (M : Nat)
    (hM : M < 2 ^ 31)
    (h : ∀ i, andi (cmpi .sge a (broadcastInDim ⟨1, ![N]⟩ ![] hb (constantI S_ 32 0#32)))
      (cmpi .slt a (broadcastInDim ⟨1, ![N]⟩ ![] hb (constantI S_ 32 (BitVec.ofNat 32 M)))) i = 1#1) :
    Cert.IdxSem.InRange a M := by
  intro n
  obtain ⟨h0, h1⟩ := IntOp.andi_eq_one.1 (h (ix1 n))
  have h0' : (0#32).toInt ≤ (a (ix1 n)).toInt := IntOp.cmpi_sge.1 h0
  have h1' : (a (ix1 n)).toInt < (BitVec.ofNat 32 M).toInt := IntOp.cmpi_slt.1 h1
  rw [StableHlo.Predicate.toInt_ofNat_small M hM] at h1'
  exact ⟨h0', h1'⟩

/-- THE PRECONDITION READ BACK: where the printed conjunction is one, the four index arrays are in range and no cell
    of either occupancy count exceeds one. The sixteen finiteness tests at the head of the conjunction are dropped. -/
theorem pre_read (a0 : FVec Ideal S262112x64 .f32) (a1 : FVec Ideal S163550x74 .f32) (a2 : FVec Ideal S74x64 .f32)
    (a3 : FVec Ideal S64 .f32) (a4 : FVec Ideal S4x64x64 .f32) (a5 : FVec Ideal S4x64 .f32) (a6 : FVec Ideal S64x64 .f32)
    (a7 : FVec Ideal S64x64 .f32) (a8 : FVec Ideal S64 .f32) (a9 : FVec Ideal S64 .f32) (a10 : FVec Ideal S64 .f32)
    (a11 : FVec Ideal S64 .f32) (a12 : FVec Ideal S256x256 .f32) (a13 : FVec Ideal S256 .f32) (a14 : FVec Ideal S256x1 .f32)
    (a15 : FVec Ideal S1 .f32) (a16 : IVec S262112 32) (a17 : IVec S262112 32) (a18 : IVec S163550 32)
    (a19 : IVec S163550 32) (a20 : IVec S490650 32) (a21 : IVec S490650 32)
    (h : Cert.Pre_finite_inputs.fn (F := Ideal) a0 a1 a2 a3 a4 a5 a6 a7 a8 a9 a10 a11 a12 a13 a14 a15 a16 a17 a18 a19 a20 a21
      = fun _ => 1#1) :
    Cert.IdxSem.InRange a16 4096 ∧ Cert.IdxSem.InRange a17 96 ∧ Cert.IdxSem.InRange a18 4096 ∧ Cert.IdxSem.InRange a19 64
      ∧ (∀ s, cntM a16 a17 s ≤ 1) ∧ (∀ s, cntS a18 a19 s ≤ 1) := by
  have h0 := congrFun h ix0
  dsimp only [fn, fn_part1, fn_part2, fn_part3, fn_part4, fn_part5, fn_part6, fn_part7, fn_part8] at h0
  -- the conjunction, peeled from its last conjunct back to the first of the six
  obtain ⟨h126, hS⟩ := andi_one h0
  obtain ⟨h106, hM⟩ := andi_one h126
  obtain ⟨h99, h19⟩ := andi_one h106
  obtain ⟨h92, h18⟩ := andi_one h99
  obtain ⟨h85, h17⟩ := andi_one h92
  obtain ⟨-, h16⟩ := andi_one h85
  exact ⟨range_of 4096 (by norm_num) (all_one h16), range_of 96 (by norm_num) (all_one h17),
    range_of 4096 (by norm_num) (all_one h18), range_of 64 (by norm_num) (all_one h19),
    fun s => ole_one (all_one hM s), fun s => ole_one (all_one hS s)⟩

/-- An in-range index array is its own normalisation: no entry is negative, so the shift by the axis size is never taken. -/
theorem norm_eq {N : Nat} {hb : S_.BroadcastsInDim ⟨1, ![N]⟩ (![] : Fin 0 → Fin 1)} {a : IVec ⟨1, ![N]⟩ 32} {M : Nat}
    (c : BitVec 32) (h : Cert.IdxSem.InRange a M) :
    select (cmpi .slt a (broadcastInDim ⟨1, ![N]⟩ ![] hb (constantI S_ 32 0#32)))
      (addi a (broadcastInDim ⟨1, ![N]⟩ ![] hb (constantI S_ 32 c))) a = a := by
  funext i
  obtain ⟨n, rfl⟩ : ∃ n, i = ix1 n := ⟨i 0, eq_ix1 i⟩
  have hn := (h n).1
  have hc : ¬ IntOp.cmpi .slt (a (ix1 n)) (0#32) = 1#1 := by
    intro e
    have e' : (a (ix1 n)).toInt < (0#32).toInt := IntOp.cmpi_slt.1 e
    have z : (0#32).toInt = 0 := by decide
    omega
  show Scalar.select (IntOp.cmpi .slt (a (ix1 n)) (0#32)) _ _ = _
  unfold Scalar.select
  exact if_neg hc

/-- With both index arrays in range the first occupancy count scatters at the cells (a16[n], a17[n]) themselves. -/
theorem cntM_eq (a16 a17 : IVec S262112 32) (h16 : Cert.IdxSem.InRange a16 4096) (h17 : Cert.IdxSem.InRange a17 96) :
    cntM a16 a17 = Host.scatterAdd scatter_S4096x96_S262112x2_S262112_n_01_01_1
      (broadcastInDim S4096x96 ![] bcast_S_S4096x96 (constant S_ .f32 0x00000000#32))
      (concatenate S262112x2 1
        [⟨S262112x1, broadcastInDim S262112x1 ![0] bcast_S262112_S262112x1_0 a16⟩,
         ⟨S262112x1, broadcastInDim S262112x1 ![0] bcast_S262112_S262112x1_0 a17⟩]
        concatenates_S262112x1_S262112x1_S262112x2_d1)
      (broadcastInDim S262112 ![] bcast_S_S262112 (constant S_ .f32 0x3F800000#32)) := by
  unfold cntM
  rw [norm_eq _ h16, norm_eq _ h17]

/-- With both index arrays in range the second occupancy count scatters at the cells (a18[n], a19[n]) themselves. -/
theorem cntS_eq (a18 a19 : IVec S163550 32) (h18 : Cert.IdxSem.InRange a18 4096) (h19 : Cert.IdxSem.InRange a19 64) :
    cntS a18 a19 = Host.scatterAdd scatter_S4096x64_S163550x2_S163550_n_01_01_1
      (broadcastInDim S4096x64 ![] bcast_S_S4096x64 (constant S_ .f32 0x00000000#32))
      (concatenate S163550x2 1
        [⟨S163550x1, broadcastInDim S163550x1 ![0] bcast_S163550_S163550x1_0 a18⟩,
         ⟨S163550x1, broadcastInDim S163550x1 ![0] bcast_S163550_S163550x1_0 a19⟩]
        concatenates_S163550x1_S163550x1_S163550x2_d1)
      (broadcastInDim S163550 ![] bcast_S_S163550 (constant S_ .f32 0x3F800000#32)) := by
  unfold cntS
  rw [norm_eq _ h18, norm_eq _ h19]

end Cert.PreRead

end
-- ==== Proof.PreInj.lean ====
/-
  From the occupancy counts to distinct index pairs.

  The printed occupancy count of a pair of in-range index arrays is the scatter-add of ones into zeros at the stacked
  pairs, so counts at most one say that no two positions name the same cell: the pair of index arrays, read as functions
  into their ranges, is jointly injective.
-/
import proofs.«428288_j26706106647095_1_alg».proof.Pre_finite_inputs
import proofs.«428288_j26706106647095_1_alg».proof.Proof.IdxFin
import proofs.«428288_j26706106647095_1_alg».proof.Proof.CountInj
import proofs.«428288_j26706106647095_1_alg».proof.Proof.PreRead
import Idealize.ShloMosaic.PureOps.Ideal
import Idealize.ShloMosaic.PureOps.Ideal.Laws
import Idealize.ShloMosaic.Lib.ValueIdx

noncomputable section

namespace Cert.IdxSem

open Idealize.ShloMosaic Idealize.ShloMosaic.ValueIdx
open Cert.Pre_finite_inputs Cert.Pre_finite_inputs.Facts

variable [Cert.Pre_finite_inputs.Facts]

/-- The first occupancy count is the scatter-add of ones into zeros at the stacked wrapped pairs of the two index
    arrays. -/
theorem cntM_eq_count (a16 a17 : IVec ⟨1, ![262112]⟩ 32) :
    Cert.PreRead.cntM a16 a17 =
      Ideal.hostScatterAdd (cntDims 4096 96 262112 scatter_S4096x96_S262112x2_S262112_n_01_01_1_wf)
        (fun _ => (0 : EReal))
        (normCat a16 a17 4096 96 bcast_S_S262112 bcast_S_S262112 bcast_S_S262112 bcast_S_S262112
          bcast_S262112_S262112x1_0 bcast_S262112_S262112x1_0 concatenates_S262112x1_S262112x1_S262112x2_d1)
        (fun _ => (1 : EReal)) := by
  unfold Cert.PreRead.cntM Host.scatterAdd
  rw [Ideal.hostScatterAdd_def]
  have hz : (broadcastInDim S4096x96 ![] bcast_S_S4096x96 (constant S_ .f32 0x00000000#32) : FVec Ideal S4096x96 .f32)
      = fun _ => (0 : EReal) := by
    funext i; exact Ideal.ofBits_zero_f32
  have ho : (broadcastInDim S262112 ![] bcast_S_S262112 (constant S_ .f32 0x3F800000#32) : FVec Ideal S262112 .f32)
      = fun _ => (1 : EReal) := by
    funext i; exact Cert.PreRead.ofBits_one_f32
  rw [hz, ho]
  rfl

/-- The second occupancy count, likewise. -/
theorem cntS_eq_count (a18 a19 : IVec ⟨1, ![163550]⟩ 32) :
    Cert.PreRead.cntS a18 a19 =
      Ideal.hostScatterAdd (cntDims 4096 64 163550 scatter_S4096x64_S163550x2_S163550_n_01_01_1_wf)
        (fun _ => (0 : EReal))
        (normCat a18 a19 4096 64 bcast_S_S163550 bcast_S_S163550 bcast_S_S163550 bcast_S_S163550
          bcast_S163550_S163550x1_0 bcast_S163550_S163550x1_0 concatenates_S163550x1_S163550x1_S163550x2_d1)
        (fun _ => (1 : EReal)) := by
  unfold Cert.PreRead.cntS Host.scatterAdd
  rw [Ideal.hostScatterAdd_def]
  have hz : (broadcastInDim S4096x64 ![] bcast_S_S4096x64 (constant S_ .f32 0x00000000#32) : FVec Ideal S4096x64 .f32)
      = fun _ => (0 : EReal) := by
    funext i; exact Ideal.ofBits_zero_f32
  have ho : (broadcastInDim S163550 ![] bcast_S_S163550 (constant S_ .f32 0x3F800000#32) : FVec Ideal S163550 .f32)
      = fun _ => (1 : EReal) := by
    funext i; exact Cert.PreRead.ofBits_one_f32
  rw [hz, ho]
  rfl

/-- FIRST PAIR: in-range index arrays whose occupancy count is at most one everywhere name pairwise distinct cells. -/
theorem injM_of_count (a16 a17 : IVec ⟨1, ![262112]⟩ 32) (h16 : InRange a16 4096) (h17 : InRange a17 96)
    (hcnt : ∀ s, Cert.PreRead.cntM a16 a17 s ≤ 1) :
    ∀ i j, toFin a16 4096 h16 i = toFin a16 4096 h16 j → toFin a17 96 h17 i = toFin a17 96 h17 j → i = j := by
  refine inj_of_count_le_one scatter_S4096x96_S262112x2_S262112_n_01_01_1_wf
    (normCat a16 a17 4096 96 bcast_S_S262112 bcast_S_S262112 bcast_S_S262112 bcast_S_S262112
      bcast_S262112_S262112x1_0 bcast_S262112_S262112x1_0 concatenates_S262112x1_S262112x1_S262112x2_d1)
    (toFin a16 4096 h16) (toFin a17 96 h17) ?_ ?_ ?_
  · intro n
    rw [normCat_left _ _ _ _ _ _ _ _ _ _ _ n (h16 n).1]
    exact toFin_val a16 4096 h16 n
  · intro n
    rw [normCat_right _ _ _ _ _ _ _ _ _ _ _ n (h17 n).1]
    exact toFin_val a17 96 h17 n
  · intro s
    have h := hcnt s
    rw [cntM_eq_count] at h
    exact h

/-- SECOND PAIR: likewise. -/
theorem injS_of_count (a18 a19 : IVec ⟨1, ![163550]⟩ 32) (h18 : InRange a18 4096) (h19 : InRange a19 64)
    (hcnt : ∀ s, Cert.PreRead.cntS a18 a19 s ≤ 1) :
    ∀ i j, toFin a18 4096 h18 i = toFin a18 4096 h18 j → toFin a19 64 h19 i = toFin a19 64 h19 j → i = j := by
  refine inj_of_count_le_one scatter_S4096x64_S163550x2_S163550_n_01_01_1_wf
    (normCat a18 a19 4096 64 bcast_S_S163550 bcast_S_S163550 bcast_S_S163550 bcast_S_S163550
      bcast_S163550_S163550x1_0 bcast_S163550_S163550x1_0 concatenates_S163550x1_S163550x1_S163550x2_d1)
    (toFin a18 4096 h18) (toFin a19 64 h19) ?_ ?_ ?_
  · intro n
    rw [normCat_left _ _ _ _ _ _ _ _ _ _ _ n (h18 n).1]
    exact toFin_val a18 4096 h18 n
  · intro n
    rw [normCat_right _ _ _ _ _ _ _ _ _ _ _ n (h19 n).1]
    exact toFin_val a19 64 h19 n
  · intro s
    have h := hcnt s
    rw [cntS_eq_count] at h
    exact h

end Cert.IdxSem
-- ==== Proof.RefHead.lean ====
/-
  The reference program's two-layer head, read index by index at the ideal instance: the last ten host operations
  are the head `mlp` of the common ground applied to the pooled features.
-/
import proofs.«428288_j26706106647095_1_alg».proof.Proof.ReadP
import proofs.«428288_j26706106647095_1_alg».proof.Proof.Spec

noncomputable section

open scoped BigOperators

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The left operand of the first product is read at row `b`, column `k`. -/
theorem lidx232_eq (b : Fin 4096) (j k : Fin 256) : lidx_main_v232 (ix2 b j) k = ix2 b k := by
  funext a; refine Fin.ext ?_
  match a with
  | ⟨0, _⟩ => rfl
  | ⟨1, _⟩ => rfl
/-- The first weight matrix is read at row `k`, column `j`. -/
theorem ridx232_eq (b : Fin 4096) (j k : Fin 256) : ridx_main_v232 (ix2 b j) k = ix2 k j := by
  funext a; refine Fin.ext ?_
  match a with
  | ⟨0, _⟩ => rfl
  | ⟨1, _⟩ => rfl
/-- The left operand of the second product is read at row `b`, column `j`. -/
theorem lidx237_eq (b : Fin 4096) (j : Fin 256) : lidx_main_v237 (ix2 b (0 : Fin 1)) j = ix2 b j := by
  funext a; refine Fin.ext ?_
  match a with
  | ⟨0, _⟩ => rfl
  | ⟨1, _⟩ => rfl
/-- The second weight matrix is read at row `j`, column `0`. -/
theorem ridx237_eq (b : Fin 4096) (j : Fin 256) : ridx_main_v237 (ix2 b (0 : Fin 1)) j = ix2 j (0 : Fin 1) := by
  funext a; refine Fin.ext ?_
  match a with
  | ⟨0, _⟩ => rfl
  | ⟨1, _⟩ => rfl
/-- The first bias is read at `j` through its two broadcasts. -/
theorem idx233_234_eq (b : Fin 4096) (j : Fin 256) : idx_main_v233 (idx_main_v234 (ix2 b j)) = ix1 j := by
  funext a; refine Fin.ext ?_
  match a with
  | ⟨0, _⟩ => rfl
/-- The second bias is read at `0` through its two broadcasts. -/
theorem idx238_239_eq (b : Fin 4096) : idx_main_v238 (idx_main_v239 (ix2 b (0 : Fin 1))) = ix1 (0 : Fin 1) := by
  funext a; refine Fin.ext ?_
  match a with
  | ⟨0, _⟩ => rfl

/-- THE REFERENCE'S HEAD: the program's result is `mlp` of the pooled features, weights and biases, graph by graph. -/
theorem ref_head (x0 : (⟨S262112x64, .f32⟩ : BufTy).Contents (Elt Ideal)) (x1 : (⟨S163550x74, .f32⟩ : BufTy).Contents (Elt Ideal)) (x2 : (⟨S74x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 x7 : (⟨S64x64, .f32⟩ : BufTy).Contents (Elt Ideal)) (x8 x9 x10 x11 : (⟨S64, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S1, .f32⟩ : BufTy).Contents (Elt Ideal)) (x16 x17 : (⟨S262112, .i32⟩ : BufTy).Contents (Elt Ideal)) (x18 x19 : (⟨S163550, .i32⟩ : BufTy).Contents (Elt Ideal)) (x20 x21 : (⟨S490650, .i32⟩ : BufTy).Contents (Elt Ideal)) :
    val_main_v240 (F := Ideal) x0 x1 x2 x3 x4 x5 x6 x7 x8 x9 x10 x11 x12 x13 x14 x15 x16 x17 x18 x19 x20 x21
      = fun i => Cert.Spec.mlp (fun (b : Fin 4096) (k : Fin 256) => val_main_v231 (F := Ideal) x0 x1 x2 x3 x4 x5 x6 x7 x8 x9 x10 x11 x16 x17 x18 x19 x20 x21 (ix2 b k))
          x12 x13 x14 x15 (i 0) := by
  funext i
  obtain ⟨b, c, rfl⟩ : ∃ (b : Fin 4096) (c : Fin 1), i = ix2 b c := ⟨i 0, i 1, eq_ix2 i⟩
  obtain rfl : c = 0 := Subsingleton.elim _ _
  show _ = Cert.Spec.mlp _ x12 x13 x14 x15 b
  rw [val_main_v240_apply, val_main_v237_apply, val_main_v239_apply, val_main_v238_apply, idx238_239_eq, Ideal.addf_def]
  unfold Cert.Spec.mlp
  refine congrArg (· + x15 (ix1 (0 : Fin 1))) (Finset.sum_congr rfl (fun j _ => ?_))
  rw [lidx237_eq, ridx237_eq, val_main_v236_apply, val_main_v235_apply, val_main_v232_apply, val_main_v234_apply,
    val_main_v233_apply, val_main_call4_v0_apply, val_main_call4_cst_apply, idx233_234_eq, Ideal.maximumf_def,
    Ideal.addf_def]
  generalize val_main_v231 (F := Ideal) x0 x1 x2 x3 x4 x5 x6 x7 x8 x9 x10 x11 x16 x17 x18 x19 x20 x21 = y
  have hsum : (∑ k : Fin 256, y (lidx_main_v232 (ix2 b j) k) * x12 (ridx_main_v232 (ix2 b j) k))
      = ∑ k : Fin 256, y (ix2 b k) * x12 (ix2 k j) :=
    Finset.sum_congr rfl (fun k _ => by rw [lidx232_eq, ridx232_eq])
  have h0 : FloatOps.ofBits (F := Ideal) .f32 0x00000000#32 = 0 := Ideal.ofBits_zero_f32
  rw [hsum, h0]

end Cert.RefValue

end
-- ==== Proof.RefPoolA.lean ====
/-
  The reference's two mixing products, read at a slot of a graph: the product of the attention weights with the
  padded solvent rows is `h2p` of the two padded arrays, and the product with the padded molecule rows is `hs2p`.
-/
import proofs.«428288_j26706106647095_1_alg».proof.Proof.ReadP
import proofs.«428288_j26706106647095_1_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The left read of the score product at slot pair `(b, p, q)`, term `k`. -/
theorem lidx191 (b : Fin 4096) (p : Fin 96) (q k : Fin 64) : lidx_main_v191 (ix3 b p q) k = ix3 b p k := by
  funext a; match a with | ⟨0, _⟩ => rfl | ⟨1, _⟩ => rfl | ⟨2, _⟩ => rfl

/-- The right read of the score product at slot pair `(b, p, q)`, term `k`. -/
theorem ridx191 (b : Fin 4096) (p : Fin 96) (q k : Fin 64) : ridx_main_v191 (ix3 b p q) k = ix3 b q k := by
  funext a; match a with | ⟨0, _⟩ => rfl | ⟨1, _⟩ => rfl | ⟨2, _⟩ => rfl

/-- The left read of the molecule-side mixing product at `(b, p, d)`, term `q`. -/
theorem lidx193 (b : Fin 4096) (p : Fin 96) (d q : Fin 64) : lidx_main_v193 (ix3 b p d) q = ix3 b p q := by
  funext a; match a with | ⟨0, _⟩ => rfl | ⟨1, _⟩ => rfl | ⟨2, _⟩ => rfl

/-- The right read of the molecule-side mixing product at `(b, p, d)`, term `q`. -/
theorem ridx193 (b : Fin 4096) (p : Fin 96) (d q : Fin 64) : ridx_main_v193 (ix3 b p d) q = ix3 b q d := by
  funext a; match a with | ⟨0, _⟩ => rfl | ⟨1, _⟩ => rfl | ⟨2, _⟩ => rfl

/-- The left read of the solvent-side mixing product at `(b, q, d)`, term `p`. -/
theorem lidx208 (b : Fin 4096) (q d : Fin 64) (p : Fin 96) : lidx_main_v208 (ix3 b q d) p = ix3 b p q := by
  funext a; match a with | ⟨0, _⟩ => rfl | ⟨1, _⟩ => rfl | ⟨2, _⟩ => rfl

/-- The right read of the solvent-side mixing product at `(b, q, d)`, term `p`. -/
theorem ridx208 (b : Fin 4096) (q d : Fin 64) (p : Fin 96) : ridx_main_v208 (ix3 b q d) p = ix3 b p d := by
  funext a; match a with | ⟨0, _⟩ => rfl | ⟨1, _⟩ => rfl | ⟨2, _⟩ => rfl

variable (x0 : (⟨S262112x64, .f32⟩ : BufTy).Contents (Elt Ideal)) (x1 : (⟨S163550x74, .f32⟩ : BufTy).Contents (Elt Ideal))
  (x2 : (⟨S74x64, .f32⟩ : BufTy).Contents (Elt Ideal)) (x3 : (⟨S64, .f32⟩ : BufTy).Contents (Elt Ideal))
  (x4 : (⟨S4x64x64, .f32⟩ : BufTy).Contents (Elt Ideal)) (x5 : (⟨S4x64, .f32⟩ : BufTy).Contents (Elt Ideal))
  (x6 x7 : (⟨S64x64, .f32⟩ : BufTy).Contents (Elt Ideal)) (x8 x9 x10 x11 : (⟨S64, .f32⟩ : BufTy).Contents (Elt Ideal))
  (x16 x17 : (⟨S262112, .i32⟩ : BufTy).Contents (Elt Ideal)) (x18 x19 : (⟨S163550, .i32⟩ : BufTy).Contents (Elt Ideal))
  (x20 x21 : (⟨S490650, .i32⟩ : BufTy).Contents (Elt Ideal))

/-- The reference's attention weights are `imap` of its two padded arrays. -/
theorem ref_imap (b : Fin 4096) (p : Fin 96) (q : Fin 64) :
    val_main_v192 (F := Ideal) x0 x1 x2 x3 x4 x5 x6 x7 x8 x9 x10 x11 x16 x17 x18 x19 x20 x21 (ix3 b p q)
      = Cert.Spec.imap (val_main_v175 (F := Ideal) x0 x6 x8 x9 x16 x17)
          (val_main_v190 (F := Ideal) x1 x2 x3 x4 x5 x7 x10 x11 x18 x19 x20 x21) b p q := by
  rw [val_main_v192_apply, val_main_v191_apply, Ideal.hostUnary_tanh_def]
  generalize val_main_v175 (F := Ideal) x0 x6 x8 x9 x16 x17 = H
  generalize val_main_v190 (F := Ideal) x1 x2 x3 x4 x5 x7 x10 x11 x18 x19 x20 x21 = S
  unfold Cert.Spec.imap
  refine congrArg Ideal.tanh ?_
  apply Finset.sum_congr rfl
  intro k _
  rw [lidx191, ridx191]

/-- The reference's molecule-side mixed rows are `h2p` of its two padded arrays. -/
theorem ref_h2p (b : Fin 4096) (p : Fin 96) (d : Fin 64) :
    val_main_v193 (F := Ideal) x0 x1 x2 x3 x4 x5 x6 x7 x8 x9 x10 x11 x16 x17 x18 x19 x20 x21 (ix3 b p d)
      = Cert.Spec.h2p (val_main_v175 (F := Ideal) x0 x6 x8 x9 x16 x17)
          (val_main_v190 (F := Ideal) x1 x2 x3 x4 x5 x7 x10 x11 x18 x19 x20 x21) b p d := by
  rw [val_main_v193_apply]
  unfold Cert.Spec.h2p
  apply Finset.sum_congr rfl
  intro q _
  rw [lidx193, ridx193, ref_imap]

/-- The reference's solvent-side mixed rows are `hs2p` of its two padded arrays. -/
theorem ref_hs2p (b : Fin 4096) (q : Fin 64) (d : Fin 64) :
    val_main_v208 (F := Ideal) x0 x1 x2 x3 x4 x5 x6 x7 x8 x9 x10 x11 x16 x17 x18 x19 x20 x21 (ix3 b q d)
      = Cert.Spec.hs2p (val_main_v175 (F := Ideal) x0 x6 x8 x9 x16 x17)
          (val_main_v190 (F := Ideal) x1 x2 x3 x4 x5 x7 x10 x11 x18 x19 x20 x21) b q d := by
  rw [val_main_v208_apply]
  unfold Cert.Spec.hs2p
  apply Finset.sum_congr rfl
  intro p _
  rw [lidx208, ridx208, ref_imap]

end Cert.RefValue

end
-- ==== Proof.RefPoolB.lean ====
/-
  Reading a two-piece concatenation of rank-2 arrays along the column axis: a column below the first piece's width
  comes from the first piece, a column at or past it from the second, the width less.
-/
import Idealize.ShloMosaic.Lib.Pipeline.Value
import Idealize.ShloMosaic.Lib.ValueIdx

noncomputable section

namespace Cert.RefValue

open Idealize.ShloMosaic Idealize.ShloMosaic.ValueIdx

variable {α : Type}

/-- A column of the joined array below the first piece's width reads the first piece. -/
theorem cat_left {N K1 K2 K : Nat} (x1 : (⟨2, ![N, K1]⟩ : Shape).Idx → α) (x2 : (⟨2, ![N, K2]⟩ : Shape).Idx → α)
    (h : Shape.Concatenates [(⟨2, ![N, K1]⟩ : Shape), ⟨2, ![N, K2]⟩] ⟨2, ![N, K]⟩ 1) (n : Fin N) (k : Fin K)
    (hk : k.val < K1) :
    concatenate (⟨2, ![N, K]⟩ : Shape) 1 [⟨⟨2, ![N, K1]⟩, x1⟩, ⟨⟨2, ![N, K2]⟩, x2⟩] h (ix2 n k) = x1 (ix2 n ⟨k.val, hk⟩) :=
  concatenate_pair_apply_left 1 x1 x2 h (ix2 n k) rfl (ix2 n ⟨k.val, hk⟩)
    (fun b => match b with | ⟨0, _⟩ => rfl | ⟨1, _⟩ => rfl)

/-- A column of the joined array at or past the first piece's width reads the second piece, the width less. -/
theorem cat_right {N K1 K2 K : Nat} (x1 : (⟨2, ![N, K1]⟩ : Shape).Idx → α) (x2 : (⟨2, ![N, K2]⟩ : Shape).Idx → α)
    (h : Shape.Concatenates [(⟨2, ![N, K1]⟩ : Shape), ⟨2, ![N, K2]⟩] ⟨2, ![N, K]⟩ 1) (n : Fin N) (k : Fin K)
    (hk : K1 ≤ k.val) (hk2 : k.val - K1 < K2) :
    concatenate (⟨2, ![N, K]⟩ : Shape) 1 [⟨⟨2, ![N, K1]⟩, x1⟩, ⟨⟨2, ![N, K2]⟩, x2⟩] h (ix2 n k)
      = x2 (ix2 n ⟨k.val - K1, hk2⟩) :=
  concatenate_pair_apply_right 1 x1 x2 h (ix2 n k) rfl rfl (ix2 n ⟨k.val - K1, hk2⟩)
    (fun b hb => match b, hb with | ⟨0, _⟩, _ => rfl | ⟨1, _⟩, hb => absurd rfl hb)
    (by show k.val - K1 + K1 = k.val; omega)

end Cert.RefValue

end
-- ==== Proof.RefPool.lean ====
/-
  The reference's pooled features of graph `b`: the per-graph sums of the raw rows and of the mixed rows read back
  at each node's slot, which is `zNode` of the node rows and the two padded arrays.
-/
import proofs.«428288_j26706106647095_1_alg».proof.Proof.ReadP
import proofs.«428288_j26706106647095_1_alg».proof.Proof.Spec
import proofs.«428288_j26706106647095_1_alg».proof.Proof.IdxFin
import proofs.«428288_j26706106647095_1_alg».proof.Proof.GatherSeg
import proofs.«428288_j26706106647095_1_alg».proof.Proof.ScatterSet
import proofs.«428288_j26706106647095_1_alg».proof.Proof.CountInj
import proofs.«428288_j26706106647095_1_alg».proof.Proof.RefPoolA
import proofs.«428288_j26706106647095_1_alg».proof.Proof.RefPoolB

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.IdxSem

variable (x0 : (⟨S262112x64, .f32⟩ : BufTy).Contents (Elt Ideal)) (x1 : (⟨S163550x74, .f32⟩ : BufTy).Contents (Elt Ideal))
  (x2 : (⟨S74x64, .f32⟩ : BufTy).Contents (Elt Ideal)) (x3 : (⟨S64, .f32⟩ : BufTy).Contents (Elt Ideal))
  (x4 : (⟨S4x64x64, .f32⟩ : BufTy).Contents (Elt Ideal)) (x5 : (⟨S4x64, .f32⟩ : BufTy).Contents (Elt Ideal))
  (x6 x7 : (⟨S64x64, .f32⟩ : BufTy).Contents (Elt Ideal)) (x8 x9 x10 x11 : (⟨S64, .f32⟩ : BufTy).Contents (Elt Ideal))
  (x16 x17 : (⟨S262112, .i32⟩ : BufTy).Contents (Elt Ideal)) (x18 x19 : (⟨S163550, .i32⟩ : BufTy).Contents (Elt Ideal))
  (x20 x21 : (⟨S490650, .i32⟩ : BufTy).Contents (Elt Ideal))

/-! ## The index pairs -/

/-- The index pairs of stage 174 are the two index arrays, wrapped and stacked. -/
theorem v174_eq : val_main_v174 (F := Ideal) x16 x17
    = normCat x16 x17 4096 96 bcast_S_S262112 bcast_S_S262112 bcast_S_S262112 bcast_S_S262112 bcast_S262112_S262112x1_0 bcast_S262112_S262112x1_0 concatenates_S262112x1_S262112x1_S262112x2_d1 := rfl

theorem v174_seg (ha : InRange x16 4096) (n : Fin 262112) :
    (val_main_v174 (F := Ideal) x16 x17 (ix2 n 0)).toInt = ((toFin x16 4096 ha n).val : Int) := by
  rw [v174_eq, normCat_left _ _ _ _ _ _ _ _ _ _ _ n (ha n).1]
  exact toFin_val x16 4096 ha n

theorem v174_pos (hb : InRange x17 96) (n : Fin 262112) :
    (val_main_v174 (F := Ideal) x16 x17 (ix2 n 1)).toInt = ((toFin x17 96 hb n).val : Int) := by
  rw [v174_eq, normCat_right _ _ _ _ _ _ _ _ _ _ _ n (hb n).1]
  exact toFin_val x17 96 hb n

/-- The index pairs of stage 206 are the two index arrays, wrapped and stacked. -/
theorem v206_eq : val_main_v206 (F := Ideal) x16 x17
    = normCat x16 x17 4096 96 bcast_S_S262112 bcast_S_S262112 bcast_S_S262112 bcast_S_S262112 bcast_S262112_S262112x1_0 bcast_S262112_S262112x1_0 concatenates_S262112x1_S262112x1_S262112x2_d1 := rfl

theorem v206_seg (ha : InRange x16 4096) (n : Fin 262112) :
    (val_main_v206 (F := Ideal) x16 x17 (ix2 n 0)).toInt = ((toFin x16 4096 ha n).val : Int) := by
  rw [v206_eq, normCat_left _ _ _ _ _ _ _ _ _ _ _ n (ha n).1]
  exact toFin_val x16 4096 ha n

theorem v206_pos (hb : InRange x17 96) (n : Fin 262112) :
    (val_main_v206 (F := Ideal) x16 x17 (ix2 n 1)).toInt = ((toFin x17 96 hb n).val : Int) := by
  rw [v206_eq, normCat_right _ _ _ _ _ _ _ _ _ _ _ n (hb n).1]
  exact toFin_val x17 96 hb n

/-- The index pairs of stage 189 are the two index arrays, wrapped and stacked. -/
theorem v189_eq : val_main_v189 (F := Ideal) x18 x19
    = normCat x18 x19 4096 64 bcast_S_S163550 bcast_S_S163550 bcast_S_S163550 bcast_S_S163550 bcast_S163550_S163550x1_0 bcast_S163550_S163550x1_0 concatenates_S163550x1_S163550x1_S163550x2_d1 := rfl

theorem v189_seg (ha : InRange x18 4096) (n : Fin 163550) :
    (val_main_v189 (F := Ideal) x18 x19 (ix2 n 0)).toInt = ((toFin x18 4096 ha n).val : Int) := by
  rw [v189_eq, normCat_left _ _ _ _ _ _ _ _ _ _ _ n (ha n).1]
  exact toFin_val x18 4096 ha n

theorem v189_pos (hb : InRange x19 64) (n : Fin 163550) :
    (val_main_v189 (F := Ideal) x18 x19 (ix2 n 1)).toInt = ((toFin x19 64 hb n).val : Int) := by
  rw [v189_eq, normCat_right _ _ _ _ _ _ _ _ _ _ _ n (hb n).1]
  exact toFin_val x19 64 hb n

/-- The index pairs of stage 221 are the two index arrays, wrapped and stacked. -/
theorem v221_eq : val_main_v221 (F := Ideal) x18 x19
    = normCat x18 x19 4096 64 bcast_S_S163550 bcast_S_S163550 bcast_S_S163550 bcast_S_S163550 bcast_S163550_S163550x1_0 bcast_S163550_S163550x1_0 concatenates_S163550x1_S163550x1_S163550x2_d1 := rfl

theorem v221_seg (ha : InRange x18 4096) (n : Fin 163550) :
    (val_main_v221 (F := Ideal) x18 x19 (ix2 n 0)).toInt = ((toFin x18 4096 ha n).val : Int) := by
  rw [v221_eq, normCat_left _ _ _ _ _ _ _ _ _ _ _ n (ha n).1]
  exact toFin_val x18 4096 ha n

theorem v221_pos (hb : InRange x19 64) (n : Fin 163550) :
    (val_main_v221 (F := Ideal) x18 x19 (ix2 n 1)).toInt = ((toFin x19 64 hb n).val : Int) := by
  rw [v221_eq, normCat_right _ _ _ _ _ _ _ _ _ _ _ n (hb n).1]
  exact toFin_val x19 64 hb n

/-! ## The zero arrays -/

/-- Stage v161 is the zero array. -/
theorem v161_zero : val_main_v161 (F := Ideal) = fun _ => (0 : EReal) := by
  funext i
  rw [val_main_v161_apply]
  exact Ideal.ofBits_zero_f32

/-- Stage v176 is the zero array. -/
theorem v176_zero : val_main_v176 (F := Ideal) = fun _ => (0 : EReal) := by
  funext i
  rw [val_main_v176_apply]
  exact Ideal.ofBits_zero_f32

/-- Stage v224 is the zero array. -/
theorem v224_zero : val_main_v224 (F := Ideal) = fun _ => (0 : EReal) := by
  funext i
  rw [val_main_v224_apply]
  exact Ideal.ofBits_zero_f32

/-- Stage v228 is the zero array. -/
theorem v228_zero : val_main_v228 (F := Ideal) = fun _ => (0 : EReal) := by
  funext i
  rw [val_main_v228_apply]
  exact Ideal.ofBits_zero_f32

/-! ## The padded arrays -/

/-- The reference's padded molecule array is `pad` of the normalised molecule rows. -/
theorem v175_eq (h16 : InRange x16 4096) (h17 : InRange x17 96)
    (hM : ∀ i j, toFin x16 4096 h16 i = toFin x16 4096 h16 j → toFin x17 96 h17 i = toFin x17 96 h17 j → i = j) :
    val_main_v175 (F := Ideal) x0 x6 x8 x9 x16 x17 = Cert.Spec.pad (toFin x16 4096 h16) (toFin x17 96 h17) (val_main_v134 (F := Ideal) x0 x6 x8 x9) := by
  unfold val_main_v175
  rw [v161_zero]
  exact scatter_set_eq_pad scatter_S4096x96x64_S262112x2_S262112x64_1_01_01_1.wf (val_main_v174 (F := Ideal) x16 x17)
    (toFin x16 4096 h16) (toFin x17 96 h17) (v174_seg x16 x17 h16) (v174_pos x16 x17 h17) hM (val_main_v134 (F := Ideal) x0 x6 x8 x9)

/-- The reference's padded solvent array is `pad` of the normalised solvent rows. -/
theorem v190_eq (h18 : InRange x18 4096) (h19 : InRange x19 64)
    (hS : ∀ i j, toFin x18 4096 h18 i = toFin x18 4096 h18 j → toFin x19 64 h19 i = toFin x19 64 h19 j → i = j) :
    val_main_v190 (F := Ideal) x1 x2 x3 x4 x5 x7 x10 x11 x18 x19 x20 x21 = Cert.Spec.pad (toFin x18 4096 h18) (toFin x19 64 h19) (val_main_v160 (F := Ideal) x1 x2 x3 x4 x5 x7 x10 x11 x20 x21) := by
  unfold val_main_v190
  rw [v176_zero]
  exact scatter_set_eq_pad scatter_S4096x64x64_S163550x2_S163550x64_1_01_01_1.wf (val_main_v189 (F := Ideal) x18 x19)
    (toFin x18 4096 h18) (toFin x19 64 h19) (v189_seg x18 x19 h18) (v189_pos x18 x19 h19) hS (val_main_v160 (F := Ideal) x1 x2 x3 x4 x5 x7 x10 x11 x20 x21)

/-! ## Reading the mixed rows back at each node's slot -/

theorem v207_apply (h16 : InRange x16 4096) (h17 : InRange x17 96) (n : Fin 262112) (e : Fin 64) :
    val_main_v207 (F := Ideal) x0 x1 x2 x3 x4 x5 x6 x7 x8 x9 x10 x11 x16 x17 x18 x19 x20 x21 (ix2 n e)
      = val_main_v193 (F := Ideal) x0 x1 x2 x3 x4 x5 x6 x7 x8 x9 x10 x11 x16 x17 x18 x19 x20 x21 (ix3 (toFin x16 4096 h16 n) (toFin x17 96 h17 n) e) := by
  unfold val_main_v207
  exact pairGather_apply gather_S4096x96x64_S262112x2_S262112x64_1_01_n_n_01_1_1164.wf
    (val_main_v193 (F := Ideal) x0 x1 x2 x3 x4 x5 x6 x7 x8 x9 x10 x11 x16 x17 x18 x19 x20 x21) (val_main_v206 (F := Ideal) x16 x17)
    (toFin x16 4096 h16) (toFin x17 96 h17) (v206_seg x16 x17 h16) (v206_pos x16 x17 h17) n e

theorem v222_apply (h18 : InRange x18 4096) (h19 : InRange x19 64) (n : Fin 163550) (e : Fin 64) :
    val_main_v222 (F := Ideal) x0 x1 x2 x3 x4 x5 x6 x7 x8 x9 x10 x11 x16 x17 x18 x19 x20 x21 (ix2 n e)
      = val_main_v208 (F := Ideal) x0 x1 x2 x3 x4 x5 x6 x7 x8 x9 x10 x11 x16 x17 x18 x19 x20 x21 (ix3 (toFin x18 4096 h18 n) (toFin x19 64 h19 n) e) := by
  unfold val_main_v222
  exact pairGather_apply gather_S4096x64x64_S163550x2_S163550x64_1_01_n_n_01_1_1164.wf
    (val_main_v208 (F := Ideal) x0 x1 x2 x3 x4 x5 x6 x7 x8 x9 x10 x11 x16 x17 x18 x19 x20 x21) (val_main_v221 (F := Ideal) x18 x19)
    (toFin x18 4096 h18) (toFin x19 64 h19) (v221_seg x18 x19 h18) (v221_pos x18 x19 h19) n e

/-! ## The joined node rows -/

theorem v223_left (n : Fin 262112) (k : Fin 128) (hk : k.val < 64) :
    val_main_v223 (F := Ideal) x0 x1 x2 x3 x4 x5 x6 x7 x8 x9 x10 x11 x16 x17 x18 x19 x20 x21 (ix2 n k) = x0 (ix2 n ⟨k.val, hk⟩) := by
  unfold val_main_v223
  exact cat_left x0 _ concatenates_S262112x64_S262112x64_S262112x128_d1 n k hk

theorem v223_right (n : Fin 262112) (k : Fin 128) (hk : 64 ≤ k.val) (hk2 : k.val - 64 < 64) :
    val_main_v223 (F := Ideal) x0 x1 x2 x3 x4 x5 x6 x7 x8 x9 x10 x11 x16 x17 x18 x19 x20 x21 (ix2 n k)
      = val_main_v207 (F := Ideal) x0 x1 x2 x3 x4 x5 x6 x7 x8 x9 x10 x11 x16 x17 x18 x19 x20 x21 (ix2 n ⟨k.val - 64, hk2⟩) := by
  unfold val_main_v223
  exact cat_right x0 _ concatenates_S262112x64_S262112x64_S262112x128_d1 n k hk hk2

theorem v227_left (n : Fin 163550) (k : Fin 128) (hk : k.val < 64) :
    val_main_v227 (F := Ideal) x0 x1 x2 x3 x4 x5 x6 x7 x8 x9 x10 x11 x16 x17 x18 x19 x20 x21 (ix2 n k) = (val_main_v108 (F := Ideal) x1 x2 x3 x4 x5 x20 x21) (ix2 n ⟨k.val, hk⟩) := by
  unfold val_main_v227
  exact cat_left _ _ concatenates_S163550x64_S163550x64_S163550x128_d1 n k hk

theorem v227_right (n : Fin 163550) (k : Fin 128) (hk : 64 ≤ k.val) (hk2 : k.val - 64 < 64) :
    val_main_v227 (F := Ideal) x0 x1 x2 x3 x4 x5 x6 x7 x8 x9 x10 x11 x16 x17 x18 x19 x20 x21 (ix2 n k)
      = val_main_v222 (F := Ideal) x0 x1 x2 x3 x4 x5 x6 x7 x8 x9 x10 x11 x16 x17 x18 x19 x20 x21 (ix2 n ⟨k.val - 64, hk2⟩) := by
  unfold val_main_v227
  exact cat_right _ _ concatenates_S163550x64_S163550x64_S163550x128_d1 n k hk hk2

/-! ## The per-graph sums -/

theorem v225_seg (h16 : InRange x16 4096) (n : Fin 262112) :
    (val_main_v225 (F := Ideal) x16 (ix2 n 0)).toInt = ((toFin x16 4096 h16 n).val : Int) := by
  unfold val_main_v225
  rw [broadcastInDim_col_apply]
  exact toFin_val x16 4096 h16 n

theorem v229_seg (h18 : InRange x18 4096) (n : Fin 163550) :
    (val_main_v229 (F := Ideal) x18 (ix2 n 0)).toInt = ((toFin x18 4096 h18 n).val : Int) := by
  unfold val_main_v229
  rw [broadcastInDim_col_apply]
  exact toFin_val x18 4096 h18 n

theorem v226_apply (h16 : InRange x16 4096) (b : Fin 4096) (k : Fin 128) :
    val_main_v226 (F := Ideal) x0 x1 x2 x3 x4 x5 x6 x7 x8 x9 x10 x11 x16 x17 x18 x19 x20 x21 (ix2 b k)
      = ∑ n ∈ Finset.univ.filter (fun n => toFin x16 4096 h16 n = b), val_main_v223 (F := Ideal) x0 x1 x2 x3 x4 x5 x6 x7 x8 x9 x10 x11 x16 x17 x18 x19 x20 x21 (ix2 n k) := by
  unfold val_main_v226
  rw [v224_zero]
  exact segAdd_apply scatter_S4096x128_S262112x1_S262112x128_1_0_0_1.wf (val_main_v225 (F := Ideal) x16)
    (toFin x16 4096 h16) (v225_seg x16 h16) (val_main_v223 (F := Ideal) x0 x1 x2 x3 x4 x5 x6 x7 x8 x9 x10 x11 x16 x17 x18 x19 x20 x21) b k

theorem v230_apply (h18 : InRange x18 4096) (b : Fin 4096) (k : Fin 128) :
    val_main_v230 (F := Ideal) x0 x1 x2 x3 x4 x5 x6 x7 x8 x9 x10 x11 x16 x17 x18 x19 x20 x21 (ix2 b k)
      = ∑ n ∈ Finset.univ.filter (fun n => toFin x18 4096 h18 n = b), val_main_v227 (F := Ideal) x0 x1 x2 x3 x4 x5 x6 x7 x8 x9 x10 x11 x16 x17 x18 x19 x20 x21 (ix2 n k) := by
  unfold val_main_v230
  rw [v228_zero]
  exact segAdd_apply scatter_S4096x128_S163550x1_S163550x128_1_0_0_1.wf (val_main_v229 (F := Ideal) x18)
    (toFin x18 4096 h18) (v229_seg x18 h18) (val_main_v227 (F := Ideal) x0 x1 x2 x3 x4 x5 x6 x7 x8 x9 x10 x11 x16 x17 x18 x19 x20 x21) b k

theorem v231_left (b : Fin 4096) (k : Fin 256) (hk : k.val < 128) :
    val_main_v231 (F := Ideal) x0 x1 x2 x3 x4 x5 x6 x7 x8 x9 x10 x11 x16 x17 x18 x19 x20 x21 (ix2 b k) = val_main_v226 (F := Ideal) x0 x1 x2 x3 x4 x5 x6 x7 x8 x9 x10 x11 x16 x17 x18 x19 x20 x21 (ix2 b ⟨k.val, hk⟩) := by
  unfold val_main_v231
  exact cat_left _ _ concatenates_S4096x128_S4096x128_S4096x256_d1 b k hk

theorem v231_right (b : Fin 4096) (k : Fin 256) (hk : 128 ≤ k.val) (hk2 : k.val - 128 < 128) :
    val_main_v231 (F := Ideal) x0 x1 x2 x3 x4 x5 x6 x7 x8 x9 x10 x11 x16 x17 x18 x19 x20 x21 (ix2 b k)
      = val_main_v230 (F := Ideal) x0 x1 x2 x3 x4 x5 x6 x7 x8 x9 x10 x11 x16 x17 x18 x19 x20 x21 (ix2 b ⟨k.val - 128, hk2⟩) := by
  unfold val_main_v231
  exact cat_right _ _ concatenates_S4096x128_S4096x128_S4096x256_d1 b k hk hk2

/-! ## The pooled features -/

/-- The reference's pooled feature `k` of graph `b` is `zNode` of the raw and normalised node rows. -/
theorem ref_z (h16 : InRange x16 4096) (h17 : InRange x17 96) (h18 : InRange x18 4096) (h19 : InRange x19 64)
    (hM : ∀ i j, toFin x16 4096 h16 i = toFin x16 4096 h16 j → toFin x17 96 h17 i = toFin x17 96 h17 j → i = j)
    (hS : ∀ i j, toFin x18 4096 h18 i = toFin x18 4096 h18 j → toFin x19 64 h19 i = toFin x19 64 h19 j → i = j)
    (b : Fin 4096) (k : Fin 256) :
    val_main_v231 (F := Ideal) x0 x1 x2 x3 x4 x5 x6 x7 x8 x9 x10 x11 x16 x17 x18 x19 x20 x21 (ix2 b k)
      = Cert.Spec.zNode (toFin x16 4096 h16) (toFin x17 96 h17) (toFin x18 4096 h18) (toFin x19 64 h19)
          x0 (val_main_v108 (F := Ideal) x1 x2 x3 x4 x5 x20 x21) (val_main_v134 (F := Ideal) x0 x6 x8 x9) (val_main_v160 (F := Ideal) x1 x2 x3 x4 x5 x7 x10 x11 x20 x21) b k := by
  unfold Cert.Spec.zNode
  by_cases h1 : k.val < 64
  · have hk : k.val < 128 := by omega
    rw [dif_pos h1, v231_left _ _ _ _ _ _ _ _ _ _ _ _ _ _ _ _ _ _ b k hk, v226_apply _ _ _ _ _ _ _ _ _ _ _ _ _ _ _ _ _ _ h16]
    apply Finset.sum_congr rfl
    intro n _
    exact v223_left _ _ _ _ _ _ _ _ _ _ _ _ _ _ _ _ _ _ n ⟨k.val, hk⟩ h1
  · rw [dif_neg h1]
    by_cases h2 : k.val < 128
    · have hk64 : 64 ≤ k.val := Nat.le_of_not_lt h1
      have hk2 : k.val - 64 < 64 := by omega
      rw [dif_pos h2, v231_left _ _ _ _ _ _ _ _ _ _ _ _ _ _ _ _ _ _ b k h2, v226_apply _ _ _ _ _ _ _ _ _ _ _ _ _ _ _ _ _ _ h16]
      apply Finset.sum_congr rfl
      intro n _
      rw [v223_right _ _ _ _ _ _ _ _ _ _ _ _ _ _ _ _ _ _ n ⟨k.val, h2⟩ hk64 hk2,
        v207_apply _ _ _ _ _ _ _ _ _ _ _ _ _ _ _ _ _ _ h16 h17, ref_h2p,
        v175_eq x0 x6 x8 x9 x16 x17 h16 h17 hM, v190_eq x1 x2 x3 x4 x5 x7 x10 x11 x18 x19 x20 x21 h18 h19 hS]
    · rw [dif_neg h2]
      have hk128 : 128 ≤ k.val := Nat.le_of_not_lt h2
      have hk2 : k.val - 128 < 128 := by have := k.isLt; omega
      by_cases h3 : k.val < 192
      · have hk3 : k.val - 128 < 64 := by omega
        rw [dif_pos h3, v231_right _ _ _ _ _ _ _ _ _ _ _ _ _ _ _ _ _ _ b k hk128 hk2, v230_apply _ _ _ _ _ _ _ _ _ _ _ _ _ _ _ _ _ _ h18]
        apply Finset.sum_congr rfl
        intro n _
        exact v227_left _ _ _ _ _ _ _ _ _ _ _ _ _ _ _ _ _ _ n ⟨k.val - 128, hk2⟩ hk3
      · have hk3 : 64 ≤ k.val - 128 := by omega
        have hk4 : k.val - 128 - 64 < 64 := by have := k.isLt; omega
        rw [dif_neg h3, v231_right _ _ _ _ _ _ _ _ _ _ _ _ _ _ _ _ _ _ b k hk128 hk2, v230_apply _ _ _ _ _ _ _ _ _ _ _ _ _ _ _ _ _ _ h18]
        apply Finset.sum_congr rfl
        intro n _
        rw [v227_right _ _ _ _ _ _ _ _ _ _ _ _ _ _ _ _ _ _ n ⟨k.val - 128, hk2⟩ hk3 hk4,
          v222_apply _ _ _ _ _ _ _ _ _ _ _ _ _ _ _ _ _ _ h18 h19, ref_hs2p,
          v175_eq x0 x6 x8 x9 x16 x17 h16 h17 hM, v190_eq x1 x2 x3 x4 x5 x7 x10 x11 x18 x19 x20 x21 h18 h19 hS]
        have e : k.val - 128 - 64 = k.val - 192 := by omega
        simp only [e]

end Cert.RefValue

end
-- ==== Proof.RefRunOps0.lean ====
import proofs.«428288_j26706106647095_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 62 of @main, in order (a called function's operations stand in its call's place). -/
abbrev ops0 : List (HloOp τ sig (Elt F)) :=
  [ binary main_arg1 main_arg2 main_v0 ((fun l r => Host.dotGeneral dot_S163550x74_S74x64_S163550x64_1_0_0_1_n_n none l r) : (⟨S163550x74, .f32⟩ : BufTy).Contents (Elt F) → (⟨S74x64, .f32⟩ : BufTy).Contents (Elt F) → (⟨S163550x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S163550x64 ![0, 1] bcast_S1x64_S163550x64_0_1 : (⟨S1x64, .f32⟩ : BufTy).Contents (Elt F) → (⟨S163550x64, .f32⟩ : BufTy).Contents (Elt F)),
    binary main_v0 main_v2 main_v3 (addf : (⟨S163550x64, .f32⟩ : BufTy).Contents (Elt F) → (⟨S163550x64, .f32⟩ : BufTy).Contents (Elt F) → (⟨S163550x64, .f32⟩ : BufTy).Contents (Elt F)),
    nullary main_cst (constant S_ .f32 0x3F800000#32),
    unary main_cst main_v4 (broadcastInDim S490650 ![] bcast_S_S490650 : (⟨S_, .f32⟩ : BufTy).Contents (Elt F) → (⟨S490650, .f32⟩ : BufTy).Contents (Elt F)),
    nullary main_cst_0 (constant S_ .f32 0x00000000#32),
    unary main_cst_0 main_v5 (broadcastInDim S163550 ![] bcast_S_S163550 : (⟨S_, .f32⟩ : BufTy).Contents (Elt F) → (⟨S163550, .f32⟩ : BufTy).Contents (Elt F)),
    unary main_arg21 main_v6 (broadcastInDim S490650x1 ![0] bcast_S490650_S490650x1_0 : (⟨S490650, .i32⟩ : BufTy).Contents (Elt F) → (⟨S490650x1, .i32⟩ : BufTy).Contents (Elt F)),
    ternary main_v5 main_v6 main_v4 main_v7 ((fun x i u => Host.scatterAdd scatter_S163550_S490650x1_S490650_n_0_0_1 x i u) : (⟨S163550, .f32⟩ : BufTy).Contents (Elt F) → (⟨S490650x1, .i32⟩ : BufTy).Contents (Elt F) → (⟨S490650, .f32⟩ : BufTy).Contents (Elt F) → (⟨S163550, .f32⟩ : BufTy).Contents (Elt F)),
    nullary main_c (constantI S_ 32 0#32),
    unary main_c main_v8 (broadcastInDim S490650 ![] bcast_S_S490650 : (⟨S_, .i32⟩ : BufTy).Contents (Elt F) → (⟨S490650, .i32⟩ : BufTy).Contents (Elt F)),
    binary main_arg20 main_v8 main_v9 (cmpi .slt : (⟨S490650, .i32⟩ : BufTy).Contents (Elt F) → (⟨S490650, .i32⟩ : BufTy).Contents (Elt F) → (⟨S490650, .i1⟩ : BufTy).Contents (Elt F)),
    nullary main_c_1 (constantI S_ 32 163550#32),
    unary main_c_1 main_v10 (broadcastInDim S490650 ![] bcast_S_S490650 : (⟨S_, .i32⟩ : BufTy).Contents (Elt F) → (⟨S490650, .i32⟩ : BufTy).Contents (Elt F)),
    binary main_arg20 main_v10 main_v11 (addi : (⟨S490650, .i32⟩ : BufTy).Contents (Elt F) → (⟨S490650, .i32⟩ : BufTy).Contents (Elt F) → (⟨S490650, .i32⟩ : BufTy).Contents (Elt F)),
    ternary main_v9 main_v11 main_arg20 main_v12 (select : (⟨S490650, .i1⟩ : BufTy).Contents (Elt F) → (⟨S490650, .i32⟩ : BufTy).Contents (Elt F) → (⟨S490650, .i32⟩ : BufTy).Contents (Elt F) → (⟨S490650, .i32⟩ : BufTy).Contents (Elt F)),
    unary main_v12 main_v13 (broadcastInDim S490650x1 ![0] bcast_S490650_S490650x1_0 : (⟨S490650, .i32⟩ : BufTy).Contents (Elt F) → (⟨S490650x1, .i32⟩ : BufTy).Contents (Elt F)),
    binary main_v7 main_v13 main_v14 ((fun x i => Host.gather gather_S163550_S490650x1_S490650_n_0_n_n_0_1_1 x i) : (⟨S163550, .f32⟩ : BufTy).Contents (Elt F) → (⟨S490650x1, .i32⟩ : BufTy).Contents (Elt F) → (⟨S490650, .f32⟩ : BufTy).Contents (Elt F)),
    nullary main_c_2 (constantI S_ 32 0#32),
    unary main_c_2 main_v15 (broadcastInDim S490650 ![] bcast_S_S490650 : (⟨S_, .i32⟩ : BufTy).Contents (Elt F) → (⟨S490650, .i32⟩ : BufTy).Contents (Elt F)),
    binary main_arg21 main_v15 main_v16 (cmpi .slt : (⟨S490650, .i32⟩ : BufTy).Contents (Elt F) → (⟨S490650, .i32⟩ : BufTy).Contents (Elt F) → (⟨S490650, .i1⟩ : BufTy).Contents (Elt F)),
    nullary main_c_3 (constantI S_ 32 163550#32),
    unary main_c_3 main_v17 (broadcastInDim S490650 ![] bcast_S_S490650 : (⟨S_, .i32⟩ : BufTy).Contents (Elt F) → (⟨S490650, .i32⟩ : BufTy).Contents (Elt F)),
    binary main_arg21 main_v17 main_v18 (addi : (⟨S490650, .i32⟩ : BufTy).Contents (Elt F) → (⟨S490650, .i32⟩ : BufTy).Contents (Elt F) → (⟨S490650, .i32⟩ : BufTy).Contents (Elt F)),
    ternary main_v16 main_v18 main_arg21 main_v19 (select : (⟨S490650, .i1⟩ : BufTy).Contents (Elt F) → (⟨S490650, .i32⟩ : BufTy).Contents (Elt F) → (⟨S490650, .i32⟩ : BufTy).Contents (Elt F) → (⟨S490650, .i32⟩ : BufTy).Contents (Elt F)),
    unary main_v19 main_v20 (broadcastInDim S490650x1 ![0] bcast_S490650_S490650x1_0 : (⟨S490650, .i32⟩ : BufTy).Contents (Elt F) → (⟨S490650x1, .i32⟩ : BufTy).Contents (Elt F)),
    binary main_v7 main_v20 main_v21 ((fun x i => Host.gather gather_S163550_S490650x1_S490650_n_0_n_n_0_1_1 x i) : (⟨S163550, .f32⟩ : BufTy).Contents (Elt F) → (⟨S490650x1, .i32⟩ : BufTy).Contents (Elt F) → (⟨S490650, .f32⟩ : BufTy).Contents (Elt F)),
    binary main_v14 main_v21 main_v22 (mulf : (⟨S490650, .f32⟩ : BufTy).Contents (Elt F) → (⟨S490650, .f32⟩ : BufTy).Contents (Elt F) → (⟨S490650, .f32⟩ : BufTy).Contents (Elt F)),
    unary main_v22 main_v23 (Host.rsqrt : (⟨S490650, .f32⟩ : BufTy).Contents (Elt F) → (⟨S490650, .f32⟩ : BufTy).Contents (Elt F)),
    unary main_v23 main_v24 (broadcastInDim S490650x1 ![0] bcast_S490650_S490650x1_0 : (⟨S490650, .f32⟩ : BufTy).Contents (Elt F) → (⟨S490650x1, .f32⟩ : BufTy).Contents (Elt F)),
    nullary main_c_4 (constantI S_ 32 0#32),
    unary main_c_4 main_v25 (broadcastInDim S490650 ![] bcast_S_S490650 : (⟨S_, .i32⟩ : BufTy).Contents (Elt F) → (⟨S490650, .i32⟩ : BufTy).Contents (Elt F)),
    binary main_arg20 main_v25 main_v26 (cmpi .slt : (⟨S490650, .i32⟩ : BufTy).Contents (Elt F) → (⟨S490650, .i32⟩ : BufTy).Contents (Elt F) → (⟨S490650, .i1⟩ : BufTy).Contents (Elt F)),
    nullary main_c_5 (constantI S_ 32 163550#32),
    unary main_c_5 main_v27 (broadcastInDim S490650 ![] bcast_S_S490650 : (⟨S_, .i32⟩ : BufTy).Contents (Elt F) → (⟨S490650, .i32⟩ : BufTy).Contents (Elt F)),
    binary main_arg20 main_v27 main_v28 (addi : (⟨S490650, .i32⟩ : BufTy).Contents (Elt F) → (⟨S490650, .i32⟩ : BufTy).Contents (Elt F) → (⟨S490650, .i32⟩ : BufTy).Contents (Elt F)),
    ternary main_v26 main_v28 main_arg20 main_v29 (select : (⟨S490650, .i1⟩ : BufTy).Contents (Elt F) → (⟨S490650, .i32⟩ : BufTy).Contents (Elt F) → (⟨S490650, .i32⟩ : BufTy).Contents (Elt F) → (⟨S490650, .i32⟩ : BufTy).Contents (Elt F)),
    unary main_v29 main_v30 (broadcastInDim S490650x1 ![0] bcast_S490650_S490650x1_0 : (⟨S490650, .i32⟩ : BufTy).Contents (Elt F) → (⟨S490650x1, .i32⟩ : BufTy).Contents (Elt F)),
    binary main_v3 main_v30 main_v31 ((fun x i => Host.gather gather_S163550x64_S490650x1_S490650x64_1_0_n_n_0_1_164 x i) : (⟨S163550x64, .f32⟩ : BufTy).Contents (Elt F) → (⟨S490650x1, .i32⟩ : BufTy).Contents (Elt F) → (⟨S490650x64, .f32⟩ : BufTy).Contents (Elt F)),
    unary main_v24 main_v32 (broadcastInDim S490650x64 ![0, 1] bcast_S490650x1_S490650x64_0_1 : (⟨S490650x1, .f32⟩ : BufTy).Contents (Elt F) → (⟨S490650x64, .f32⟩ : BufTy).Contents (Elt F)),
    binary main_v31 main_v32 main_v33 (mulf : (⟨S490650x64, .f32⟩ : BufTy).Contents (Elt F) → (⟨S490650x64, .f32⟩ : BufTy).Contents (Elt F) → (⟨S490650x64, .f32⟩ : BufTy).Contents (Elt F)),
    nullary main_cst_6 (constant S_ .f32 0x00000000#32),
    unary main_cst_6 main_v34 (broadcastInDim S163550x64 ![] bcast_S_S163550x64 : (⟨S_, .f32⟩ : BufTy).Contents (Elt F) → (⟨S163550x64, .f32⟩ : BufTy).Contents (Elt F)),
    unary main_arg21 main_v35 (broadcastInDim S490650x1 ![0] bcast_S490650_S490650x1_0 : (⟨S490650, .i32⟩ : BufTy).Contents (Elt F) → (⟨S490650x1, .i32⟩ : BufTy).Contents (Elt F)),
    ternary main_v34 main_v35 main_v33 main_v36 ((fun x i u => Host.scatterAdd scatter_S163550x64_S490650x1_S490650x64_1_0_0_1 x i u) : (⟨S163550x64, .f32⟩ : BufTy).Contents (Elt F) → (⟨S490650x1, .i32⟩ : BufTy).Contents (Elt F) → (⟨S490650x64, .f32⟩ : BufTy).Contents (Elt F) → (⟨S163550x64, .f32⟩ : BufTy).Contents (Elt F)),
    unary main_arg4 main_v37 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v37 main_v38 rfl shapeCasts_S1x64x64_S64x64,
    binary main_v36 main_v38 main_v39 ((fun l r => Host.dotGeneral dot_S163550x64_S64x64_S163550x64_1_0_0_1_n_n none l r) : (⟨S163550x64, .f32⟩ : BufTy).Contents (Elt F) → (⟨S64x64, .f32⟩ : BufTy).Contents (Elt F) → (⟨S163550x64, .f32⟩ : BufTy).Contents (Elt F)),
    unary main_arg5 main_v40 ((extractStridedSlice S1x64 ![0, 0] · slices_S4x64_S1x64_0_0) : (⟨S4x64, .f32⟩ : BufTy).Contents (Elt F) → (⟨S1x64, .f32⟩ : BufTy).Contents (Elt F)),
    reshape main_v40 main_v41 rfl shapeCasts_S1x64_S64,
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S163550x64 ![0, 1] bcast_S1x64_S163550x64_0_1 : (⟨S1x64, .f32⟩ : BufTy).Contents (Elt F) → (⟨S163550x64, .f32⟩ : BufTy).Contents (Elt F)),
    binary main_v39 main_v43 main_v44 (addf : (⟨S163550x64, .f32⟩ : BufTy).Contents (Elt F) → (⟨S163550x64, .f32⟩ : BufTy).Contents (Elt F) → (⟨S163550x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S163550x64, .f32⟩) main_call0_v0) (broadcastInDim S163550x64 ![] bcast_S_S163550x64),
    TRef.binary (TRef.of (T := ⟨S163550x64, .f32⟩) main_v44) (TRef.of (T := ⟨S163550x64, .f32⟩) main_call0_v0) (TRef.of (T := ⟨S163550x64, .f32⟩) main_v45) maximumf,
    nullary main_c_7 (constantI S_ 32 0#32),
    unary main_c_7 main_v46 (broadcastInDim S490650 ![] bcast_S_S490650 : (⟨S_, .i32⟩ : BufTy).Contents (Elt F) → (⟨S490650, .i32⟩ : BufTy).Contents (Elt F)),
    binary main_arg20 main_v46 main_v47 (cmpi .slt : (⟨S490650, .i32⟩ : BufTy).Contents (Elt F) → (⟨S490650, .i32⟩ : BufTy).Contents (Elt F) → (⟨S490650, .i1⟩ : BufTy).Contents (Elt F)),
    nullary main_c_8 (constantI S_ 32 163550#32),
    unary main_c_8 main_v48 (broadcastInDim S490650 ![] bcast_S_S490650 : (⟨S_, .i32⟩ : BufTy).Contents (Elt F) → (⟨S490650, .i32⟩ : BufTy).Contents (Elt F)) ]

set_option maxRecDepth 8192 in
set_option maxHeartbeats 4000000 in
/-- The window is the line of its operations. -/
theorem main_part0_eq (c : Dev nD) : main_part0 (F := F) c = seq ops0 := rfl

set_option maxRecDepth 8192 in
/-- Every operation of the window touches TensorCore references only. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩

set_option maxRecDepth 8192 in
/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write. -/
abbrev ops0_W : List (Ref sig .tc) := [main_v0, main_v1, main_v2, main_v3, main_cst, main_v4, main_cst_0, main_v5, main_v6, main_v7, main_c, main_v8, main_v9, main_c_1, main_v10, main_v11, main_v12, main_v13, main_v14, main_c_2, main_v15, main_v16, main_c_3, main_v17, main_v18, main_v19, main_v20, main_v21, main_v22, main_v23, main_v24, main_c_4, main_v25, main_v26, main_c_5, main_v27, main_v28, main_v29, main_v30, main_v31, main_v32, main_v33, main_cst_6, main_v34, main_v35, main_v36, main_v37, main_v38, main_v39, main_v40, main_v41, main_v42, main_v43, main_v44, main_call0_cst, main_call0_v0, main_v45, main_c_7, main_v46, main_v47, main_c_8, main_v48]

set_option maxRecDepth 8192 in
set_option maxHeartbeats 4000000 in
/-- Each operation of the window writes only a buffer of that list. -/
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RefRun

end
-- ==== Proof.RefRunStep0.lean ====
/- The reference @main's first window (operations 1 … 62) read back: from any contents V, each buffer the window writes
   that a later window reads holds its stage (ReadP's val_…) of the contents V has at @main's arguments; a buffer the
   window does not write keeps its contents. -/
import proofs.«428288_j26706106647095_1_alg».proof.Proof.RefRunOps0
import proofs.«428288_j26706106647095_1_alg».proof.Proof.ReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A buffer the first window does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

/-! The buffers written in the first window and read after it, each at its stage of the arguments' contents. -/

set_option maxRecDepth 8192 in
set_option maxHeartbeats 4000000 in
theorem w0_main_v24 (V : Valuation τ sig (Elt F)) :
    after ops0 V (Proc.devRef .tc main_v24) = val_main_v24 (F := F) (V (Proc.devRef .tc main_arg20)) (V (Proc.devRef .tc main_arg21)) := by
  simp only [ops0]
  after_results_simp
  rfl

set_option maxRecDepth 8192 in
set_option maxHeartbeats 4000000 in
theorem w0_main_v45 (V : Valuation τ sig (Elt F)) :
    after ops0 V (Proc.devRef .tc main_v45) = val_main_v45 (F := F) (V (Proc.devRef .tc main_arg1)) (V (Proc.devRef .tc main_arg2)) (V (Proc.devRef .tc main_arg3)) (V (Proc.devRef .tc main_arg4)) (V (Proc.devRef .tc main_arg5)) (V (Proc.devRef .tc main_arg20)) (V (Proc.devRef .tc main_arg21)) := by
  simp only [ops0]
  after_results_simp
  rfl

set_option maxRecDepth 8192 in
set_option maxHeartbeats 4000000 in
theorem w0_main_v47 (V : Valuation τ sig (Elt F)) :
    after ops0 V (Proc.devRef .tc main_v47) = val_main_v47 (F := F) (V (Proc.devRef .tc main_arg20)) := by
  simp only [ops0]
  after_results_simp
  rfl

set_option maxRecDepth 8192 in
set_option maxHeartbeats 4000000 in
theorem w0_main_v48 (V : Valuation τ sig (Elt F)) :
    after ops0 V (Proc.devRef .tc main_v48) = val_main_v48 (F := F)  := by
  simp only [ops0]
  after_results_simp
  rfl

end Cert.RefRun

end
-- ==== Proof.RefRunOps1.lean ====
import proofs.«428288_j26706106647095_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 63 … 126 of @main, in order (a called function's operations stand in its call's place). -/
abbrev ops1 : List (HloOp τ sig (Elt F)) :=
  [ binary main_arg20 main_v48 main_v49 (addi : (⟨S490650, .i32⟩ : BufTy).Contents (Elt F) → (⟨S490650, .i32⟩ : BufTy).Contents (Elt F) → (⟨S490650, .i32⟩ : BufTy).Contents (Elt F)),
    ternary main_v47 main_v49 main_arg20 main_v50 (select : (⟨S490650, .i1⟩ : BufTy).Contents (Elt F) → (⟨S490650, .i32⟩ : BufTy).Contents (Elt F) → (⟨S490650, .i32⟩ : BufTy).Contents (Elt F) → (⟨S490650, .i32⟩ : BufTy).Contents (Elt F)),
    unary main_v50 main_v51 (broadcastInDim S490650x1 ![0] bcast_S490650_S490650x1_0 : (⟨S490650, .i32⟩ : BufTy).Contents (Elt F) → (⟨S490650x1, .i32⟩ : BufTy).Contents (Elt F)),
    binary main_v45 main_v51 main_v52 ((fun x i => Host.gather gather_S163550x64_S490650x1_S490650x64_1_0_n_n_0_1_164 x i) : (⟨S163550x64, .f32⟩ : BufTy).Contents (Elt F) → (⟨S490650x1, .i32⟩ : BufTy).Contents (Elt F) → (⟨S490650x64, .f32⟩ : BufTy).Contents (Elt F)),
    unary main_v24 main_v53 (broadcastInDim S490650x64 ![0, 1] bcast_S490650x1_S490650x64_0_1 : (⟨S490650x1, .f32⟩ : BufTy).Contents (Elt F) → (⟨S490650x64, .f32⟩ : BufTy).Contents (Elt F)),
    binary main_v52 main_v53 main_v54 (mulf : (⟨S490650x64, .f32⟩ : BufTy).Contents (Elt F) → (⟨S490650x64, .f32⟩ : BufTy).Contents (Elt F) → (⟨S490650x64, .f32⟩ : BufTy).Contents (Elt F)),
    nullary main_cst_9 (constant S_ .f32 0x00000000#32),
    unary main_cst_9 main_v55 (broadcastInDim S163550x64 ![] bcast_S_S163550x64 : (⟨S_, .f32⟩ : BufTy).Contents (Elt F) → (⟨S163550x64, .f32⟩ : BufTy).Contents (Elt F)),
    unary main_arg21 main_v56 (broadcastInDim S490650x1 ![0] bcast_S490650_S490650x1_0 : (⟨S490650, .i32⟩ : BufTy).Contents (Elt F) → (⟨S490650x1, .i32⟩ : BufTy).Contents (Elt F)),
    ternary main_v55 main_v56 main_v54 main_v57 ((fun x i u => Host.scatterAdd scatter_S163550x64_S490650x1_S490650x64_1_0_0_1 x i u) : (⟨S163550x64, .f32⟩ : BufTy).Contents (Elt F) → (⟨S490650x1, .i32⟩ : BufTy).Contents (Elt F) → (⟨S490650x64, .f32⟩ : BufTy).Contents (Elt F) → (⟨S163550x64, .f32⟩ : BufTy).Contents (Elt F)),
    unary main_arg4 main_v58 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v58 main_v59 rfl shapeCasts_S1x64x64_S64x64,
    binary main_v57 main_v59 main_v60 ((fun l r => Host.dotGeneral dot_S163550x64_S64x64_S163550x64_1_0_0_1_n_n none l r) : (⟨S163550x64, .f32⟩ : BufTy).Contents (Elt F) → (⟨S64x64, .f32⟩ : BufTy).Contents (Elt F) → (⟨S163550x64, .f32⟩ : BufTy).Contents (Elt F)),
    unary main_arg5 main_v61 ((extractStridedSlice S1x64 ![1, 0] · slices_S4x64_S1x64_1_0) : (⟨S4x64, .f32⟩ : BufTy).Contents (Elt F) → (⟨S1x64, .f32⟩ : BufTy).Contents (Elt F)),
    reshape main_v61 main_v62 rfl shapeCasts_S1x64_S64,
    unary main_v62 main_v63 (broadcastInDim S1x64 ![1] bcast_S64_S1x64_1 : (⟨S64, .f32⟩ : BufTy).Contents (Elt F) → (⟨S1x64, .f32⟩ : BufTy).Contents (Elt F)),
    unary main_v63 main_v64 (broadcastInDim S163550x64 ![0, 1] bcast_S1x64_S163550x64_0_1 : (⟨S1x64, .f32⟩ : BufTy).Contents (Elt F) → (⟨S163550x64, .f32⟩ : BufTy).Contents (Elt F)),
    binary main_v60 main_v64 main_v65 (addf : (⟨S163550x64, .f32⟩ : BufTy).Contents (Elt F) → (⟨S163550x64, .f32⟩ : BufTy).Contents (Elt F) → (⟨S163550x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S163550x64, .f32⟩) main_call1_v0) (broadcastInDim S163550x64 ![] bcast_S_S163550x64),
    TRef.binary (TRef.of (T := ⟨S163550x64, .f32⟩) main_v65) (TRef.of (T := ⟨S163550x64, .f32⟩) main_call1_v0) (TRef.of (T := ⟨S163550x64, .f32⟩) main_v66) maximumf,
    nullary main_c_10 (constantI S_ 32 0#32),
    unary main_c_10 main_v67 (broadcastInDim S490650 ![] bcast_S_S490650 : (⟨S_, .i32⟩ : BufTy).Contents (Elt F) → (⟨S490650, .i32⟩ : BufTy).Contents (Elt F)),
    binary main_arg20 main_v67 main_v68 (cmpi .slt : (⟨S490650, .i32⟩ : BufTy).Contents (Elt F) → (⟨S490650, .i32⟩ : BufTy).Contents (Elt F) → (⟨S490650, .i1⟩ : BufTy).Contents (Elt F)),
    nullary main_c_11 (constantI S_ 32 163550#32),
    unary main_c_11 main_v69 (broadcastInDim S490650 ![] bcast_S_S490650 : (⟨S_, .i32⟩ : BufTy).Contents (Elt F) → (⟨S490650, .i32⟩ : BufTy).Contents (Elt F)),
    binary main_arg20 main_v69 main_v70 (addi : (⟨S490650, .i32⟩ : BufTy).Contents (Elt F) → (⟨S490650, .i32⟩ : BufTy).Contents (Elt F) → (⟨S490650, .i32⟩ : BufTy).Contents (Elt F)),
    ternary main_v68 main_v70 main_arg20 main_v71 (select : (⟨S490650, .i1⟩ : BufTy).Contents (Elt F) → (⟨S490650, .i32⟩ : BufTy).Contents (Elt F) → (⟨S490650, .i32⟩ : BufTy).Contents (Elt F) → (⟨S490650, .i32⟩ : BufTy).Contents (Elt F)),
    unary main_v71 main_v72 (broadcastInDim S490650x1 ![0] bcast_S490650_S490650x1_0 : (⟨S490650, .i32⟩ : BufTy).Contents (Elt F) → (⟨S490650x1, .i32⟩ : BufTy).Contents (Elt F)),
    binary main_v66 main_v72 main_v73 ((fun x i => Host.gather gather_S163550x64_S490650x1_S490650x64_1_0_n_n_0_1_164 x i) : (⟨S163550x64, .f32⟩ : BufTy).Contents (Elt F) → (⟨S490650x1, .i32⟩ : BufTy).Contents (Elt F) → (⟨S490650x64, .f32⟩ : BufTy).Contents (Elt F)),
    unary main_v24 main_v74 (broadcastInDim S490650x64 ![0, 1] bcast_S490650x1_S490650x64_0_1 : (⟨S490650x1, .f32⟩ : BufTy).Contents (Elt F) → (⟨S490650x64, .f32⟩ : BufTy).Contents (Elt F)),
    binary main_v73 main_v74 main_v75 (mulf : (⟨S490650x64, .f32⟩ : BufTy).Contents (Elt F) → (⟨S490650x64, .f32⟩ : BufTy).Contents (Elt F) → (⟨S490650x64, .f32⟩ : BufTy).Contents (Elt F)),
    nullary main_cst_12 (constant S_ .f32 0x00000000#32),
    unary main_cst_12 main_v76 (broadcastInDim S163550x64 ![] bcast_S_S163550x64 : (⟨S_, .f32⟩ : BufTy).Contents (Elt F) → (⟨S163550x64, .f32⟩ : BufTy).Contents (Elt F)),
    unary main_arg21 main_v77 (broadcastInDim S490650x1 ![0] bcast_S490650_S490650x1_0 : (⟨S490650, .i32⟩ : BufTy).Contents (Elt F) → (⟨S490650x1, .i32⟩ : BufTy).Contents (Elt F)),
    ternary main_v76 main_v77 main_v75 main_v78 ((fun x i u => Host.scatterAdd scatter_S163550x64_S490650x1_S490650x64_1_0_0_1 x i u) : (⟨S163550x64, .f32⟩ : BufTy).Contents (Elt F) → (⟨S490650x1, .i32⟩ : BufTy).Contents (Elt F) → (⟨S490650x64, .f32⟩ : BufTy).Contents (Elt F) → (⟨S163550x64, .f32⟩ : BufTy).Contents (Elt F)),
    unary main_arg4 main_v79 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v79 main_v80 rfl shapeCasts_S1x64x64_S64x64,
    binary main_v78 main_v80 main_v81 ((fun l r => Host.dotGeneral dot_S163550x64_S64x64_S163550x64_1_0_0_1_n_n none l r) : (⟨S163550x64, .f32⟩ : BufTy).Contents (Elt F) → (⟨S64x64, .f32⟩ : BufTy).Contents (Elt F) → (⟨S163550x64, .f32⟩ : BufTy).Contents (Elt F)),
    unary main_arg5 main_v82 ((extractStridedSlice S1x64 ![2, 0] · slices_S4x64_S1x64_2_0) : (⟨S4x64, .f32⟩ : BufTy).Contents (Elt F) → (⟨S1x64, .f32⟩ : BufTy).Contents (Elt F)),
    reshape main_v82 main_v83 rfl shapeCasts_S1x64_S64,
    unary main_v83 main_v84 (broadcastInDim S1x64 ![1] bcast_S64_S1x64_1 : (⟨S64, .f32⟩ : BufTy).Contents (Elt F) → (⟨S1x64, .f32⟩ : BufTy).Contents (Elt F)),
    unary main_v84 main_v85 (broadcastInDim S163550x64 ![0, 1] bcast_S1x64_S163550x64_0_1 : (⟨S1x64, .f32⟩ : BufTy).Contents (Elt F) → (⟨S163550x64, .f32⟩ : BufTy).Contents (Elt F)),
    binary main_v81 main_v85 main_v86 (addf : (⟨S163550x64, .f32⟩ : BufTy).Contents (Elt F) → (⟨S163550x64, .f32⟩ : BufTy).Contents (Elt F) → (⟨S163550x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S163550x64, .f32⟩) main_call2_v0) (broadcastInDim S163550x64 ![] bcast_S_S163550x64),
    TRef.binary (TRef.of (T := ⟨S163550x64, .f32⟩) main_v86) (TRef.of (T := ⟨S163550x64, .f32⟩) main_call2_v0) (TRef.of (T := ⟨S163550x64, .f32⟩) main_v87) maximumf,
    nullary main_c_13 (constantI S_ 32 0#32),
    unary main_c_13 main_v88 (broadcastInDim S490650 ![] bcast_S_S490650 : (⟨S_, .i32⟩ : BufTy).Contents (Elt F) → (⟨S490650, .i32⟩ : BufTy).Contents (Elt F)),
    binary main_arg20 main_v88 main_v89 (cmpi .slt : (⟨S490650, .i32⟩ : BufTy).Contents (Elt F) → (⟨S490650, .i32⟩ : BufTy).Contents (Elt F) → (⟨S490650, .i1⟩ : BufTy).Contents (Elt F)),
    nullary main_c_14 (constantI S_ 32 163550#32),
    unary main_c_14 main_v90 (broadcastInDim S490650 ![] bcast_S_S490650 : (⟨S_, .i32⟩ : BufTy).Contents (Elt F) → (⟨S490650, .i32⟩ : BufTy).Contents (Elt F)),
    binary main_arg20 main_v90 main_v91 (addi : (⟨S490650, .i32⟩ : BufTy).Contents (Elt F) → (⟨S490650, .i32⟩ : BufTy).Contents (Elt F) → (⟨S490650, .i32⟩ : BufTy).Contents (Elt F)),
    ternary main_v89 main_v91 main_arg20 main_v92 (select : (⟨S490650, .i1⟩ : BufTy).Contents (Elt F) → (⟨S490650, .i32⟩ : BufTy).Contents (Elt F) → (⟨S490650, .i32⟩ : BufTy).Contents (Elt F) → (⟨S490650, .i32⟩ : BufTy).Contents (Elt F)),
    unary main_v92 main_v93 (broadcastInDim S490650x1 ![0] bcast_S490650_S490650x1_0 : (⟨S490650, .i32⟩ : BufTy).Contents (Elt F) → (⟨S490650x1, .i32⟩ : BufTy).Contents (Elt F)),
    binary main_v87 main_v93 main_v94 ((fun x i => Host.gather gather_S163550x64_S490650x1_S490650x64_1_0_n_n_0_1_164 x i) : (⟨S163550x64, .f32⟩ : BufTy).Contents (Elt F) → (⟨S490650x1, .i32⟩ : BufTy).Contents (Elt F) → (⟨S490650x64, .f32⟩ : BufTy).Contents (Elt F)),
    unary main_v24 main_v95 (broadcastInDim S490650x64 ![0, 1] bcast_S490650x1_S490650x64_0_1 : (⟨S490650x1, .f32⟩ : BufTy).Contents (Elt F) → (⟨S490650x64, .f32⟩ : BufTy).Contents (Elt F)),
    binary main_v94 main_v95 main_v96 (mulf : (⟨S490650x64, .f32⟩ : BufTy).Contents (Elt F) → (⟨S490650x64, .f32⟩ : BufTy).Contents (Elt F) → (⟨S490650x64, .f32⟩ : BufTy).Contents (Elt F)),
    nullary main_cst_15 (constant S_ .f32 0x00000000#32),
    unary main_cst_15 main_v97 (broadcastInDim S163550x64 ![] bcast_S_S163550x64 : (⟨S_, .f32⟩ : BufTy).Contents (Elt F) → (⟨S163550x64, .f32⟩ : BufTy).Contents (Elt F)),
    unary main_arg21 main_v98 (broadcastInDim S490650x1 ![0] bcast_S490650_S490650x1_0 : (⟨S490650, .i32⟩ : BufTy).Contents (Elt F) → (⟨S490650x1, .i32⟩ : BufTy).Contents (Elt F)),
    ternary main_v97 main_v98 main_v96 main_v99 ((fun x i u => Host.scatterAdd scatter_S163550x64_S490650x1_S490650x64_1_0_0_1 x i u) : (⟨S163550x64, .f32⟩ : BufTy).Contents (Elt F) → (⟨S490650x1, .i32⟩ : BufTy).Contents (Elt F) → (⟨S490650x64, .f32⟩ : BufTy).Contents (Elt F) → (⟨S163550x64, .f32⟩ : BufTy).Contents (Elt F)),
    unary main_arg4 main_v100 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v100 main_v101 rfl shapeCasts_S1x64x64_S64x64 ]

set_option maxRecDepth 8192 in
set_option maxHeartbeats 4000000 in
/-- The window is the line of its operations. -/
theorem main_part1_eq (c : Dev nD) : main_part1 (F := F) c = seq ops1 := rfl

set_option maxRecDepth 8192 in
/-- Every operation of the window touches TensorCore references only. -/
theorem ops1_sub : (ops1 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub ..⟩

set_option maxRecDepth 8192 in
/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write. -/
abbrev ops1_W : List (Ref sig .tc) := [main_v49, main_v50, main_v51, main_v52, main_v53, main_v54, main_cst_9, main_v55, main_v56, main_v57, main_v58, main_v59, main_v60, main_v61, main_v62, main_v63, main_v64, main_v65, main_call1_cst, main_call1_v0, main_v66, main_c_10, main_v67, main_v68, main_c_11, main_v69, main_v70, main_v71, main_v72, main_v73, main_v74, main_v75, main_cst_12, main_v76, main_v77, main_v78, main_v79, main_v80, main_v81, main_v82, main_v83, main_v84, main_v85, main_v86, main_call2_cst, main_call2_v0, main_v87, main_c_13, main_v88, main_v89, main_c_14, main_v90, main_v91, main_v92, main_v93, main_v94, main_v95, main_v96, main_cst_15, main_v97, main_v98, main_v99, main_v100, main_v101]

set_option maxRecDepth 8192 in
set_option maxHeartbeats 4000000 in
/-- Each operation of the window writes only a buffer of that list. -/
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RefRun

end
-- ==== Proof.RefRunStep1.lean ====
/- The reference @main's second window (operations 63 … 126) read back: from contents V that hold its stage (ReadP's val_…)
   at each buffer an earlier window wrote and this one reads, each buffer the window writes that is read later holds its
   stage; a buffer the window does not write keeps its contents. -/
import proofs.«428288_j26706106647095_1_alg».proof.Proof.RefRunOps1
import proofs.«428288_j26706106647095_1_alg».proof.Proof.ReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A buffer the second window does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-! The buffers written in the second window and read after it, each at its stage of the arguments: from contents V that
    hold `xI` at the arguments the window reads and, at the buffers it reads from earlier windows, their stages. -/

set_option maxRecDepth 8192 in
set_option maxHeartbeats 4000000 in
theorem w1_main_v99 (V : Valuation τ sig (Elt F))
    (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x20 : (⟨S490650, .i32⟩ : BufTy).Contents (Elt F)) (x21 : (⟨S490650, .i32⟩ : BufTy).Contents (Elt F))
    (hA4 : V (Proc.devRef .tc main_arg4) = x4) (hA5 : V (Proc.devRef .tc main_arg5) = x5) (hA20 : V (Proc.devRef .tc main_arg20) = x20) (hA21 : V (Proc.devRef .tc main_arg21) = x21)
    (hL_main_v24 : V (Proc.devRef .tc main_v24) = val_main_v24 (F := F) x20 x21)
    (hL_main_v48 : V (Proc.devRef .tc main_v48) = val_main_v48 (F := F))
    (hL_main_v47 : V (Proc.devRef .tc main_v47) = val_main_v47 (F := F) x20)
    (hL_main_v45 : V (Proc.devRef .tc main_v45) = val_main_v45 (F := F) x1 x2 x3 x4 x5 x20 x21) :
    after ops1 V (Proc.devRef .tc main_v99) = val_main_v99 (F := F) x1 x2 x3 x4 x5 x20 x21 := by
  simp only [ops1]
  after_results_simp
  simp only [hA4, hA5, hA20, hA21, hL_main_v24, hL_main_v48, hL_main_v47, hL_main_v45]
  rfl

set_option maxRecDepth 8192 in
set_option maxHeartbeats 4000000 in
theorem w1_main_v101 (V : Valuation τ sig (Elt F))
    (x4 : (⟨S4x64x64, .f32⟩ : BufTy).Contents (Elt F))
    (hA4 : V (Proc.devRef .tc main_arg4) = x4) :
    after ops1 V (Proc.devRef .tc main_v101) = val_main_v101 (F := F) x4 := by
  simp only [ops1]
  after_results_simp
  simp only [hA4]
  rfl

end Cert.RefRun

end
-- ==== Proof.RefRunOps2.lean ====
import proofs.«428288_j26706106647095_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 127 … 188 of @main, in order (a called function's operations stand in its call's place). -/
abbrev ops2 : List (HloOp τ sig (Elt F)) :=
  [ binary main_v99 main_v101 main_v102 ((fun l r => Host.dotGeneral dot_S163550x64_S64x64_S163550x64_1_0_0_1_n_n none l r) : (⟨S163550x64, .f32⟩ : BufTy).Contents (Elt F) → (⟨S64x64, .f32⟩ : BufTy).Contents (Elt F) → (⟨S163550x64, .f32⟩ : BufTy).Contents (Elt F)),
    unary main_arg5 main_v103 ((extractStridedSlice S1x64 ![3, 0] · slices_S4x64_S1x64_3_0) : (⟨S4x64, .f32⟩ : BufTy).Contents (Elt F) → (⟨S1x64, .f32⟩ : BufTy).Contents (Elt F)),
    reshape main_v103 main_v104 rfl shapeCasts_S1x64_S64,
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S163550x64 ![0, 1] bcast_S1x64_S163550x64_0_1 : (⟨S1x64, .f32⟩ : BufTy).Contents (Elt F) → (⟨S163550x64, .f32⟩ : BufTy).Contents (Elt F)),
    binary main_v102 main_v106 main_v107 (addf : (⟨S163550x64, .f32⟩ : BufTy).Contents (Elt F) → (⟨S163550x64, .f32⟩ : BufTy).Contents (Elt F) → (⟨S163550x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S163550x64, .f32⟩) main_call3_v0) (broadcastInDim S163550x64 ![] bcast_S_S163550x64),
    TRef.binary (TRef.of (T := ⟨S163550x64, .f32⟩) main_v107) (TRef.of (T := ⟨S163550x64, .f32⟩) main_call3_v0) (TRef.of (T := ⟨S163550x64, .f32⟩) main_v108) maximumf,
    binary main_arg0 main_arg6 main_v109 ((fun l r => Host.dotGeneral dot_S262112x64_S64x64_S262112x64_1_0_0_1_n_n none l r) : (⟨S262112x64, .f32⟩ : BufTy).Contents (Elt F) → (⟨S64x64, .f32⟩ : BufTy).Contents (Elt F) → (⟨S262112x64, .f32⟩ : BufTy).Contents (Elt F)),
    nullary main_cst_16 (constant S_ .f32 0x00000000#32),
    binary main_v109 main_cst_16 main_v110 ((fun x v => Host.reduceAdd x v reducesTo_S262112x64_S64_d0 h_S_) : (⟨S262112x64, .f32⟩ : BufTy).Contents (Elt F) → (⟨S_, .f32⟩ : BufTy).Contents (Elt F) → (⟨S64, .f32⟩ : BufTy).Contents (Elt F)),
    nullary main_cst_17 (constant S_ .f32 0x487FF800#32),
    unary main_cst_17 main_v111 (broadcastInDim S64 ![] bcast_S_S64 : (⟨S_, .f32⟩ : BufTy).Contents (Elt F) → (⟨S64, .f32⟩ : BufTy).Contents (Elt F)),
    binary main_v110 main_v111 main_v112 (Host.divf : (⟨S64, .f32⟩ : BufTy).Contents (Elt F) → (⟨S64, .f32⟩ : BufTy).Contents (Elt F) → (⟨S64, .f32⟩ : BufTy).Contents (Elt F)),
    unary main_v112 main_v113 (broadcastInDim S1x64 ![1] bcast_S64_S1x64_1 : (⟨S64, .f32⟩ : BufTy).Contents (Elt F) → (⟨S1x64, .f32⟩ : BufTy).Contents (Elt F)),
    unary main_v113 main_v114 (broadcastInDim S262112x64 ![0, 1] bcast_S1x64_S262112x64_0_1 : (⟨S1x64, .f32⟩ : BufTy).Contents (Elt F) → (⟨S262112x64, .f32⟩ : BufTy).Contents (Elt F)),
    binary main_v109 main_v114 main_v115 (subf : (⟨S262112x64, .f32⟩ : BufTy).Contents (Elt F) → (⟨S262112x64, .f32⟩ : BufTy).Contents (Elt F) → (⟨S262112x64, .f32⟩ : BufTy).Contents (Elt F)),
    binary main_v115 main_v115 main_v116 (mulf : (⟨S262112x64, .f32⟩ : BufTy).Contents (Elt F) → (⟨S262112x64, .f32⟩ : BufTy).Contents (Elt F) → (⟨S262112x64, .f32⟩ : BufTy).Contents (Elt F)),
    nullary main_cst_18 (constant S_ .f32 0x00000000#32),
    binary main_v116 main_cst_18 main_v117 ((fun x v => Host.reduceAdd x v reducesTo_S262112x64_S64_d0 h_S_) : (⟨S262112x64, .f32⟩ : BufTy).Contents (Elt F) → (⟨S_, .f32⟩ : BufTy).Contents (Elt F) → (⟨S64, .f32⟩ : BufTy).Contents (Elt F)),
    nullary main_cst_19 (constant S_ .f32 0x487FF800#32),
    unary main_cst_19 main_v118 (broadcastInDim S64 ![] bcast_S_S64 : (⟨S_, .f32⟩ : BufTy).Contents (Elt F) → (⟨S64, .f32⟩ : BufTy).Contents (Elt F)),
    binary main_v117 main_v118 main_v119 (Host.divf : (⟨S64, .f32⟩ : BufTy).Contents (Elt F) → (⟨S64, .f32⟩ : BufTy).Contents (Elt F) → (⟨S64, .f32⟩ : BufTy).Contents (Elt F)),
    unary main_v112 main_v120 (broadcastInDim S1x64 ![1] bcast_S64_S1x64_1 : (⟨S64, .f32⟩ : BufTy).Contents (Elt F) → (⟨S1x64, .f32⟩ : BufTy).Contents (Elt F)),
    unary main_v120 main_v121 (broadcastInDim S262112x64 ![0, 1] bcast_S1x64_S262112x64_0_1 : (⟨S1x64, .f32⟩ : BufTy).Contents (Elt F) → (⟨S262112x64, .f32⟩ : BufTy).Contents (Elt F)),
    binary main_v109 main_v121 main_v122 (subf : (⟨S262112x64, .f32⟩ : BufTy).Contents (Elt F) → (⟨S262112x64, .f32⟩ : BufTy).Contents (Elt F) → (⟨S262112x64, .f32⟩ : BufTy).Contents (Elt F)),
    nullary main_cst_20 (constant S_ .f32 0x3727C5AC#32),
    unary main_cst_20 main_v123 (broadcastInDim S64 ![] bcast_S_S64 : (⟨S_, .f32⟩ : BufTy).Contents (Elt F) → (⟨S64, .f32⟩ : BufTy).Contents (Elt F)),
    binary main_v119 main_v123 main_v124 (addf : (⟨S64, .f32⟩ : BufTy).Contents (Elt F) → (⟨S64, .f32⟩ : BufTy).Contents (Elt F) → (⟨S64, .f32⟩ : BufTy).Contents (Elt F)),
    unary main_v124 main_v125 (Host.rsqrt : (⟨S64, .f32⟩ : BufTy).Contents (Elt F) → (⟨S64, .f32⟩ : BufTy).Contents (Elt F)),
    unary main_v125 main_v126 (broadcastInDim S1x64 ![1] bcast_S64_S1x64_1 : (⟨S64, .f32⟩ : BufTy).Contents (Elt F) → (⟨S1x64, .f32⟩ : BufTy).Contents (Elt F)),
    unary main_v126 main_v127 (broadcastInDim S262112x64 ![0, 1] bcast_S1x64_S262112x64_0_1 : (⟨S1x64, .f32⟩ : BufTy).Contents (Elt F) → (⟨S262112x64, .f32⟩ : BufTy).Contents (Elt F)),
    binary main_v122 main_v127 main_v128 (mulf : (⟨S262112x64, .f32⟩ : BufTy).Contents (Elt F) → (⟨S262112x64, .f32⟩ : BufTy).Contents (Elt F) → (⟨S262112x64, .f32⟩ : BufTy).Contents (Elt F)),
    unary main_arg8 main_v129 (broadcastInDim S1x64 ![1] bcast_S64_S1x64_1 : (⟨S64, .f32⟩ : BufTy).Contents (Elt F) → (⟨S1x64, .f32⟩ : BufTy).Contents (Elt F)),
    unary main_v129 main_v130 (broadcastInDim S262112x64 ![0, 1] bcast_S1x64_S262112x64_0_1 : (⟨S1x64, .f32⟩ : BufTy).Contents (Elt F) → (⟨S262112x64, .f32⟩ : BufTy).Contents (Elt F)),
    binary main_v128 main_v130 main_v131 (mulf : (⟨S262112x64, .f32⟩ : BufTy).Contents (Elt F) → (⟨S262112x64, .f32⟩ : BufTy).Contents (Elt F) → (⟨S262112x64, .f32⟩ : BufTy).Contents (Elt F)),
    unary main_arg9 main_v132 (broadcastInDim S1x64 ![1] bcast_S64_S1x64_1 : (⟨S64, .f32⟩ : BufTy).Contents (Elt F) → (⟨S1x64, .f32⟩ : BufTy).Contents (Elt F)),
    unary main_v132 main_v133 (broadcastInDim S262112x64 ![0, 1] bcast_S1x64_S262112x64_0_1 : (⟨S1x64, .f32⟩ : BufTy).Contents (Elt F) → (⟨S262112x64, .f32⟩ : BufTy).Contents (Elt F)),
    binary main_v131 main_v133 main_v134 (addf : (⟨S262112x64, .f32⟩ : BufTy).Contents (Elt F) → (⟨S262112x64, .f32⟩ : BufTy).Contents (Elt F) → (⟨S262112x64, .f32⟩ : BufTy).Contents (Elt F)),
    binary main_v108 main_arg7 main_v135 ((fun l r => Host.dotGeneral dot_S163550x64_S64x64_S163550x64_1_0_0_1_n_n none l r) : (⟨S163550x64, .f32⟩ : BufTy).Contents (Elt F) → (⟨S64x64, .f32⟩ : BufTy).Contents (Elt F) → (⟨S163550x64, .f32⟩ : BufTy).Contents (Elt F)),
    nullary main_cst_21 (constant S_ .f32 0x00000000#32),
    binary main_v135 main_cst_21 main_v136 ((fun x v => Host.reduceAdd x v reducesTo_S163550x64_S64_d0 h_S_) : (⟨S163550x64, .f32⟩ : BufTy).Contents (Elt F) → (⟨S_, .f32⟩ : BufTy).Contents (Elt F) → (⟨S64, .f32⟩ : BufTy).Contents (Elt F)),
    nullary main_cst_22 (constant S_ .f32 0x481FB780#32),
    unary main_cst_22 main_v137 (broadcastInDim S64 ![] bcast_S_S64 : (⟨S_, .f32⟩ : BufTy).Contents (Elt F) → (⟨S64, .f32⟩ : BufTy).Contents (Elt F)),
    binary main_v136 main_v137 main_v138 (Host.divf : (⟨S64, .f32⟩ : BufTy).Contents (Elt F) → (⟨S64, .f32⟩ : BufTy).Contents (Elt F) → (⟨S64, .f32⟩ : BufTy).Contents (Elt F)),
    unary main_v138 main_v139 (broadcastInDim S1x64 ![1] bcast_S64_S1x64_1 : (⟨S64, .f32⟩ : BufTy).Contents (Elt F) → (⟨S1x64, .f32⟩ : BufTy).Contents (Elt F)),
    unary main_v139 main_v140 (broadcastInDim S163550x64 ![0, 1] bcast_S1x64_S163550x64_0_1 : (⟨S1x64, .f32⟩ : BufTy).Contents (Elt F) → (⟨S163550x64, .f32⟩ : BufTy).Contents (Elt F)),
    binary main_v135 main_v140 main_v141 (subf : (⟨S163550x64, .f32⟩ : BufTy).Contents (Elt F) → (⟨S163550x64, .f32⟩ : BufTy).Contents (Elt F) → (⟨S163550x64, .f32⟩ : BufTy).Contents (Elt F)),
    binary main_v141 main_v141 main_v142 (mulf : (⟨S163550x64, .f32⟩ : BufTy).Contents (Elt F) → (⟨S163550x64, .f32⟩ : BufTy).Contents (Elt F) → (⟨S163550x64, .f32⟩ : BufTy).Contents (Elt F)),
    nullary main_cst_23 (constant S_ .f32 0x00000000#32),
    binary main_v142 main_cst_23 main_v143 ((fun x v => Host.reduceAdd x v reducesTo_S163550x64_S64_d0 h_S_) : (⟨S163550x64, .f32⟩ : BufTy).Contents (Elt F) → (⟨S_, .f32⟩ : BufTy).Contents (Elt F) → (⟨S64, .f32⟩ : BufTy).Contents (Elt F)),
    nullary main_cst_24 (constant S_ .f32 0x481FB780#32),
    unary main_cst_24 main_v144 (broadcastInDim S64 ![] bcast_S_S64 : (⟨S_, .f32⟩ : BufTy).Contents (Elt F) → (⟨S64, .f32⟩ : BufTy).Contents (Elt F)),
    binary main_v143 main_v144 main_v145 (Host.divf : (⟨S64, .f32⟩ : BufTy).Contents (Elt F) → (⟨S64, .f32⟩ : BufTy).Contents (Elt F) → (⟨S64, .f32⟩ : BufTy).Contents (Elt F)),
    unary main_v138 main_v146 (broadcastInDim S1x64 ![1] bcast_S64_S1x64_1 : (⟨S64, .f32⟩ : BufTy).Contents (Elt F) → (⟨S1x64, .f32⟩ : BufTy).Contents (Elt F)),
    unary main_v146 main_v147 (broadcastInDim S163550x64 ![0, 1] bcast_S1x64_S163550x64_0_1 : (⟨S1x64, .f32⟩ : BufTy).Contents (Elt F) → (⟨S163550x64, .f32⟩ : BufTy).Contents (Elt F)),
    binary main_v135 main_v147 main_v148 (subf : (⟨S163550x64, .f32⟩ : BufTy).Contents (Elt F) → (⟨S163550x64, .f32⟩ : BufTy).Contents (Elt F) → (⟨S163550x64, .f32⟩ : BufTy).Contents (Elt F)),
    nullary main_cst_25 (constant S_ .f32 0x3727C5AC#32),
    unary main_cst_25 main_v149 (broadcastInDim S64 ![] bcast_S_S64 : (⟨S_, .f32⟩ : BufTy).Contents (Elt F) → (⟨S64, .f32⟩ : BufTy).Contents (Elt F)),
    binary main_v145 main_v149 main_v150 (addf : (⟨S64, .f32⟩ : BufTy).Contents (Elt F) → (⟨S64, .f32⟩ : BufTy).Contents (Elt F) → (⟨S64, .f32⟩ : BufTy).Contents (Elt F)),
    unary main_v150 main_v151 (Host.rsqrt : (⟨S64, .f32⟩ : BufTy).Contents (Elt F) → (⟨S64, .f32⟩ : BufTy).Contents (Elt F)) ]

set_option maxRecDepth 8192 in
set_option maxHeartbeats 4000000 in
/-- The window is the line of its operations. -/
theorem main_part2_eq (c : Dev nD) : main_part2 (F := F) c = seq ops2 := rfl

set_option maxRecDepth 8192 in
/-- Every operation of the window touches TensorCore references only. -/
theorem ops2_sub : (ops2 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub ..⟩

set_option maxRecDepth 8192 in
/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write. -/
abbrev ops2_W : List (Ref sig .tc) := [main_v102, main_v103, main_v104, main_v105, main_v106, main_v107, main_call3_cst, main_call3_v0, main_v108, main_v109, main_cst_16, main_v110, main_cst_17, main_v111, main_v112, main_v113, main_v114, main_v115, main_v116, main_cst_18, main_v117, main_cst_19, main_v118, main_v119, main_v120, main_v121, main_v122, main_cst_20, main_v123, main_v124, main_v125, main_v126, main_v127, main_v128, main_v129, main_v130, main_v131, main_v132, main_v133, main_v134, main_v135, main_cst_21, main_v136, main_cst_22, main_v137, main_v138, main_v139, main_v140, main_v141, main_v142, main_cst_23, main_v143, main_cst_24, main_v144, main_v145, main_v146, main_v147, main_v148, main_cst_25, main_v149, main_v150, main_v151]

set_option maxRecDepth 8192 in
set_option maxHeartbeats 4000000 in
/-- Each operation of the window writes only a buffer of that list. -/
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RefRun

end
-- ==== Proof.RefRunStep2.lean ====
/- The reference @main's third window (operations 127 … 188) read back: from contents V that hold its stage (ReadP's val_…)
   at each buffer an earlier window wrote and this one reads, each buffer the window writes that is read later holds its
   stage; a buffer the window does not write keeps its contents. -/
import proofs.«428288_j26706106647095_1_alg».proof.Proof.RefRunOps2
import proofs.«428288_j26706106647095_1_alg».proof.Proof.ReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A buffer the third window does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-! The buffers written in the third window and read after it, each at its stage of the arguments: from contents V that
    hold `xI` at the arguments the window reads and, at the buffers it reads from earlier windows, their stages. -/

set_option maxRecDepth 8192 in
set_option maxHeartbeats 4000000 in
theorem w2_main_v108 (V : Valuation τ sig (Elt F))
    (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x20 : (⟨S490650, .i32⟩ : BufTy).Contents (Elt F)) (x21 : (⟨S490650, .i32⟩ : BufTy).Contents (Elt F))
    (hA5 : V (Proc.devRef .tc main_arg5) = x5)
    (hL_main_v101 : V (Proc.devRef .tc main_v101) = val_main_v101 (F := F) x4)
    (hL_main_v99 : V (Proc.devRef .tc main_v99) = val_main_v99 (F := F) x1 x2 x3 x4 x5 x20 x21) :
    after ops2 V (Proc.devRef .tc main_v108) = val_main_v108 (F := F) x1 x2 x3 x4 x5 x20 x21 := by
  simp only [ops2]
  after_results_simp
  simp only [hA5, hL_main_v101, hL_main_v99]
  rfl

set_option maxRecDepth 8192 in
set_option maxHeartbeats 4000000 in
theorem w2_main_v134 (V : Valuation τ sig (Elt F))
    (x0 : (⟨S262112x64, .f32⟩ : BufTy).Contents (Elt F)) (x6 : (⟨S64x64, .f32⟩ : BufTy).Contents (Elt F)) (x8 : (⟨S64, .f32⟩ : BufTy).Contents (Elt F)) (x9 : (⟨S64, .f32⟩ : BufTy).Contents (Elt F))
    (hA0 : V (Proc.devRef .tc main_arg0) = x0) (hA6 : V (Proc.devRef .tc main_arg6) = x6) (hA8 : V (Proc.devRef .tc main_arg8) = x8) (hA9 : V (Proc.devRef .tc main_arg9) = x9) :
    after ops2 V (Proc.devRef .tc main_v134) = val_main_v134 (F := F) x0 x6 x8 x9 := by
  simp only [ops2]
  after_results_simp
  simp only [hA0, hA6, hA8, hA9]
  rfl

set_option maxRecDepth 8192 in
set_option maxHeartbeats 4000000 in
theorem w2_main_v148 (V : Valuation τ sig (Elt F))
    (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x7 : (⟨S64x64, .f32⟩ : BufTy).Contents (Elt F)) (x20 : (⟨S490650, .i32⟩ : BufTy).Contents (Elt F)) (x21 : (⟨S490650, .i32⟩ : BufTy).Contents (Elt F))
    (hA5 : V (Proc.devRef .tc main_arg5) = x5) (hA7 : V (Proc.devRef .tc main_arg7) = x7)
    (hL_main_v101 : V (Proc.devRef .tc main_v101) = val_main_v101 (F := F) x4)
    (hL_main_v99 : V (Proc.devRef .tc main_v99) = val_main_v99 (F := F) x1 x2 x3 x4 x5 x20 x21) :
    after ops2 V (Proc.devRef .tc main_v148) = val_main_v148 (F := F) x1 x2 x3 x4 x5 x7 x20 x21 := by
  simp only [ops2]
  after_results_simp
  simp only [hA5, hA7, hL_main_v101, hL_main_v99]
  rfl

set_option maxRecDepth 8192 in
set_option maxHeartbeats 4000000 in
theorem w2_main_v151 (V : Valuation τ sig (Elt F))
    (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x7 : (⟨S64x64, .f32⟩ : BufTy).Contents (Elt F)) (x20 : (⟨S490650, .i32⟩ : BufTy).Contents (Elt F)) (x21 : (⟨S490650, .i32⟩ : BufTy).Contents (Elt F))
    (hA5 : V (Proc.devRef .tc main_arg5) = x5) (hA7 : V (Proc.devRef .tc main_arg7) = x7)
    (hL_main_v101 : V (Proc.devRef .tc main_v101) = val_main_v101 (F := F) x4)
    (hL_main_v99 : V (Proc.devRef .tc main_v99) = val_main_v99 (F := F) x1 x2 x3 x4 x5 x20 x21) :
    after ops2 V (Proc.devRef .tc main_v151) = val_main_v151 (F := F) x1 x2 x3 x4 x5 x7 x20 x21 := by
  simp only [ops2]
  after_results_simp
  simp only [hA5, hA7, hL_main_v101, hL_main_v99]
  rfl

end Cert.RefRun

end
-- ==== Proof.RefRunOps3.lean ====
import proofs.«428288_j26706106647095_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 189 … 248 of @main, in order (a called function's operations stand in its call's place). -/
abbrev ops3 : List (HloOp τ sig (Elt F)) :=
  [ unary main_v151 main_v152 (broadcastInDim S1x64 ![1] bcast_S64_S1x64_1 : (⟨S64, .f32⟩ : BufTy).Contents (Elt F) → (⟨S1x64, .f32⟩ : BufTy).Contents (Elt F)),
    unary main_v152 main_v153 (broadcastInDim S163550x64 ![0, 1] bcast_S1x64_S163550x64_0_1 : (⟨S1x64, .f32⟩ : BufTy).Contents (Elt F) → (⟨S163550x64, .f32⟩ : BufTy).Contents (Elt F)),
    binary main_v148 main_v153 main_v154 (mulf : (⟨S163550x64, .f32⟩ : BufTy).Contents (Elt F) → (⟨S163550x64, .f32⟩ : BufTy).Contents (Elt F) → (⟨S163550x64, .f32⟩ : BufTy).Contents (Elt F)),
    unary main_arg10 main_v155 (broadcastInDim S1x64 ![1] bcast_S64_S1x64_1 : (⟨S64, .f32⟩ : BufTy).Contents (Elt F) → (⟨S1x64, .f32⟩ : BufTy).Contents (Elt F)),
    unary main_v155 main_v156 (broadcastInDim S163550x64 ![0, 1] bcast_S1x64_S163550x64_0_1 : (⟨S1x64, .f32⟩ : BufTy).Contents (Elt F) → (⟨S163550x64, .f32⟩ : BufTy).Contents (Elt F)),
    binary main_v154 main_v156 main_v157 (mulf : (⟨S163550x64, .f32⟩ : BufTy).Contents (Elt F) → (⟨S163550x64, .f32⟩ : BufTy).Contents (Elt F) → (⟨S163550x64, .f32⟩ : BufTy).Contents (Elt F)),
    unary main_arg11 main_v158 (broadcastInDim S1x64 ![1] bcast_S64_S1x64_1 : (⟨S64, .f32⟩ : BufTy).Contents (Elt F) → (⟨S1x64, .f32⟩ : BufTy).Contents (Elt F)),
    unary main_v158 main_v159 (broadcastInDim S163550x64 ![0, 1] bcast_S1x64_S163550x64_0_1 : (⟨S1x64, .f32⟩ : BufTy).Contents (Elt F) → (⟨S163550x64, .f32⟩ : BufTy).Contents (Elt F)),
    binary main_v157 main_v159 main_v160 (addf : (⟨S163550x64, .f32⟩ : BufTy).Contents (Elt F) → (⟨S163550x64, .f32⟩ : BufTy).Contents (Elt F) → (⟨S163550x64, .f32⟩ : BufTy).Contents (Elt F)),
    nullary main_cst_26 (constant S_ .f32 0x00000000#32),
    unary main_cst_26 main_v161 (broadcastInDim S4096x96x64 ![] bcast_S_S4096x96x64 : (⟨S_, .f32⟩ : BufTy).Contents (Elt F) → (⟨S4096x96x64, .f32⟩ : BufTy).Contents (Elt F)),
    nullary main_c_27 (constantI S_ 32 0#32),
    unary main_c_27 main_v162 (broadcastInDim S262112 ![] bcast_S_S262112 : (⟨S_, .i32⟩ : BufTy).Contents (Elt F) → (⟨S262112, .i32⟩ : BufTy).Contents (Elt F)),
    binary main_arg16 main_v162 main_v163 (cmpi .slt : (⟨S262112, .i32⟩ : BufTy).Contents (Elt F) → (⟨S262112, .i32⟩ : BufTy).Contents (Elt F) → (⟨S262112, .i1⟩ : BufTy).Contents (Elt F)),
    nullary main_c_28 (constantI S_ 32 4096#32),
    unary main_c_28 main_v164 (broadcastInDim S262112 ![] bcast_S_S262112 : (⟨S_, .i32⟩ : BufTy).Contents (Elt F) → (⟨S262112, .i32⟩ : BufTy).Contents (Elt F)),
    binary main_arg16 main_v164 main_v165 (addi : (⟨S262112, .i32⟩ : BufTy).Contents (Elt F) → (⟨S262112, .i32⟩ : BufTy).Contents (Elt F) → (⟨S262112, .i32⟩ : BufTy).Contents (Elt F)),
    ternary main_v163 main_v165 main_arg16 main_v166 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    nullary main_c_29 (constantI S_ 32 0#32),
    unary main_c_29 main_v167 (broadcastInDim S262112 ![] bcast_S_S262112 : (⟨S_, .i32⟩ : BufTy).Contents (Elt F) → (⟨S262112, .i32⟩ : BufTy).Contents (Elt F)),
    binary main_arg17 main_v167 main_v168 (cmpi .slt : (⟨S262112, .i32⟩ : BufTy).Contents (Elt F) → (⟨S262112, .i32⟩ : BufTy).Contents (Elt F) → (⟨S262112, .i1⟩ : BufTy).Contents (Elt F)),
    nullary main_c_30 (constantI S_ 32 96#32),
    unary main_c_30 main_v169 (broadcastInDim S262112 ![] bcast_S_S262112 : (⟨S_, .i32⟩ : BufTy).Contents (Elt F) → (⟨S262112, .i32⟩ : BufTy).Contents (Elt F)),
    binary main_arg17 main_v169 main_v170 (addi : (⟨S262112, .i32⟩ : BufTy).Contents (Elt F) → (⟨S262112, .i32⟩ : BufTy).Contents (Elt F) → (⟨S262112, .i32⟩ : BufTy).Contents (Elt F)),
    ternary main_v168 main_v170 main_arg17 main_v171 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    unary main_v166 main_v172 (broadcastInDim S262112x1 ![0] bcast_S262112_S262112x1_0 : (⟨S262112, .i32⟩ : BufTy).Contents (Elt F) → (⟨S262112x1, .i32⟩ : BufTy).Contents (Elt F)),
    unary main_v171 main_v173 (broadcastInDim S262112x1 ![0] bcast_S262112_S262112x1_0 : (⟨S262112, .i32⟩ : BufTy).Contents (Elt F) → (⟨S262112x1, .i32⟩ : BufTy).Contents (Elt F)),
    binary main_v172 main_v173 main_v174 ((fun a b => concatenate S262112x2 1 [⟨S262112x1, a⟩, ⟨S262112x1, b⟩] concatenates_S262112x1_S262112x1_S262112x2_d1) : (⟨S262112x1, .i32⟩ : BufTy).Contents (Elt F) → (⟨S262112x1, .i32⟩ : BufTy).Contents (Elt F) → (⟨S262112x2, .i32⟩ : BufTy).Contents (Elt F)),
    ternary main_v161 main_v174 main_v134 main_v175 ((fun x i u => Host.scatter scatter_S4096x96x64_S262112x2_S262112x64_1_01_01_1 (fun _ b => b) x i u) : (⟨S4096x96x64, .f32⟩ : BufTy).Contents (Elt F) → (⟨S262112x2, .i32⟩ : BufTy).Contents (Elt F) → (⟨S262112x64, .f32⟩ : BufTy).Contents (Elt F) → (⟨S4096x96x64, .f32⟩ : BufTy).Contents (Elt F)),
    nullary main_cst_31 (constant S_ .f32 0x00000000#32),
    unary main_cst_31 main_v176 (broadcastInDim S4096x64x64 ![] bcast_S_S4096x64x64 : (⟨S_, .f32⟩ : BufTy).Contents (Elt F) → (⟨S4096x64x64, .f32⟩ : BufTy).Contents (Elt F)),
    nullary main_c_32 (constantI S_ 32 0#32),
    unary main_c_32 main_v177 (broadcastInDim S163550 ![] bcast_S_S163550 : (⟨S_, .i32⟩ : BufTy).Contents (Elt F) → (⟨S163550, .i32⟩ : BufTy).Contents (Elt F)),
    binary main_arg18 main_v177 main_v178 (cmpi .slt : (⟨S163550, .i32⟩ : BufTy).Contents (Elt F) → (⟨S163550, .i32⟩ : BufTy).Contents (Elt F) → (⟨S163550, .i1⟩ : BufTy).Contents (Elt F)),
    nullary main_c_33 (constantI S_ 32 4096#32),
    unary main_c_33 main_v179 (broadcastInDim S163550 ![] bcast_S_S163550 : (⟨S_, .i32⟩ : BufTy).Contents (Elt F) → (⟨S163550, .i32⟩ : BufTy).Contents (Elt F)),
    binary main_arg18 main_v179 main_v180 (addi : (⟨S163550, .i32⟩ : BufTy).Contents (Elt F) → (⟨S163550, .i32⟩ : BufTy).Contents (Elt F) → (⟨S163550, .i32⟩ : BufTy).Contents (Elt F)),
    ternary main_v178 main_v180 main_arg18 main_v181 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    nullary main_c_34 (constantI S_ 32 0#32),
    unary main_c_34 main_v182 (broadcastInDim S163550 ![] bcast_S_S163550 : (⟨S_, .i32⟩ : BufTy).Contents (Elt F) → (⟨S163550, .i32⟩ : BufTy).Contents (Elt F)),
    binary main_arg19 main_v182 main_v183 (cmpi .slt : (⟨S163550, .i32⟩ : BufTy).Contents (Elt F) → (⟨S163550, .i32⟩ : BufTy).Contents (Elt F) → (⟨S163550, .i1⟩ : BufTy).Contents (Elt F)),
    nullary main_c_35 (constantI S_ 32 64#32),
    unary main_c_35 main_v184 (broadcastInDim S163550 ![] bcast_S_S163550 : (⟨S_, .i32⟩ : BufTy).Contents (Elt F) → (⟨S163550, .i32⟩ : BufTy).Contents (Elt F)),
    binary main_arg19 main_v184 main_v185 (addi : (⟨S163550, .i32⟩ : BufTy).Contents (Elt F) → (⟨S163550, .i32⟩ : BufTy).Contents (Elt F) → (⟨S163550, .i32⟩ : BufTy).Contents (Elt F)),
    ternary main_v183 main_v185 main_arg19 main_v186 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    unary main_v181 main_v187 (broadcastInDim S163550x1 ![0] bcast_S163550_S163550x1_0 : (⟨S163550, .i32⟩ : BufTy).Contents (Elt F) → (⟨S163550x1, .i32⟩ : BufTy).Contents (Elt F)),
    unary main_v186 main_v188 (broadcastInDim S163550x1 ![0] bcast_S163550_S163550x1_0 : (⟨S163550, .i32⟩ : BufTy).Contents (Elt F) → (⟨S163550x1, .i32⟩ : BufTy).Contents (Elt F)),
    binary main_v187 main_v188 main_v189 ((fun a b => concatenate S163550x2 1 [⟨S163550x1, a⟩, ⟨S163550x1, b⟩] concatenates_S163550x1_S163550x1_S163550x2_d1) : (⟨S163550x1, .i32⟩ : BufTy).Contents (Elt F) → (⟨S163550x1, .i32⟩ : BufTy).Contents (Elt F) → (⟨S163550x2, .i32⟩ : BufTy).Contents (Elt F)),
    ternary main_v176 main_v189 main_v160 main_v190 ((fun x i u => Host.scatter scatter_S4096x64x64_S163550x2_S163550x64_1_01_01_1 (fun _ b => b) x i u) : (⟨S4096x64x64, .f32⟩ : BufTy).Contents (Elt F) → (⟨S163550x2, .i32⟩ : BufTy).Contents (Elt F) → (⟨S163550x64, .f32⟩ : BufTy).Contents (Elt F) → (⟨S4096x64x64, .f32⟩ : BufTy).Contents (Elt F)),
    binary main_v175 main_v190 main_v191 ((fun l r => Host.dotGeneral dot_S4096x96x64_S4096x64x64_S4096x96x64_2_2_1_1_0_0 none l r) : (⟨S4096x96x64, .f32⟩ : BufTy).Contents (Elt F) → (⟨S4096x64x64, .f32⟩ : BufTy).Contents (Elt F) → (⟨S4096x96x64, .f32⟩ : BufTy).Contents (Elt F)),
    unary main_v191 main_v192 (Host.tanh : (⟨S4096x96x64, .f32⟩ : BufTy).Contents (Elt F) → (⟨S4096x96x64, .f32⟩ : BufTy).Contents (Elt F)),
    binary main_v192 main_v190 main_v193 ((fun l r => Host.dotGeneral dot_S4096x96x64_S4096x64x64_S4096x96x64_2_1_1_2_0_0 none l r) : (⟨S4096x96x64, .f32⟩ : BufTy).Contents (Elt F) → (⟨S4096x64x64, .f32⟩ : BufTy).Contents (Elt F) → (⟨S4096x96x64, .f32⟩ : BufTy).Contents (Elt F)),
    nullary main_c_36 (constantI S_ 32 0#32),
    unary main_c_36 main_v194 (broadcastInDim S262112 ![] bcast_S_S262112 : (⟨S_, .i32⟩ : BufTy).Contents (Elt F) → (⟨S262112, .i32⟩ : BufTy).Contents (Elt F)),
    binary main_arg16 main_v194 main_v195 (cmpi .slt : (⟨S262112, .i32⟩ : BufTy).Contents (Elt F) → (⟨S262112, .i32⟩ : BufTy).Contents (Elt F) → (⟨S262112, .i1⟩ : BufTy).Contents (Elt F)),
    nullary main_c_37 (constantI S_ 32 4096#32),
    unary main_c_37 main_v196 (broadcastInDim S262112 ![] bcast_S_S262112 : (⟨S_, .i32⟩ : BufTy).Contents (Elt F) → (⟨S262112, .i32⟩ : BufTy).Contents (Elt F)),
    binary main_arg16 main_v196 main_v197 (addi : (⟨S262112, .i32⟩ : BufTy).Contents (Elt F) → (⟨S262112, .i32⟩ : BufTy).Contents (Elt F) → (⟨S262112, .i32⟩ : BufTy).Contents (Elt F)),
    ternary main_v195 main_v197 main_arg16 main_v198 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    nullary main_c_38 (constantI S_ 32 0#32) ]

set_option maxRecDepth 8192 in
set_option maxHeartbeats 4000000 in
/-- The window is the line of its operations. -/
theorem main_part3_eq (c : Dev nD) : main_part3 (F := F) c = seq ops3 := rfl

set_option maxRecDepth 8192 in
/-- Every operation of the window touches TensorCore references only. -/
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩

set_option maxRecDepth 8192 in
/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write. -/
abbrev ops3_W : List (Ref sig .tc) := [main_v152, main_v153, main_v154, main_v155, main_v156, main_v157, main_v158, main_v159, main_v160, main_cst_26, main_v161, main_c_27, main_v162, main_v163, main_c_28, main_v164, main_v165, main_v166, main_c_29, main_v167, main_v168, main_c_30, main_v169, main_v170, main_v171, main_v172, main_v173, main_v174, main_v175, main_cst_31, main_v176, main_c_32, main_v177, main_v178, main_c_33, main_v179, main_v180, main_v181, main_c_34, main_v182, main_v183, main_c_35, main_v184, main_v185, main_v186, main_v187, main_v188, main_v189, main_v190, main_v191, main_v192, main_v193, main_c_36, main_v194, main_v195, main_c_37, main_v196, main_v197, main_v198, main_c_38]

set_option maxRecDepth 8192 in
set_option maxHeartbeats 4000000 in
/-- Each operation of the window writes only a buffer of that list. -/
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RefRun

end
-- ==== Proof.RefRunCut3.lean ====
import proofs.«428288_j26706106647095_1_alg».proof.Proof.RefRunOps3

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 189 … 215 of @main, in order. -/
abbrev ops3a : List (HloOp τ sig (Elt F)) :=
  [ unary main_v151 main_v152 (broadcastInDim S1x64 ![1] bcast_S64_S1x64_1 : (⟨S64, .f32⟩ : BufTy).Contents (Elt F) → (⟨S1x64, .f32⟩ : BufTy).Contents (Elt F)),
    unary main_v152 main_v153 (broadcastInDim S163550x64 ![0, 1] bcast_S1x64_S163550x64_0_1 : (⟨S1x64, .f32⟩ : BufTy).Contents (Elt F) → (⟨S163550x64, .f32⟩ : BufTy).Contents (Elt F)),
    binary main_v148 main_v153 main_v154 (mulf : (⟨S163550x64, .f32⟩ : BufTy).Contents (Elt F) → (⟨S163550x64, .f32⟩ : BufTy).Contents (Elt F) → (⟨S163550x64, .f32⟩ : BufTy).Contents (Elt F)),
    unary main_arg10 main_v155 (broadcastInDim S1x64 ![1] bcast_S64_S1x64_1 : (⟨S64, .f32⟩ : BufTy).Contents (Elt F) → (⟨S1x64, .f32⟩ : BufTy).Contents (Elt F)),
    unary main_v155 main_v156 (broadcastInDim S163550x64 ![0, 1] bcast_S1x64_S163550x64_0_1 : (⟨S1x64, .f32⟩ : BufTy).Contents (Elt F) → (⟨S163550x64, .f32⟩ : BufTy).Contents (Elt F)),
    binary main_v154 main_v156 main_v157 (mulf : (⟨S163550x64, .f32⟩ : BufTy).Contents (Elt F) → (⟨S163550x64, .f32⟩ : BufTy).Contents (Elt F) → (⟨S163550x64, .f32⟩ : BufTy).Contents (Elt F)),
    unary main_arg11 main_v158 (broadcastInDim S1x64 ![1] bcast_S64_S1x64_1 : (⟨S64, .f32⟩ : BufTy).Contents (Elt F) → (⟨S1x64, .f32⟩ : BufTy).Contents (Elt F)),
    unary main_v158 main_v159 (broadcastInDim S163550x64 ![0, 1] bcast_S1x64_S163550x64_0_1 : (⟨S1x64, .f32⟩ : BufTy).Contents (Elt F) → (⟨S163550x64, .f32⟩ : BufTy).Contents (Elt F)),
    binary main_v157 main_v159 main_v160 (addf : (⟨S163550x64, .f32⟩ : BufTy).Contents (Elt F) → (⟨S163550x64, .f32⟩ : BufTy).Contents (Elt F) → (⟨S163550x64, .f32⟩ : BufTy).Contents (Elt F)),
    nullary main_cst_26 (constant S_ .f32 0x00000000#32),
    unary main_cst_26 main_v161 (broadcastInDim S4096x96x64 ![] bcast_S_S4096x96x64 : (⟨S_, .f32⟩ : BufTy).Contents (Elt F) → (⟨S4096x96x64, .f32⟩ : BufTy).Contents (Elt F)),
    nullary main_c_27 (constantI S_ 32 0#32),
    unary main_c_27 main_v162 (broadcastInDim S262112 ![] bcast_S_S262112 : (⟨S_, .i32⟩ : BufTy).Contents (Elt F) → (⟨S262112, .i32⟩ : BufTy).Contents (Elt F)),
    binary main_arg16 main_v162 main_v163 (cmpi .slt : (⟨S262112, .i32⟩ : BufTy).Contents (Elt F) → (⟨S262112, .i32⟩ : BufTy).Contents (Elt F) → (⟨S262112, .i1⟩ : BufTy).Contents (Elt F)),
    nullary main_c_28 (constantI S_ 32 4096#32),
    unary main_c_28 main_v164 (broadcastInDim S262112 ![] bcast_S_S262112 : (⟨S_, .i32⟩ : BufTy).Contents (Elt F) → (⟨S262112, .i32⟩ : BufTy).Contents (Elt F)),
    binary main_arg16 main_v164 main_v165 (addi : (⟨S262112, .i32⟩ : BufTy).Contents (Elt F) → (⟨S262112, .i32⟩ : BufTy).Contents (Elt F) → (⟨S262112, .i32⟩ : BufTy).Contents (Elt F)),
    ternary main_v163 main_v165 main_arg16 main_v166 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    nullary main_c_29 (constantI S_ 32 0#32),
    unary main_c_29 main_v167 (broadcastInDim S262112 ![] bcast_S_S262112 : (⟨S_, .i32⟩ : BufTy).Contents (Elt F) → (⟨S262112, .i32⟩ : BufTy).Contents (Elt F)),
    binary main_arg17 main_v167 main_v168 (cmpi .slt : (⟨S262112, .i32⟩ : BufTy).Contents (Elt F) → (⟨S262112, .i32⟩ : BufTy).Contents (Elt F) → (⟨S262112, .i1⟩ : BufTy).Contents (Elt F)),
    nullary main_c_30 (constantI S_ 32 96#32),
    unary main_c_30 main_v169 (broadcastInDim S262112 ![] bcast_S_S262112 : (⟨S_, .i32⟩ : BufTy).Contents (Elt F) → (⟨S262112, .i32⟩ : BufTy).Contents (Elt F)),
    binary main_arg17 main_v169 main_v170 (addi : (⟨S262112, .i32⟩ : BufTy).Contents (Elt F) → (⟨S262112, .i32⟩ : BufTy).Contents (Elt F) → (⟨S262112, .i32⟩ : BufTy).Contents (Elt F)),
    ternary main_v168 main_v170 main_arg17 main_v171 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    unary main_v166 main_v172 (broadcastInDim S262112x1 ![0] bcast_S262112_S262112x1_0 : (⟨S262112, .i32⟩ : BufTy).Contents (Elt F) → (⟨S262112x1, .i32⟩ : BufTy).Contents (Elt F)),
    unary main_v171 main_v173 (broadcastInDim S262112x1 ![0] bcast_S262112_S262112x1_0 : (⟨S262112, .i32⟩ : BufTy).Contents (Elt F) → (⟨S262112x1, .i32⟩ : BufTy).Contents (Elt F)) ]

/-- The buffers the piece's operations write. -/
abbrev ops3a_W : List (Ref sig .tc) := [main_v152, main_v153, main_v154, main_v155, main_v156, main_v157, main_v158, main_v159, main_v160, main_cst_26, main_v161, main_c_27, main_v162, main_v163, main_c_28, main_v164, main_v165, main_v166, main_c_29, main_v167, main_v168, main_c_30, main_v169, main_v170, main_v171, main_v172, main_v173]

set_option maxRecDepth 8192 in
set_option maxHeartbeats 4000000 in
/-- Each operation of the piece writes only a buffer of that list. -/
theorem ops3a_writes : (ops3a : List (HloOp τ sig (Elt F))).Forall fun op => op.writes ⊆ (ops3a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 216 … 235 of @main, in order. -/
abbrev ops3b : List (HloOp τ sig (Elt F)) :=
  [ binary main_v172 main_v173 main_v174 ((fun a b => concatenate S262112x2 1 [⟨S262112x1, a⟩, ⟨S262112x1, b⟩] concatenates_S262112x1_S262112x1_S262112x2_d1) : (⟨S262112x1, .i32⟩ : BufTy).Contents (Elt F) → (⟨S262112x1, .i32⟩ : BufTy).Contents (Elt F) → (⟨S262112x2, .i32⟩ : BufTy).Contents (Elt F)),
    ternary main_v161 main_v174 main_v134 main_v175 ((fun x i u => Host.scatter scatter_S4096x96x64_S262112x2_S262112x64_1_01_01_1 (fun _ b => b) x i u) : (⟨S4096x96x64, .f32⟩ : BufTy).Contents (Elt F) → (⟨S262112x2, .i32⟩ : BufTy).Contents (Elt F) → (⟨S262112x64, .f32⟩ : BufTy).Contents (Elt F) → (⟨S4096x96x64, .f32⟩ : BufTy).Contents (Elt F)),
    nullary main_cst_31 (constant S_ .f32 0x00000000#32),
    unary main_cst_31 main_v176 (broadcastInDim S4096x64x64 ![] bcast_S_S4096x64x64 : (⟨S_, .f32⟩ : BufTy).Contents (Elt F) → (⟨S4096x64x64, .f32⟩ : BufTy).Contents (Elt F)),
    nullary main_c_32 (constantI S_ 32 0#32),
    unary main_c_32 main_v177 (broadcastInDim S163550 ![] bcast_S_S163550 : (⟨S_, .i32⟩ : BufTy).Contents (Elt F) → (⟨S163550, .i32⟩ : BufTy).Contents (Elt F)),
    binary main_arg18 main_v177 main_v178 (cmpi .slt : (⟨S163550, .i32⟩ : BufTy).Contents (Elt F) → (⟨S163550, .i32⟩ : BufTy).Contents (Elt F) → (⟨S163550, .i1⟩ : BufTy).Contents (Elt F)),
    nullary main_c_33 (constantI S_ 32 4096#32),
    unary main_c_33 main_v179 (broadcastInDim S163550 ![] bcast_S_S163550 : (⟨S_, .i32⟩ : BufTy).Contents (Elt F) → (⟨S163550, .i32⟩ : BufTy).Contents (Elt F)),
    binary main_arg18 main_v179 main_v180 (addi : (⟨S163550, .i32⟩ : BufTy).Contents (Elt F) → (⟨S163550, .i32⟩ : BufTy).Contents (Elt F) → (⟨S163550, .i32⟩ : BufTy).Contents (Elt F)),
    ternary main_v178 main_v180 main_arg18 main_v181 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    nullary main_c_34 (constantI S_ 32 0#32),
    unary main_c_34 main_v182 (broadcastInDim S163550 ![] bcast_S_S163550 : (⟨S_, .i32⟩ : BufTy).Contents (Elt F) → (⟨S163550, .i32⟩ : BufTy).Contents (Elt F)),
    binary main_arg19 main_v182 main_v183 (cmpi .slt : (⟨S163550, .i32⟩ : BufTy).Contents (Elt F) → (⟨S163550, .i32⟩ : BufTy).Contents (Elt F) → (⟨S163550, .i1⟩ : BufTy).Contents (Elt F)),
    nullary main_c_35 (constantI S_ 32 64#32),
    unary main_c_35 main_v184 (broadcastInDim S163550 ![] bcast_S_S163550 : (⟨S_, .i32⟩ : BufTy).Contents (Elt F) → (⟨S163550, .i32⟩ : BufTy).Contents (Elt F)),
    binary main_arg19 main_v184 main_v185 (addi : (⟨S163550, .i32⟩ : BufTy).Contents (Elt F) → (⟨S163550, .i32⟩ : BufTy).Contents (Elt F) → (⟨S163550, .i32⟩ : BufTy).Contents (Elt F)),
    ternary main_v183 main_v185 main_arg19 main_v186 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    unary main_v181 main_v187 (broadcastInDim S163550x1 ![0] bcast_S163550_S163550x1_0 : (⟨S163550, .i32⟩ : BufTy).Contents (Elt F) → (⟨S163550x1, .i32⟩ : BufTy).Contents (Elt F)),
    unary main_v186 main_v188 (broadcastInDim S163550x1 ![0] bcast_S163550_S163550x1_0 : (⟨S163550, .i32⟩ : BufTy).Contents (Elt F) → (⟨S163550x1, .i32⟩ : BufTy).Contents (Elt F)) ]

/-- The buffers the piece's operations write. -/
abbrev ops3b_W : List (Ref sig .tc) := [main_v174, main_v175, main_cst_31, main_v176, main_c_32, main_v177, main_v178, main_c_33, main_v179, main_v180, main_v181, main_c_34, main_v182, main_v183, main_c_35, main_v184, main_v185, main_v186, main_v187, main_v188]

set_option maxRecDepth 8192 in
set_option maxHeartbeats 4000000 in
/-- Each operation of the piece writes only a buffer of that list. -/
theorem ops3b_writes : (ops3b : List (HloOp τ sig (Elt F))).Forall fun op => op.writes ⊆ (ops3b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 236 … 248 of @main, in order. -/
abbrev ops3c : List (HloOp τ sig (Elt F)) :=
  [ binary main_v187 main_v188 main_v189 ((fun a b => concatenate S163550x2 1 [⟨S163550x1, a⟩, ⟨S163550x1, b⟩] concatenates_S163550x1_S163550x1_S163550x2_d1) : (⟨S163550x1, .i32⟩ : BufTy).Contents (Elt F) → (⟨S163550x1, .i32⟩ : BufTy).Contents (Elt F) → (⟨S163550x2, .i32⟩ : BufTy).Contents (Elt F)),
    ternary main_v176 main_v189 main_v160 main_v190 ((fun x i u => Host.scatter scatter_S4096x64x64_S163550x2_S163550x64_1_01_01_1 (fun _ b => b) x i u) : (⟨S4096x64x64, .f32⟩ : BufTy).Contents (Elt F) → (⟨S163550x2, .i32⟩ : BufTy).Contents (Elt F) → (⟨S163550x64, .f32⟩ : BufTy).Contents (Elt F) → (⟨S4096x64x64, .f32⟩ : BufTy).Contents (Elt F)),
    binary main_v175 main_v190 main_v191 ((fun l r => Host.dotGeneral dot_S4096x96x64_S4096x64x64_S4096x96x64_2_2_1_1_0_0 none l r) : (⟨S4096x96x64, .f32⟩ : BufTy).Contents (Elt F) → (⟨S4096x64x64, .f32⟩ : BufTy).Contents (Elt F) → (⟨S4096x96x64, .f32⟩ : BufTy).Contents (Elt F)),
    unary main_v191 main_v192 (Host.tanh : (⟨S4096x96x64, .f32⟩ : BufTy).Contents (Elt F) → (⟨S4096x96x64, .f32⟩ : BufTy).Contents (Elt F)),
    binary main_v192 main_v190 main_v193 ((fun l r => Host.dotGeneral dot_S4096x96x64_S4096x64x64_S4096x96x64_2_1_1_2_0_0 none l r) : (⟨S4096x96x64, .f32⟩ : BufTy).Contents (Elt F) → (⟨S4096x64x64, .f32⟩ : BufTy).Contents (Elt F) → (⟨S4096x96x64, .f32⟩ : BufTy).Contents (Elt F)),
    nullary main_c_36 (constantI S_ 32 0#32),
    unary main_c_36 main_v194 (broadcastInDim S262112 ![] bcast_S_S262112 : (⟨S_, .i32⟩ : BufTy).Contents (Elt F) → (⟨S262112, .i32⟩ : BufTy).Contents (Elt F)),
    binary main_arg16 main_v194 main_v195 (cmpi .slt : (⟨S262112, .i32⟩ : BufTy).Contents (Elt F) → (⟨S262112, .i32⟩ : BufTy).Contents (Elt F) → (⟨S262112, .i1⟩ : BufTy).Contents (Elt F)),
    nullary main_c_37 (constantI S_ 32 4096#32),
    unary main_c_37 main_v196 (broadcastInDim S262112 ![] bcast_S_S262112 : (⟨S_, .i32⟩ : BufTy).Contents (Elt F) → (⟨S262112, .i32⟩ : BufTy).Contents (Elt F)),
    binary main_arg16 main_v196 main_v197 (addi : (⟨S262112, .i32⟩ : BufTy).Contents (Elt F) → (⟨S262112, .i32⟩ : BufTy).Contents (Elt F) → (⟨S262112, .i32⟩ : BufTy).Contents (Elt F)),
    ternary main_v195 main_v197 main_arg16 main_v198 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    nullary main_c_38 (constantI S_ 32 0#32) ]

/-- The buffers the piece's operations write. -/
abbrev ops3c_W : List (Ref sig .tc) := [main_v189, main_v190, main_v191, main_v192, main_v193, main_c_36, main_v194, main_v195, main_c_37, main_v196, main_v197, main_v198, main_c_38]

set_option maxRecDepth 8192 in
set_option maxHeartbeats 4000000 in
/-- Each operation of the piece writes only a buffer of that list. -/
theorem ops3c_writes : (ops3c : List (HloOp τ sig (Elt F))).Forall fun op => op.writes ⊆ (ops3c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
/-- The window is its pieces in order. -/
theorem ops3_cut : (ops3 : List (HloOp τ sig (Elt F))) = ops3a ++ (ops3b ++ (ops3c)) := rfl

end Cert.RefRun

end
-- ==== Proof.RefRunStep3.lean ====
/- The reference @main's fourth window (operations 189 … 248) read back, in three pieces cut before its two concatenations:
   from contents V that hold its stage (ReadP's val_…) at each buffer an earlier window wrote and this one reads, each
   buffer the window writes that is read later holds its stage; a buffer the window does not write keeps its contents. -/
import proofs.«428288_j26706106647095_1_alg».proof.Proof.RefRunCut3
import proofs.«428288_j26706106647095_1_alg».proof.Proof.ReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A buffer the fourth window does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

/-- A buffer the window's first piece does not write keeps its contents through it. -/
theorem keep3a (V : Valuation τ sig (Elt F)) (r : Ref sig .tc) (h : r ∉ ops3a_W) :
    after ops3a V (Proc.devRef .tc r) = V (Proc.devRef .tc r) :=
  after_of_writes_sub ops3a V ops3a_writes h

/-- A buffer the window's second piece does not write keeps its contents through it. -/
theorem keep3b (V : Valuation τ sig (Elt F)) (r : Ref sig .tc) (h : r ∉ ops3b_W) :
    after ops3b V (Proc.devRef .tc r) = V (Proc.devRef .tc r) :=
  after_of_writes_sub ops3b V ops3b_writes h

/-- A buffer the window's third piece does not write keeps its contents through it. -/
theorem keep3c (V : Valuation τ sig (Elt F)) (r : Ref sig .tc) (h : r ∉ ops3c_W) :
    after ops3c V (Proc.devRef .tc r) = V (Proc.devRef .tc r) :=
  after_of_writes_sub ops3c V ops3c_writes h

/-! The window is cut before each of its two concatenations, so that a concatenation's operands are buffers its piece
    reads and does not write. Piece by piece: each buffer a piece writes that is read after it, at its stage, from contents
    that hold `xI` at the arguments the piece reads and the stages at the buffers it reads from before. -/

set_option maxRecDepth 8192 in
set_option maxHeartbeats 4000000 in
theorem c3a_main_v160 (V : Valuation τ sig (Elt F))
    (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x7 : (⟨S64x64, .f32⟩ : BufTy).Contents (Elt F)) (x10 : (⟨S64, .f32⟩ : BufTy).Contents (Elt F)) (x11 : (⟨S64, .f32⟩ : BufTy).Contents (Elt F)) (x20 : (⟨S490650, .i32⟩ : BufTy).Contents (Elt F)) (x21 : (⟨S490650, .i32⟩ : BufTy).Contents (Elt F))
    (hA10 : V (Proc.devRef .tc main_arg10) = x10) (hA11 : V (Proc.devRef .tc main_arg11) = x11)
    (hL_main_v151 : V (Proc.devRef .tc main_v151) = val_main_v151 (F := F) x1 x2 x3 x4 x5 x7 x20 x21)
    (hL_main_v148 : V (Proc.devRef .tc main_v148) = val_main_v148 (F := F) x1 x2 x3 x4 x5 x7 x20 x21) :
    after ops3a V (Proc.devRef .tc main_v160) = val_main_v160 (F := F) x1 x2 x3 x4 x5 x7 x10 x11 x20 x21 := by
  simp only [ops3a]
  after_results_simp
  repeat (first | rw [hA10] | rw [hA11] | rw [hL_main_v151] | rw [hL_main_v148])
  all_goals rfl

set_option maxRecDepth 8192 in
set_option maxHeartbeats 4000000 in
theorem c3a_main_v161 (V : Valuation τ sig (Elt F)) :
    after ops3a V (Proc.devRef .tc main_v161) = val_main_v161 (F := F) := by
  simp only [ops3a]
  after_results_simp
  all_goals rfl

set_option maxRecDepth 8192 in
set_option maxHeartbeats 4000000 in
theorem c3a_main_v172 (V : Valuation τ sig (Elt F))
    (x16 : (⟨S262112, .i32⟩ : BufTy).Contents (Elt F))
    (hA16 : V (Proc.devRef .tc main_arg16) = x16) :
    after ops3a V (Proc.devRef .tc main_v172) = val_main_v172 (F := F) x16 := by
  simp only [ops3a]
  after_results_simp
  repeat (first | rw [hA16])
  all_goals rfl

set_option maxRecDepth 8192 in
set_option maxHeartbeats 4000000 in
theorem c3a_main_v173 (V : Valuation τ sig (Elt F))
    (x17 : (⟨S262112, .i32⟩ : BufTy).Contents (Elt F))
    (hA17 : V (Proc.devRef .tc main_arg17) = x17) :
    after ops3a V (Proc.devRef .tc main_v173) = val_main_v173 (F := F) x17 := by
  simp only [ops3a]
  after_results_simp
  repeat (first | rw [hA17])
  all_goals rfl

set_option maxRecDepth 8192 in
set_option maxHeartbeats 4000000 in
theorem c3b_main_v175 (V : Valuation τ sig (Elt F))
    (x0 : (⟨S262112x64, .f32⟩ : BufTy).Contents (Elt F)) (x6 : (⟨S64x64, .f32⟩ : BufTy).Contents (Elt F)) (x8 : (⟨S64, .f32⟩ : BufTy).Contents (Elt F)) (x9 : (⟨S64, .f32⟩ : BufTy).Contents (Elt F)) (x16 : (⟨S262112, .i32⟩ : BufTy).Contents (Elt F)) (x17 : (⟨S262112, .i32⟩ : BufTy).Contents (Elt F))
    (hL_main_v134 : V (Proc.devRef .tc main_v134) = val_main_v134 (F := F) x0 x6 x8 x9)
    (hL_main_v173 : V (Proc.devRef .tc main_v173) = val_main_v173 (F := F) x17)
    (hL_main_v172 : V (Proc.devRef .tc main_v172) = val_main_v172 (F := F) x16)
    (hL_main_v161 : V (Proc.devRef .tc main_v161) = val_main_v161 (F := F)) :
    after ops3b V (Proc.devRef .tc main_v175) = val_main_v175 (F := F) x0 x6 x8 x9 x16 x17 := by
  simp only [ops3b]
  after_results_simp
  repeat (first | rw [hL_main_v134] | rw [hL_main_v173] | rw [hL_main_v172] | rw [hL_main_v161])
  all_goals rfl

set_option maxRecDepth 8192 in
set_option maxHeartbeats 4000000 in
theorem c3b_main_v176 (V : Valuation τ sig (Elt F)) :
    after ops3b V (Proc.devRef .tc main_v176) = val_main_v176 (F := F) := by
  simp only [ops3b]
  after_results_simp
  all_goals rfl

set_option maxRecDepth 8192 in
set_option maxHeartbeats 4000000 in
theorem c3b_main_v187 (V : Valuation τ sig (Elt F))
    (x18 : (⟨S163550, .i32⟩ : BufTy).Contents (Elt F))
    (hA18 : V (Proc.devRef .tc main_arg18) = x18) :
    after ops3b V (Proc.devRef .tc main_v187) = val_main_v187 (F := F) x18 := by
  simp only [ops3b]
  after_results_simp
  repeat (first | rw [hA18])
  all_goals rfl

set_option maxRecDepth 8192 in
set_option maxHeartbeats 4000000 in
theorem c3b_main_v188 (V : Valuation τ sig (Elt F))
    (x19 : (⟨S163550, .i32⟩ : BufTy).Contents (Elt F))
    (hA19 : V (Proc.devRef .tc main_arg19) = x19) :
    after ops3b V (Proc.devRef .tc main_v188) = val_main_v188 (F := F) x19 := by
  simp only [ops3b]
  after_results_simp
  repeat (first | rw [hA19])
  all_goals rfl

set_option maxRecDepth 8192 in
set_option maxHeartbeats 4000000 in
theorem c3c_main_v192 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hL_main_v160 : V (Proc.devRef .tc main_v160) = val_main_v160 (F := F) x1 x2 x3 x4 x5 x7 x10 x11 x20 x21)
    (hL_main_v188 : V (Proc.devRef .tc main_v188) = val_main_v188 (F := F) x19)
    (hL_main_v187 : V (Proc.devRef .tc main_v187) = val_main_v187 (F := F) x18)
    (hL_main_v176 : V (Proc.devRef .tc main_v176) = val_main_v176 (F := F))
    (hL_main_v175 : V (Proc.devRef .tc main_v175) = val_main_v175 (F := F) x0 x6 x8 x9 x16 x17) :
    after ops3c V (Proc.devRef .tc main_v192) = val_main_v192 (F := F) x0 x1 x2 x3 x4 x5 x6 x7 x8 x9 x10 x11 x16 x17 x18 x19 x20 x21 := by
  simp only [ops3c]
  after_results_simp
  repeat (first | rw [hL_main_v160] | rw [hL_main_v188] | rw [hL_main_v187] | rw [hL_main_v176] | rw [hL_main_v175])
  all_goals rfl

set_option maxRecDepth 8192 in
set_option maxHeartbeats 4000000 in
theorem c3c_main_v193 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hL_main_v160 : V (Proc.devRef .tc main_v160) = val_main_v160 (F := F) x1 x2 x3 x4 x5 x7 x10 x11 x20 x21)
    (hL_main_v188 : V (Proc.devRef .tc main_v188) = val_main_v188 (F := F) x19)
    (hL_main_v187 : V (Proc.devRef .tc main_v187) = val_main_v187 (F := F) x18)
    (hL_main_v176 : V (Proc.devRef .tc main_v176) = val_main_v176 (F := F))
    (hL_main_v175 : V (Proc.devRef .tc main_v175) = val_main_v175 (F := F) x0 x6 x8 x9 x16 x17) :
    after ops3c V (Proc.devRef .tc main_v193) = val_main_v193 (F := F) x0 x1 x2 x3 x4 x5 x6 x7 x8 x9 x10 x11 x16 x17 x18 x19 x20 x21 := by
  simp only [ops3c]
  after_results_simp
  repeat (first | rw [hL_main_v160] | rw [hL_main_v188] | rw [hL_main_v187] | rw [hL_main_v176] | rw [hL_main_v175])
  all_goals rfl

set_option maxRecDepth 8192 in
set_option maxHeartbeats 4000000 in
theorem c3c_main_v198 (V : Valuation τ sig (Elt F))
    (x16 : (⟨S262112, .i32⟩ : BufTy).Contents (Elt F))
    (hA16 : V (Proc.devRef .tc main_arg16) = x16) :
    after ops3c V (Proc.devRef .tc main_v198) = val_main_v198 (F := F) x16 := by
  simp only [ops3c]
  after_results_simp
  repeat (first | rw [hA16])
  all_goals rfl

set_option maxRecDepth 8192 in
set_option maxHeartbeats 4000000 in
theorem c3c_main_c_38 (V : Valuation τ sig (Elt F)) :
    after ops3c V (Proc.devRef .tc main_c_38) = val_main_c_38 (F := F) := by
  simp only [ops3c]
  after_results_simp
  all_goals rfl

/-! The window's results, through its pieces in turn. -/

/-- `main_v175` after the fourth window: its stage (written by the second piece, kept by the third). -/
theorem w3_main_v175 (V : Valuation τ sig (Elt F))
    (x0 : (⟨S262112x64, .f32⟩ : BufTy).Contents (Elt F)) (x6 : (⟨S64x64, .f32⟩ : BufTy).Contents (Elt F)) (x8 : (⟨S64, .f32⟩ : BufTy).Contents (Elt F)) (x9 : (⟨S64, .f32⟩ : BufTy).Contents (Elt F)) (x16 : (⟨S262112, .i32⟩ : BufTy).Contents (Elt F)) (x17 : (⟨S262112, .i32⟩ : BufTy).Contents (Elt F))
    (hA16 : V (Proc.devRef .tc main_arg16) = x16) (hA17 : V (Proc.devRef .tc main_arg17) = x17)
    (hL_main_v134 : V (Proc.devRef .tc main_v134) = val_main_v134 (F := F) x0 x6 x8 x9) :
    after ops3 V (Proc.devRef .tc main_v175) = val_main_v175 (F := F) x0 x6 x8 x9 x16 x17 := by
  rw [ops3_cut, after_append, after_append, keep3c _ main_v175 (by decide)]
  exact c3b_main_v175 (after ops3a V) x0 x6 x8 x9 x16 x17 ((keep3a V main_v134 (by decide)).trans hL_main_v134) (c3a_main_v173 V x17 hA17) (c3a_main_v172 V x16 hA16) (c3a_main_v161 V)

/-- `main_v192` after the fourth window: its stage. -/
theorem w3_main_v192 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hA10 : V (Proc.devRef .tc main_arg10) = x10) (hA11 : V (Proc.devRef .tc main_arg11) = x11) (hA16 : V (Proc.devRef .tc main_arg16) = x16) (hA17 : V (Proc.devRef .tc main_arg17) = x17) (hA18 : V (Proc.devRef .tc main_arg18) = x18) (hA19 : V (Proc.devRef .tc main_arg19) = x19)
    (hL_main_v151 : V (Proc.devRef .tc main_v151) = val_main_v151 (F := F) x1 x2 x3 x4 x5 x7 x20 x21)
    (hL_main_v148 : V (Proc.devRef .tc main_v148) = val_main_v148 (F := F) x1 x2 x3 x4 x5 x7 x20 x21)
    (hL_main_v134 : V (Proc.devRef .tc main_v134) = val_main_v134 (F := F) x0 x6 x8 x9) :
    after ops3 V (Proc.devRef .tc main_v192) = val_main_v192 (F := F) x0 x1 x2 x3 x4 x5 x6 x7 x8 x9 x10 x11 x16 x17 x18 x19 x20 x21 := by
  rw [ops3_cut, after_append, after_append]
  exact c3c_main_v192 (after ops3b (after ops3a V)) x0 x1 x2 x3 x4 x5 x6 x7 x8 x9 x10 x11 x16 x17 x18 x19 x20 x21
    ((keep3b (after ops3a V) main_v160 (by decide)).trans (c3a_main_v160 V x1 x2 x3 x4 x5 x7 x10 x11 x20 x21 hA10 hA11 hL_main_v151 hL_main_v148))
    (c3b_main_v188 (after ops3a V) x19 ((keep3a V main_arg19 (by decide)).trans hA19))
    (c3b_main_v187 (after ops3a V) x18 ((keep3a V main_arg18 (by decide)).trans hA18))
    (c3b_main_v176 (after ops3a V))
    (c3b_main_v175 (after ops3a V) x0 x6 x8 x9 x16 x17 ((keep3a V main_v134 (by decide)).trans hL_main_v134) (c3a_main_v173 V x17 hA17) (c3a_main_v172 V x16 hA16) (c3a_main_v161 V))

/-- `main_v193` after the fourth window: its stage. -/
theorem w3_main_v193 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hA10 : V (Proc.devRef .tc main_arg10) = x10) (hA11 : V (Proc.devRef .tc main_arg11) = x11) (hA16 : V (Proc.devRef .tc main_arg16) = x16) (hA17 : V (Proc.devRef .tc main_arg17) = x17) (hA18 : V (Proc.devRef .tc main_arg18) = x18) (hA19 : V (Proc.devRef .tc main_arg19) = x19)
    (hL_main_v151 : V (Proc.devRef .tc main_v151) = val_main_v151 (F := F) x1 x2 x3 x4 x5 x7 x20 x21)
    (hL_main_v148 : V (Proc.devRef .tc main_v148) = val_main_v148 (F := F) x1 x2 x3 x4 x5 x7 x20 x21)
    (hL_main_v134 : V (Proc.devRef .tc main_v134) = val_main_v134 (F := F) x0 x6 x8 x9) :
    after ops3 V (Proc.devRef .tc main_v193) = val_main_v193 (F := F) x0 x1 x2 x3 x4 x5 x6 x7 x8 x9 x10 x11 x16 x17 x18 x19 x20 x21 := by
  rw [ops3_cut, after_append, after_append]
  exact c3c_main_v193 (after ops3b (after ops3a V)) x0 x1 x2 x3 x4 x5 x6 x7 x8 x9 x10 x11 x16 x17 x18 x19 x20 x21
    ((keep3b (after ops3a V) main_v160 (by decide)).trans (c3a_main_v160 V x1 x2 x3 x4 x5 x7 x10 x11 x20 x21 hA10 hA11 hL_main_v151 hL_main_v148))
    (c3b_main_v188 (after ops3a V) x19 ((keep3a V main_arg19 (by decide)).trans hA19))
    (c3b_main_v187 (after ops3a V) x18 ((keep3a V main_arg18 (by decide)).trans hA18))
    (c3b_main_v176 (after ops3a V))
    (c3b_main_v175 (after ops3a V) x0 x6 x8 x9 x16 x17 ((keep3a V main_v134 (by decide)).trans hL_main_v134) (c3a_main_v173 V x17 hA17) (c3a_main_v172 V x16 hA16) (c3a_main_v161 V))

/-- `main_v198` after the fourth window: its stage (the third piece writes it, from an argument the first two keep). -/
theorem w3_main_v198 (V : Valuation τ sig (Elt F)) (x16 : (⟨S262112, .i32⟩ : BufTy).Contents (Elt F)) (hA16 : V (Proc.devRef .tc main_arg16) = x16) :
    after ops3 V (Proc.devRef .tc main_v198) = val_main_v198 (F := F) x16 := by
  rw [ops3_cut, after_append, after_append]
  exact c3c_main_v198 (after ops3b (after ops3a V)) x16
    ((keep3b (after ops3a V) main_arg16 (by decide)).trans ((keep3a V main_arg16 (by decide)).trans hA16))

/-- `main_c_38` after the fourth window: its stage. -/
theorem w3_main_c_38 (V : Valuation τ sig (Elt F)) :
    after ops3 V (Proc.devRef .tc main_c_38) = val_main_c_38 (F := F) := by
  rw [ops3_cut, after_append, after_append]
  exact c3c_main_c_38 (after ops3b (after ops3a V))

end Cert.RefRun

end
-- ==== Proof.RefRunOps4.lean ====
import proofs.«428288_j26706106647095_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 249 … 299 of @main, in order (a called function's operations stand in its call's place). -/
abbrev ops4 : List (HloOp τ sig (Elt F)) :=
  [ unary main_c_38 main_v199 (broadcastInDim S262112 ![] bcast_S_S262112 : (⟨S_, .i32⟩ : BufTy).Contents (Elt F) → (⟨S262112, .i32⟩ : BufTy).Contents (Elt F)),
    binary main_arg17 main_v199 main_v200 (cmpi .slt : (⟨S262112, .i32⟩ : BufTy).Contents (Elt F) → (⟨S262112, .i32⟩ : BufTy).Contents (Elt F) → (⟨S262112, .i1⟩ : BufTy).Contents (Elt F)),
    nullary main_c_39 (constantI S_ 32 96#32),
    unary main_c_39 main_v201 (broadcastInDim S262112 ![] bcast_S_S262112 : (⟨S_, .i32⟩ : BufTy).Contents (Elt F) → (⟨S262112, .i32⟩ : BufTy).Contents (Elt F)),
    binary main_arg17 main_v201 main_v202 (addi : (⟨S262112, .i32⟩ : BufTy).Contents (Elt F) → (⟨S262112, .i32⟩ : BufTy).Contents (Elt F) → (⟨S262112, .i32⟩ : BufTy).Contents (Elt F)),
    ternary main_v200 main_v202 main_arg17 main_v203 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    unary main_v198 main_v204 (broadcastInDim S262112x1 ![0] bcast_S262112_S262112x1_0 : (⟨S262112, .i32⟩ : BufTy).Contents (Elt F) → (⟨S262112x1, .i32⟩ : BufTy).Contents (Elt F)),
    unary main_v203 main_v205 (broadcastInDim S262112x1 ![0] bcast_S262112_S262112x1_0 : (⟨S262112, .i32⟩ : BufTy).Contents (Elt F) → (⟨S262112x1, .i32⟩ : BufTy).Contents (Elt F)),
    binary main_v204 main_v205 main_v206 ((fun a b => concatenate S262112x2 1 [⟨S262112x1, a⟩, ⟨S262112x1, b⟩] concatenates_S262112x1_S262112x1_S262112x2_d1) : (⟨S262112x1, .i32⟩ : BufTy).Contents (Elt F) → (⟨S262112x1, .i32⟩ : BufTy).Contents (Elt F) → (⟨S262112x2, .i32⟩ : BufTy).Contents (Elt F)),
    binary main_v193 main_v206 main_v207 ((fun x i => Host.gather gather_S4096x96x64_S262112x2_S262112x64_1_01_n_n_01_1_1164 x i) : (⟨S4096x96x64, .f32⟩ : BufTy).Contents (Elt F) → (⟨S262112x2, .i32⟩ : BufTy).Contents (Elt F) → (⟨S262112x64, .f32⟩ : BufTy).Contents (Elt F)),
    binary main_v192 main_v175 main_v208 ((fun l r => Host.dotGeneral dot_S4096x96x64_S4096x96x64_S4096x64x64_1_1_2_2_0_0 none l r) : (⟨S4096x96x64, .f32⟩ : BufTy).Contents (Elt F) → (⟨S4096x96x64, .f32⟩ : BufTy).Contents (Elt F) → (⟨S4096x64x64, .f32⟩ : BufTy).Contents (Elt F)),
    nullary main_c_40 (constantI S_ 32 0#32),
    unary main_c_40 main_v209 (broadcastInDim S163550 ![] bcast_S_S163550 : (⟨S_, .i32⟩ : BufTy).Contents (Elt F) → (⟨S163550, .i32⟩ : BufTy).Contents (Elt F)),
    binary main_arg18 main_v209 main_v210 (cmpi .slt : (⟨S163550, .i32⟩ : BufTy).Contents (Elt F) → (⟨S163550, .i32⟩ : BufTy).Contents (Elt F) → (⟨S163550, .i1⟩ : BufTy).Contents (Elt F)),
    nullary main_c_41 (constantI S_ 32 4096#32),
    unary main_c_41 main_v211 (broadcastInDim S163550 ![] bcast_S_S163550 : (⟨S_, .i32⟩ : BufTy).Contents (Elt F) → (⟨S163550, .i32⟩ : BufTy).Contents (Elt F)),
    binary main_arg18 main_v211 main_v212 (addi : (⟨S163550, .i32⟩ : BufTy).Contents (Elt F) → (⟨S163550, .i32⟩ : BufTy).Contents (Elt F) → (⟨S163550, .i32⟩ : BufTy).Contents (Elt F)),
    ternary main_v210 main_v212 main_arg18 main_v213 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    nullary main_c_42 (constantI S_ 32 0#32),
    unary main_c_42 main_v214 (broadcastInDim S163550 ![] bcast_S_S163550 : (⟨S_, .i32⟩ : BufTy).Contents (Elt F) → (⟨S163550, .i32⟩ : BufTy).Contents (Elt F)),
    binary main_arg19 main_v214 main_v215 (cmpi .slt : (⟨S163550, .i32⟩ : BufTy).Contents (Elt F) → (⟨S163550, .i32⟩ : BufTy).Contents (Elt F) → (⟨S163550, .i1⟩ : BufTy).Contents (Elt F)),
    nullary main_c_43 (constantI S_ 32 64#32),
    unary main_c_43 main_v216 (broadcastInDim S163550 ![] bcast_S_S163550 : (⟨S_, .i32⟩ : BufTy).Contents (Elt F) → (⟨S163550, .i32⟩ : BufTy).Contents (Elt F)),
    binary main_arg19 main_v216 main_v217 (addi : (⟨S163550, .i32⟩ : BufTy).Contents (Elt F) → (⟨S163550, .i32⟩ : BufTy).Contents (Elt F) → (⟨S163550, .i32⟩ : BufTy).Contents (Elt F)),
    ternary main_v215 main_v217 main_arg19 main_v218 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    unary main_v213 main_v219 (broadcastInDim S163550x1 ![0] bcast_S163550_S163550x1_0 : (⟨S163550, .i32⟩ : BufTy).Contents (Elt F) → (⟨S163550x1, .i32⟩ : BufTy).Contents (Elt F)),
    unary main_v218 main_v220 (broadcastInDim S163550x1 ![0] bcast_S163550_S163550x1_0 : (⟨S163550, .i32⟩ : BufTy).Contents (Elt F) → (⟨S163550x1, .i32⟩ : BufTy).Contents (Elt F)),
    binary main_v219 main_v220 main_v221 ((fun a b => concatenate S163550x2 1 [⟨S163550x1, a⟩, ⟨S163550x1, b⟩] concatenates_S163550x1_S163550x1_S163550x2_d1) : (⟨S163550x1, .i32⟩ : BufTy).Contents (Elt F) → (⟨S163550x1, .i32⟩ : BufTy).Contents (Elt F) → (⟨S163550x2, .i32⟩ : BufTy).Contents (Elt F)),
    binary main_v208 main_v221 main_v222 ((fun x i => Host.gather gather_S4096x64x64_S163550x2_S163550x64_1_01_n_n_01_1_1164 x i) : (⟨S4096x64x64, .f32⟩ : BufTy).Contents (Elt F) → (⟨S163550x2, .i32⟩ : BufTy).Contents (Elt F) → (⟨S163550x64, .f32⟩ : BufTy).Contents (Elt F)),
    binary main_arg0 main_v207 main_v223 ((fun a b => concatenate S262112x128 1 [⟨S262112x64, a⟩, ⟨S262112x64, b⟩] concatenates_S262112x64_S262112x64_S262112x128_d1) : (⟨S262112x64, .f32⟩ : BufTy).Contents (Elt F) → (⟨S262112x64, .f32⟩ : BufTy).Contents (Elt F) → (⟨S262112x128, .f32⟩ : BufTy).Contents (Elt F)),
    nullary main_cst_44 (constant S_ .f32 0x00000000#32),
    unary main_cst_44 main_v224 (broadcastInDim S4096x128 ![] bcast_S_S4096x128 : (⟨S_, .f32⟩ : BufTy).Contents (Elt F) → (⟨S4096x128, .f32⟩ : BufTy).Contents (Elt F)),
    unary main_arg16 main_v225 (broadcastInDim S262112x1 ![0] bcast_S262112_S262112x1_0 : (⟨S262112, .i32⟩ : BufTy).Contents (Elt F) → (⟨S262112x1, .i32⟩ : BufTy).Contents (Elt F)),
    ternary main_v224 main_v225 main_v223 main_v226 ((fun x i u => Host.scatterAdd scatter_S4096x128_S262112x1_S262112x128_1_0_0_1 x i u) : (⟨S4096x128, .f32⟩ : BufTy).Contents (Elt F) → (⟨S262112x1, .i32⟩ : BufTy).Contents (Elt F) → (⟨S262112x128, .f32⟩ : BufTy).Contents (Elt F) → (⟨S4096x128, .f32⟩ : BufTy).Contents (Elt F)),
    binary main_v108 main_v222 main_v227 ((fun a b => concatenate S163550x128 1 [⟨S163550x64, a⟩, ⟨S163550x64, b⟩] concatenates_S163550x64_S163550x64_S163550x128_d1) : (⟨S163550x64, .f32⟩ : BufTy).Contents (Elt F) → (⟨S163550x64, .f32⟩ : BufTy).Contents (Elt F) → (⟨S163550x128, .f32⟩ : BufTy).Contents (Elt F)),
    nullary main_cst_45 (constant S_ .f32 0x00000000#32),
    unary main_cst_45 main_v228 (broadcastInDim S4096x128 ![] bcast_S_S4096x128 : (⟨S_, .f32⟩ : BufTy).Contents (Elt F) → (⟨S4096x128, .f32⟩ : BufTy).Contents (Elt F)),
    unary main_arg18 main_v229 (broadcastInDim S163550x1 ![0] bcast_S163550_S163550x1_0 : (⟨S163550, .i32⟩ : BufTy).Contents (Elt F) → (⟨S163550x1, .i32⟩ : BufTy).Contents (Elt F)),
    ternary main_v228 main_v229 main_v227 main_v230 ((fun x i u => Host.scatterAdd scatter_S4096x128_S163550x1_S163550x128_1_0_0_1 x i u) : (⟨S4096x128, .f32⟩ : BufTy).Contents (Elt F) → (⟨S163550x1, .i32⟩ : BufTy).Contents (Elt F) → (⟨S163550x128, .f32⟩ : BufTy).Contents (Elt F) → (⟨S4096x128, .f32⟩ : BufTy).Contents (Elt F)),
    binary main_v226 main_v230 main_v231 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v231 main_arg12 main_v232 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg13 main_v233 (broadcastInDim S1x256 ![1] bcast_S256_S1x256_1 : (⟨S256, .f32⟩ : BufTy).Contents (Elt F) → (⟨S1x256, .f32⟩ : BufTy).Contents (Elt F)),
    unary main_v233 main_v234 (broadcastInDim S4096x256 ![0, 1] bcast_S1x256_S4096x256_0_1 : (⟨S1x256, .f32⟩ : BufTy).Contents (Elt F) → (⟨S4096x256, .f32⟩ : BufTy).Contents (Elt F)),
    binary main_v232 main_v234 main_v235 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x256, .f32⟩) main_call4_v0) (broadcastInDim S4096x256 ![] bcast_S_S4096x256),
    TRef.binary (TRef.of (T := ⟨S4096x256, .f32⟩) main_v235) (TRef.of (T := ⟨S4096x256, .f32⟩) main_call4_v0) (TRef.of (T := ⟨S4096x256, .f32⟩) main_v236) maximumf,
    binary main_v236 main_arg14 main_v237 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_arg15 main_v238 (broadcastInDim S1x1 ![1] bcast_S1_S1x1_1 : (⟨S1, .f32⟩ : BufTy).Contents (Elt F) → (⟨S1x1, .f32⟩ : BufTy).Contents (Elt F)),
    unary main_v238 main_v239 (broadcastInDim S4096x1 ![0, 1] bcast_S1x1_S4096x1_0_1 : (⟨S1x1, .f32⟩ : BufTy).Contents (Elt F) → (⟨S4096x1, .f32⟩ : BufTy).Contents (Elt F)),
    binary main_v237 main_v239 main_v240 (addf : (⟨S4096x1, .f32⟩ : BufTy).Contents (Elt F) → (⟨S4096x1, .f32⟩ : BufTy).Contents (Elt F) → (⟨S4096x1, .f32⟩ : BufTy).Contents (Elt F)) ]

set_option maxRecDepth 8192 in
set_option maxHeartbeats 4000000 in
/-- The window is the line of its operations. -/
theorem main_part4_eq (c : Dev nD) : main_part4 (F := F) c = seq ops4 := rfl

set_option maxRecDepth 8192 in
/-- Every operation of the window touches TensorCore references only. -/
theorem ops4_sub : (ops4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
/-- Every operation of the window determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write. -/
abbrev ops4_W : List (Ref sig .tc) := [main_v199, main_v200, main_c_39, main_v201, main_v202, main_v203, main_v204, main_v205, main_v206, main_v207, main_v208, main_c_40, main_v209, main_v210, main_c_41, main_v211, main_v212, main_v213, main_c_42, main_v214, main_v215, main_c_43, main_v216, main_v217, main_v218, main_v219, main_v220, main_v221, main_v222, main_v223, main_cst_44, main_v224, main_v225, main_v226, main_v227, main_cst_45, main_v228, main_v229, main_v230, main_v231, main_v232, main_v233, main_v234, main_v235, main_call4_cst, main_call4_v0, main_v236, main_v237, main_v238, main_v239, main_v240]

set_option maxRecDepth 8192 in
set_option maxHeartbeats 4000000 in
/-- Each operation of the window writes only a buffer of that list. -/
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.RefRun

end
-- ==== Proof.RefRunCut4.lean ====
import proofs.«428288_j26706106647095_1_alg».proof.Proof.RefRunOps4

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 249 … 256 of @main, in order. -/
abbrev ops4a : List (HloOp τ sig (Elt F)) :=
  [ unary main_c_38 main_v199 (broadcastInDim S262112 ![] bcast_S_S262112 : (⟨S_, .i32⟩ : BufTy).Contents (Elt F) → (⟨S262112, .i32⟩ : BufTy).Contents (Elt F)),
    binary main_arg17 main_v199 main_v200 (cmpi .slt : (⟨S262112, .i32⟩ : BufTy).Contents (Elt F) → (⟨S262112, .i32⟩ : BufTy).Contents (Elt F) → (⟨S262112, .i1⟩ : BufTy).Contents (Elt F)),
    nullary main_c_39 (constantI S_ 32 96#32),
    unary main_c_39 main_v201 (broadcastInDim S262112 ![] bcast_S_S262112 : (⟨S_, .i32⟩ : BufTy).Contents (Elt F) → (⟨S262112, .i32⟩ : BufTy).Contents (Elt F)),
    binary main_arg17 main_v201 main_v202 (addi : (⟨S262112, .i32⟩ : BufTy).Contents (Elt F) → (⟨S262112, .i32⟩ : BufTy).Contents (Elt F) → (⟨S262112, .i32⟩ : BufTy).Contents (Elt F)),
    ternary main_v200 main_v202 main_arg17 main_v203 (select : (⟨S262112, .i1⟩ : BufTy).Contents (Elt F) → (⟨S262112, .i32⟩ : BufTy).Contents (Elt F) → (⟨S262112, .i32⟩ : BufTy).Contents (Elt F) → (⟨S262112, .i32⟩ : BufTy).Contents (Elt F)),
    unary main_v198 main_v204 (broadcastInDim S262112x1 ![0] bcast_S262112_S262112x1_0 : (⟨S262112, .i32⟩ : BufTy).Contents (Elt F) → (⟨S262112x1, .i32⟩ : BufTy).Contents (Elt F)),
    unary main_v203 main_v205 (broadcastInDim S262112x1 ![0] bcast_S262112_S262112x1_0 : (⟨S262112, .i32⟩ : BufTy).Contents (Elt F) → (⟨S262112x1, .i32⟩ : BufTy).Contents (Elt F)) ]

/-- The buffers the piece's operations write. -/
abbrev ops4a_W : List (Ref sig .tc) := [main_v199, main_v200, main_c_39, main_v201, main_v202, main_v203, main_v204, main_v205]

set_option maxRecDepth 8192 in
set_option maxHeartbeats 4000000 in
/-- Each operation of the piece writes only a buffer of that list. -/
theorem ops4a_writes : (ops4a : List (HloOp τ sig (Elt F))).Forall fun op => op.writes ⊆ (ops4a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 257 … 275 of @main, in order. -/
abbrev ops4b : List (HloOp τ sig (Elt F)) :=
  [ binary main_v204 main_v205 main_v206 ((fun a b => concatenate S262112x2 1 [⟨S262112x1, a⟩, ⟨S262112x1, b⟩] concatenates_S262112x1_S262112x1_S262112x2_d1) : (⟨S262112x1, .i32⟩ : BufTy).Contents (Elt F) → (⟨S262112x1, .i32⟩ : BufTy).Contents (Elt F) → (⟨S262112x2, .i32⟩ : BufTy).Contents (Elt F)),
    binary main_v193 main_v206 main_v207 ((fun x i => Host.gather gather_S4096x96x64_S262112x2_S262112x64_1_01_n_n_01_1_1164 x i) : (⟨S4096x96x64, .f32⟩ : BufTy).Contents (Elt F) → (⟨S262112x2, .i32⟩ : BufTy).Contents (Elt F) → (⟨S262112x64, .f32⟩ : BufTy).Contents (Elt F)),
    binary main_v192 main_v175 main_v208 ((fun l r => Host.dotGeneral dot_S4096x96x64_S4096x96x64_S4096x64x64_1_1_2_2_0_0 none l r) : (⟨S4096x96x64, .f32⟩ : BufTy).Contents (Elt F) → (⟨S4096x96x64, .f32⟩ : BufTy).Contents (Elt F) → (⟨S4096x64x64, .f32⟩ : BufTy).Contents (Elt F)),
    nullary main_c_40 (constantI S_ 32 0#32),
    unary main_c_40 main_v209 (broadcastInDim S163550 ![] bcast_S_S163550 : (⟨S_, .i32⟩ : BufTy).Contents (Elt F) → (⟨S163550, .i32⟩ : BufTy).Contents (Elt F)),
    binary main_arg18 main_v209 main_v210 (cmpi .slt : (⟨S163550, .i32⟩ : BufTy).Contents (Elt F) → (⟨S163550, .i32⟩ : BufTy).Contents (Elt F) → (⟨S163550, .i1⟩ : BufTy).Contents (Elt F)),
    nullary main_c_41 (constantI S_ 32 4096#32),
    unary main_c_41 main_v211 (broadcastInDim S163550 ![] bcast_S_S163550 : (⟨S_, .i32⟩ : BufTy).Contents (Elt F) → (⟨S163550, .i32⟩ : BufTy).Contents (Elt F)),
    binary main_arg18 main_v211 main_v212 (addi : (⟨S163550, .i32⟩ : BufTy).Contents (Elt F) → (⟨S163550, .i32⟩ : BufTy).Contents (Elt F) → (⟨S163550, .i32⟩ : BufTy).Contents (Elt F)),
    ternary main_v210 main_v212 main_arg18 main_v213 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    nullary main_c_42 (constantI S_ 32 0#32),
    unary main_c_42 main_v214 (broadcastInDim S163550 ![] bcast_S_S163550 : (⟨S_, .i32⟩ : BufTy).Contents (Elt F) → (⟨S163550, .i32⟩ : BufTy).Contents (Elt F)),
    binary main_arg19 main_v214 main_v215 (cmpi .slt : (⟨S163550, .i32⟩ : BufTy).Contents (Elt F) → (⟨S163550, .i32⟩ : BufTy).Contents (Elt F) → (⟨S163550, .i1⟩ : BufTy).Contents (Elt F)),
    nullary main_c_43 (constantI S_ 32 64#32),
    unary main_c_43 main_v216 (broadcastInDim S163550 ![] bcast_S_S163550 : (⟨S_, .i32⟩ : BufTy).Contents (Elt F) → (⟨S163550, .i32⟩ : BufTy).Contents (Elt F)),
    binary main_arg19 main_v216 main_v217 (addi : (⟨S163550, .i32⟩ : BufTy).Contents (Elt F) → (⟨S163550, .i32⟩ : BufTy).Contents (Elt F) → (⟨S163550, .i32⟩ : BufTy).Contents (Elt F)),
    ternary main_v215 main_v217 main_arg19 main_v218 (select : (⟨S163550, .i1⟩ : BufTy).Contents (Elt F) → (⟨S163550, .i32⟩ : BufTy).Contents (Elt F) → (⟨S163550, .i32⟩ : BufTy).Contents (Elt F) → (⟨S163550, .i32⟩ : BufTy).Contents (Elt F)),
    unary main_v213 main_v219 (broadcastInDim S163550x1 ![0] bcast_S163550_S163550x1_0 : (⟨S163550, .i32⟩ : BufTy).Contents (Elt F) → (⟨S163550x1, .i32⟩ : BufTy).Contents (Elt F)),
    unary main_v218 main_v220 (broadcastInDim S163550x1 ![0] bcast_S163550_S163550x1_0 : (⟨S163550, .i32⟩ : BufTy).Contents (Elt F) → (⟨S163550x1, .i32⟩ : BufTy).Contents (Elt F)) ]

/-- The buffers the piece's operations write. -/
abbrev ops4b_W : List (Ref sig .tc) := [main_v206, main_v207, main_v208, main_c_40, main_v209, main_v210, main_c_41, main_v211, main_v212, main_v213, main_c_42, main_v214, main_v215, main_c_43, main_v216, main_v217, main_v218, main_v219, main_v220]

set_option maxRecDepth 8192 in
set_option maxHeartbeats 4000000 in
/-- Each operation of the piece writes only a buffer of that list. -/
theorem ops4b_writes : (ops4b : List (HloOp τ sig (Elt F))).Forall fun op => op.writes ⊆ (ops4b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 276 … 277 of @main, in order. -/
abbrev ops4c : List (HloOp τ sig (Elt F)) :=
  [ binary main_v219 main_v220 main_v221 ((fun a b => concatenate S163550x2 1 [⟨S163550x1, a⟩, ⟨S163550x1, b⟩] concatenates_S163550x1_S163550x1_S163550x2_d1) : (⟨S163550x1, .i32⟩ : BufTy).Contents (Elt F) → (⟨S163550x1, .i32⟩ : BufTy).Contents (Elt F) → (⟨S163550x2, .i32⟩ : BufTy).Contents (Elt F)),
    binary main_v208 main_v221 main_v222 ((fun x i => Host.gather gather_S4096x64x64_S163550x2_S163550x64_1_01_n_n_01_1_1164 x i) : (⟨S4096x64x64, .f32⟩ : BufTy).Contents (Elt F) → (⟨S163550x2, .i32⟩ : BufTy).Contents (Elt F) → (⟨S163550x64, .f32⟩ : BufTy).Contents (Elt F)) ]

/-- The buffers the piece's operations write. -/
abbrev ops4c_W : List (Ref sig .tc) := [main_v221, main_v222]

set_option maxRecDepth 8192 in
set_option maxHeartbeats 4000000 in
/-- Each operation of the piece writes only a buffer of that list. -/
theorem ops4c_writes : (ops4c : List (HloOp τ sig (Elt F))).Forall fun op => op.writes ⊆ (ops4c_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 278 … 282 of @main, in order. -/
abbrev ops4d : List (HloOp τ sig (Elt F)) :=
  [ binary main_arg0 main_v207 main_v223 ((fun a b => concatenate S262112x128 1 [⟨S262112x64, a⟩, ⟨S262112x64, b⟩] concatenates_S262112x64_S262112x64_S262112x128_d1) : (⟨S262112x64, .f32⟩ : BufTy).Contents (Elt F) → (⟨S262112x64, .f32⟩ : BufTy).Contents (Elt F) → (⟨S262112x128, .f32⟩ : BufTy).Contents (Elt F)),
    nullary main_cst_44 (constant S_ .f32 0x00000000#32),
    unary main_cst_44 main_v224 (broadcastInDim S4096x128 ![] bcast_S_S4096x128 : (⟨S_, .f32⟩ : BufTy).Contents (Elt F) → (⟨S4096x128, .f32⟩ : BufTy).Contents (Elt F)),
    unary main_arg16 main_v225 (broadcastInDim S262112x1 ![0] bcast_S262112_S262112x1_0 : (⟨S262112, .i32⟩ : BufTy).Contents (Elt F) → (⟨S262112x1, .i32⟩ : BufTy).Contents (Elt F)),
    ternary main_v224 main_v225 main_v223 main_v226 ((fun x i u => Host.scatterAdd scatter_S4096x128_S262112x1_S262112x128_1_0_0_1 x i u) : (⟨S4096x128, .f32⟩ : BufTy).Contents (Elt F) → (⟨S262112x1, .i32⟩ : BufTy).Contents (Elt F) → (⟨S262112x128, .f32⟩ : BufTy).Contents (Elt F) → (⟨S4096x128, .f32⟩ : BufTy).Contents (Elt F)) ]

/-- The buffers the piece's operations write. -/
abbrev ops4d_W : List (Ref sig .tc) := [main_v223, main_cst_44, main_v224, main_v225, main_v226]

set_option maxRecDepth 8192 in
set_option maxHeartbeats 4000000 in
/-- Each operation of the piece writes only a buffer of that list. -/
theorem ops4d_writes : (ops4d : List (HloOp τ sig (Elt F))).Forall fun op => op.writes ⊆ (ops4d_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 283 … 287 of @main, in order. -/
abbrev ops4e : List (HloOp τ sig (Elt F)) :=
  [ binary main_v108 main_v222 main_v227 ((fun a b => concatenate S163550x128 1 [⟨S163550x64, a⟩, ⟨S163550x64, b⟩] concatenates_S163550x64_S163550x64_S163550x128_d1) : (⟨S163550x64, .f32⟩ : BufTy).Contents (Elt F) → (⟨S163550x64, .f32⟩ : BufTy).Contents (Elt F) → (⟨S163550x128, .f32⟩ : BufTy).Contents (Elt F)),
    nullary main_cst_45 (constant S_ .f32 0x00000000#32),
    unary main_cst_45 main_v228 (broadcastInDim S4096x128 ![] bcast_S_S4096x128 : (⟨S_, .f32⟩ : BufTy).Contents (Elt F) → (⟨S4096x128, .f32⟩ : BufTy).Contents (Elt F)),
    unary main_arg18 main_v229 (broadcastInDim S163550x1 ![0] bcast_S163550_S163550x1_0 : (⟨S163550, .i32⟩ : BufTy).Contents (Elt F) → (⟨S163550x1, .i32⟩ : BufTy).Contents (Elt F)),
    ternary main_v228 main_v229 main_v227 main_v230 ((fun x i u => Host.scatterAdd scatter_S4096x128_S163550x1_S163550x128_1_0_0_1 x i u) : (⟨S4096x128, .f32⟩ : BufTy).Contents (Elt F) → (⟨S163550x1, .i32⟩ : BufTy).Contents (Elt F) → (⟨S163550x128, .f32⟩ : BufTy).Contents (Elt F) → (⟨S4096x128, .f32⟩ : BufTy).Contents (Elt F)) ]

/-- The buffers the piece's operations write. -/
abbrev ops4e_W : List (Ref sig .tc) := [main_v227, main_cst_45, main_v228, main_v229, main_v230]

set_option maxRecDepth 8192 in
set_option maxHeartbeats 4000000 in
/-- Each operation of the piece writes only a buffer of that list. -/
theorem ops4e_writes : (ops4e : List (HloOp τ sig (Elt F))).Forall fun op => op.writes ⊆ (ops4e_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 288 … 299 of @main, in order. -/
abbrev ops4f : List (HloOp τ sig (Elt F)) :=
  [ binary main_v226 main_v230 main_v231 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v231 main_arg12 main_v232 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg13 main_v233 (broadcastInDim S1x256 ![1] bcast_S256_S1x256_1 : (⟨S256, .f32⟩ : BufTy).Contents (Elt F) → (⟨S1x256, .f32⟩ : BufTy).Contents (Elt F)),
    unary main_v233 main_v234 (broadcastInDim S4096x256 ![0, 1] bcast_S1x256_S4096x256_0_1 : (⟨S1x256, .f32⟩ : BufTy).Contents (Elt F) → (⟨S4096x256, .f32⟩ : BufTy).Contents (Elt F)),
    binary main_v232 main_v234 main_v235 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x256, .f32⟩) main_call4_v0) (broadcastInDim S4096x256 ![] bcast_S_S4096x256),
    TRef.binary (TRef.of (T := ⟨S4096x256, .f32⟩) main_v235) (TRef.of (T := ⟨S4096x256, .f32⟩) main_call4_v0) (TRef.of (T := ⟨S4096x256, .f32⟩) main_v236) maximumf,
    binary main_v236 main_arg14 main_v237 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_arg15 main_v238 (broadcastInDim S1x1 ![1] bcast_S1_S1x1_1 : (⟨S1, .f32⟩ : BufTy).Contents (Elt F) → (⟨S1x1, .f32⟩ : BufTy).Contents (Elt F)),
    unary main_v238 main_v239 (broadcastInDim S4096x1 ![0, 1] bcast_S1x1_S4096x1_0_1 : (⟨S1x1, .f32⟩ : BufTy).Contents (Elt F) → (⟨S4096x1, .f32⟩ : BufTy).Contents (Elt F)),
    binary main_v237 main_v239 main_v240 (addf : (⟨S4096x1, .f32⟩ : BufTy).Contents (Elt F) → (⟨S4096x1, .f32⟩ : BufTy).Contents (Elt F) → (⟨S4096x1, .f32⟩ : BufTy).Contents (Elt F)) ]

/-- The buffers the piece's operations write. -/
abbrev ops4f_W : List (Ref sig .tc) := [main_v231, main_v232, main_v233, main_v234, main_v235, main_call4_cst, main_call4_v0, main_v236, main_v237, main_v238, main_v239, main_v240]

set_option maxRecDepth 8192 in
set_option maxHeartbeats 4000000 in
/-- Each operation of the piece writes only a buffer of that list. -/
theorem ops4f_writes : (ops4f : List (HloOp τ sig (Elt F))).Forall fun op => op.writes ⊆ (ops4f_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
/-- The window is its pieces in order. -/
theorem ops4_cut : (ops4 : List (HloOp τ sig (Elt F))) = ops4a ++ (ops4b ++ (ops4c ++ (ops4d ++ (ops4e ++ (ops4f))))) := rfl

end Cert.RefRun

end
-- ==== Proof.RefRunStep4.lean ====
/- The reference @main's fifth window (operations 249 … 299) read back, in six pieces cut before its five concatenations:
   from contents V that hold its stage (ReadP's val_…) at each buffer an earlier window wrote and this one reads, the
   result buffer holds its stage; a buffer the window does not write keeps its contents. -/
import proofs.«428288_j26706106647095_1_alg».proof.Proof.RefRunCut4
import proofs.«428288_j26706106647095_1_alg».proof.Proof.ReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A buffer the fifth window does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

/-- A buffer the window's first piece does not write keeps its contents through it. -/
theorem keep4a (V : Valuation τ sig (Elt F)) (r : Ref sig .tc) (h : r ∉ ops4a_W) :
    after ops4a V (Proc.devRef .tc r) = V (Proc.devRef .tc r) :=
  after_of_writes_sub ops4a V ops4a_writes h

/-- A buffer the window's second piece does not write keeps its contents through it. -/
theorem keep4b (V : Valuation τ sig (Elt F)) (r : Ref sig .tc) (h : r ∉ ops4b_W) :
    after ops4b V (Proc.devRef .tc r) = V (Proc.devRef .tc r) :=
  after_of_writes_sub ops4b V ops4b_writes h

/-- A buffer the window's third piece does not write keeps its contents through it. -/
theorem keep4c (V : Valuation τ sig (Elt F)) (r : Ref sig .tc) (h : r ∉ ops4c_W) :
    after ops4c V (Proc.devRef .tc r) = V (Proc.devRef .tc r) :=
  after_of_writes_sub ops4c V ops4c_writes h

/-- A buffer the window's fourth piece does not write keeps its contents through it. -/
theorem keep4d (V : Valuation τ sig (Elt F)) (r : Ref sig .tc) (h : r ∉ ops4d_W) :
    after ops4d V (Proc.devRef .tc r) = V (Proc.devRef .tc r) :=
  after_of_writes_sub ops4d V ops4d_writes h

/-- A buffer the window's fifth piece does not write keeps its contents through it. -/
theorem keep4e (V : Valuation τ sig (Elt F)) (r : Ref sig .tc) (h : r ∉ ops4e_W) :
    after ops4e V (Proc.devRef .tc r) = V (Proc.devRef .tc r) :=
  after_of_writes_sub ops4e V ops4e_writes h

/-- A buffer the window's sixth piece does not write keeps its contents through it. -/
theorem keep4f (V : Valuation τ sig (Elt F)) (r : Ref sig .tc) (h : r ∉ ops4f_W) :
    after ops4f V (Proc.devRef .tc r) = V (Proc.devRef .tc r) :=
  after_of_writes_sub ops4f V ops4f_writes h

/-! The window is cut before each of its five concatenations, so that a concatenation is its piece's first operation and
    its operands are buffers the piece reads before writing anything. Piece by piece: each buffer a piece writes that is
    read after it, at its stage, from contents that hold `xI` at the arguments the piece reads and the stages at the
    buffers it reads from before. -/

set_option maxRecDepth 8192 in
set_option maxHeartbeats 4000000 in
theorem c4a_main_v204 (V : Valuation τ sig (Elt F))
    (x16 : (⟨S262112, .i32⟩ : BufTy).Contents (Elt F))
    (hL_main_v198 : V (Proc.devRef .tc main_v198) = val_main_v198 (F := F) x16) :
    after ops4a V (Proc.devRef .tc main_v204) = val_main_v204 (F := F) x16 := by
  simp only [ops4a]
  after_results_simp
  repeat (first | rw [hL_main_v198])
  all_goals rfl

set_option maxRecDepth 8192 in
set_option maxHeartbeats 4000000 in
theorem c4a_main_v205 (V : Valuation τ sig (Elt F))
    (x17 : (⟨S262112, .i32⟩ : BufTy).Contents (Elt F))
    (hA17 : V (Proc.devRef .tc main_arg17) = x17)
    (hL_main_c_38 : V (Proc.devRef .tc main_c_38) = val_main_c_38 (F := F)) :
    after ops4a V (Proc.devRef .tc main_v205) = val_main_v205 (F := F) x17 := by
  simp only [ops4a]
  after_results_simp
  repeat (first | rw [hA17] | rw [hL_main_c_38])
  all_goals rfl

set_option maxRecDepth 8192 in
set_option maxHeartbeats 4000000 in
theorem c4b_main_v207 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hL_main_v205 : V (Proc.devRef .tc main_v205) = val_main_v205 (F := F) x17)
    (hL_main_v204 : V (Proc.devRef .tc main_v204) = val_main_v204 (F := F) x16)
    (hL_main_v193 : V (Proc.devRef .tc main_v193) = val_main_v193 (F := F) x0 x1 x2 x3 x4 x5 x6 x7 x8 x9 x10 x11 x16 x17 x18 x19 x20 x21) :
    after ops4b V (Proc.devRef .tc main_v207) = val_main_v207 (F := F) x0 x1 x2 x3 x4 x5 x6 x7 x8 x9 x10 x11 x16 x17 x18 x19 x20 x21 := by
  simp only [ops4b]
  after_results_simp
  repeat (first | rw [hL_main_v205] | rw [hL_main_v204] | rw [hL_main_v193])
  all_goals rfl

set_option maxRecDepth 8192 in
set_option maxHeartbeats 4000000 in
theorem c4b_main_v208 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hL_main_v175 : V (Proc.devRef .tc main_v175) = val_main_v175 (F := F) x0 x6 x8 x9 x16 x17)
    (hL_main_v192 : V (Proc.devRef .tc main_v192) = val_main_v192 (F := F) x0 x1 x2 x3 x4 x5 x6 x7 x8 x9 x10 x11 x16 x17 x18 x19 x20 x21) :
    after ops4b V (Proc.devRef .tc main_v208) = val_main_v208 (F := F) x0 x1 x2 x3 x4 x5 x6 x7 x8 x9 x10 x11 x16 x17 x18 x19 x20 x21 := by
  simp only [ops4b]
  after_results_simp
  repeat (first | rw [hL_main_v175] | rw [hL_main_v192])
  all_goals rfl

set_option maxRecDepth 8192 in
set_option maxHeartbeats 4000000 in
theorem c4b_main_v219 (V : Valuation τ sig (Elt F))
    (x18 : (⟨S163550, .i32⟩ : BufTy).Contents (Elt F))
    (hA18 : V (Proc.devRef .tc main_arg18) = x18) :
    after ops4b V (Proc.devRef .tc main_v219) = val_main_v219 (F := F) x18 := by
  simp only [ops4b]
  after_results_simp
  repeat (first | rw [hA18])
  all_goals rfl

set_option maxRecDepth 8192 in
set_option maxHeartbeats 4000000 in
theorem c4b_main_v220 (V : Valuation τ sig (Elt F))
    (x19 : (⟨S163550, .i32⟩ : BufTy).Contents (Elt F))
    (hA19 : V (Proc.devRef .tc main_arg19) = x19) :
    after ops4b V (Proc.devRef .tc main_v220) = val_main_v220 (F := F) x19 := by
  simp only [ops4b]
  after_results_simp
  repeat (first | rw [hA19])
  all_goals rfl

set_option maxRecDepth 8192 in
set_option maxHeartbeats 4000000 in
theorem c4c_main_v222 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hL_main_v220 : V (Proc.devRef .tc main_v220) = val_main_v220 (F := F) x19)
    (hL_main_v219 : V (Proc.devRef .tc main_v219) = val_main_v219 (F := F) x18)
    (hL_main_v208 : V (Proc.devRef .tc main_v208) = val_main_v208 (F := F) x0 x1 x2 x3 x4 x5 x6 x7 x8 x9 x10 x11 x16 x17 x18 x19 x20 x21) :
    after ops4c V (Proc.devRef .tc main_v222) = val_main_v222 (F := F) x0 x1 x2 x3 x4 x5 x6 x7 x8 x9 x10 x11 x16 x17 x18 x19 x20 x21 := by
  simp only [ops4c]
  after_results_simp
  repeat (first | rw [hL_main_v220] | rw [hL_main_v219] | rw [hL_main_v208])
  all_goals rfl

set_option maxRecDepth 8192 in
set_option maxHeartbeats 4000000 in
theorem c4d_main_v226 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hA0 : V (Proc.devRef .tc main_arg0) = x0) (hA16 : V (Proc.devRef .tc main_arg16) = x16)
    (hL_main_v207 : V (Proc.devRef .tc main_v207) = val_main_v207 (F := F) x0 x1 x2 x3 x4 x5 x6 x7 x8 x9 x10 x11 x16 x17 x18 x19 x20 x21) :
    after ops4d V (Proc.devRef .tc main_v226) = val_main_v226 (F := F) x0 x1 x2 x3 x4 x5 x6 x7 x8 x9 x10 x11 x16 x17 x18 x19 x20 x21 := by
  simp only [ops4d]
  after_results_simp
  repeat (first | rw [hA0] | rw [hA16] | rw [hL_main_v207])
  all_goals rfl

set_option maxRecDepth 8192 in
set_option maxHeartbeats 4000000 in
theorem c4e_main_v230 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hA18 : V (Proc.devRef .tc main_arg18) = x18)
    (hL_main_v222 : V (Proc.devRef .tc main_v222) = val_main_v222 (F := F) x0 x1 x2 x3 x4 x5 x6 x7 x8 x9 x10 x11 x16 x17 x18 x19 x20 x21)
    (hL_main_v108 : V (Proc.devRef .tc main_v108) = val_main_v108 (F := F) x1 x2 x3 x4 x5 x20 x21) :
    after ops4e V (Proc.devRef .tc main_v230) = val_main_v230 (F := F) x0 x1 x2 x3 x4 x5 x6 x7 x8 x9 x10 x11 x16 x17 x18 x19 x20 x21 := by
  simp only [ops4e]
  after_results_simp
  repeat (first | rw [hA18] | rw [hL_main_v222] | rw [hL_main_v108])
  all_goals rfl

set_option maxRecDepth 8192 in
set_option maxHeartbeats 4000000 in
theorem c4f_main_v240 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S256x256, .f32⟩ : BufTy).Contents (Elt F)) (x13 : (⟨S256, .f32⟩ : BufTy).Contents (Elt F)) (x14 : (⟨S256x1, .f32⟩ : BufTy).Contents (Elt F)) (x15 : (⟨S1, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hA12 : V (Proc.devRef .tc main_arg12) = x12) (hA13 : V (Proc.devRef .tc main_arg13) = x13) (hA14 : V (Proc.devRef .tc main_arg14) = x14) (hA15 : V (Proc.devRef .tc main_arg15) = x15)
    (hL_main_v230 : V (Proc.devRef .tc main_v230) = val_main_v230 (F := F) x0 x1 x2 x3 x4 x5 x6 x7 x8 x9 x10 x11 x16 x17 x18 x19 x20 x21)
    (hL_main_v226 : V (Proc.devRef .tc main_v226) = val_main_v226 (F := F) x0 x1 x2 x3 x4 x5 x6 x7 x8 x9 x10 x11 x16 x17 x18 x19 x20 x21) :
    after ops4f V (Proc.devRef .tc main_v240) = val_main_v240 (F := F) x0 x1 x2 x3 x4 x5 x6 x7 x8 x9 x10 x11 x12 x13 x14 x15 x16 x17 x18 x19 x20 x21 := by
  simp only [ops4f]
  after_results_simp
  repeat (first | rw [hA12] | rw [hA13] | rw [hA14] | rw [hA15] | rw [hL_main_v230] | rw [hL_main_v226])
  all_goals rfl

/-! The window's result, through its pieces in turn. -/

section
variable (V : Valuation τ sig (Elt F))
  (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S256x256, .f32⟩ : BufTy).Contents (Elt F)) (x13 : (⟨S256, .f32⟩ : BufTy).Contents (Elt F)) (x14 : (⟨S256x1, .f32⟩ : BufTy).Contents (Elt F)) (x15 : (⟨S1, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
  (hA0 : V (Proc.devRef .tc main_arg0) = x0) (hA12 : V (Proc.devRef .tc main_arg12) = x12) (hA13 : V (Proc.devRef .tc main_arg13) = x13) (hA14 : V (Proc.devRef .tc main_arg14) = x14) (hA15 : V (Proc.devRef .tc main_arg15) = x15) (hA16 : V (Proc.devRef .tc main_arg16) = x16) (hA17 : V (Proc.devRef .tc main_arg17) = x17) (hA18 : V (Proc.devRef .tc main_arg18) = x18) (hA19 : V (Proc.devRef .tc main_arg19) = x19)
  (hL_main_v175 : V (Proc.devRef .tc main_v175) = val_main_v175 (F := F) x0 x6 x8 x9 x16 x17)
  (hL_main_v192 : V (Proc.devRef .tc main_v192) = val_main_v192 (F := F) x0 x1 x2 x3 x4 x5 x6 x7 x8 x9 x10 x11 x16 x17 x18 x19 x20 x21)
  (hL_main_v108 : V (Proc.devRef .tc main_v108) = val_main_v108 (F := F) x1 x2 x3 x4 x5 x20 x21)
  (hL_main_c_38 : V (Proc.devRef .tc main_c_38) = val_main_c_38 (F := F))
  (hL_main_v198 : V (Proc.devRef .tc main_v198) = val_main_v198 (F := F) x16)
  (hL_main_v193 : V (Proc.devRef .tc main_v193) = val_main_v193 (F := F) x0 x1 x2 x3 x4 x5 x6 x7 x8 x9 x10 x11 x16 x17 x18 x19 x20 x21)
include hA0 hA12 hA13 hA14 hA15 hA16 hA17 hA18 hA19 hL_main_v175 hL_main_v192 hL_main_v108 hL_main_c_38 hL_main_v198 hL_main_v193

/-- `main_v207` after the window's first two pieces: its stage. -/
theorem p4_main_v207 : after ops4b (after ops4a V) (Proc.devRef .tc main_v207) = val_main_v207 (F := F) x0 x1 x2 x3 x4 x5 x6 x7 x8 x9 x10 x11 x16 x17 x18 x19 x20 x21 :=
  c4b_main_v207 (after ops4a V) x0 x1 x2 x3 x4 x5 x6 x7 x8 x9 x10 x11 x16 x17 x18 x19 x20 x21
    (c4a_main_v205 V x17 hA17 hL_main_c_38)
    (c4a_main_v204 V x16 hL_main_v198)
    ((keep4a V main_v193 (by decide)).trans hL_main_v193)

/-- `main_v222` after the window's first three pieces: its stage. -/
theorem p4_main_v222 : after ops4c (after ops4b (after ops4a V)) (Proc.devRef .tc main_v222) = val_main_v222 (F := F) x0 x1 x2 x3 x4 x5 x6 x7 x8 x9 x10 x11 x16 x17 x18 x19 x20 x21 :=
  c4c_main_v222 (after ops4b (after ops4a V)) x0 x1 x2 x3 x4 x5 x6 x7 x8 x9 x10 x11 x16 x17 x18 x19 x20 x21
    (c4b_main_v220 (after ops4a V) x19 ((keep4a V main_arg19 (by decide)).trans hA19))
    (c4b_main_v219 (after ops4a V) x18 ((keep4a V main_arg18 (by decide)).trans hA18))
    (c4b_main_v208 (after ops4a V) x0 x1 x2 x3 x4 x5 x6 x7 x8 x9 x10 x11 x16 x17 x18 x19 x20 x21
      ((keep4a V main_v175 (by decide)).trans hL_main_v175)
      ((keep4a V main_v192 (by decide)).trans hL_main_v192))

end

/-- `main_v240` after the fifth window: its stage. -/
theorem w4_main_v240 (V : Valuation τ sig (Elt F))
    (x0 : (⟨S262112x64, .f32⟩ : BufTy).Contents (Elt F)) (x1 : (⟨S163550x74, .f32⟩ : BufTy).Contents (Elt F)) (x2 : (⟨S74x64, .f32⟩ : BufTy).Contents (Elt F)) (x3 : (⟨S64, .f32⟩ : BufTy).Contents (Elt F)) (x4 : (⟨S4x64x64, .f32⟩ : BufTy).Contents (Elt F)) (x5 : (⟨S4x64, .f32⟩ : BufTy).Contents (Elt F)) (x6 : (⟨S64x64, .f32⟩ : BufTy).Contents (Elt F)) (x7 : (⟨S64x64, .f32⟩ : BufTy).Contents (Elt F)) (x8 : (⟨S64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S256x256, .f32⟩ : BufTy).Contents (Elt F)) (x13 : (⟨S256, .f32⟩ : BufTy).Contents (Elt F)) (x14 : (⟨S256x1, .f32⟩ : BufTy).Contents (Elt F)) (x15 : (⟨S1, .f32⟩ : BufTy).Contents (Elt F)) (x16 : (⟨S262112, .i32⟩ : BufTy).Contents (Elt F)) (x17 : (⟨S262112, .i32⟩ : BufTy).Contents (Elt F)) (x18 : (⟨S163550, .i32⟩ : BufTy).Contents (Elt F)) (x19 : (⟨S163550, .i32⟩ : BufTy).Contents (Elt F)) (x20 : (⟨S490650, .i32⟩ : BufTy).Contents (Elt F)) (x21 : (⟨S490650, .i32⟩ : BufTy).Contents (Elt F))
    (hA0 : V (Proc.devRef .tc main_arg0) = x0) (hA12 : V (Proc.devRef .tc main_arg12) = x12) (hA13 : V (Proc.devRef .tc main_arg13) = x13) (hA14 : V (Proc.devRef .tc main_arg14) = x14) (hA15 : V (Proc.devRef .tc main_arg15) = x15) (hA16 : V (Proc.devRef .tc main_arg16) = x16) (hA17 : V (Proc.devRef .tc main_arg17) = x17) (hA18 : V (Proc.devRef .tc main_arg18) = x18) (hA19 : V (Proc.devRef .tc main_arg19) = x19)
    (hL_main_v175 : V (Proc.devRef .tc main_v175) = val_main_v175 (F := F) x0 x6 x8 x9 x16 x17)
    (hL_main_v192 : V (Proc.devRef .tc main_v192) = val_main_v192 (F := F) x0 x1 x2 x3 x4 x5 x6 x7 x8 x9 x10 x11 x16 x17 x18 x19 x20 x21)
    (hL_main_v108 : V (Proc.devRef .tc main_v108) = val_main_v108 (F := F) x1 x2 x3 x4 x5 x20 x21)
    (hL_main_c_38 : V (Proc.devRef .tc main_c_38) = val_main_c_38 (F := F))
    (hL_main_v198 : V (Proc.devRef .tc main_v198) = val_main_v198 (F := F) x16)
    (hL_main_v193 : V (Proc.devRef .tc main_v193) = val_main_v193 (F := F) x0 x1 x2 x3 x4 x5 x6 x7 x8 x9 x10 x11 x16 x17 x18 x19 x20 x21) :
    after ops4 V (Proc.devRef .tc main_v240) = val_main_v240 (F := F) x0 x1 x2 x3 x4 x5 x6 x7 x8 x9 x10 x11 x12 x13 x14 x15 x16 x17 x18 x19 x20 x21 := by
  rw [ops4_cut, after_append, after_append, after_append, after_append, after_append]
  have h207 := p4_main_v207 V x0 x1 x2 x3 x4 x5 x6 x7 x8 x9 x10 x11 x12 x13 x14 x15 x16 x17 x18 x19 x20 x21 hA0 hA12 hA13 hA14 hA15 hA16 hA17 hA18 hA19 hL_main_v175 hL_main_v192 hL_main_v108 hL_main_c_38 hL_main_v198 hL_main_v193
  have h222 := p4_main_v222 V x0 x1 x2 x3 x4 x5 x6 x7 x8 x9 x10 x11 x12 x13 x14 x15 x16 x17 x18 x19 x20 x21 hA0 hA12 hA13 hA14 hA15 hA16 hA17 hA18 hA19 hL_main_v175 hL_main_v192 hL_main_v108 hL_main_c_38 hL_main_v198 hL_main_v193
  have h226 := c4d_main_v226 (after ops4c (after ops4b (after ops4a V))) x0 x1 x2 x3 x4 x5 x6 x7 x8 x9 x10 x11 x16 x17 x18 x19 x20 x21
    ((keep4c (after ops4b (after ops4a V)) main_arg0 (by decide)).trans ((keep4b (after ops4a V) main_arg0 (by decide)).trans ((keep4a V main_arg0 (by decide)).trans hA0)))
    ((keep4c (after ops4b (after ops4a V)) main_arg16 (by decide)).trans ((keep4b (after ops4a V) main_arg16 (by decide)).trans ((keep4a V main_arg16 (by decide)).trans hA16)))
    ((keep4c (after ops4b (after ops4a V)) main_v207 (by decide)).trans h207)
  have h230 := c4e_main_v230 (after ops4d (after ops4c (after ops4b (after ops4a V)))) x0 x1 x2 x3 x4 x5 x6 x7 x8 x9 x10 x11 x16 x17 x18 x19 x20 x21
    ((keep4d (after ops4c (after ops4b (after ops4a V))) main_arg18 (by decide)).trans ((keep4c (after ops4b (after ops4a V)) main_arg18 (by decide)).trans ((keep4b (after ops4a V) main_arg18 (by decide)).trans ((keep4a V main_arg18 (by decide)).trans hA18))))
    ((keep4d (after ops4c (after ops4b (after ops4a V))) main_v222 (by decide)).trans h222)
    ((keep4d (after ops4c (after ops4b (after ops4a V))) main_v108 (by decide)).trans ((keep4c (after ops4b (after ops4a V)) main_v108 (by decide)).trans ((keep4b (after ops4a V) main_v108 (by decide)).trans ((keep4a V main_v108 (by decide)).trans hL_main_v108))))
  exact c4f_main_v240 (after ops4e (after ops4d (after ops4c (after ops4b (after ops4a V))))) x0 x1 x2 x3 x4 x5 x6 x7 x8 x9 x10 x11 x12 x13 x14 x15 x16 x17 x18 x19 x20 x21
    ((keep4e (after ops4d (after ops4c (after ops4b (after ops4a V)))) main_arg12 (by decide)).trans ((keep4d (after ops4c (after ops4b (after ops4a V))) main_arg12 (by decide)).trans ((keep4c (after ops4b (after ops4a V)) main_arg12 (by decide)).trans ((keep4b (after ops4a V) main_arg12 (by decide)).trans ((keep4a V main_arg12 (by decide)).trans hA12)))))
    ((keep4e (after ops4d (after ops4c (after ops4b (after ops4a V)))) main_arg13 (by decide)).trans ((keep4d (after ops4c (after ops4b (after ops4a V))) main_arg13 (by decide)).trans ((keep4c (after ops4b (after ops4a V)) main_arg13 (by decide)).trans ((keep4b (after ops4a V) main_arg13 (by decide)).trans ((keep4a V main_arg13 (by decide)).trans hA13)))))
    ((keep4e (after ops4d (after ops4c (after ops4b (after ops4a V)))) main_arg14 (by decide)).trans ((keep4d (after ops4c (after ops4b (after ops4a V))) main_arg14 (by decide)).trans ((keep4c (after ops4b (after ops4a V)) main_arg14 (by decide)).trans ((keep4b (after ops4a V) main_arg14 (by decide)).trans ((keep4a V main_arg14 (by decide)).trans hA14)))))
    ((keep4e (after ops4d (after ops4c (after ops4b (after ops4a V)))) main_arg15 (by decide)).trans ((keep4d (after ops4c (after ops4b (after ops4a V))) main_arg15 (by decide)).trans ((keep4c (after ops4b (after ops4a V)) main_arg15 (by decide)).trans ((keep4b (after ops4a V) main_arg15 (by decide)).trans ((keep4a V main_arg15 (by decide)).trans hA15)))))
    h230
    ((keep4e (after ops4d (after ops4c (after ops4b (after ops4a V)))) main_v226 (by decide)).trans h226)

end Cert.RefRun

end
-- ==== Proof.RefRun.lean ====
/- The reference program's run, from its five windows: @main is the line of its 299 operations (window by window), so
   from any memory with zero counters every weakly fair execution terminates with each TensorCore buffer at the fold of
   the operations' results over its launch contents (Lib/StableHlo/Run.lean `run_seq`); read back window by window, the
   result buffer holds its stage (ReadP's val_main_v240) of the arguments' launch contents, and the arguments, which no
   operation writes, are unchanged. -/
import proofs.«428288_j26706106647095_1_alg».proof.Proof.RefRunStep0
import proofs.«428288_j26706106647095_1_alg».proof.Proof.RefRunStep1
import proofs.«428288_j26706106647095_1_alg».proof.Proof.RefRunStep2
import proofs.«428288_j26706106647095_1_alg».proof.Proof.RefRunStep3
import proofs.«428288_j26706106647095_1_alg».proof.Proof.RefRunStep4

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- @main's 299 operations: the five windows' operation lists, in order. -/
abbrev ops : List (HloOp τ sig (Elt F)) := ops0 ++ (ops1 ++ (ops2 ++ (ops3 ++ ops4)))

/-- @main is the line of its operations: window by window. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of its windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) := by
  rcases List.mem_append.mp h with h | h
  · exact .inl h
  rcases List.mem_append.mp h with h | h
  · exact .inr (.inl h)
  rcases List.mem_append.mp h with h | h
  · exact .inr (.inr (.inl h))
  rcases List.mem_append.mp h with h | h
  · exact .inr (.inr (.inr (.inl h)))
  · exact .inr (.inr (.inr (.inr h)))

/-- Every operation of @main touches TensorCore references only. -/
theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-- Every operation of @main determines its results. -/
theorem ops_fresh (op : HloOp τ sig (Elt F)) (h : op ∈ (ops : List (HloOp τ sig (Elt F)))) : op.fresh = ∅ := by
  rcases mem_ops h with h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h]

/-- The contents after @main's operations are the contents after its windows' in turn. -/
theorem after_ops (V : Valuation τ sig (Elt F)) :
    after ops V = after ops4 (after ops3 (after ops2 (after ops1 (after ops0 V)))) := by
  simp only [ops, after_append]

/-- A buffer no window writes keeps its contents through @main. -/
theorem keep (V : Valuation τ sig (Elt F)) (r : Ref sig .tc) (h0 : r ∉ ops0_W) (h1 : r ∉ ops1_W) (h2 : r ∉ ops2_W)
    (h3 : r ∉ ops3_W) (h4 : r ∉ ops4_W) : after ops V (Proc.devRef .tc r) = V (Proc.devRef .tc r) := by
  rw [after_ops, keep4 _ r h4, keep3 _ r h3, keep2 _ r h2, keep1 _ r h1, keep0 _ r h0]

/-- @main's arguments. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem args_W0 : ∀ r ∈ argsL, r ∉ ops0_W := by decide
theorem args_W1 : ∀ r ∈ argsL, r ∉ ops1_W := by decide
theorem args_W2 : ∀ r ∈ argsL, r ∉ ops2_W := by decide
theorem args_W3 : ∀ r ∈ argsL, r ∉ ops3_W := by decide
theorem args_W4 : ∀ r ∈ argsL, r ∉ ops4_W := by decide

/-- No operation of @main writes an argument. -/
theorem keep_arg (V : Valuation τ sig (Elt F)) (r : Ref sig .tc) (hr : r ∈ argsL) :
    after ops V (Proc.devRef .tc r) = V (Proc.devRef .tc r) :=
  keep V r (args_W0 r hr) (args_W1 r hr) (args_W2 r hr) (args_W3 r hr) (args_W4 r hr)

/-- The result buffer after @main's operations, from any contents: its stage of the contents at the arguments. Window by
    window: the arguments are never written, and each window's results are the stages given the earlier windows'. -/
theorem after_ops_main_v240 (V0 : Valuation τ sig (Elt F)) :
    after ops V0 (Proc.devRef .tc main_v240) = val_main_v240 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) := by
  rw [after_ops]
  -- the arguments after each window
  have A1 : ∀ r ∈ argsL, after ops0 V0 (Proc.devRef .tc r) = V0 (Proc.devRef .tc r) :=
    fun r hr => keep0 V0 r (args_W0 r hr)
  have A2 : ∀ r ∈ argsL, after ops1 (after ops0 V0) (Proc.devRef .tc r) = V0 (Proc.devRef .tc r) :=
    fun r hr => (keep1 _ r (args_W1 r hr)).trans (A1 r hr)
  have A3 : ∀ r ∈ argsL, after ops2 (after ops1 (after ops0 V0)) (Proc.devRef .tc r) = V0 (Proc.devRef .tc r) :=
    fun r hr => (keep2 _ r (args_W2 r hr)).trans (A2 r hr)
  have A4 : ∀ r ∈ argsL, after ops3 (after ops2 (after ops1 (after ops0 V0))) (Proc.devRef .tc r) = V0 (Proc.devRef .tc r) :=
    fun r hr => (keep3 _ r (args_W3 r hr)).trans (A3 r hr)
  -- the first window's results
  have h_v24 := w0_main_v24 V0
  have h_v45 := w0_main_v45 V0
  have h_v47 := w0_main_v47 V0
  have h_v48 := w0_main_v48 V0
  -- the second window's
  have h_v99 := w1_main_v99 (after ops0 V0) _ _ _ _ _ _ _ (A1 main_arg4 (by decide)) (A1 main_arg5 (by decide)) (A1 main_arg20 (by decide)) (A1 main_arg21 (by decide)) h_v24 h_v48 h_v47 h_v45
  have h_v101 := w1_main_v101 (after ops0 V0) _ (A1 main_arg4 (by decide))
  -- the third window's
  have h_v108 := w2_main_v108 (after ops1 (after ops0 V0)) _ _ _ _ _ _ _ (A2 main_arg5 (by decide)) h_v101 h_v99
  have h_v134 := w2_main_v134 (after ops1 (after ops0 V0)) _ _ _ _ (A2 main_arg0 (by decide)) (A2 main_arg6 (by decide)) (A2 main_arg8 (by decide)) (A2 main_arg9 (by decide))
  have h_v148 := w2_main_v148 (after ops1 (after ops0 V0)) _ _ _ _ _ _ _ _ (A2 main_arg5 (by decide)) (A2 main_arg7 (by decide)) h_v101 h_v99
  have h_v151 := w2_main_v151 (after ops1 (after ops0 V0)) _ _ _ _ _ _ _ _ (A2 main_arg5 (by decide)) (A2 main_arg7 (by decide)) h_v101 h_v99
  -- the fourth window's; it keeps main_v108
  have h_v175 := w3_main_v175 (after ops2 (after ops1 (after ops0 V0))) _ _ _ _ _ _ (A3 main_arg16 (by decide)) (A3 main_arg17 (by decide)) h_v134
  have h_v192 := w3_main_v192 (after ops2 (after ops1 (after ops0 V0))) _ _ _ _ _ _ _ _ _ _ _ _ _ _ _ _ _ _ (A3 main_arg10 (by decide)) (A3 main_arg11 (by decide)) (A3 main_arg16 (by decide)) (A3 main_arg17 (by decide)) (A3 main_arg18 (by decide)) (A3 main_arg19 (by decide)) h_v151 h_v148 h_v134
  have h_v193 := w3_main_v193 (after ops2 (after ops1 (after ops0 V0))) _ _ _ _ _ _ _ _ _ _ _ _ _ _ _ _ _ _ (A3 main_arg10 (by decide)) (A3 main_arg11 (by decide)) (A3 main_arg16 (by decide)) (A3 main_arg17 (by decide)) (A3 main_arg18 (by decide)) (A3 main_arg19 (by decide)) h_v151 h_v148 h_v134
  have h_v198 := w3_main_v198 (after ops2 (after ops1 (after ops0 V0))) _ (A3 main_arg16 (by decide))
  have h_c_38 := w3_main_c_38 (after ops2 (after ops1 (after ops0 V0)))
  have h_v108' := (keep3 (after ops2 (after ops1 (after ops0 V0))) main_v108 (by decide)).trans h_v108
  -- the fifth window's
  exact w4_main_v240 (after ops3 (after ops2 (after ops1 (after ops0 V0)))) _ _ _ _ _ _ _ _ _ _ _ _ _ _ _ _ _ _ _ _ _ _ (A4 main_arg0 (by decide)) (A4 main_arg12 (by decide)) (A4 main_arg13 (by decide)) (A4 main_arg14 (by decide)) (A4 main_arg15 (by decide)) (A4 main_arg16 (by decide)) (A4 main_arg17 (by decide)) (A4 main_arg18 (by decide)) (A4 main_arg19 (by decide)) h_v175 h_v192 h_v108' h_c_38 h_v198 h_v193

/-- On every device, for any float values, from any memory with zero counters: every weakly fair execution of
    @main terminates with the result buffer at its stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v240) = val_main_v240 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v240).trans (after_ops_main_v240 (launchContents m c)),
      (h c main_arg0).trans (keep_arg (launchContents m c) main_arg0 (by decide)),
      (h c main_arg1).trans (keep_arg (launchContents m c) main_arg1 (by decide)),
      (h c main_arg2).trans (keep_arg (launchContents m c) main_arg2 (by decide)),
      (h c main_arg3).trans (keep_arg (launchContents m c) main_arg3 (by decide)),
      (h c main_arg4).trans (keep_arg (launchContents m c) main_arg4 (by decide)),
      (h c main_arg5).trans (keep_arg (launchContents m c) main_arg5 (by decide)),
      (h c main_arg6).trans (keep_arg (launchContents m c) main_arg6 (by decide)),
      (h c main_arg7).trans (keep_arg (launchContents m c) main_arg7 (by decide)),
      (h c main_arg8).trans (keep_arg (launchContents m c) main_arg8 (by decide)),
      (h c main_arg9).trans (keep_arg (launchContents m c) main_arg9 (by decide)),
      (h c main_arg10).trans (keep_arg (launchContents m c) main_arg10 (by decide)),
      (h c main_arg11).trans (keep_arg (launchContents m c) main_arg11 (by decide)),
      (h c main_arg12).trans (keep_arg (launchContents m c) main_arg12 (by decide)),
      (h c main_arg13).trans (keep_arg (launchContents m c) main_arg13 (by decide)),
      (h c main_arg14).trans (keep_arg (launchContents m c) main_arg14 (by decide)),
      (h c main_arg15).trans (keep_arg (launchContents m c) main_arg15 (by decide)),
      (h c main_arg16).trans (keep_arg (launchContents m c) main_arg16 (by decide)),
      (h c main_arg17).trans (keep_arg (launchContents m c) main_arg17 (by decide)),
      (h c main_arg18).trans (keep_arg (launchContents m c) main_arg18 (by decide)),
      (h c main_arg19).trans (keep_arg (launchContents m c) main_arg19 (by decide)),
      (h c main_arg20).trans (keep_arg (launchContents m c) main_arg20 (by decide)),
      (h c main_arg21).trans (keep_arg (launchContents m c) main_arg21 (by decide))⟩)
    (run_seq scopedRefs_eq scopedSems_eq defs main (fun _ => ops) main_eq (fun _ => ops_sub) m ρ (fun _ => ops_fresh))

end Cert.RefRun

end
-- ==== Proof.Bridge.lean ====
/-
  The two programs end with equal results.

  Under the precondition the index arrays are in range and name pairwise distinct slots.  The kernel's result is
  the two-layer head of the slot sums of its four padded arrays; those arrays are the padded node rows, so the slot
  sums are the node sums by segment; the reference's result is the same head of the node sums.
-/
import proofs.«428288_j26706106647095_1_alg».proof.Defs
import proofs.«428288_j26706106647095_1_alg».proof.Proof.Gen.KernelIdeal.Frame
import proofs.«428288_j26706106647095_1_alg».proof.Proof.Gen.Pre_finite_inputs
import proofs.«428288_j26706106647095_1_alg».proof.Proof.KBlocks
import proofs.«428288_j26706106647095_1_alg».proof.Proof.KernelPad2
import proofs.«428288_j26706106647095_1_alg».proof.Proof.PreRead
import proofs.«428288_j26706106647095_1_alg».proof.Proof.PreInj
import proofs.«428288_j26706106647095_1_alg».proof.Proof.RefHead
import proofs.«428288_j26706106647095_1_alg».proof.Proof.RefPool
import proofs.«428288_j26706106647095_1_alg».proof.Proof.RefRun

noncomputable section

namespace Cert.Bridge

open Idealize.ShloMosaic Idealize.ShloMosaic.ValueIdx Idealize.SL.Sem Cert.IdxSem Cert.ReferenceIdeal.Read

/-- The reference's result is the head of the node sums. -/
theorem ref_eq (x0 x1 x2 x3 x4 x5 x6 x7 x8 x9 x10 x11 x12 x13 x14 x15 x16 x17 x18 x19 x20 x21)
    (h16 : InRange x16 4096) (h17 : InRange x17 96) (h18 : InRange x18 4096) (h19 : InRange x19 64)
    (hM : ∀ i j, toFin x16 4096 h16 i = toFin x16 4096 h16 j → toFin x17 96 h17 i = toFin x17 96 h17 j → i = j)
    (hS : ∀ i j, toFin x18 4096 h18 i = toFin x18 4096 h18 j → toFin x19 64 h19 i = toFin x19 64 h19 j → i = j) :
    val_main_v240 (F := Ideal) x0 x1 x2 x3 x4 x5 x6 x7 x8 x9 x10 x11 x12 x13 x14 x15 x16 x17 x18 x19 x20 x21
      = fun i => Cert.Spec.mlp (Cert.Spec.zNode (toFin x16 4096 h16) (toFin x17 96 h17) (toFin x18 4096 h18) (toFin x19 64 h19)
          x0 (val_main_v108 (F := Ideal) x1 x2 x3 x4 x5 x20 x21) (val_main_v134 (F := Ideal) x0 x6 x8 x9)
          (val_main_v160 (F := Ideal) x1 x2 x3 x4 x5 x7 x10 x11 x20 x21)) x12 x13 x14 x15 (i 0) := by
  rw [Cert.RefValue.ref_head]
  have hz : (fun (b : Fin 4096) (k : Fin 256) => val_main_v231 (F := Ideal) x0 x1 x2 x3 x4 x5 x6 x7 x8 x9 x10 x11 x16 x17 x18 x19 x20 x21 (ix2 b k))
      = Cert.Spec.zNode (toFin x16 4096 h16) (toFin x17 96 h17) (toFin x18 4096 h18) (toFin x19 64 h19)
          x0 (val_main_v108 (F := Ideal) x1 x2 x3 x4 x5 x20 x21) (val_main_v134 (F := Ideal) x0 x6 x8 x9)
          (val_main_v160 (F := Ideal) x1 x2 x3 x4 x5 x7 x10 x11 x20 x21) := by
    funext b k
    exact Cert.RefValue.ref_z x0 x1 x2 x3 x4 x5 x6 x7 x8 x9 x10 x11 x16 x17 x18 x19 x20 x21 h16 h17 h18 h19 hM hS b k
  rw [hz]

/-- Both programs run, and end with the same result: the head of the slot sums of the kernel's padded arrays. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun r h c => ⟨(h c).1.trans ?_, (h c).2⟩)
    (Cert.RefRun.run (F := Ideal) m' ρ')
  obtain ⟨e0, e1, e2, e3, e4, e5, e6, e7, e8, e9, e10, e11, e12, e13, e14, e15, e16, e17, e18, e19, e20, e21⟩ := hagree c
  rw [e0, e1, e2, e3, e4, e5, e6, e7, e8, e9, e10, e11, e12, e13, e14, e15, e16, e17, e18, e19, e20, e21]
  obtain ⟨h16, h17, h18, h19, hcM, hcS⟩ := Cert.PreRead.pre_read _ _ _ _ _ _ _ _ _ _ _ _ _ _ _ _ _ _ _ _ _ _ (hpre c)
  have hM := injM_of_count _ _ h16 h17 hcM
  have hS := injS_of_count _ _ h18 h19 hcS
  rw [ref_eq _ _ _ _ _ _ _ _ _ _ _ _ _ _ _ _ _ _ _ _ _ _ h16 h17 h18 h19 hM hS,
    Cert.KPad.kernel_z m c h16 h17 h18 h19 hM hS, Cert.KPad.kernel_b1 m c, Cert.KPad.kernel_b2 m c,
    Cert.KernelIdeal.Gen.V_main_arg12, Cert.KernelIdeal.Gen.V_main_arg14]
  rfl

end Cert.Bridge

end
-- ==== Proof.lean ====
/-
  The certificate of the graph-pair cross-attention pooling kernel against its jnp reference, over the extended reals,
  for finite float inputs and index arrays that describe a padded batch: every segment id in [0, 4096), every
  position in [0, 96) (molecule) or [0, 64) (solvent), and no two nodes of one kind in the same slot.

  Both programs compute, per graph b, the two-layer head of a pooled 256-vector z b (Proof/Spec.lean).  The kernel
  pads the node rows into dense [4096, L, 64] arrays on the host and sums each graph's slots inside the kernel; the
  reference gathers the mixed rows back to the nodes and sums node-wise by segment.  Because empty slots are zero rows,
  tanh 0 = 0 and 0 · x = 0 on the extended reals, a slot no node names contributes nothing, and the slot sums are the
  node sums (Proof/PadMath.lean).  No distributivity or cancellation is used, so finiteness of the floats is not.
-/
import proofs.«428288_j26706106647095_1_alg».proof.Defs
import proofs.«428288_j26706106647095_1_alg».proof.Proof.Gen.Kernel
import proofs.«428288_j26706106647095_1_alg».proof.Proof.Gen.Kernel.Frame
import proofs.«428288_j26706106647095_1_alg».proof.Proof.Gen.KernelIdeal
import proofs.«428288_j26706106647095_1_alg».proof.Proof.Gen.KernelIdeal.Frame
import proofs.«428288_j26706106647095_1_alg».proof.Proof.Gen.KernelIdeal.Value
import proofs.«428288_j26706106647095_1_alg».proof.Proof.Gen.ReferenceIdeal
import proofs.«428288_j26706106647095_1_alg».proof.Proof.Gen.Pre_finite_inputs
import proofs.«428288_j26706106647095_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.RefRun.run (F := Ideal) m ρ),
  trivial,
  Cert.Bridge.algebraic⟩

end Cert.Proof

end
